-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v83)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v83) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v111) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x80 : Shape := ⟨2, ![500000, 80]⟩
abbrev S10000 : Shape := ⟨1, ![10000]⟩
abbrev S32x128 : Shape := ⟨2, ![32, 128]⟩
abbrev S128 : Shape := ⟨1, ![128]⟩
abbrev S16x64 : Shape := ⟨2, ![16, 64]⟩
abbrev S64 : Shape := ⟨1, ![64]⟩
abbrev S320x256 : Shape := ⟨2, ![320, 256]⟩
abbrev S256 : Shape := ⟨1, ![256]⟩
abbrev S256x128 : Shape := ⟨2, ![256, 128]⟩
abbrev S128x128 : Shape := ⟨2, ![128, 128]⟩
abbrev S128x1 : Shape := ⟨2, ![128, 1]⟩
abbrev S1 : Shape := ⟨1, ![1]⟩
abbrev S_ : Shape := ⟨0, ![]⟩

class Facts : Prop where
  bcast_S_S500000x80 : S_.BroadcastsInDim S500000x80 (![] : Fin 0 → Fin S500000x80.rank)
  reducesTo_S500000x80_S_d0_1 : S500000x80.ReducesTo [0, 1] S_
  h_S_ : 0 < S_.numel
  bcast_S_S32x128 : S_.BroadcastsInDim S32x128 (![] : Fin 0 → Fin S32x128.rank)
  reducesTo_S32x128_S_d0_1 : S32x128.ReducesTo [0, 1] S_
  bcast_S_S128 : S_.BroadcastsInDim S128 (![] : Fin 0 → Fin S128.rank)
  reducesTo_S128_S_d0 : S128.ReducesTo [0] S_
  bcast_S_S16x64 : S_.BroadcastsInDim S16x64 (![] : Fin 0 → Fin S16x64.rank)
  reducesTo_S16x64_S_d0_1 : S16x64.ReducesTo [0, 1] S_
  bcast_S_S64 : S_.BroadcastsInDim S64 (![] : Fin 0 → Fin S64.rank)
  reducesTo_S64_S_d0 : S64.ReducesTo [0] S_
  bcast_S_S320x256 : S_.BroadcastsInDim S320x256 (![] : Fin 0 → Fin S320x256.rank)
  reducesTo_S320x256_S_d0_1 : S320x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128x128 : S_.BroadcastsInDim S128x128 (![] : Fin 0 → Fin S128x128.rank)
  reducesTo_S128x128_S_d0_1 : S128x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg15 : FVec F S128 .f32) (main_arg16 : FVec F S128x1 .f32) (main_arg17 : FVec F S1 .f32) (main_v63 : IVec S_ 1) (main_v67 : IVec S_ 1) : IVec S_ 1 :=
  let main_v68 : IVec S_ 1 := andi main_v63 main_v67
  let main_v69 : FVec F S128 .f32 := Host.absf main_arg15
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128x1 .f32 := Host.absf main_arg16
  let main_cst_28 : FVec F S_ .f32 := constant S_ .f32 0x7F800000#32
  let main_v75 : FVec F S128x1 .f32 := broadcastInDim S128x1 ![] bcast_S_S128x1 main_cst_28
  let main_v76 : IVec S128x1 1 := cmpf .olt main_v74 main_v75
  let main_c_29 : IVec S_ 1 := constantI S_ 1 1#1
  let main_v77 : IVec S_ 1 := (fun x v => Host.reduce IntOp.andi x v reducesTo_S128x1_S_d0_1 h_S_) main_v76 main_c_29
  let main_v78 : IVec S_ 1 := andi main_v73 main_v77
  let main_v79 : FVec F S1 .f32 := Host.absf main_arg17
  let main_cst_30 : FVec F S_ .f32 := constant S_ .f32 0x7F800000#32
  let main_v80 : FVec F S1 .f32 := broadcastInDim S1 ![] bcast_S_S1 main_cst_30
  let main_v81 : IVec S1 1 := cmpf .olt main_v79 main_v80
  let main_c_31 : IVec S_ 1 := constantI S_ 1 1#1
  let main_v82 : IVec S_ 1 := (fun x v => Host.reduce IntOp.andi x v reducesTo_S1_S_d0 h_S_) main_v81 main_c_31
  let main_v83 : IVec S_ 1 := andi main_v78 main_v82
  main_v83

def fn_part3 {F : FTy → Type} [FloatOps F] (main_arg12 : FVec F S128x128 .f32) (main_arg13 : FVec F S128 .f32) (main_arg14 : FVec F S128 .f32) (main_arg15 : FVec F S128 .f32) (main_arg16 : FVec F S128x1 .f32) (main_arg17 : FVec F S1 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x128 .f32 := Host.absf main_arg12
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg15 main_arg16 main_arg17 main_v63 main_v67

def fn_part2 {F : FTy → Type} [FloatOps F] (main_arg8 : FVec F S256 .f32) (main_arg9 : FVec F S256 .f32) (main_arg10 : FVec F S256x128 .f32) (main_arg11 : FVec F S128 .f32) (main_arg12 : FVec F S128x128 .f32) (main_arg13 : FVec F S128 .f32) (main_arg14 : FVec F S128 .f32) (main_arg15 : FVec F S128 .f32) (main_arg16 : FVec F S128x1 .f32) (main_arg17 : FVec F S1 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256 .f32 := Host.absf main_arg9
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x128 .f32 := Host.absf main_arg10
  let main_cst_16 : FVec F S_ .f32 := constant S_ .f32 0x7F800000#32
  let main_v45 : FVec F S256x128 .f32 := broadcastInDim S256x128 ![] bcast_S_S256x128 main_cst_16
  let main_v46 : IVec S256x128 1 := cmpf .olt main_v44 main_v45
  let main_c_17 : IVec S_ 1 := constantI S_ 1 1#1
  let main_v47 : IVec S_ 1 := (fun x v => Host.reduce IntOp.andi x v reducesTo_S256x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_arg14 main_arg15 main_arg16 main_arg17 main_v48 main_v49 main_v50

def fn_part1 {F : FTy → Type} [FloatOps F] (main_arg5 : FVec F S64 .f32) (main_arg6 : FVec F S320x256 .f32) (main_arg7 : FVec F S256 .f32) (main_arg8 : FVec F S256 .f32) (main_arg9 : FVec F S256 .f32) (main_arg10 : FVec F S256x128 .f32) (main_arg11 : FVec F S128 .f32) (main_arg12 : FVec F S128x128 .f32) (main_arg13 : FVec F S128 .f32) (main_arg14 : FVec F S128 .f32) (main_arg15 : FVec F S128 .f32) (main_arg16 : FVec F S128x1 .f32) (main_arg17 : FVec F S1 .f32) (main_v13 : IVec S_ 1) (main_v16 : IVec S16x64 1) : IVec S_ 1 :=
  let main_c_5 : IVec S_ 1 := constantI S_ 1 1#1
  let main_v17 : IVec S_ 1 := (fun x v => Host.reduce IntOp.andi x v reducesTo_S16x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S320x256 .f32 := Host.absf main_arg6
  let main_cst_8 : FVec F S_ .f32 := constant S_ .f32 0x7F800000#32
  let main_v25 : FVec F S320x256 .f32 := broadcastInDim S320x256 ![] bcast_S_S320x256 main_cst_8
  let main_v26 : IVec S320x256 1 := cmpf .olt main_v24 main_v25
  let main_c_9 : IVec S_ 1 := constantI S_ 1 1#1
  let main_v27 : IVec S_ 1 := (fun x v => Host.reduce IntOp.andi x v reducesTo_S320x256_S_d0_1 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_v33

def fn {F : FTy → Type} [FloatOps F] (main_arg0 : FVec F S500000x80 .f32) (main_arg1 : IVec S10000 32) (main_arg2 : FVec F S32x128 .f32) (main_arg3 : FVec F S128 .f32) (main_arg4 : FVec F S16x64 .f32) (main_arg5 : FVec F S64 .f32) (main_arg6 : FVec F S320x256 .f32) (main_arg7 : FVec F S256 .f32) (main_arg8 : FVec F S256 .f32) (main_arg9 : FVec F S256 .f32) (main_arg10 : FVec F S256x128 .f32) (main_arg11 : FVec F S128 .f32) (main_arg12 : FVec F S128x128 .f32) (main_arg13 : FVec F S128 .f32) (main_arg14 : FVec F S128 .f32) (main_arg15 : FVec F S128 .f32) (main_arg16 : FVec F S128x1 .f32) (main_arg17 : FVec F S1 .f32) : IVec S_ 1 :=
  let main_v0 : FVec F S500000x80 .f32 := Host.absf main_arg0
  let main_cst : FVec F S_ .f32 := constant S_ .f32 0x7F800000#32
  let main_v1 : FVec F S500000x80 .f32 := broadcastInDim S500000x80 ![] bcast_S_S500000x80 main_cst
  let main_v2 : IVec S500000x80 1 := cmpf .olt main_v0 main_v1
  let main_c : IVec S_ 1 := constantI S_ 1 1#1
  let main_v3 : IVec S_ 1 := (fun x v => Host.reduce IntOp.andi x v reducesTo_S500000x80_S_d0_1 h_S_) main_v2 main_c
  let main_v4 : FVec F S32x128 .f32 := Host.absf main_arg2
  let main_cst_0 : FVec F S_ .f32 := constant S_ .f32 0x7F800000#32
  let main_v5 : FVec F S32x128 .f32 := broadcastInDim S32x128 ![] bcast_S_S32x128 main_cst_0
  let main_v6 : IVec S32x128 1 := cmpf .olt main_v4 main_v5
  let main_c_1 : IVec S_ 1 := constantI S_ 1 1#1
  let main_v7 : IVec S_ 1 := (fun x v => Host.reduce IntOp.andi x v reducesTo_S32x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S16x64 .f32 := Host.absf main_arg4
  let main_cst_4 : FVec F S_ .f32 := constant S_ .f32 0x7F800000#32
  let main_v15 : FVec F S16x64 .f32 := broadcastInDim S16x64 ![] bcast_S_S16x64 main_cst_4
  let main_v16 : IVec S16x64 1 := cmpf .olt main_v14 main_v15
  fn_part1 (F := F) main_arg5 main_arg6 main_arg7 main_arg8 main_arg9 main_arg10 main_arg11 main_arg12 main_arg13 main_arg14 main_arg15 main_arg16 main_arg17 main_v13 main_v16
-- ==== Kernel.lean ====
abbrev S500000x80 : Shape := ⟨2, ![500000, 80]⟩
abbrev S10000 : Shape := ⟨1, ![10000]⟩
abbrev S32x128 : Shape := ⟨2, ![32, 128]⟩
abbrev S128 : Shape := ⟨1, ![128]⟩
abbrev S16x64 : Shape := ⟨2, ![16, 64]⟩
abbrev S64 : Shape := ⟨1, ![64]⟩
abbrev S320x256 : Shape := ⟨2, ![320, 256]⟩
abbrev S256 : Shape := ⟨1, ![256]⟩
abbrev S256x128 : Shape := ⟨2, ![256, 128]⟩
abbrev S128x128 : Shape := ⟨2, ![128, 128]⟩
abbrev S128x1 : Shape := ⟨2, ![128, 1]⟩
abbrev S1 : Shape := ⟨1, ![1]⟩
abbrev S128x256 : Shape := ⟨2, ![128, 256]⟩
abbrev S64x256 : Shape := ⟨2, ![64, 256]⟩
abbrev S1x256 : Shape := ⟨2, ![1, 256]⟩
abbrev S2000x80 : Shape := ⟨2, ![2000, 80]⟩
abbrev S2000x32 : Shape := ⟨2, ![2000, 32]⟩
abbrev S2000x16 : Shape := ⟨2, ![2000, 16]⟩
abbrev S2000x128 : Shape := ⟨2, ![2000, 128]⟩
abbrev S1x128 : Shape := ⟨2, ![1, 128]⟩
abbrev S2000x64 : Shape := ⟨2, ![2000, 64]⟩
abbrev S1x64 : Shape := ⟨2, ![1, 64]⟩
abbrev S2000x256 : Shape := ⟨2, ![2000, 256]⟩
abbrev S_ : Shape := ⟨0, ![]⟩
abbrev S500000x128 : Shape := ⟨2, ![500000, 128]⟩
abbrev S9999 : Shape := ⟨1, ![9999]⟩
abbrev S500000 : Shape := ⟨1, ![500000]⟩
abbrev S10000x1 : Shape := ⟨2, ![10000, 1]⟩
abbrev S500000x1 : Shape := ⟨2, ![500000, 1]⟩
abbrev S1x1 : Shape := ⟨2, ![1, 1]⟩
abbrev S10000x128 : Shape := ⟨2, ![10000, 128]⟩

abbrev nBuf : Space → Nat
  | .hbm => 148
  | .vmem => 30
  | .smem => 0
  | _ => 0

abbrev hbmTy0_0 (i : Nat) : BufTy := match i % 128 with
  | 0 => ⟨S500000x80, .f32⟩
  | 1 => ⟨S10000, .i32⟩
  | 2 => ⟨S32x128, .f32⟩
  | 3 => ⟨S128, .f32⟩
  | 4 => ⟨S16x64, .f32⟩
  | 5 => ⟨S64, .f32⟩
  | 6 => ⟨S320x256, .f32⟩
  | 7 => ⟨S256, .f32⟩
  | 8 => ⟨S256, .f32⟩
  | 9 => ⟨S256, .f32⟩
  | 10 => ⟨S256x128, .f32⟩
  | 11 => ⟨S128, .f32⟩
  | 12 => ⟨S128x128, .f32⟩
  | 13 => ⟨S128, .f32⟩
  | 14 => ⟨S128, .f32⟩
  | 15 => ⟨S128, .f32⟩
  | 16 => ⟨S128x1, .f32⟩
  | 17 => ⟨S1, .f32⟩
  | 18 => ⟨S32x128, .bf16⟩
  | 19 => ⟨S16x64, .bf16⟩
  | 20 => ⟨S128x256, .f32⟩
  | 21 => ⟨S128x256, .bf16⟩
  | 22 => ⟨S128x256, .f32⟩
  | 23 => ⟨S128x256, .bf16⟩
  | 24 => ⟨S64x256, .f32⟩
  | 25 => ⟨S64x256, .bf16⟩
  | 26 => ⟨S256x128, .bf16⟩
  | 27 => ⟨S1x256, .f32⟩
  | 28 => ⟨S1x256, .f32⟩
  | 29 => ⟨S256, .f32⟩
  | 30 => ⟨S256, .f32⟩
  | 31 => ⟨S_, .f32⟩
  | 32 => ⟨S256, .f32⟩
  | 33 => ⟨S256, .f32⟩
  | 34 => ⟨S_, .f32⟩
  | 35 => ⟨S256, .f32⟩
  | 36 => ⟨S256, .f32⟩
  | 37 => ⟨S256, .f32⟩
  | 38 => ⟨S256, .f32⟩
  | 39 => ⟨S_, .f32⟩
  | 40 => ⟨S256, .f32⟩
  | 41 => ⟨S256, .f32⟩
  | 42 => ⟨S256, .f32⟩
  | 43 => ⟨S256, .f32⟩
  | 44 => ⟨S256, .f32⟩
  | 45 => ⟨S256, .f32⟩
  | 46 => ⟨S500000x128, .f32⟩
  | 47 => ⟨S10000, .i32⟩
  | 48 => ⟨S1, .i32⟩
  | 49 => ⟨S9999, .i32⟩
  | 50 => ⟨S10000, .i32⟩
  | 51 => ⟨S_, .i32⟩
  | 52 => ⟨S1, .i32⟩
  | 53 => ⟨S_, .i32⟩
  | 54 => ⟨S10000, .i32⟩
  | 55 => ⟨S_, .i32⟩
  | 56 => ⟨S_, .i32⟩
  | 57 => ⟨S10000, .i32⟩
  | 58 => ⟨S_, .i32⟩
  | 59 => ⟨S500000, .i32⟩
  | 60 => ⟨S_, .i32⟩
  | 61 => ⟨S10000, .i32⟩
  | 62 => ⟨S10000, .i1⟩
  | 63 => ⟨S_, .i32⟩
  | 64 => ⟨S10000, .i32⟩
  | 65 => ⟨S10000, .i32⟩
  | 66 => ⟨S10000, .i32⟩
  | 67 => ⟨S10000x1, .i32⟩
  | 68 => ⟨S_, .i32⟩
  | 69 => ⟨S10000, .i32⟩
  | 70 => ⟨S500000, .i32⟩
  | 71 => ⟨S_, .i32⟩
  | 72 => ⟨S_, .i32⟩
  | 73 => ⟨S500000, .i32⟩
  | 74 => ⟨S_, .i32⟩
  | 75 => ⟨S500000, .i32⟩
  | 76 => ⟨S500000, .i32⟩
  | 77 => ⟨S_, .i32⟩
  | 78 => ⟨S500000, .i32⟩
  | 79 => ⟨S500000, .i1⟩
  | 80 => ⟨S_, .i32⟩
  | 81 => ⟨S500000, .i32⟩
  | 82 => ⟨S500000, .i32⟩
  | 83 => ⟨S500000, .i32⟩
  | 84 => ⟨S500000x1, .i32⟩
  | 85 => ⟨S1, .i32⟩
  | 86 => ⟨S_, .i32⟩
  | 87 => ⟨S500000x1, .i32⟩
  | 88 => ⟨S500000x1, .i1⟩
  | 89 => ⟨S1x1, .i32⟩
  | 90 => ⟨S500000x1, .i32⟩
  | 91 => ⟨S500000x1, .i1⟩
  | 92 => ⟨S500000x1, .i1⟩
  | 93 => ⟨S_, .i1⟩
  | 94 => ⟨S500000, .i1⟩
  | 95 => ⟨S500000, .i32⟩
  | 96 => ⟨S_, .i32⟩
  | 97 => ⟨S500000, .i32⟩
  | 98 => ⟨S500000, .i32⟩
  | 99 => ⟨S_, .f32⟩
  | 100 => ⟨S10000x128, .f32⟩
  | 101 => ⟨S500000x1, .i32⟩
  | 102 => ⟨S10000x128, .f32⟩
  | 103 => ⟨S10000x1, .i32⟩
  | 104 => ⟨S10000x1, .f32⟩
  | 105 => ⟨S10000x128, .f32⟩
  | 106 => ⟨S10000x128, .f32⟩
  | 107 => ⟨S10000x128, .f32⟩
  | 108 => ⟨S1x128, .f32⟩
  | 109 => ⟨S10000x128, .f32⟩
  | 110 => ⟨S10000x128, .f32⟩
  | 111 => ⟨S_, .f32⟩
  | 112 => ⟨S128, .f32⟩
  | 113 => ⟨S_, .f32⟩
  | 114 => ⟨S128, .f32⟩
  | 115 => ⟨S128, .f32⟩
  | 116 => ⟨S1x128, .f32⟩
  | 117 => ⟨S10000x128, .f32⟩
  | 118 => ⟨S10000x128, .f32⟩
  | 119 => ⟨S10000x128, .f32⟩
  | 120 => ⟨S_, .f32⟩
  | 121 => ⟨S128, .f32⟩
  | 122 => ⟨S_, .f32⟩
  | 123 => ⟨S128, .f32⟩
  | 124 => ⟨S128, .f32⟩
  | 125 => ⟨S1x128, .f32⟩
  | 126 => ⟨S10000x128, .f32⟩
  | 127 => ⟨S10000x128, .f32⟩
  | _ => ⟨S500000x80, .f32⟩

abbrev hbmTy0_1 (i : Nat) : BufTy := match i % 128 with
  | 0 => ⟨S_, .f32⟩
  | 1 => ⟨S128, .f32⟩
  | 2 => ⟨S128, .f32⟩
  | 3 => ⟨S128, .f32⟩
  | 4 => ⟨S1x128, .f32⟩
  | 5 => ⟨S10000x128, .f32⟩
  | 6 => ⟨S10000x128, .f32⟩
  | 7 => ⟨S1x128, .f32⟩
  | 8 => ⟨S10000x128, .f32⟩
  | 9 => ⟨S10000x128, .f32⟩
  | 10 => ⟨S1x128, .f32⟩
  | 11 => ⟨S10000x128, .f32⟩
  | 12 => ⟨S10000x128, .f32⟩
  | 13 => ⟨S_, .f32⟩
  | 14 => ⟨S10000x128, .f32⟩
  | 15 => ⟨S10000x128, .f32⟩
  | 16 => ⟨S10000x1, .f32⟩
  | 17 => ⟨S1x1, .f32⟩
  | 18 => ⟨S10000x1, .f32⟩
  | 19 => ⟨S10000x1, .f32⟩
  | _ => ⟨S500000x80, .f32⟩

abbrev hbmTy (i : Nat) : BufTy := match i / 128 with
  | 0 => hbmTy0_0 i
  | 1 => hbmTy0_1 i
  | _ => ⟨S500000x80, .f32⟩

abbrev bufTy : (tb : Table) → Fin (tcTables nBuf tb) → BufTy
  | .hbm, ⟨i, _⟩ => hbmTy i
  | .local _ .vmem, ⟨0, _⟩ => ⟨S2000x80, .f32⟩
  | .local _ .vmem, ⟨1, _⟩ => ⟨S2000x80, .f32⟩
  | .local _ .vmem, ⟨2, _⟩ => ⟨S32x128, .bf16⟩
  | .local _ .vmem, ⟨3, _⟩ => ⟨S128, .f32⟩
  | .local _ .vmem, ⟨4, _⟩ => ⟨S16x64, .bf16⟩
  | .local _ .vmem, ⟨5, _⟩ => ⟨S64, .f32⟩
  | .local _ .vmem, ⟨6, _⟩ => ⟨S128x256, .bf16⟩
  | .local _ .vmem, ⟨7, _⟩ => ⟨S128x256, .bf16⟩
  | .local _ .vmem, ⟨8, _⟩ => ⟨S64x256, .bf16⟩
  | .local _ .vmem, ⟨9, _⟩ => ⟨S256, .f32⟩
  | .local _ .vmem, ⟨10, _⟩ => ⟨S1x256, .f32⟩
  | .local _ .vmem, ⟨11, _⟩ => ⟨S1x256, .f32⟩
  | .local _ .vmem, ⟨12, _⟩ => ⟨S1x256, .f32⟩
  | .local _ .vmem, ⟨13, _⟩ => ⟨S1x256, .f32⟩
  | .local _ .vmem, ⟨14, _⟩ => ⟨S2000x80, .f32⟩
  | .local _ .vmem, ⟨15, _⟩ => ⟨S2000x80, .f32⟩
  | .local _ .vmem, ⟨16, _⟩ => ⟨S32x128, .bf16⟩
  | .local _ .vmem, ⟨17, _⟩ => ⟨S128, .f32⟩
  | .local _ .vmem, ⟨18, _⟩ => ⟨S16x64, .bf16⟩
  | .local _ .vmem, ⟨19, _⟩ => ⟨S64, .f32⟩
  | .local _ .vmem, ⟨20, _⟩ => ⟨S128x256, .bf16⟩
  | .local _ .vmem, ⟨21, _⟩ => ⟨S128x256, .bf16⟩
  | .local _ .vmem, ⟨22, _⟩ => ⟨S64x256, .bf16⟩
  | .local _ .vmem, ⟨23, _⟩ => ⟨S256, .f32⟩
  | .local _ .vmem, ⟨24, _⟩ => ⟨S256, .f32⟩
  | .local _ .vmem, ⟨25, _⟩ => ⟨S256, .f32⟩
  | .local _ .vmem, ⟨26, _⟩ => ⟨S256x128, .bf16⟩
  | .local _ .vmem, ⟨27, _⟩ => ⟨S128, .f32⟩
  | .local _ .vmem, ⟨28, _⟩ => ⟨S2000x128, .f32⟩
  | .local _ .vmem, ⟨29, _⟩ => ⟨S2000x128, .f32⟩
  | _, _ => ⟨S500000x80, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9_0 : Ref sig .tc := ⟨.hbm, 27, rfl⟩
abbrev main_v9_1 : Ref sig .tc := ⟨.hbm, 28, rfl⟩
abbrev main_v10 : Ref sig .tc := ⟨.hbm, 29, rfl⟩
abbrev main_v11 : Ref sig .tc := ⟨.hbm, 30, rfl⟩
abbrev main_cst : Ref sig .tc := ⟨.hbm, 31, rfl⟩
abbrev main_v12 : Ref sig .tc := ⟨.hbm, 32, rfl⟩
abbrev main_v13 : Ref sig .tc := ⟨.hbm, 33, rfl⟩
abbrev main_cst_0 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_cst_1 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_call0_v0 : Ref sig .tc := ⟨.hbm, 48, rfl⟩
abbrev main_call0_v1 : Ref sig .tc := ⟨.hbm, 49, rfl⟩
abbrev main_v26 : Ref sig .tc := ⟨.hbm, 50, rfl⟩
abbrev main_c : Ref sig .tc := ⟨.hbm, 51, rfl⟩
abbrev main_v27 : Ref sig .tc := ⟨.hbm, 52, rfl⟩
abbrev main_c_2 : Ref sig .tc := ⟨.hbm, 53, rfl⟩
abbrev main_v28 : Ref sig .tc := ⟨.hbm, 54, rfl⟩
abbrev main_call1_call0_c : Ref sig .tc := ⟨.hbm, 55, rfl⟩
abbrev main_call1_call0_v0 : Ref sig .tc := ⟨.hbm, 56, rfl⟩
abbrev main_v29 : Ref sig .tc := ⟨.hbm, 57, rfl⟩
abbrev main_c_3 : Ref sig .tc := ⟨.hbm, 58, rfl⟩
abbrev main_v30 : Ref sig .tc := ⟨.hbm, 59, rfl⟩
abbrev main_c_4 : Ref sig .tc := ⟨.hbm, 60, rfl⟩
abbrev main_v31 : Ref sig .tc := ⟨.hbm, 61, rfl⟩
abbrev main_v32 : Ref sig .tc := ⟨.hbm, 62, rfl⟩
abbrev main_c_5 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_c_6 : Ref sig .tc := ⟨.hbm, 68, rfl⟩
abbrev main_v37 : Ref sig .tc := ⟨.hbm, 69, rfl⟩
abbrev main_v38 : Ref sig .tc := ⟨.hbm, 70, rfl⟩
abbrev main_call2_call0_c : Ref sig .tc := ⟨.hbm, 71, rfl⟩
abbrev main_call2_call0_v0 : Ref sig .tc := ⟨.hbm, 72, rfl⟩
abbrev main_v39 : Ref sig .tc := ⟨.hbm, 73, rfl⟩
abbrev main_c_7 : Ref sig .tc := ⟨.hbm, 74, rfl⟩
abbrev main_v40 : Ref sig .tc := ⟨.hbm, 75, rfl⟩
abbrev main_v41 : Ref sig .tc := ⟨.hbm, 76, rfl⟩
abbrev main_call3_c : Ref sig .tc := ⟨.hbm, 77, rfl⟩
abbrev main_call3_v0 : Ref sig .tc := ⟨.hbm, 78, rfl⟩
abbrev main_call3_v1 : Ref sig .tc := ⟨.hbm, 79, rfl⟩
abbrev main_call3_c_0 : Ref sig .tc := ⟨.hbm, 80, rfl⟩
abbrev main_call3_v2 : Ref sig .tc := ⟨.hbm, 81, rfl⟩
abbrev main_call3_v3 : Ref sig .tc := ⟨.hbm, 82, rfl⟩
abbrev main_call3_v4 : Ref sig .tc := ⟨.hbm, 83, rfl⟩
abbrev main_call3_v5 : Ref sig .tc := ⟨.hbm, 84, rfl⟩
abbrev main_call3_c_1 : Ref sig .tc := ⟨.hbm, 85, rfl⟩
abbrev main_call3_c_2 : Ref sig .tc := ⟨.hbm, 86, rfl⟩
abbrev main_call3_v6 : Ref sig .tc := ⟨.hbm, 87, rfl⟩
abbrev main_call3_v7 : Ref sig .tc := ⟨.hbm, 88, rfl⟩
abbrev main_call3_v8 : Ref sig .tc := ⟨.hbm, 89, rfl⟩
abbrev main_call3_v9 : Ref sig .tc := ⟨.hbm, 90, rfl⟩
abbrev main_call3_v10 : Ref sig .tc := ⟨.hbm, 91, rfl⟩
abbrev main_call3_v11 : Ref sig .tc := ⟨.hbm, 92, rfl⟩
abbrev main_call3_c_3 : Ref sig .tc := ⟨.hbm, 93, rfl⟩
abbrev main_call3_v12 : Ref sig .tc := ⟨.hbm, 94, rfl⟩
abbrev main_call3_v13 : Ref sig .tc := ⟨.hbm, 95, rfl⟩
abbrev main_call3_c_4 : Ref sig .tc := ⟨.hbm, 96, rfl⟩
abbrev main_call3_v14 : Ref sig .tc := ⟨.hbm, 97, rfl⟩
abbrev main_v42 : Ref sig .tc := ⟨.hbm, 98, rfl⟩
abbrev main_cst_8 : Ref sig .tc := ⟨.hbm, 99, rfl⟩
abbrev main_v43 : Ref sig .tc := ⟨.hbm, 100, rfl⟩
abbrev main_v44 : Ref sig .tc := ⟨.hbm, 101, rfl⟩
abbrev main_v45 : Ref sig .tc := ⟨.hbm, 102, rfl⟩
abbrev main_v46 : Ref sig .tc := ⟨.hbm, 103, rfl⟩
abbrev main_v47 : Ref sig .tc := ⟨.hbm, 104, rfl⟩
abbrev main_v48 : Ref sig .tc := ⟨.hbm, 105, rfl⟩
abbrev main_v49 : Ref sig .tc := ⟨.hbm, 106, rfl⟩
abbrev main_v50 : Ref sig .tc := ⟨.hbm, 107, rfl⟩
abbrev main_v51 : Ref sig .tc := ⟨.hbm, 108, rfl⟩
abbrev main_v52 : Ref sig .tc := ⟨.hbm, 109, rfl⟩
abbrev main_v53 : Ref sig .tc := ⟨.hbm, 110, rfl⟩
abbrev main_cst_9 : Ref sig .tc := ⟨.hbm, 111, rfl⟩
abbrev main_v54 : Ref sig .tc := ⟨.hbm, 112, rfl⟩
abbrev main_cst_10 : Ref sig .tc := ⟨.hbm, 113, rfl⟩
abbrev main_v55 : Ref sig .tc := ⟨.hbm, 114, rfl⟩
abbrev main_v56 : Ref sig .tc := ⟨.hbm, 115, rfl⟩
abbrev main_v57 : Ref sig .tc := ⟨.hbm, 116, rfl⟩
abbrev main_v58 : Ref sig .tc := ⟨.hbm, 117, rfl⟩
abbrev main_v59 : Ref sig .tc := ⟨.hbm, 118, rfl⟩
abbrev main_v60 : Ref sig .tc := ⟨.hbm, 119, rfl⟩
abbrev main_cst_11 : Ref sig .tc := ⟨.hbm, 120, rfl⟩
abbrev main_v61 : Ref sig .tc := ⟨.hbm, 121, rfl⟩
abbrev main_cst_12 : Ref sig .tc := ⟨.hbm, 122, rfl⟩
abbrev main_v62 : Ref sig .tc := ⟨.hbm, 123, rfl⟩
abbrev main_v63 : Ref sig .tc := ⟨.hbm, 124, rfl⟩
abbrev main_v64 : Ref sig .tc := ⟨.hbm, 125, rfl⟩
abbrev main_v65 : Ref sig .tc := ⟨.hbm, 126, rfl⟩
abbrev main_v66 : Ref sig .tc := ⟨.hbm, 127, rfl⟩
abbrev main_cst_13 : Ref sig .tc := ⟨.hbm, 128, rfl⟩
abbrev main_v67 : Ref sig .tc := ⟨.hbm, 129, rfl⟩
abbrev main_v68 : Ref sig .tc := ⟨.hbm, 130, rfl⟩
abbrev main_v69 : Ref sig .tc := ⟨.hbm, 131, rfl⟩
abbrev main_v70 : Ref sig .tc := ⟨.hbm, 132, rfl⟩
abbrev main_v71 : Ref sig .tc := ⟨.hbm, 133, rfl⟩
abbrev main_v72 : Ref sig .tc := ⟨.hbm, 134, rfl⟩
abbrev main_v73 : Ref sig .tc := ⟨.hbm, 135, rfl⟩
abbrev main_v74 : Ref sig .tc := ⟨.hbm, 136, rfl⟩
abbrev main_v75 : Ref sig .tc := ⟨.hbm, 137, rfl⟩
abbrev main_v76 : Ref sig .tc := ⟨.hbm, 138, rfl⟩
abbrev main_v77 : Ref sig .tc := ⟨.hbm, 139, rfl⟩
abbrev main_v78 : Ref sig .tc := ⟨.hbm, 140, rfl⟩
abbrev main_call4_cst : Ref sig .tc := ⟨.hbm, 141, rfl⟩
abbrev main_call4_v0 : Ref sig .tc := ⟨.hbm, 142, rfl⟩
abbrev main_v79 : Ref sig .tc := ⟨.hbm, 143, rfl⟩
abbrev main_v80 : Ref sig .tc := ⟨.hbm, 144, rfl⟩
abbrev main_v81 : Ref sig .tc := ⟨.hbm, 145, rfl⟩
abbrev main_v82 : Ref sig .tc := ⟨.hbm, 146, rfl⟩
abbrev main_v83 : Ref sig .tc := ⟨.hbm, 147, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_scratch0 : Ref sig .tc := ⟨.vmem, 12, rfl⟩
abbrev cc0_scratch1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg8_0 : Ref sig .tc := ⟨.vmem, 23, rfl⟩
abbrev cc1_stg9_0 : Ref sig .tc := ⟨.vmem, 24, rfl⟩
abbrev cc1_stg10_0 : Ref sig .tc := ⟨.vmem, 25, rfl⟩
abbrev cc1_stg11_0 : Ref sig .tc := ⟨.vmem, 26, rfl⟩
abbrev cc1_stg12_0 : Ref sig .tc := ⟨.vmem, 27, rfl⟩
abbrev cc1_stg13_0 : Ref sig .tc := ⟨.vmem, 28, rfl⟩
abbrev cc1_stg13_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem8_0 : DmaSem sig := 21
abbrev cc1_sem9_0 : DmaSem sig := 22
abbrev cc1_sem10_0 : DmaSem sig := 23
abbrev cc1_sem11_0 : DmaSem sig := 24
abbrev cc1_sem12_0 : DmaSem sig := 25
abbrev cc1_sem13_0 : DmaSem sig := 26
abbrev cc1_sem13_1 : DmaSem sig := 27

abbrev nD : Nat := 1
abbrev τ : Topo := Topo.v7x

variable {F : FTy → Type} [FloatOps F]

abbrev grid0 : Pipeline.Grid := ⟨1, ![250], ![false]⟩

def k0_cond2 (i : grid0.Coords) : BitVec 1 :=
  let arg0 : BitVec 32 := BitVec.ofNat 32 (i 0).val
  let c249_i32 : BitVec 32 := 249#32
  let v67 : BitVec 1 := Scalar.cmpi .eq arg0 c249_i32
  let v68 : BitVec 32 := Scalar.extui v67
  let c0_i32_33 : BitVec 32 := 0#32
  let v69 : BitVec 1 := Scalar.cmpi .ne v68 c0_i32_33
  v69

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2000x80 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S32x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev grid1 : Pipeline.Grid := ⟨1, ![250], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_10 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_13 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x80 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S32x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S16x64 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x256 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x256 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S64x256 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S256 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S256 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S256 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S256x128 .bf16 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S128 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 2 → Memref sig .tc .vmem S2000x128 .f32 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

class Facts₀ : Prop where
  bitsLt_bf16_f32 : FTy.bits .bf16 < FTy.bits .f32
  slices_S320x256_S128x256_0_0 : S320x256.Slices ![0, 0] S128x256
  slices_S320x256_S128x256_128_0 : S320x256.Slices ![128, 0] S128x256
  slices_S320x256_S64x256_256_0 : S320x256.Slices ![256, 0] S64x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  inb_S2000x80_S2000x80_0_0 : ∀ a, (![0, 0] : Fin 2 → Nat) a + S2000x80.size a ≤ S2000x80.size a
  h_S2000x80 : 0 < S2000x80.numel
  slices_S2000x80_o0_0_S2000x32 : S2000x80.Slices ![0, 0] S2000x32
  slices_S2000x80_o0_32_S2000x32 : S2000x80.Slices ![0, 32] S2000x32
  slices_S2000x80_o0_64_S2000x16 : S2000x80.Slices ![0, 64] S2000x16
  inb_S32x128_S32x128_0_0 : ∀ a, (![0, 0] : Fin 2 → Nat) a + S32x128.size a ≤ S32x128.size a
  h_S32x128 : 0 < S32x128.numel
  shapeCasts_S32x128_S32x128 : S32x128.ShapeCasts S32x128
  inb_S128_S128_0 : ∀ a, (![0] : Fin 1 → Nat) a + S128.size a ≤ S128.size a
  h_S128 : 0 < S128.numel
  inb_S16x64_S16x64_0_0 : ∀ a, (![0, 0] : Fin 2 → Nat) a + S16x64.size a ≤ S16x64.size a
  h_S16x64 : 0 < S16x64.numel
  shapeCasts_S16x64_S16x64 : S16x64.ShapeCasts S16x64
  inb_S64_S64_0 : ∀ a, (![0] : Fin 1 → Nat) a + S64.size a ≤ S64.size a
  h_S64 : 0 < S64.numel
  shapeCasts_S128_S1x128 : S128.ShapeCasts S1x128
  broadcasts_S1x128_S2000x128 : S1x128.Broadcasts S2000x128
  shapeCasts_S64_S1x64 : S64.ShapeCasts S1x64
  broadcasts_S1x64_S2000x64 : S1x64.Broadcasts S2000x64
  inb_S128x256_S128x256_0_0 : ∀ a, (![0, 0] : Fin 2 → Nat) a + S128x256.size a ≤ S128x256.size a
  h_S128x256 : 0 < S128x256.numel
  shapeCasts_S128x256_S128x256 : S128x256.ShapeCasts S128x256
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S256_S256_0 : ∀ a, (![0] : Fin 1 → Nat) a + S256.size a ≤ S256.size a
  h_S256 : 0 < S256.numel
  shapeCasts_S256_S1x256 : S256.ShapeCasts S1x256
  broadcasts_S1x256_S2000x256 : S1x256.Broadcasts S2000x256
  reduces_S2000x256_S256 : S2000x256.Reduces [0] S256
  shapeCasts_S1x256_S256 : S1x256.ShapeCasts S256
  bcast_S_S256 : S_.BroadcastsInDim S256 (![] : Fin 0 → Fin S256.rank)
  shapeCasts_S256_S256 : S256.ShapeCasts S256
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S2000x128_S2000x128_0_0 : ∀ a, (![0, 0] : Fin 2 → Nat) a + S2000x128.size a ≤ S2000x128.size a
  h_S2000x128 : 0 < S2000x128.numel
  slices_S10000_S1_9999 : S10000.Slices ![9999] S1
  slices_S10000_S9999_0 : S10000.Slices ![0] S9999
  concatenates_S1_S9999_S10000_d0 : Shape.Concatenates [S1, S9999] S10000 0
  bcast_S_S1 : S_.BroadcastsInDim S1 (![] : Fin 0 → Fin S1.rank)
  bcast_S_S_ : S_.BroadcastsInDim S_ (![] : Fin 0 → Fin S_.rank)
  reduceWindows_S10000_S10000_w10000s1p9999_0 : S10000.ReduceWindows (![10000] : Fin 1 → Nat) ![1] ![9999] ![0] S10000
  h_S_ : 0 < S_.numel
  bcast_S_S500000 : S_.BroadcastsInDim S500000 (![] : Fin 0 → Fin S500000.rank)
  bcast_S_S10000 : S_.BroadcastsInDim S10000 (![] : Fin 0 → Fin S10000.rank)
  bcast_S10000_S10000x1_0 : S10000.BroadcastsInDim S10000x1 (![0] : Fin 1 → Fin S10000x1.rank)
  reduceWindows_S500000_S500000_w500000s1p499999_0 : S500000.ReduceWindows (![500000] : Fin 1 → Nat) ![1] ![499999] ![0] S500000
  bcast_S500000_S500000x1_0 : S500000.BroadcastsInDim S500000x1 (![0] : Fin 1 → Fin S500000x1.rank)
  bcast_S_S500000x1 : S_.BroadcastsInDim S500000x1 (![] : Fin 0 → Fin S500000x1.rank)
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  reducesTo_S500000x1_S500000_d1 : S500000x1.ReducesTo [1] S500000
  bcast_S_S10000x128 : S_.BroadcastsInDim S10000x128 (![] : Fin 0 → Fin S10000x128.rank)
  bcast_S10000x1_S10000x128_0_1 : S10000x1.BroadcastsInDim S10000x128 (![0, 1] : Fin 2 → Fin S10000x128.rank)
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  reducesTo_S10000x128_S128_d0 : S10000x128.ReducesTo [0] S128
  bcast_S_S128 : S_.BroadcastsInDim S128 (![] : Fin 0 → Fin S128.rank)
  bcast_S1x1_S10000x1_0_1 : S1x1.BroadcastsInDim S10000x1 (![0, 1] : Fin 2 → Fin S10000x1.rank)
  dot_S2000x32_S32x128_S2000x128_1_0_0_1_n_n_wf : DotDims.WF S2000x32 S32x128 S2000x128 [1] [0] [0] [1] [] []
  dot_S2000x16_S16x64_S2000x64_1_0_0_1_n_n_wf : DotDims.WF S2000x16 S16x64 S2000x64 [1] [0] [0] [1] [] []
  dot_S2000x128_S128x256_S2000x256_1_0_0_1_n_n_wf : DotDims.WF S2000x128 S128x256 S2000x256 [1] [0] [0] [1] [] []
  dot_S2000x64_S64x256_S2000x256_1_0_0_1_n_n_wf : DotDims.WF S2000x64 S64x256 S2000x256 [1] [0] [0] [1] [] []
  dot_S2000x256_S256x128_S2000x128_1_0_0_1_n_n_wf : DotDims.WF S2000x256 S256x128 S2000x128 [1] [0] [0] [1] [] []
  scatter_S10000_S1_S__n_0_0_0_wf : ScatterDims.WF S10000 S1 S_ [] [0] [0] 0
  scatter_S500000_S10000x1_S10000_n_0_0_1_wf : ScatterDims.WF S500000 S10000x1 S10000 [] [0] [0] 1
  gather_S10000_S500000x1_S500000_n_0_n_n_0_1_1_wf : GatherDims.WF S10000 S500000x1 S500000 [] [0] [] [0] [] 1 ![1]
  scatter_S10000x128_S500000x1_S500000x128_1_0_0_1_wf : ScatterDims.WF S10000x128 S500000x1 S500000x128 [1] [0] [0] 1
  dot_S10000x128_S128x128_S10000x128_1_0_0_1_n_n_wf : DotDims.WF S10000x128 S128x128 S10000x128 [1] [0] [0] [1] [] []
  dot_S10000x128_S128x1_S10000x1_1_0_0_1_n_n_wf : DotDims.WF S10000x128 S128x1 S10000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x80.size a ≤ S500000x80.size a
  hwx0_0 : ∀ i : grid0.Coords, EltTy.bits .f32 = 32 ∨ (Rect.block (s := S500000x80) S2000x80.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x128.size a ≤ S32x128.size a
  hwx0_1 : ∀ i : grid0.Coords, EltTy.bits .bf16 = 32 ∨ (Rect.block (s := S32x128) S32x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x64.size a ≤ S16x64.size a
  hwx0_3 : ∀ i : grid0.Coords, EltTy.bits .bf16 = 32 ∨ (Rect.block (s := S16x64) S16x64.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x256.size a ≤ S128x256.size a
  hwx0_5 : ∀ i : grid0.Coords, EltTy.bits .bf16 = 32 ∨ (Rect.block (s := S128x256) S128x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x256.size a ≤ S128x256.size a
  hwx0_6 : ∀ i : grid0.Coords, EltTy.bits .bf16 = 32 ∨ (Rect.block (s := S128x256) S128x256.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x256.size a ≤ S64x256.size a
  hwx0_7 : ∀ i : grid0.Coords, EltTy.bits .bf16 = 32 ∨ (Rect.block (s := S64x256) S64x256.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256.size a ≤ S256.size a
  hwx0_8 : ∀ i : grid0.Coords, EltTy.bits .f32 = 32 ∨ (Rect.block (s := S256) S256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x256.size a ≤ S1x256.size a
  hwx0_9 : ∀ i : grid0.Coords, EltTy.bits .f32 = 32 ∨ (Rect.block (s := S1x256) S1x256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x256.size a ≤ S1x256.size a
  hwx0_10 : ∀ i : grid0.Coords, EltTy.bits .f32 = 32 ∨ (Rect.block (s := S1x256) S1x256.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x80.size a ≤ S500000x80.size a
  hwx1_0 : ∀ i : grid1.Coords, EltTy.bits .f32 = 32 ∨ (Rect.block (s := S500000x80) S2000x80.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S32x128.size a ≤ S32x128.size a
  hwx1_1 : ∀ i : grid1.Coords, EltTy.bits .bf16 = 32 ∨ (Rect.block (s := S32x128) S32x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S16x64.size a ≤ S16x64.size a
  hwx1_3 : ∀ i : grid1.Coords, EltTy.bits .bf16 = 32 ∨ (Rect.block (s := S16x64) S16x64.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64.size a ≤ S64.size a
  hwx1_4 : ∀ i : grid1.Coords, EltTy.bits .f32 = 32 ∨ (Rect.block (s := S64) S64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x256.size a ≤ S128x256.size a
  hwx1_5 : ∀ i : grid1.Coords, EltTy.bits .bf16 = 32 ∨ (Rect.block (s := S128x256) S128x256.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x256.size a ≤ S128x256.size a
  hwx1_6 : ∀ i : grid1.Coords, EltTy.bits .bf16 = 32 ∨ (Rect.block (s := S128x256) S128x256.size (cc1_transform_6 i) (hinb1_6 i)).WholeWords (EltTy.packing .bf16)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S64x256.size a ≤ S64x256.size a
  hwx1_7 : ∀ i : grid1.Coords, EltTy.bits .bf16 = 32 ∨ (Rect.block (s := S64x256) S64x256.size (cc1_transform_7 i) (hinb1_7 i)).WholeWords (EltTy.packing .bf16)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S256.size a ≤ S256.size a
  hwx1_8 : ∀ i : grid1.Coords, EltTy.bits .f32 = 32 ∨ (Rect.block (s := S256) S256.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S256.size a ≤ S256.size a
  hwx1_9 : ∀ i : grid1.Coords, EltTy.bits .f32 = 32 ∨ (Rect.block (s := S256) S256.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S256.size a ≤ S256.size a
  hwx1_10 : ∀ i : grid1.Coords, EltTy.bits .f32 = 32 ∨ (Rect.block (s := S256) S256.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S256x128.size a ≤ S256x128.size a
  hwx1_11 : ∀ i : grid1.Coords, EltTy.bits .bf16 = 32 ∨ (Rect.block (s := S256x128) S256x128.size (cc1_transform_11 i) (hinb1_11 i)).WholeWords (EltTy.packing .bf16)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S128.size a ≤ S128.size a
  hwx1_12 : ∀ i : grid1.Coords, EltTy.bits .f32 = 32 ∨ (Rect.block (s := S128) S128.size (cc1_transform_12 i) (hinb1_12 i)).WholeWords (EltTy.packing .f32)
  hstage1_13 : ∀ j, (stage1_13 j).IsWhole
  nbuf1_13 : grid1.bufCount reads1_13 false = 2
  hreads1_13 : ∀ i i' : grid1.Coords, (∀ a, reads1_13 a = true → i a = i' a) → cc1_transform_13 i = cc1_transform_13 i'
  hinb1_13 : ∀ (i : grid1.Coords) a, (cc1_transform_13 i a + 1) * S2000x128.size a ≤ S500000x128.size a
  hwx1_13 : ∀ i : grid1.Coords, EltTy.bits .f32 = 32 ∨ (Rect.block (s := S500000x128) S2000x128.size (cc1_transform_13 i) (hinb1_13 i)).WholeWords (EltTy.packing .f32)

variable [Facts₀]

def dot_S2000x32_S32x128_S2000x128_1_0_0_1_n_n : DotDims S2000x32 S32x128 S2000x128 where
  lhsContracting := [1]
  rhsContracting := [0]
  lhsNonContracting := [0]
  rhsNonContracting := [1]
  lhsBatch := []
  rhsBatch := []
  wf := dot_S2000x32_S32x128_S2000x128_1_0_0_1_n_n_wf
def dot_S2000x16_S16x64_S2000x64_1_0_0_1_n_n : DotDims S2000x16 S16x64 S2000x64 where
  lhsContracting := [1]
  rhsContracting := [0]
  lhsNonContracting := [0]
  rhsNonContracting := [1]
  lhsBatch := []
  rhsBatch := []
  wf := dot_S2000x16_S16x64_S2000x64_1_0_0_1_n_n_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def dot_S2000x64_S64x256_S2000x256_1_0_0_1_n_n : DotDims S2000x64 S64x256 S2000x256 where
  lhsContracting := [1]
  rhsContracting := [0]
  lhsNonContracting := [0]
  rhsNonContracting := [1]
  lhsBatch := []
  rhsBatch := []
  wf := dot_S2000x64_S64x256_S2000x256_1_0_0_1_n_n_wf
def dot_S2000x256_S256x128_S2000x128_1_0_0_1_n_n : DotDims S2000x256 S256x128 S2000x128 where
  lhsContracting := [1]
  rhsContracting := [0]
  lhsNonContracting := [0]
  rhsNonContracting := [1]
  lhsBatch := []
  rhsBatch := []
  wf := dot_S2000x256_S256x128_S2000x128_1_0_0_1_n_n_wf
def scatter_S10000_S1_S__n_0_0_0 : ScatterDims S10000 S1 S_ where
  updateWindowDims := []
  insertedWindowDims := [0]
  scatterDimsToOperandDims := [0]
  indexVectorDim := 0
  wf := scatter_S10000_S1_S__n_0_0_0_wf
def scatter_S500000_S10000x1_S10000_n_0_0_1 : ScatterDims S500000 S10000x1 S10000 where
  updateWindowDims := []
  insertedWindowDims := [0]
  scatterDimsToOperandDims := [0]
  indexVectorDim := 1
  wf := scatter_S500000_S10000x1_S10000_n_0_0_1_wf
def gather_S10000_S500000x1_S500000_n_0_n_n_0_1_1 : GatherDims S10000 S500000x1 S500000 where
  offsetDims := []
  collapsedSliceDims := [0]
  operandBatchingDims := []
  startIndicesBatchingDims := []
  startIndexMap := [0]
  indexVectorDim := 1
  sliceSizes := ![1]
  wf := gather_S10000_S500000x1_S500000_n_0_n_n_0_1_1_wf
def scatter_S10000x128_S500000x1_S500000x128_1_0_0_1 : ScatterDims S10000x128 S500000x1 S500000x128 where
  updateWindowDims := [1]
  insertedWindowDims := [0]
  scatterDimsToOperandDims := [0]
  indexVectorDim := 1
  wf := scatter_S10000x128_S500000x1_S500000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x128_S128x1_S10000x1_1_0_0_1_n_n : DotDims S10000x128 S128x1 S10000x1 where
  lhsContracting := [1]
  rhsContracting := [0]
  lhsNonContracting := [0]
  rhsNonContracting := [1]
  lhsBatch := []
  rhsBatch := []
  wf := dot_S10000x128_S128x1_S10000x1_1_0_0_1_n_n_wf

abbrev win0_0 : Pipeline.Window sig grid0 :=
  Pipeline.Window.ofSpec (Memref.whole main_arg0) S2000x80.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S32x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S16x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S128x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S128x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S64x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg7) S256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v9_0) S1x256.size cc0_transform_9 reads0_9 true true 1 stage0_9 sem0_9
    hrank0 hreads0_9 hinb0_9 nbuf0_9 (Memref.isWhole_whole _) hwx0_9 hstage0_9

abbrev win0_10 : Pipeline.Window sig grid0 :=
  Pipeline.Window.ofSpec (Memref.whole main_v9_1) S1x256.size cc0_transform_10 reads0_10 true true 1 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev idle0 : Fin 11 → grid0.Coords → Bool := fun | 0 => fun _ => false | 1 => fun _ => false | 2 => fun _ => false | 3 => fun _ => false | 4 => fun _ => false | 5 => fun _ => false | 6 => fun _ => false | 7 => fun _ => false | 8 => fun _ => false | 9 => fun i => !(k0_cond2 i == 1#1) | 10 => fun i => !(k0_cond2 i == 1#1) | ⟨_ + 11, h⟩ => absurd h (Nat.not_lt.2 (Nat.le_add_left _ _))

abbrev win1_0 : Pipeline.Window sig grid1 :=
  Pipeline.Window.ofSpec (Memref.whole main_arg0) S2000x80.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S32x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S16x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg5) S64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v3) S128x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v5) S128x256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v7) S64x256.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg7) S256.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v21) S256.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v23) S256.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v8) S256x128.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_arg11) S128.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_v24) S2000x128.size cc1_transform_13 reads1_13 true false 2 stage1_13 sem1_13
    hrank1 hreads1_13 hinb1_13 nbuf1_13 (Memref.isWhole_whole _) hwx1_13 hstage1_13

abbrev win1 : Fin 14 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | ⟨_ + 14, h⟩ => absurd h (Nat.not_lt.2 (Nat.le_add_left _ _))
abbrev spec1 : Fin 14 → Pipeline.WinSpec sig grid1.rank := fun w => (win1 w).toWinSpec

class Facts : Prop extends Facts₀ where

variable [Facts]
-- ==== ReferenceIdeal.lean ====
abbrev S500000x80 : Shape := ⟨2, ![500000, 80]⟩
abbrev S10000 : Shape := ⟨1, ![10000]⟩
abbrev S32x128 : Shape := ⟨2, ![32, 128]⟩
abbrev S128 : Shape := ⟨1, ![128]⟩
abbrev S16x64 : Shape := ⟨2, ![16, 64]⟩
abbrev S64 : Shape := ⟨1, ![64]⟩
abbrev S320x256 : Shape := ⟨2, ![320, 256]⟩
abbrev S256 : Shape := ⟨1, ![256]⟩
abbrev S256x128 : Shape := ⟨2, ![256, 128]⟩
abbrev S128x128 : Shape := ⟨2, ![128, 128]⟩
abbrev S128x1 : Shape := ⟨2, ![128, 1]⟩
abbrev S1 : Shape := ⟨1, ![1]⟩
abbrev S500000x32 : Shape := ⟨2, ![500000, 32]⟩
abbrev S500000x128 : Shape := ⟨2, ![500000, 128]⟩
abbrev S1x128 : Shape := ⟨2, ![1, 128]⟩
abbrev S_ : Shape := ⟨0, ![]⟩
abbrev S500000x16 : Shape := ⟨2, ![500000, 16]⟩
abbrev S500000x64 : Shape := ⟨2, ![500000, 64]⟩
abbrev S1x64 : Shape := ⟨2, ![1, 64]⟩
abbrev S500000x320 : Shape := ⟨2, ![500000, 320]⟩
abbrev S500000x256 : Shape := ⟨2, ![500000, 256]⟩
abbrev S1x256 : Shape := ⟨2, ![1, 256]⟩
abbrev S9999 : Shape := ⟨1, ![9999]⟩
abbrev S500000 : Shape := ⟨1, ![500000]⟩
abbrev S10000x1 : Shape := ⟨2, ![10000, 1]⟩
abbrev S500000x1 : Shape := ⟨2, ![500000, 1]⟩
abbrev S1x1 : Shape := ⟨2, ![1, 1]⟩
abbrev S10000x128 : Shape := ⟨2, ![10000, 128]⟩

abbrev nBuf : Space → Nat
  | .hbm => 185
  | .vmem => 0
  | .smem => 0
  | _ => 0

abbrev hbmTy0_0 (i : Nat) : BufTy := match i % 128 with
  | 0 => ⟨S500000x80, .f32⟩
  | 1 => ⟨S10000, .i32⟩
  | 2 => ⟨S32x128, .f32⟩
  | 3 => ⟨S128, .f32⟩
  | 4 => ⟨S16x64, .f32⟩
  | 5 => ⟨S64, .f32⟩
  | 6 => ⟨S320x256, .f32⟩
  | 7 => ⟨S256, .f32⟩
  | 8 => ⟨S256, .f32⟩
  | 9 => ⟨S256, .f32⟩
  | 10 => ⟨S256x128, .f32⟩
  | 11 => ⟨S128, .f32⟩
  | 12 => ⟨S128x128, .f32⟩
  | 13 => ⟨S128, .f32⟩
  | 14 => ⟨S128, .f32⟩
  | 15 => ⟨S128, .f32⟩
  | 16 => ⟨S128x1, .f32⟩
  | 17 => ⟨S1, .f32⟩
  | 18 => ⟨S500000x32, .f32⟩
  | 19 => ⟨S500000x128, .f32⟩
  | 20 => ⟨S1x128, .f32⟩
  | 21 => ⟨S500000x128, .f32⟩
  | 22 => ⟨S500000x128, .f32⟩
  | 23 => ⟨S_, .f32⟩
  | 24 => ⟨S500000x128, .f32⟩
  | 25 => ⟨S500000x128, .f32⟩
  | 26 => ⟨S500000x32, .f32⟩
  | 27 => ⟨S500000x128, .f32⟩
  | 28 => ⟨S1x128, .f32⟩
  | 29 => ⟨S500000x128, .f32⟩
  | 30 => ⟨S500000x128, .f32⟩
  | 31 => ⟨S_, .f32⟩
  | 32 => ⟨S500000x128, .f32⟩
  | 33 => ⟨S500000x128, .f32⟩
  | 34 => ⟨S500000x16, .f32⟩
  | 35 => ⟨S500000x64, .f32⟩
  | 36 => ⟨S1x64, .f32⟩
  | 37 => ⟨S500000x64, .f32⟩
  | 38 => ⟨S500000x64, .f32⟩
  | 39 => ⟨S_, .f32⟩
  | 40 => ⟨S500000x64, .f32⟩
  | 41 => ⟨S500000x64, .f32⟩
  | 42 => ⟨S500000x320, .f32⟩
  | 43 => ⟨S500000x256, .f32⟩
  | 44 => ⟨S1x256, .f32⟩
  | 45 => ⟨S500000x256, .f32⟩
  | 46 => ⟨S500000x256, .f32⟩
  | 47 => ⟨S_, .f32⟩
  | 48 => ⟨S256, .f32⟩
  | 49 => ⟨S_, .f32⟩
  | 50 => ⟨S256, .f32⟩
  | 51 => ⟨S256, .f32⟩
  | 52 => ⟨S1x256, .f32⟩
  | 53 => ⟨S500000x256, .f32⟩
  | 54 => ⟨S500000x256, .f32⟩
  | 55 => ⟨S500000x256, .f32⟩
  | 56 => ⟨S_, .f32⟩
  | 57 => ⟨S256, .f32⟩
  | 58 => ⟨S_, .f32⟩
  | 59 => ⟨S256, .f32⟩
  | 60 => ⟨S256, .f32⟩
  | 61 => ⟨S1x256, .f32⟩
  | 62 => ⟨S500000x256, .f32⟩
  | 63 => ⟨S500000x256, .f32⟩
  | 64 => ⟨S_, .f32⟩
  | 65 => ⟨S256, .f32⟩
  | 66 => ⟨S256, .f32⟩
  | 67 => ⟨S256, .f32⟩
  | 68 => ⟨S1x256, .f32⟩
  | 69 => ⟨S500000x256, .f32⟩
  | 70 => ⟨S500000x256, .f32⟩
  | 71 => ⟨S1x256, .f32⟩
  | 72 => ⟨S500000x256, .f32⟩
  | 73 => ⟨S500000x256, .f32⟩
  | 74 => ⟨S1x256, .f32⟩
  | 75 => ⟨S500000x256, .f32⟩
  | 76 => ⟨S500000x256, .f32⟩
  | 77 => ⟨S_, .f32⟩
  | 78 => ⟨S500000x256, .f32⟩
  | 79 => ⟨S500000x256, .f32⟩
  | 80 => ⟨S500000x128, .f32⟩
  | 81 => ⟨S1x128, .f32⟩
  | 82 => ⟨S500000x128, .f32⟩
  | 83 => ⟨S500000x128, .f32⟩
  | 84 => ⟨S10000, .i32⟩
  | 85 => ⟨S1, .i32⟩
  | 86 => ⟨S9999, .i32⟩
  | 87 => ⟨S10000, .i32⟩
  | 88 => ⟨S_, .i32⟩
  | 89 => ⟨S1, .i32⟩
  | 90 => ⟨S_, .i32⟩
  | 91 => ⟨S10000, .i32⟩
  | 92 => ⟨S_, .i32⟩
  | 93 => ⟨S_, .i32⟩
  | 94 => ⟨S10000, .i32⟩
  | 95 => ⟨S_, .i32⟩
  | 96 => ⟨S500000, .i32⟩
  | 97 => ⟨S_, .i32⟩
  | 98 => ⟨S10000, .i32⟩
  | 99 => ⟨S10000, .i1⟩
  | 100 => ⟨S_, .i32⟩
  | 101 => ⟨S10000, .i32⟩
  | 102 => ⟨S10000, .i32⟩
  | 103 => ⟨S10000, .i32⟩
  | 104 => ⟨S10000x1, .i32⟩
  | 105 => ⟨S_, .i32⟩
  | 106 => ⟨S10000, .i32⟩
  | 107 => ⟨S500000, .i32⟩
  | 108 => ⟨S_, .i32⟩
  | 109 => ⟨S_, .i32⟩
  | 110 => ⟨S500000, .i32⟩
  | 111 => ⟨S_, .i32⟩
  | 112 => ⟨S500000, .i32⟩
  | 113 => ⟨S500000, .i32⟩
  | 114 => ⟨S_, .i32⟩
  | 115 => ⟨S500000, .i32⟩
  | 116 => ⟨S500000, .i1⟩
  | 117 => ⟨S_, .i32⟩
  | 118 => ⟨S500000, .i32⟩
  | 119 => ⟨S500000, .i32⟩
  | 120 => ⟨S500000, .i32⟩
  | 121 => ⟨S500000x1, .i32⟩
  | 122 => ⟨S1, .i32⟩
  | 123 => ⟨S_, .i32⟩
  | 124 => ⟨S500000x1, .i32⟩
  | 125 => ⟨S500000x1, .i1⟩
  | 126 => ⟨S1x1, .i32⟩
  | 127 => ⟨S500000x1, .i32⟩
  | _ => ⟨S500000x80, .f32⟩

abbrev hbmTy0_1 (i : Nat) : BufTy := match i % 128 with
  | 0 => ⟨S500000x1, .i1⟩
  | 1 => ⟨S500000x1, .i1⟩
  | 2 => ⟨S_, .i1⟩
  | 3 => ⟨S500000, .i1⟩
  | 4 => ⟨S500000, .i32⟩
  | 5 => ⟨S_, .i32⟩
  | 6 => ⟨S500000, .i32⟩
  | 7 => ⟨S500000, .i32⟩
  | 8 => ⟨S_, .f32⟩
  | 9 => ⟨S10000x128, .f32⟩
  | 10 => ⟨S500000x1, .i32⟩
  | 11 => ⟨S10000x128, .f32⟩
  | 12 => ⟨S10000x1, .i32⟩
  | 13 => ⟨S10000x1, .f32⟩
  | 14 => ⟨S10000x128, .f32⟩
  | 15 => ⟨S10000x128, .f32⟩
  | 16 => ⟨S10000x128, .f32⟩
  | 17 => ⟨S1x128, .f32⟩
  | 18 => ⟨S10000x128, .f32⟩
  | 19 => ⟨S10000x128, .f32⟩
  | 20 => ⟨S_, .f32⟩
  | 21 => ⟨S128, .f32⟩
  | 22 => ⟨S_, .f32⟩
  | 23 => ⟨S128, .f32⟩
  | 24 => ⟨S128, .f32⟩
  | 25 => ⟨S1x128, .f32⟩
  | 26 => ⟨S10000x128, .f32⟩
  | 27 => ⟨S10000x128, .f32⟩
  | 28 => ⟨S10000x128, .f32⟩
  | 29 => ⟨S_, .f32⟩
  | 30 => ⟨S128, .f32⟩
  | 31 => ⟨S_, .f32⟩
  | 32 => ⟨S128, .f32⟩
  | 33 => ⟨S128, .f32⟩
  | 34 => ⟨S1x128, .f32⟩
  | 35 => ⟨S10000x128, .f32⟩
  | 36 => ⟨S10000x128, .f32⟩
  | 37 => ⟨S_, .f32⟩
  | 38 => ⟨S128, .f32⟩
  | 39 => ⟨S128, .f32⟩
  | 40 => ⟨S128, .f32⟩
  | 41 => ⟨S1x128, .f32⟩
  | 42 => ⟨S10000x128, .f32⟩
  | 43 => ⟨S10000x128, .f32⟩
  | 44 => ⟨S1x128, .f32⟩
  | 45 => ⟨S10000x128, .f32⟩
  | 46 => ⟨S10000x128, .f32⟩
  | 47 => ⟨S1x128, .f32⟩
  | 48 => ⟨S10000x128, .f32⟩
  | 49 => ⟨S10000x128, .f32⟩
  | 50 => ⟨S_, .f32⟩
  | 51 => ⟨S10000x128, .f32⟩
  | 52 => ⟨S10000x128, .f32⟩
  | 53 => ⟨S10000x1, .f32⟩
  | 54 => ⟨S1x1, .f32⟩
  | 55 => ⟨S10000x1, .f32⟩
  | 56 => ⟨S10000x1, .f32⟩
  | _ => ⟨S500000x80, .f32⟩

abbrev hbmTy (i : Nat) : BufTy := match i / 128 with
  | 0 => hbmTy0_0 i
  | 1 => hbmTy0_1 i
  | _ => ⟨S500000x80, .f32⟩

abbrev bufTy : (tb : Table) → Fin (tcTables nBuf tb) → BufTy
  | .hbm, ⟨i, _⟩ => hbmTy i
  | _, _ => ⟨S500000x80, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_call0_cst : Ref sig .tc := ⟨.hbm, 23, rfl⟩
abbrev main_call0_v0 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_call1_cst : Ref sig .tc := ⟨.hbm, 31, rfl⟩
abbrev main_call1_v0 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_call2_cst : Ref sig .tc := ⟨.hbm, 39, rfl⟩
abbrev main_call2_v0 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_cst : Ref sig .tc := ⟨.hbm, 47, rfl⟩
abbrev main_v23 : Ref sig .tc := ⟨.hbm, 48, rfl⟩
abbrev main_cst_0 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_cst_1 : Ref sig .tc := ⟨.hbm, 56, rfl⟩
abbrev main_v30 : Ref sig .tc := ⟨.hbm, 57, rfl⟩
abbrev main_cst_2 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_cst_3 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_call3_cst : Ref sig .tc := ⟨.hbm, 77, rfl⟩
abbrev main_call3_v0 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_call4_v0 : Ref sig .tc := ⟨.hbm, 85, rfl⟩
abbrev main_call4_v1 : Ref sig .tc := ⟨.hbm, 86, rfl⟩
abbrev main_v54 : Ref sig .tc := ⟨.hbm, 87, rfl⟩
abbrev main_c : Ref sig .tc := ⟨.hbm, 88, rfl⟩
abbrev main_v55 : Ref sig .tc := ⟨.hbm, 89, rfl⟩
abbrev main_c_4 : Ref sig .tc := ⟨.hbm, 90, rfl⟩
abbrev main_v56 : Ref sig .tc := ⟨.hbm, 91, rfl⟩
abbrev main_call5_call0_c : Ref sig .tc := ⟨.hbm, 92, rfl⟩
abbrev main_call5_call0_v0 : Ref sig .tc := ⟨.hbm, 93, rfl⟩
abbrev main_v57 : Ref sig .tc := ⟨.hbm, 94, rfl⟩
abbrev main_c_5 : Ref sig .tc := ⟨.hbm, 95, rfl⟩
abbrev main_v58 : Ref sig .tc := ⟨.hbm, 96, rfl⟩
abbrev main_c_6 : Ref sig .tc := ⟨.hbm, 97, rfl⟩
abbrev main_v59 : Ref sig .tc := ⟨.hbm, 98, rfl⟩
abbrev main_v60 : Ref sig .tc := ⟨.hbm, 99, rfl⟩
abbrev main_c_7 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_c_8 : Ref sig .tc := ⟨.hbm, 105, rfl⟩
abbrev main_v65 : Ref sig .tc := ⟨.hbm, 106, rfl⟩
abbrev main_v66 : Ref sig .tc := ⟨.hbm, 107, rfl⟩
abbrev main_call6_call0_c : Ref sig .tc := ⟨.hbm, 108, rfl⟩
abbrev main_call6_call0_v0 : Ref sig .tc := ⟨.hbm, 109, rfl⟩
abbrev main_v67 : Ref sig .tc := ⟨.hbm, 110, rfl⟩
abbrev main_c_9 : Ref sig .tc := ⟨.hbm, 111, rfl⟩
abbrev main_v68 : Ref sig .tc := ⟨.hbm, 112, rfl⟩
abbrev main_v69 : Ref sig .tc := ⟨.hbm, 113, rfl⟩
abbrev main_call7_c : Ref sig .tc := ⟨.hbm, 114, rfl⟩
abbrev main_call7_v0 : Ref sig .tc := ⟨.hbm, 115, rfl⟩
abbrev main_call7_v1 : Ref sig .tc := ⟨.hbm, 116, rfl⟩
abbrev main_call7_c_0 : Ref sig .tc := ⟨.hbm, 117, rfl⟩
abbrev main_call7_v2 : Ref sig .tc := ⟨.hbm, 118, rfl⟩
abbrev main_call7_v3 : Ref sig .tc := ⟨.hbm, 119, rfl⟩
abbrev main_call7_v4 : Ref sig .tc := ⟨.hbm, 120, rfl⟩
abbrev main_call7_v5 : Ref sig .tc := ⟨.hbm, 121, rfl⟩
abbrev main_call7_c_1 : Ref sig .tc := ⟨.hbm, 122, rfl⟩
abbrev main_call7_c_2 : Ref sig .tc := ⟨.hbm, 123, rfl⟩
abbrev main_call7_v6 : Ref sig .tc := ⟨.hbm, 124, rfl⟩
abbrev main_call7_v7 : Ref sig .tc := ⟨.hbm, 125, rfl⟩
abbrev main_call7_v8 : Ref sig .tc := ⟨.hbm, 126, rfl⟩
abbrev main_call7_v9 : Ref sig .tc := ⟨.hbm, 127, rfl⟩
abbrev main_call7_v10 : Ref sig .tc := ⟨.hbm, 128, rfl⟩
abbrev main_call7_v11 : Ref sig .tc := ⟨.hbm, 129, rfl⟩
abbrev main_call7_c_3 : Ref sig .tc := ⟨.hbm, 130, rfl⟩
abbrev main_call7_v12 : Ref sig .tc := ⟨.hbm, 131, rfl⟩
abbrev main_call7_v13 : Ref sig .tc := ⟨.hbm, 132, rfl⟩
abbrev main_call7_c_4 : Ref sig .tc := ⟨.hbm, 133, rfl⟩
abbrev main_call7_v14 : Ref sig .tc := ⟨.hbm, 134, rfl⟩
abbrev main_v70 : Ref sig .tc := ⟨.hbm, 135, rfl⟩
abbrev main_cst_10 : Ref sig .tc := ⟨.hbm, 136, rfl⟩
abbrev main_v71 : Ref sig .tc := ⟨.hbm, 137, rfl⟩
abbrev main_v72 : Ref sig .tc := ⟨.hbm, 138, rfl⟩
abbrev main_v73 : Ref sig .tc := ⟨.hbm, 139, rfl⟩
abbrev main_v74 : Ref sig .tc := ⟨.hbm, 140, rfl⟩
abbrev main_v75 : Ref sig .tc := ⟨.hbm, 141, rfl⟩
abbrev main_v76 : Ref sig .tc := ⟨.hbm, 142, rfl⟩
abbrev main_v77 : Ref sig .tc := ⟨.hbm, 143, rfl⟩
abbrev main_v78 : Ref sig .tc := ⟨.hbm, 144, rfl⟩
abbrev main_v79 : Ref sig .tc := ⟨.hbm, 145, rfl⟩
abbrev main_v80 : Ref sig .tc := ⟨.hbm, 146, rfl⟩
abbrev main_v81 : Ref sig .tc := ⟨.hbm, 147, rfl⟩
abbrev main_cst_11 : Ref sig .tc := ⟨.hbm, 148, rfl⟩
abbrev main_v82 : Ref sig .tc := ⟨.hbm, 149, rfl⟩
abbrev main_cst_12 : Ref sig .tc := ⟨.hbm, 150, rfl⟩
abbrev main_v83 : Ref sig .tc := ⟨.hbm, 151, rfl⟩
abbrev main_v84 : Ref sig .tc := ⟨.hbm, 152, rfl⟩
abbrev main_v85 : Ref sig .tc := ⟨.hbm, 153, rfl⟩
abbrev main_v86 : Ref sig .tc := ⟨.hbm, 154, rfl⟩
abbrev main_v87 : Ref sig .tc := ⟨.hbm, 155, rfl⟩
abbrev main_v88 : Ref sig .tc := ⟨.hbm, 156, rfl⟩
abbrev main_cst_13 : Ref sig .tc := ⟨.hbm, 157, rfl⟩
abbrev main_v89 : Ref sig .tc := ⟨.hbm, 158, rfl⟩
abbrev main_cst_14 : Ref sig .tc := ⟨.hbm, 159, rfl⟩
abbrev main_v90 : Ref sig .tc := ⟨.hbm, 160, rfl⟩
abbrev main_v91 : Ref sig .tc := ⟨.hbm, 161, rfl⟩
abbrev main_v92 : Ref sig .tc := ⟨.hbm, 162, rfl⟩
abbrev main_v93 : Ref sig .tc := ⟨.hbm, 163, rfl⟩
abbrev main_v94 : Ref sig .tc := ⟨.hbm, 164, rfl⟩
abbrev main_cst_15 : Ref sig .tc := ⟨.hbm, 165, rfl⟩
abbrev main_v95 : Ref sig .tc := ⟨.hbm, 166, rfl⟩
abbrev main_v96 : Ref sig .tc := ⟨.hbm, 167, rfl⟩
abbrev main_v97 : Ref sig .tc := ⟨.hbm, 168, rfl⟩
abbrev main_v98 : Ref sig .tc := ⟨.hbm, 169, rfl⟩
abbrev main_v99 : Ref sig .tc := ⟨.hbm, 170, rfl⟩
abbrev main_v100 : Ref sig .tc := ⟨.hbm, 171, rfl⟩
abbrev main_v101 : Ref sig .tc := ⟨.hbm, 172, rfl⟩
abbrev main_v102 : Ref sig .tc := ⟨.hbm, 173, rfl⟩
abbrev main_v103 : Ref sig .tc := ⟨.hbm, 174, rfl⟩
abbrev main_v104 : Ref sig .tc := ⟨.hbm, 175, rfl⟩
abbrev main_v105 : Ref sig .tc := ⟨.hbm, 176, rfl⟩
abbrev main_v106 : Ref sig .tc := ⟨.hbm, 177, rfl⟩
abbrev main_call8_cst : Ref sig .tc := ⟨.hbm, 178, rfl⟩
abbrev main_call8_v0 : Ref sig .tc := ⟨.hbm, 179, rfl⟩
abbrev main_v107 : Ref sig .tc := ⟨.hbm, 180, rfl⟩
abbrev main_v108 : Ref sig .tc := ⟨.hbm, 181, rfl⟩
abbrev main_v109 : Ref sig .tc := ⟨.hbm, 182, rfl⟩
abbrev main_v110 : Ref sig .tc := ⟨.hbm, 183, rfl⟩
abbrev main_v111 : Ref sig .tc := ⟨.hbm, 184, rfl⟩

abbrev nD : Nat := 1
abbrev τ : Topo := Topo.v7x

variable {F : FTy → Type} [FloatOps F]

class Facts₀ : Prop where
  slices_S500000x80_S500000x32_0_0 : S500000x80.Slices ![0, 0] S500000x32
  bcast_S128_S1x128_1 : S128.BroadcastsInDim S1x128 (![1] : Fin 1 → Fin S1x128.rank)
  bcast_S1x128_S500000x128_0_1 : S1x128.BroadcastsInDim S500000x128 (![0, 1] : Fin 2 → Fin S500000x128.rank)
  bcast_S_S500000x128 : S_.BroadcastsInDim S500000x128 (![] : Fin 0 → Fin S500000x128.rank)
  slices_S500000x80_S500000x32_0_32 : S500000x80.Slices ![0, 32] S500000x32
  slices_S500000x80_S500000x16_0_64 : S500000x80.Slices ![0, 64] S500000x16
  bcast_S64_S1x64_1 : S64.BroadcastsInDim S1x64 (![1] : Fin 1 → Fin S1x64.rank)
  bcast_S1x64_S500000x64_0_1 : S1x64.BroadcastsInDim S500000x64 (![0, 1] : Fin 2 → Fin S500000x64.rank)
  bcast_S_S500000x64 : S_.BroadcastsInDim S500000x64 (![] : Fin 0 → Fin S500000x64.rank)
  concatenates_S500000x128_S500000x128_S500000x64_S500000x320_d1 : Shape.Concatenates [S500000x128, S500000x128, S500000x64] S500000x320 1
  bcast_S256_S1x256_1 : S256.BroadcastsInDim S1x256 (![1] : Fin 1 → Fin S1x256.rank)
  bcast_S1x256_S500000x256_0_1 : S1x256.BroadcastsInDim S500000x256 (![0, 1] : Fin 2 → Fin S500000x256.rank)
  reducesTo_S500000x256_S256_d0 : S500000x256.ReducesTo [0] S256
  h_S_ : 0 < S_.numel
  bcast_S_S256 : S_.BroadcastsInDim S256 (![] : Fin 0 → Fin S256.rank)
  bcast_S_S500000x256 : S_.BroadcastsInDim S500000x256 (![] : Fin 0 → Fin S500000x256.rank)
  slices_S10000_S1_9999 : S10000.Slices ![9999] S1
  slices_S10000_S9999_0 : S10000.Slices ![0] S9999
  concatenates_S1_S9999_S10000_d0 : Shape.Concatenates [S1, S9999] S10000 0
  bcast_S_S1 : S_.BroadcastsInDim S1 (![] : Fin 0 → Fin S1.rank)
  bcast_S_S_ : S_.BroadcastsInDim S_ (![] : Fin 0 → Fin S_.rank)
  reduceWindows_S10000_S10000_w10000s1p9999_0 : S10000.ReduceWindows (![10000] : Fin 1 → Nat) ![1] ![9999] ![0] S10000
  bcast_S_S500000 : S_.BroadcastsInDim S500000 (![] : Fin 0 → Fin S500000.rank)
  bcast_S_S10000 : S_.BroadcastsInDim S10000 (![] : Fin 0 → Fin S10000.rank)
  bcast_S10000_S10000x1_0 : S10000.BroadcastsInDim S10000x1 (![0] : Fin 1 → Fin S10000x1.rank)
  reduceWindows_S500000_S500000_w500000s1p499999_0 : S500000.ReduceWindows (![500000] : Fin 1 → Nat) ![1] ![499999] ![0] S500000
  bcast_S500000_S500000x1_0 : S500000.BroadcastsInDim S500000x1 (![0] : Fin 1 → Fin S500000x1.rank)
  bcast_S_S500000x1 : S_.BroadcastsInDim S500000x1 (![] : Fin 0 → Fin S500000x1.rank)
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  reducesTo_S500000x1_S500000_d1 : S500000x1.ReducesTo [1] S500000
  bcast_S_S10000x128 : S_.BroadcastsInDim S10000x128 (![] : Fin 0 → Fin S10000x128.rank)
  bcast_S10000x1_S10000x128_0_1 : S10000x1.BroadcastsInDim S10000x128 (![0, 1] : Fin 2 → Fin S10000x128.rank)
  bcast_S1x128_S10000x128_0_1 : S1x128.BroadcastsInDim S10000x128 (![0, 1] : Fin 2 → Fin S10000x128.rank)
  reducesTo_S10000x128_S128_d0 : S10000x128.ReducesTo [0] S128
  bcast_S_S128 : S_.BroadcastsInDim S128 (![] : Fin 0 → Fin S128.rank)
  bcast_S1x1_S10000x1_0_1 : S1x1.BroadcastsInDim S10000x1 (![0, 1] : Fin 2 → Fin S10000x1.rank)
  dot_S500000x32_S32x128_S500000x128_1_0_0_1_n_n_wf : DotDims.WF S500000x32 S32x128 S500000x128 [1] [0] [0] [1] [] []
  dot_S500000x16_S16x64_S500000x64_1_0_0_1_n_n_wf : DotDims.WF S500000x16 S16x64 S500000x64 [1] [0] [0] [1] [] []
  dot_S500000x320_S320x256_S500000x256_1_0_0_1_n_n_wf : DotDims.WF S500000x320 S320x256 S500000x256 [1] [0] [0] [1] [] []
  dot_S500000x256_S256x128_S500000x128_1_0_0_1_n_n_wf : DotDims.WF S500000x256 S256x128 S500000x128 [1] [0] [0] [1] [] []
  scatter_S10000_S1_S__n_0_0_0_wf : ScatterDims.WF S10000 S1 S_ [] [0] [0] 0
  scatter_S500000_S10000x1_S10000_n_0_0_1_wf : ScatterDims.WF S500000 S10000x1 S10000 [] [0] [0] 1
  gather_S10000_S500000x1_S500000_n_0_n_n_0_1_1_wf : GatherDims.WF S10000 S500000x1 S500000 [] [0] [] [0] [] 1 ![1]
  scatter_S10000x128_S500000x1_S500000x128_1_0_0_1_wf : ScatterDims.WF S10000x128 S500000x1 S500000x128 [1] [0] [0] 1
  dot_S10000x128_S128x128_S10000x128_1_0_0_1_n_n_wf : DotDims.WF S10000x128 S128x128 S10000x128 [1] [0] [0] [1] [] []
  dot_S10000x128_S128x1_S10000x1_1_0_0_1_n_n_wf : DotDims.WF S10000x128 S128x1 S10000x1 [1] [0] [0] [1] [] []

variable [Facts₀]

def dot_S500000x32_S32x128_S500000x128_1_0_0_1_n_n : DotDims S500000x32 S32x128 S500000x128 where
  lhsContracting := [1]
  rhsContracting := [0]
  lhsNonContracting := [0]
  rhsNonContracting := [1]
  lhsBatch := []
  rhsBatch := []
  wf := dot_S500000x32_S32x128_S500000x128_1_0_0_1_n_n_wf
def dot_S500000x16_S16x64_S500000x64_1_0_0_1_n_n : DotDims S500000x16 S16x64 S500000x64 where
  lhsContracting := [1]
  rhsContracting := [0]
  lhsNonContracting := [0]
  rhsNonContracting := [1]
  lhsBatch := []
  rhsBatch := []
  wf := dot_S500000x16_S16x64_S500000x64_1_0_0_1_n_n_wf
def dot_S500000x320_S320x256_S500000x256_1_0_0_1_n_n : DotDims S500000x320 S320x256 S500000x256 where
  lhsContracting := [1]
  rhsContracting := [0]
  lhsNonContracting := [0]
  rhsNonContracting := [1]
  lhsBatch := []
  rhsBatch := []
  wf := dot_S500000x320_S320x256_S500000x256_1_0_0_1_n_n_wf
def dot_S500000x256_S256x128_S500000x128_1_0_0_1_n_n : DotDims S500000x256 S256x128 S500000x128 where
  lhsContracting := [1]
  rhsContracting := [0]
  lhsNonContracting := [0]
  rhsNonContracting := [1]
  lhsBatch := []
  rhsBatch := []
  wf := dot_S500000x256_S256x128_S500000x128_1_0_0_1_n_n_wf
def scatter_S10000_S1_S__n_0_0_0 : ScatterDims S10000 S1 S_ where
  updateWindowDims := []
  insertedWindowDims := [0]
  scatterDimsToOperandDims := [0]
  indexVectorDim := 0
  wf := scatter_S10000_S1_S__n_0_0_0_wf
def scatter_S500000_S10000x1_S10000_n_0_0_1 : ScatterDims S500000 S10000x1 S10000 where
  updateWindowDims := []
  insertedWindowDims := [0]
  scatterDimsToOperandDims := [0]
  indexVectorDim := 1
  wf := scatter_S500000_S10000x1_S10000_n_0_0_1_wf
def gather_S10000_S500000x1_S500000_n_0_n_n_0_1_1 : GatherDims S10000 S500000x1 S500000 where
  offsetDims := []
  collapsedSliceDims := [0]
  operandBatchingDims := []
  startIndicesBatchingDims := []
  startIndexMap := [0]
  indexVectorDim := 1
  sliceSizes := ![1]
  wf := gather_S10000_S500000x1_S500000_n_0_n_n_0_1_1_wf
def scatter_S10000x128_S500000x1_S500000x128_1_0_0_1 : ScatterDims S10000x128 S500000x1 S500000x128 where
  updateWindowDims := [1]
  insertedWindowDims := [0]
  scatterDimsToOperandDims := [0]
  indexVectorDim := 1
  wf := scatter_S10000x128_S500000x1_S500000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x128_S128x1_S10000x1_1_0_0_1_n_n : DotDims S10000x128 S128x1 S10000x1 where
  lhsContracting := [1]
  rhsContracting := [0]
  lhsNonContracting := [0]
  rhsNonContracting := [1]
  lhsBatch := []
  rhsBatch := []
  wf := dot_S10000x128_S128x1_S10000x1_1_0_0_1_n_n_wf

class Facts : Prop extends Facts₀ where

variable [Facts]
-- ==== Proof.KI.R0.lean ====
/-
  Region 0, the statistics pass, at one grid point.

  The kernel carries two 1 × 256 accumulators over its 250 points: the first point stores zeros into them, every point
  adds to them the column sums of its block's 2000 × 256 features and of their squares, and the last point copies them
  into the two output windows. The body's triple is proved in its three cases (first, middle, last point) against an
  invariant that holds the accumulators at what the point before left; from it follow the pipeline's body obligation at
  every point and the invariant's entry and exit.
-/
import proofs.«146594_j41369124995826_1_alg».proof.Proof.Gen.KernelIdeal.Launch
import proofs.«146594_j41369124995826_1_alg».proof.Proof.Gen.KernelIdeal.Skeleton
import proofs.«146594_j41369124995826_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: every declaration below is stated at this parameter
variable (V : (c : Dev nD) → (b : Ref sig .tc) → Buf (Elt F) ((c : Thread nD τ).loc b))

/-! # Region 0: the statistics pass, two accumulators carried over the 250 points -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- What the first point stores into the two accumulators before it adds: zeros. -/
def zero0 : Vec F S1x256 .f32 × Vec F S1x256 .f32 := (k0_pay4, k0_pay5)

/-- One point's update of the two accumulators from its nine input blocks: the column sums of the
    hidden layer's rows added to the first, the column sums of their squares to the second. -/
def step0 (x0 : Vec F S2000x80 .f32) (x1 : Vec F S32x128 .bf16) (x2 : Vec F S128 .f32) (x3 : Vec F S16x64 .bf16) (x4 : Vec F S64 .f32) (x5 : Vec F S128x256 .bf16) (x6 : Vec F S128x256 .bf16) (x7 : Vec F S64x256 .bf16) (x8 : Vec F S256 .f32) (s : Vec F S1x256 .f32 × Vec F S1x256 .f32) : Vec F S1x256 .f32 × Vec F S1x256 .f32 :=
  (k0_pay2 (k0_pay7 x0 x1 x2) (k0_pay8 x0 x1 x2) (k0_pay9 x0 x3 x4) (k0_pay10 x5) (k0_pay11 x6) x7 x8 s.1,
   k0_pay3 (k0_pay7 x0 x1 x2) (k0_pay8 x0 x1 x2) (k0_pay9 x0 x3 x4) (k0_pay10 x5) (k0_pay11 x6) x7 x8 s.2)

/-- THE ACCUMULATION. What the two accumulators hold after the body at position `n`: the first point
    updates the zeros, every later point what the point before left. -/
def accAt0 (c : Dev nD) : (n : ℕ) → n < cfg0.N → Vec F S1x256 .f32 × Vec F S1x256 .f32
  | 0, hn => step0 (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩) (iblk0 V c 7 ⟨0, hn⟩) (iblk0 V c 8 ⟨0, hn⟩) zero0
  | n + 1, hn => step0 (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (accAt0 c n (Nat.lt_of_succ_lt hn))

theorem accAt0_zero (c : Dev nD) (hn : 0 < cfg0.N) :
    accAt0 V c 0 hn = step0 (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩) (iblk0 V c 7 ⟨0, hn⟩) (iblk0 V c 8 ⟨0, hn⟩) zero0 := rfl

theorem accAt0_succ (c : Dev nD) (n : ℕ) (hn : n + 1 < cfg0.N) :
    accAt0 V c (n + 1) hn = step0 (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (accAt0 V c n (Nat.lt_of_succ_lt hn)) := rfl

/-! ## The invariant -/

/-- The two accumulators: whole scoped buffers of the kernel's own, passed beside the windows. -/
abbrev scM0_0 : Memref sig .tc .vmem S1x256 .f32 := Memref.whole cc0_scratch0
abbrev scM0_1 : Memref sig .tc .vmem S1x256 .f32 := Memref.whole cc0_scratch1

/-- The core's other scoped buffers that region 0 does not stage (the second region's staging buffers),
    each whole at some contents: the body touches none of them. -/
def rest0 (c : Dev nD) : sProp 𝕄 :=
  iprop((∃ f : Buf (Elt F) ((c : Thread nD τ).loc cc1_stg0_0), ((c : Thread nD τ).loc cc1_stg0_0) ↦{fullShare} f)
    ∗ (∃ f : Buf (Elt F) ((c : Thread nD τ).loc cc1_stg0_1), ((c : Thread nD τ).loc cc1_stg0_1) ↦{fullShare} f)
    ∗ (∃ f : Buf (Elt F) ((c : Thread nD τ).loc cc1_stg1_0), ((c : Thread nD τ).loc cc1_stg1_0) ↦{fullShare} f)
    ∗ (∃ f : Buf (Elt F) ((c : Thread nD τ).loc cc1_stg2_0), ((c : Thread nD τ).loc cc1_stg2_0) ↦{fullShare} f)
    ∗ (∃ f : Buf (Elt F) ((c : Thread nD τ).loc cc1_stg3_0), ((c : Thread nD τ).loc cc1_stg3_0) ↦{fullShare} f)
    ∗ (∃ f : Buf (Elt F) ((c : Thread nD τ).loc cc1_stg4_0), ((c : Thread nD τ).loc cc1_stg4_0) ↦{fullShare} f)
    ∗ (∃ f : Buf (Elt F) ((c : Thread nD τ).loc cc1_stg5_0), ((c : Thread nD τ).loc cc1_stg5_0) ↦{fullShare} f)
    ∗ (∃ f : Buf (Elt F) ((c : Thread nD τ).loc cc1_stg6_0), ((c : Thread nD τ).loc cc1_stg6_0) ↦{fullShare} f)
    ∗ (∃ f : Buf (Elt F) ((c : Thread nD τ).loc cc1_stg7_0), ((c : Thread nD τ).loc cc1_stg7_0) ↦{fullShare} f)
    ∗ (∃ f : Buf (Elt F) ((c : Thread nD τ).loc cc1_stg8_0), ((c : Thread nD τ).loc cc1_stg8_0) ↦{fullShare} f)
    ∗ (∃ f : Buf (Elt F) ((c : Thread nD τ).loc cc1_stg9_0), ((c : Thread nD τ).loc cc1_stg9_0) ↦{fullShare} f)
    ∗ (∃ f : Buf (Elt F) ((c : Thread nD τ).loc cc1_stg10_0), ((c : Thread nD τ).loc cc1_stg10_0) ↦{fullShare} f)
    ∗ (∃ f : Buf (Elt F) ((c : Thread nD τ).loc cc1_stg11_0), ((c : Thread nD τ).loc cc1_stg11_0) ↦{fullShare} f)
    ∗ (∃ f : Buf (Elt F) ((c : Thread nD τ).loc cc1_stg12_0), ((c : Thread nD τ).loc cc1_stg12_0) ↦{fullShare} f)
    ∗ (∃ f : Buf (Elt F) ((c : Thread nD τ).loc cc1_stg13_0), ((c : Thread nD τ).loc cc1_stg13_0) ↦{fullShare} f)
    ∗ (∃ f : Buf (Elt F) ((c : Thread nD τ).loc cc1_stg13_1), ((c : Thread nD τ).loc cc1_stg13_1) ↦{fullShare} f))

/-- The region invariant before position `n`: before the first point the class's (every scoped buffer
    at anything); afterwards the two accumulators at what the point before left in them, the other
    scoped buffers at anything, the generator register at some state. -/
def PhiS (c : Dev nD) : (n : ℕ) → n ≤ cfg0.N → sProp 𝕄
  | 0, _ => Pipeline.ΦA spec0 c
  | n + 1, hn => iprop(iprop(owns (c : Thread nD τ) scM0_0 fullShare ((accAt0 V c n hn).1) ∗ owns (c : Thread nD τ) scM0_1 fullShare ((accAt0 V c n hn).2) ∗ rest0 (F := F) c) ∗ (∃ r, prngReg c r))

/-! ## The pipeline's proof data -/

/-- The proof data of pipeline 0 on core `c`: the arrays as the region finds them (`V`); after the body
    at point `t` each input's buffer at its block, the two outputs' at the two accumulators' contents
    there (consulted at the last point only: elsewhere the windows are idle); the invariant `PhiS`;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => (accAt0 V c t.val t.isLt).1
    | ⟨10, _⟩ => (accAt0 V c t.val t.isLt).2
  Φ t := PhiS V c t.val (Nat.le_of_lt_succ t.isLt)
  q _ := fullShare
  owed _ := 0

/-! ## The body's two conditions over the grid -/

/-- The body resets the accumulators where this holds: the grid coordinate is 0. -/
abbrev cond0_0 (i : grid0.Coords) : Prop := (Scalar.cmpi .ne (Scalar.extui (Scalar.cmpi .eq (BitVec.ofNat 32 (i 0).val) 0#32)) 0#32) = 1#1
/-- It holds at the first point only. -/
theorem hcond0_0 : ∀ t : Fin cfg0.N, cond0_0 (grid0.coords t) ↔ t.val = 0 :=
  (by decide +kernel : ∀ t : Fin grid0.N, cond0_0 (grid0.coords t) ↔ t.val = 0)

/-- The body stores the accumulators into the two outputs where this holds: the grid coordinate is 249. -/
abbrev cond0_1 (i : grid0.Coords) : Prop := k0_cond2 i = 1#1
/-- It holds at the last point only. -/
theorem hcond0_1 : ∀ t : Fin cfg0.N, cond0_1 (grid0.coords t) ↔ t.val = 249 :=
  (by decide +kernel : ∀ t : Fin grid0.N, cond0_1 (grid0.coords t) ↔ t.val = 249)

/-! ## Where the windows are idle -/

/-- The nine inputs are never idle. -/
theorem liveAt0_in (w : Fin cfg0.W) (hw : w.val < 9) : ∀ i, cfg0.idle w i = false := by
  intro i; fin_cases w <;> first | rfl | (exfalso; revert hw; decide)
/-- Off the last point the two output windows are idle (the body stores nothing into them), -/
theorem idleAt0_9 : ∀ t : Fin cfg0.N, ¬cond0_1 (grid0.coords t) → cfg0.idle 9 (grid0.coords t) = true := by decide +kernel
theorem idleAt0_10 : ∀ t : Fin cfg0.N, ¬cond0_1 (grid0.coords t) → cfg0.idle 10 (grid0.coords t) = true := by decide +kernel
/-- and the pipeline does not write their blocks back; -/
theorem noFlush0_9 : ∀ t : Fin cfg0.N, ¬cond0_1 (grid0.coords t) → (cfg0.win 9).flush t = false := by decide +kernel
theorem noFlush0_10 : ∀ t : Fin cfg0.N, ¬cond0_1 (grid0.coords t) → (cfg0.win 10).flush t = false := by decide +kernel
/-- at the last point they are live. -/
theorem liveAt0_9 : ∀ t : Fin cfg0.N, cond0_1 (grid0.coords t) → cfg0.idle 9 (grid0.coords t) = false := by decide +kernel
theorem liveAt0_10 : ∀ t : Fin cfg0.N, cond0_1 (grid0.coords t) → cfg0.idle 10 (grid0.coords t) = false := by decide +kernel

/-- The zero offsets of a whole-buffer access, however spelt. -/
theorem hz2 : (![0, 0] : Fin 2 → ℕ) = fun _ => 0 := by funext a; fin_cases a <;> rfl
theorem hz1 : (![0] : Fin 1 → ℕ) = fun _ => 0 := by funext a; fin_cases a; rfl

/-- Stores into an accumulator-shaped buffer whose LAST went through the whole-shape rectangle leave that
    store's payload, whatever the earlier stores and the prior contents were: the last store covers. -/
theorem read_writes_cons_whole {κ : Kind} {sp : Space} (v : View sig κ sp S1x256 .f32) (f : v.ty.Contents (Elt F))
    (w : S1x256.Idx → Elt F .f32) (L : List (View.Piece (Elt F) S1x256 .f32)) :
    v.read (Elt F) (v.writes (Elt F) f ((⟨Rect.unit ![0, 0] S1x256.size inb_S1x256_S1x256_0_0, w⟩ : View.Piece (Elt F) S1x256 .f32) :: L)) = w :=
  (View.read_writes_eq_canon v f _ (fun y => ⟨_, List.mem_cons.mpr (Or.inl rfl),
    View.mem_set_unit_zero (S := S1x256) hz2 inb_S1x256_S1x256_0_0 y⟩)).trans
    (View.canon_cons_unit_zero (S := S1x256) hz2 inb_S1x256_S1x256_0_0 w L)

/-! ## The body's triple, case by case -/

set_option maxHeartbeats 4000000 in
/-- THE FIRST POINT (the reset taken, the output stores not): on whole staging memrefs, the inputs' at
    contents `x0 … x8`, the two outputs' at `xi9`, `xi10` (handed back untouched) and the accumulators at
    anything, the body runs to the continuation holding the inputs' as they were and the accumulators
    at one update of the zeros: each accumulator's last store is whole, and its payload reads the zeros
    the reset stored before it. -/
theorem sound_kernel0_A (c : Dev nD) (E : Set ℕ) (i : grid0.Coords) (arg1 : Memref sig .tc .vmem S2000x80 .f32) (harg1 : arg1.IsWhole) (arg2 : Memref sig .tc .vmem S32x128 .bf16) (harg2 : arg2.IsWhole) (arg3 : Memref sig .tc .vmem S128 .f32) (harg3 : arg3.IsWhole) (arg4 : Memref sig .tc .vmem S16x64 .bf16) (harg4 : arg4.IsWhole) (arg5 : Memref sig .tc .vmem S64 .f32) (harg5 : arg5.IsWhole) (arg6 : Memref sig .tc .vmem S128x256 .bf16) (harg6 : arg6.IsWhole) (arg7 : Memref sig .tc .vmem S128x256 .bf16) (harg7 : arg7.IsWhole) (arg8 : Memref sig .tc .vmem S64x256 .bf16) (harg8 : arg8.IsWhole) (arg9 : Memref sig .tc .vmem S256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S1x256 .f32) (harg13 : arg13.IsWhole)
    (hc0 : cond0_0 i) (hc1 : ¬cond0_1 i) (x0 : Vec F S2000x80 .f32) (x1 : Vec F S32x128 .bf16) (x2 : Vec F S128 .f32) (x3 : Vec F S16x64 .bf16) (x4 : Vec F S64 .f32) (x5 : Vec F S128x256 .bf16) (x6 : Vec F S128x256 .bf16) (x7 : Vec F S64x256 .bf16) (x8 : Vec F S256 .f32) (xi9 xi10 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare xi9 ∗ owns (c : Thread nD τ) arg11 fullShare xi10
        ∗ (∃ d, owns (c : Thread nD τ) arg12 fullShare d) ∗ (∃ d, owns (c : Thread nD τ) arg13 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare xi9 ∗ owns (c : Thread nD τ) arg11 fullShare xi10
            ∗ owns (c : Thread nD τ) arg12 fullShare (step0 x0 x1 x2 x3 x4 x5 x6 x7 x8 zero0).1
            ∗ owns (c : Thread nD τ) arg13 fullShare (step0 x0 x1 x2 x3 x4 x5 x6 x7 x8 zero0).2) -∗ K ⟨⟩))
      ⊢ wp frame (wpE (defs₀ (F := F)) Variants.none c none) E (cc0__stats_kernel i arg1 harg1 arg2 harg2 arg3 harg3 arg4 harg4 arg5 harg5 arg6 harg6 arg7 harg7 arg8 harg8 arg9 harg9 arg10 harg10 arg11 harg11 arg12 harg12 arg13 harg13) K := by
  simp only [cc0__stats_kernel_eq_skeleton]; unfold cc0__stats_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%ds0, %fs0, -, HS0⟩, ⟨%ds1, %fs1, -, HS1⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  obtain rfl := harg7.eq_unread hf6; obtain rfl := harg8.eq_unread hf7; obtain rfl := harg9.eq_unread hf8
  obtain rfl := harg10.eq_unread hf9; obtain rfl := harg11.eq_unread hf10
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr; · ipureintro; exact harg11.read_unread _
    iexact H10
  isplitl [HS0]
  · iexists _; isplitr
    swap; · iexact HS0
    ipureintro
    refine (read_writes_cons_whole _ _ _ _).trans ?_
    sl_unfold_run_names
    unfold step0
    (try unfold zero0)
    dsimp only
    simp only [View.readAt_eq_ld, harg1.read_unread, harg2.read_unread, harg3.read_unread, harg4.read_unread, harg5.read_unread, harg6.read_unread, harg7.read_unread, harg8.read_unread, harg9.read_unread, harg12.read_unread, harg13.read_unread, View.ld_unit_zero (S := S2000x80) hz2, View.ld_unit_zero (S := S32x128) hz2, View.ld_unit_zero (S := S128) hz1, View.ld_unit_zero (S := S16x64) hz2, View.ld_unit_zero (S := S64) hz1, View.ld_unit_zero (S := S128x256) hz2, View.ld_unit_zero (S := S64x256) hz2, View.ld_unit_zero (S := S256) hz1, View.ld_unit_zero (S := S1x256) hz2, View.readCov_unit_zero (S := S1x256) _ hz2]
  · iexists _; isplitr
    swap; · iexact HS1
    ipureintro
    refine (read_writes_cons_whole _ _ _ _).trans ?_
    sl_unfold_run_names
    unfold step0
    (try unfold zero0)
    dsimp only
    simp only [View.readAt_eq_ld, harg1.read_unread, harg2.read_unread, harg3.read_unread, harg4.read_unread, harg5.read_unread, harg6.read_unread, harg7.read_unread, harg8.read_unread, harg9.read_unread, harg12.read_unread, harg13.read_unread, View.ld_unit_zero (S := S2000x80) hz2, View.ld_unit_zero (S := S32x128) hz2, View.ld_unit_zero (S := S128) hz1, View.ld_unit_zero (S := S16x64) hz2, View.ld_unit_zero (S := S64) hz1, View.ld_unit_zero (S := S128x256) hz2, View.ld_unit_zero (S := S64x256) hz2, View.ld_unit_zero (S := S256) hz1, View.ld_unit_zero (S := S1x256) hz2, View.readCov_unit_zero (S := S1x256) _ hz2]

set_option maxHeartbeats 4000000 in
/-- A MIDDLE POINT (neither branch taken): the accumulators, handed at `xs0`, `xs1`, are left at one
    update of those; the outputs are handed back untouched. -/
theorem sound_kernel0_B (c : Dev nD) (E : Set ℕ) (i : grid0.Coords) (arg1 : Memref sig .tc .vmem S2000x80 .f32) (harg1 : arg1.IsWhole) (arg2 : Memref sig .tc .vmem S32x128 .bf16) (harg2 : arg2.IsWhole) (arg3 : Memref sig .tc .vmem S128 .f32) (harg3 : arg3.IsWhole) (arg4 : Memref sig .tc .vmem S16x64 .bf16) (harg4 : arg4.IsWhole) (arg5 : Memref sig .tc .vmem S64 .f32) (harg5 : arg5.IsWhole) (arg6 : Memref sig .tc .vmem S128x256 .bf16) (harg6 : arg6.IsWhole) (arg7 : Memref sig .tc .vmem S128x256 .bf16) (harg7 : arg7.IsWhole) (arg8 : Memref sig .tc .vmem S64x256 .bf16) (harg8 : arg8.IsWhole) (arg9 : Memref sig .tc .vmem S256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S1x256 .f32) (harg13 : arg13.IsWhole)
    (hc0 : ¬cond0_0 i) (hc1 : ¬cond0_1 i) (x0 : Vec F S2000x80 .f32) (x1 : Vec F S32x128 .bf16) (x2 : Vec F S128 .f32) (x3 : Vec F S16x64 .bf16) (x4 : Vec F S64 .f32) (x5 : Vec F S128x256 .bf16) (x6 : Vec F S128x256 .bf16) (x7 : Vec F S64x256 .bf16) (x8 : Vec F S256 .f32) (xi9 xi10 xs0 xs1 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare xi9 ∗ owns (c : Thread nD τ) arg11 fullShare xi10
        ∗ owns (c : Thread nD τ) arg12 fullShare xs0 ∗ owns (c : Thread nD τ) arg13 fullShare xs1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare xi9 ∗ owns (c : Thread nD τ) arg11 fullShare xi10
            ∗ owns (c : Thread nD τ) arg12 fullShare (step0 x0 x1 x2 x3 x4 x5 x6 x7 x8 (xs0, xs1)).1
            ∗ owns (c : Thread nD τ) arg13 fullShare (step0 x0 x1 x2 x3 x4 x5 x6 x7 x8 (xs0, xs1)).2) -∗ K ⟨⟩))
      ⊢ wp frame (wpE (defs₀ (F := F)) Variants.none c none) E (cc0__stats_kernel i arg1 harg1 arg2 harg2 arg3 harg3 arg4 harg4 arg5 harg5 arg6 harg6 arg7 harg7 arg8 harg8 arg9 harg9 arg10 harg10 arg11 harg11 arg12 harg12 arg13 harg13) K := by
  simp only [cc0__stats_kernel_eq_skeleton]; unfold cc0__stats_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%fs0, %hfs0, HS0⟩, ⟨%fs1, %hfs1, HS1⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  obtain rfl := harg7.eq_unread hf6; obtain rfl := harg8.eq_unread hf7; obtain rfl := harg9.eq_unread hf8
  obtain rfl := harg10.eq_unread hf9; obtain rfl := harg11.eq_unread hf10
  obtain rfl := harg12.eq_unread hfs0; obtain rfl := harg13.eq_unread hfs1
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr; · ipureintro; exact harg11.read_unread _
    iexact H10
  isplitl [HS0]
  · iexists _; isplitr
    swap; · iexact HS0
    ipureintro
    refine (read_writes_cons_whole _ _ _ _).trans ?_
    sl_unfold_run_names
    unfold step0
    (try unfold zero0)
    dsimp only
    simp only [View.readAt_eq_ld, harg1.read_unread, harg2.read_unread, harg3.read_unread, harg4.read_unread, harg5.read_unread, harg6.read_unread, harg7.read_unread, harg8.read_unread, harg9.read_unread, harg12.read_unread, harg13.read_unread, View.ld_unit_zero (S := S2000x80) hz2, View.ld_unit_zero (S := S32x128) hz2, View.ld_unit_zero (S := S128) hz1, View.ld_unit_zero (S := S16x64) hz2, View.ld_unit_zero (S := S64) hz1, View.ld_unit_zero (S := S128x256) hz2, View.ld_unit_zero (S := S64x256) hz2, View.ld_unit_zero (S := S256) hz1, View.ld_unit_zero (S := S1x256) hz2, View.readCov_unit_zero (S := S1x256) _ hz2]
  · iexists _; isplitr
    swap; · iexact HS1
    ipureintro
    refine (read_writes_cons_whole _ _ _ _).trans ?_
    sl_unfold_run_names
    unfold step0
    (try unfold zero0)
    dsimp only
    simp only [View.readAt_eq_ld, harg1.read_unread, harg2.read_unread, harg3.read_unread, harg4.read_unread, harg5.read_unread, harg6.read_unread, harg7.read_unread, harg8.read_unread, harg9.read_unread, harg12.read_unread, harg13.read_unread, View.ld_unit_zero (S := S2000x80) hz2, View.ld_unit_zero (S := S32x128) hz2, View.ld_unit_zero (S := S128) hz1, View.ld_unit_zero (S := S16x64) hz2, View.ld_unit_zero (S := S64) hz1, View.ld_unit_zero (S := S128x256) hz2, View.ld_unit_zero (S := S64x256) hz2, View.ld_unit_zero (S := S256) hz1, View.ld_unit_zero (S := S1x256) hz2, View.readCov_unit_zero (S := S1x256) _ hz2]

set_option maxHeartbeats 4000000 in
/-- THE LAST POINT (the reset not taken, the output stores taken): the accumulators are updated as at a
    middle point, then each is read back whole and stored whole into its output, whose buffer was at
    anything: both the accumulator and its output end at the update. -/
theorem sound_kernel0_C (c : Dev nD) (E : Set ℕ) (i : grid0.Coords) (arg1 : Memref sig .tc .vmem S2000x80 .f32) (harg1 : arg1.IsWhole) (arg2 : Memref sig .tc .vmem S32x128 .bf16) (harg2 : arg2.IsWhole) (arg3 : Memref sig .tc .vmem S128 .f32) (harg3 : arg3.IsWhole) (arg4 : Memref sig .tc .vmem S16x64 .bf16) (harg4 : arg4.IsWhole) (arg5 : Memref sig .tc .vmem S64 .f32) (harg5 : arg5.IsWhole) (arg6 : Memref sig .tc .vmem S128x256 .bf16) (harg6 : arg6.IsWhole) (arg7 : Memref sig .tc .vmem S128x256 .bf16) (harg7 : arg7.IsWhole) (arg8 : Memref sig .tc .vmem S64x256 .bf16) (harg8 : arg8.IsWhole) (arg9 : Memref sig .tc .vmem S256 .f32) (harg9 : arg9.IsWhole) (arg10 : Memref sig .tc .vmem S1x256 .f32) (harg10 : arg10.IsWhole) (arg11 : Memref sig .tc .vmem S1x256 .f32) (harg11 : arg11.IsWhole) (arg12 : Memref sig .tc .vmem S1x256 .f32) (harg12 : arg12.IsWhole) (arg13 : Memref sig .tc .vmem S1x256 .f32) (harg13 : arg13.IsWhole)
    (hc0 : ¬cond0_0 i) (hc1 : cond0_1 i) (x0 : Vec F S2000x80 .f32) (x1 : Vec F S32x128 .bf16) (x2 : Vec F S128 .f32) (x3 : Vec F S16x64 .bf16) (x4 : Vec F S64 .f32) (x5 : Vec F S128x256 .bf16) (x6 : Vec F S128x256 .bf16) (x7 : Vec F S64x256 .bf16) (x8 : Vec F S256 .f32) (xs0 xs1 : Vec F S1x256 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d)
        ∗ owns (c : Thread nD τ) arg12 fullShare xs0 ∗ owns (c : Thread nD τ) arg13 fullShare xs1
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare (step0 x0 x1 x2 x3 x4 x5 x6 x7 x8 (xs0, xs1)).1 ∗ owns (c : Thread nD τ) arg11 fullShare (step0 x0 x1 x2 x3 x4 x5 x6 x7 x8 (xs0, xs1)).2
            ∗ owns (c : Thread nD τ) arg12 fullShare (step0 x0 x1 x2 x3 x4 x5 x6 x7 x8 (xs0, xs1)).1
            ∗ owns (c : Thread nD τ) arg13 fullShare (step0 x0 x1 x2 x3 x4 x5 x6 x7 x8 (xs0, xs1)).2) -∗ K ⟨⟩))
      ⊢ wp frame (wpE (defs₀ (F := F)) Variants.none c none) E (cc0__stats_kernel i arg1 harg1 arg2 harg2 arg3 harg3 arg4 harg4 arg5 harg5 arg6 harg6 arg7 harg7 arg8 harg8 arg9 harg9 arg10 harg10 arg11 harg11 arg12 harg12 arg13 harg13) K := by
  simp only [cc0__stats_kernel_eq_skeleton]; unfold cc0__stats_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%fs0, %hfs0, HS0⟩, ⟨%fs1, %hfs1, HS1⟩, Hk⟩
  obtain rfl := harg1.eq_unread hf0; obtain rfl := harg2.eq_unread hf1; obtain rfl := harg3.eq_unread hf2
  obtain rfl := harg4.eq_unread hf3; obtain rfl := harg5.eq_unread hf4; obtain rfl := harg6.eq_unread hf5
  obtain rfl := harg7.eq_unread hf6; obtain rfl := harg8.eq_unread hf7; obtain rfl := harg9.eq_unread hf8
  obtain rfl := harg12.eq_unread hfs0; obtain rfl := harg13.eq_unread hfs1
  sl_exec (disch := first | exact hc0 | exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr
    swap; · iexact H9
    ipureintro
    refine (read_writes_cons_whole _ _ _ _).trans ?_
    sl_unfold_run_names
    unfold step0
    (try unfold zero0)
    dsimp only
    simp only [View.readAt_eq_ld, harg1.read_unread, harg2.read_unread, harg3.read_unread, harg4.read_unread, harg5.read_unread, harg6.read_unread, harg7.read_unread, harg8.read_unread, harg9.read_unread, harg12.read_unread, harg13.read_unread, View.ld_unit_zero (S := S2000x80) hz2, View.ld_unit_zero (S := S32x128) hz2, View.ld_unit_zero (S := S128) hz1, View.ld_unit_zero (S := S16x64) hz2, View.ld_unit_zero (S := S64) hz1, View.ld_unit_zero (S := S128x256) hz2, View.ld_unit_zero (S := S64x256) hz2, View.ld_unit_zero (S := S256) hz1, View.ld_unit_zero (S := S1x256) hz2, View.readCov_unit_zero (S := S1x256) _ hz2]
  isplitl [H10]
  · iexists _; isplitr
    swap; · iexact H10
    ipureintro
    refine (read_writes_cons_whole _ _ _ _).trans ?_
    sl_unfold_run_names
    unfold step0
    (try unfold zero0)
    dsimp only
    simp only [View.readAt_eq_ld, harg1.read_unread, harg2.read_unread, harg3.read_unread, harg4.read_unread, harg5.read_unread, harg6.read_unread, harg7.read_unread, harg8.read_unread, harg9.read_unread, harg12.read_unread, harg13.read_unread, View.ld_unit_zero (S := S2000x80) hz2, View.ld_unit_zero (S := S32x128) hz2, View.ld_unit_zero (S := S128) hz1, View.ld_unit_zero (S := S16x64) hz2, View.ld_unit_zero (S := S64) hz1, View.ld_unit_zero (S := S128x256) hz2, View.ld_unit_zero (S := S64x256) hz2, View.ld_unit_zero (S := S256) hz1, View.ld_unit_zero (S := S1x256) hz2, View.readCov_unit_zero (S := S1x256) _ hz2]
  isplitl [HS0]
  · iexists _; isplitr
    swap; · iexact HS0
    ipureintro
    refine (read_writes_cons_whole _ _ _ _).trans ?_
    sl_unfold_run_names
    unfold step0
    (try unfold zero0)
    dsimp only
    simp only [View.readAt_eq_ld, harg1.read_unread, harg2.read_unread, harg3.read_unread, harg4.read_unread, harg5.read_unread, harg6.read_unread, harg7.read_unread, harg8.read_unread, harg9.read_unread, harg12.read_unread, harg13.read_unread, View.ld_unit_zero (S := S2000x80) hz2, View.ld_unit_zero (S := S32x128) hz2, View.ld_unit_zero (S := S128) hz1, View.ld_unit_zero (S := S16x64) hz2, View.ld_unit_zero (S := S64) hz1, View.ld_unit_zero (S := S128x256) hz2, View.ld_unit_zero (S := S64x256) hz2, View.ld_unit_zero (S := S256) hz1, View.ld_unit_zero (S := S1x256) hz2, View.readCov_unit_zero (S := S1x256) _ hz2]
  · iexists _; isplitr
    swap; · iexact HS1
    ipureintro
    refine (read_writes_cons_whole _ _ _ _).trans ?_
    sl_unfold_run_names
    unfold step0
    (try unfold zero0)
    dsimp only
    simp only [View.readAt_eq_ld, harg1.read_unread, harg2.read_unread, harg3.read_unread, harg4.read_unread, harg5.read_unread, harg6.read_unread, harg7.read_unread, harg8.read_unread, harg9.read_unread, harg12.read_unread, harg13.read_unread, View.ld_unit_zero (S := S2000x80) hz2, View.ld_unit_zero (S := S32x128) hz2, View.ld_unit_zero (S := S128) hz1, View.ld_unit_zero (S := S16x64) hz2, View.ld_unit_zero (S := S64) hz1, View.ld_unit_zero (S := S128x256) hz2, View.ld_unit_zero (S := S64x256) hz2, View.ld_unit_zero (S := S256) hz1, View.ld_unit_zero (S := S1x256) hz2, View.readCov_unit_zero (S := S1x256) _ hz2]

/-- The accumulation at the first point, -/
theorem accAt0_first (c : Dev nD) (t : Fin cfg0.N) (h0 : t.val = 0) :
    accAt0 V c t.val t.isLt = step0 (iblk0 V c 0 t) (iblk0 V c 1 t) (iblk0 V c 2 t) (iblk0 V c 3 t) (iblk0 V c 4 t) (iblk0 V c 5 t) (iblk0 V c 6 t) (iblk0 V c 7 t) (iblk0 V c 8 t) zero0 := by
  obtain ⟨n, hn⟩ := t
  cases n with
  | zero => rfl
  | succ n => exact absurd h0 (Nat.succ_ne_zero n)

/-- and at a later one, over what the point before left. -/
theorem accAt0_later (c : Dev nD) (t : Fin cfg0.N) (h0 : t.val ≠ 0) :
    accAt0 V c t.val t.isLt = step0 (iblk0 V c 0 t) (iblk0 V c 1 t) (iblk0 V c 2 t) (iblk0 V c 3 t) (iblk0 V c 4 t) (iblk0 V c 5 t) (iblk0 V c 6 t) (iblk0 V c 7 t) (iblk0 V c 8 t) (accAt0 V c (t.val - 1) (Nat.lt_of_le_of_lt (Nat.sub_le _ _) t.isLt)) := by
  obtain ⟨n, hn⟩ := t
  cases n with
  | zero => exact absurd rfl h0
  | succ n => rfl

theorem PhiS_zero (c : Dev nD) (n : ℕ) (h : n ≤ cfg0.N) (hz : n = 0) : PhiS V c n h = Pipeline.ΦA spec0 c := by
  subst hz; rfl

/-- After point `n` (before point `n + 1`): the accumulators at that point's contents. -/
theorem PhiS_succ (c : Dev nD) (n : ℕ) (hn : n < cfg0.N) :
    PhiS V c (n + 1) hn = iprop(iprop(owns (c : Thread nD τ) scM0_0 fullShare ((accAt0 V c n hn).1) ∗ owns (c : Thread nD τ) scM0_1 fullShare ((accAt0 V c n hn).2) ∗ rest0 (F := F) c) ∗ (∃ r, prngReg c r)) := rfl

/-- Before a point that is not the first: the accumulators at what the point before left. -/
theorem PhiS_pos (c : Dev nD) (n : ℕ) (h : n ≤ cfg0.N) (hz : n ≠ 0) :
    PhiS V c n h = iprop(iprop(owns (c : Thread nD τ) scM0_0 fullShare ((accAt0 V c (n - 1) (by omega)).1) ∗ owns (c : Thread nD τ) scM0_1 fullShare ((accAt0 V c (n - 1) (by omega)).2) ∗ rest0 (F := F) c) ∗ (∃ r, prngReg c r)) := by
  cases n with
  | zero => exact absurd rfl hz
  | succ n => rfl

/-- The class's invariant with the two accumulators as memrefs owned at some contents: what the body
    is handed at the first point, and what the region's exit asks back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ rest0 (F := F) c) ∗ (∃ r, prngReg c r)) := by
  unfold Pipeline.ΦA rest0; rw [scopedRest0_eq]; simp only [scM0_0, scM0_1, owns_whole]; try rfl

/-- The proof data's arrays are the region-entry contents (the definition projected). -/
theorem A_eq0 (c : Dev nD) (w : Fin cfg0.W) : (dat0 V c).A w = V c (Pipeline.arrRef spec0 w) := by
  dsimp only [dat0]

/-- The invariant at a point's start, restated at the point's number. -/
theorem PhiS_castSucc (c : Dev nD) (t : Fin cfg0.N) :
    (dat0 V c).Φ t.castSucc = PhiS V c t.val (Nat.le_of_lt t.isLt) := by
  dsimp only [dat0]; simp only [Fin.coe_castSucc]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = (accAt0 V c t.val t.isLt).1 := by dsimp only [dat0]
theorem after0_10 (c : Dev nD) (t : Fin cfg0.N) : (dat0 V c).after 10 t = (accAt0 V c t.val t.isLt).2 := by dsimp only [dat0]

/-- Each input's current staging buffer holds its block at every point, fetched there or not: the eight
    weight windows are fetched at the first point only, and their block index never moves. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)
theorem before0_2 (c : Dev nD) (t : Fin cfg0.N) (d) : (dat0 V c).before 2 t d = iblk0 V c 2 t :=
  ((dat0 V c).before_in_eq_fetched 2 rfl (fun _ => rfl) (fun _ _ _ => rfl) (fun t => by rw [after0_2]; unfold Dat.blockOf iblk0; rw [A_eq0]; try rfl) t d).trans
    (by unfold Dat.fetched Dat.blockOf iblk0; rw [A_eq0]; try rfl)
theorem before0_3 (c : Dev nD) (t : Fin cfg0.N) (d) : (dat0 V c).before 3 t d = iblk0 V c 3 t :=
  ((dat0 V c).before_in_eq_fetched 3 rfl (fun _ => rfl) (fun _ _ _ => rfl) (fun t => by rw [after0_3]; unfold Dat.blockOf iblk0; rw [A_eq0]; try rfl) t d).trans
    (by unfold Dat.fetched Dat.blockOf iblk0; rw [A_eq0]; try rfl)
theorem before0_4 (c : Dev nD) (t : Fin cfg0.N) (d) : (dat0 V c).before 4 t d = iblk0 V c 4 t :=
  ((dat0 V c).before_in_eq_fetched 4 rfl (fun _ => rfl) (fun _ _ _ => rfl) (fun t => by rw [after0_4]; unfold Dat.blockOf iblk0; rw [A_eq0]; try rfl) t d).trans
    (by unfold Dat.fetched Dat.blockOf iblk0; rw [A_eq0]; try rfl)
theorem before0_5 (c : Dev nD) (t : Fin cfg0.N) (d) : (dat0 V c).before 5 t d = iblk0 V c 5 t :=
  ((dat0 V c).before_in_eq_fetched 5 rfl (fun _ => rfl) (fun _ _ _ => rfl) (fun t => by rw [after0_5]; unfold Dat.blockOf iblk0; rw [A_eq0]; try rfl) t d).trans
    (by unfold Dat.fetched Dat.blockOf iblk0; rw [A_eq0]; try rfl)
theorem before0_6 (c : Dev nD) (t : Fin cfg0.N) (d) : (dat0 V c).before 6 t d = iblk0 V c 6 t :=
  ((dat0 V c).before_in_eq_fetched 6 rfl (fun _ => rfl) (fun _ _ _ => rfl) (fun t => by rw [after0_6]; unfold Dat.blockOf iblk0; rw [A_eq0]; try rfl) t d).trans
    (by unfold Dat.fetched Dat.blockOf iblk0; rw [A_eq0]; try rfl)
theorem before0_7 (c : Dev nD) (t : Fin cfg0.N) (d) : (dat0 V c).before 7 t d = iblk0 V c 7 t :=
  ((dat0 V c).before_in_eq_fetched 7 rfl (fun _ => rfl) (fun _ _ _ => rfl) (fun t => by rw [after0_7]; unfold Dat.blockOf iblk0; rw [A_eq0]; try rfl) t d).trans
    (by unfold Dat.fetched Dat.blockOf iblk0; rw [A_eq0]; try rfl)
theorem before0_8 (c : Dev nD) (t : Fin cfg0.N) (d) : (dat0 V c).before 8 t d = iblk0 V c 8 t :=
  ((dat0 V c).before_in_eq_fetched 8 rfl (fun _ => rfl) (fun _ _ _ => rfl) (fun t => by rw [after0_8]; unfold Dat.blockOf iblk0; rw [A_eq0]; try rfl) t d).trans
    (by unfold Dat.fetched Dat.blockOf iblk0; rw [A_eq0]; try rfl)

/-- An input is never idle: the body leaves its buffer at its block. -/
theorem leaves0_0 (c : Dev nD) (t : Fin cfg0.N) :
    (dat0 V c).leavesExact 0 t = owns (c : Thread nD τ) (st0_0 t) fullShare (iblk0 V c 0 t) := by
  unfold Dat.leavesExact; rw [show cfg0.idle 0 (grid0.coords t) = false from rfl, after0_0]
theorem leaves0_1 (c : Dev nD) (t : Fin cfg0.N) :
    (dat0 V c).leavesExact 1 t = owns (c : Thread nD τ) (st0_1 t) fullShare (iblk0 V c 1 t) := by
  unfold Dat.leavesExact; rw [show cfg0.idle 1 (grid0.coords t) = false from rfl, after0_1]
theorem leaves0_2 (c : Dev nD) (t : Fin cfg0.N) :
    (dat0 V c).leavesExact 2 t = owns (c : Thread nD τ) (st0_2 t) fullShare (iblk0 V c 2 t) := by
  unfold Dat.leavesExact; rw [show cfg0.idle 2 (grid0.coords t) = false from rfl, after0_2]
theorem leaves0_3 (c : Dev nD) (t : Fin cfg0.N) :
    (dat0 V c).leavesExact 3 t = owns (c : Thread nD τ) (st0_3 t) fullShare (iblk0 V c 3 t) := by
  unfold Dat.leavesExact; rw [show cfg0.idle 3 (grid0.coords t) = false from rfl, after0_3]
theorem leaves0_4 (c : Dev nD) (t : Fin cfg0.N) :
    (dat0 V c).leavesExact 4 t = owns (c : Thread nD τ) (st0_4 t) fullShare (iblk0 V c 4 t) := by
  unfold Dat.leavesExact; rw [show cfg0.idle 4 (grid0.coords t) = false from rfl, after0_4]
theorem leaves0_5 (c : Dev nD) (t : Fin cfg0.N) :
    (dat0 V c).leavesExact 5 t = owns (c : Thread nD τ) (st0_5 t) fullShare (iblk0 V c 5 t) := by
  unfold Dat.leavesExact; rw [show cfg0.idle 5 (grid0.coords t) = false from rfl, after0_5]
theorem leaves0_6 (c : Dev nD) (t : Fin cfg0.N) :
    (dat0 V c).leavesExact 6 t = owns (c : Thread nD τ) (st0_6 t) fullShare (iblk0 V c 6 t) := by
  unfold Dat.leavesExact; rw [show cfg0.idle 6 (grid0.coords t) = false from rfl, after0_6]
theorem leaves0_7 (c : Dev nD) (t : Fin cfg0.N) :
    (dat0 V c).leavesExact 7 t = owns (c : Thread nD τ) (st0_7 t) fullShare (iblk0 V c 7 t) := by
  unfold Dat.leavesExact; rw [show cfg0.idle 7 (grid0.coords t) = false from rfl, after0_7]
theorem leaves0_8 (c : Dev nD) (t : Fin cfg0.N) :
    (dat0 V c).leavesExact 8 t = owns (c : Thread nD τ) (st0_8 t) fullShare (iblk0 V c 8 t) := by
  unfold Dat.leavesExact; rw [show cfg0.idle 8 (grid0.coords t) = false from rfl, after0_8]

/-! ## The body obligation, at a generic point -/

/-- What the body is called with at point `t` (the pipeline rule's precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t
    ∗ (dat0 V c).leavesExact 9 t
    ∗ (dat0 V c).leavesExact 10 t)

set_option maxHeartbeats 4800000 in
/-- The body at any point. The inputs' memrefs hold their blocks; the point's number says which of the
    three cases it is; the invariant hands the body the accumulators at what the point before left (at
    anything, at the first point) and takes them back at this point's contents; off the last point the
    two output windows are idle and handed back as found, at the last they are left at the accumulators'
    contents; the other scoped buffers, the generator register and what the core owes pass through. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8]
  rw [show (dat0 V c).owesAt () t.succ = (dat0 V c).owesAt () t.castSucc from rfl]
  rw [show (dat0 V c).Φ t.succ = PhiS V c (t.val + 1) t.isLt from rfl, PhiS_succ]
  rw [leaves0_0, leaves0_1, leaves0_2, leaves0_3, leaves0_4, leaves0_5, leaves0_6, leaves0_7, leaves0_8]
  have hN : t.val < 250 := lt_of_lt_of_eq t.isLt (show cfg0.N = 250 from N_0)
  rw [PhiS_castSucc V c t]
  by_cases h0 : t.val = 0
  · have hc0 : cond0_0 (grid0.coords t) := (hcond0_0 t).mpr h0
    have hc1 : ¬cond0_1 (grid0.coords t) := fun h => by have := (hcond0_1 t).mp h; omega
    rw [Dat.leavesExact_idle (dat0 V c) 9 t (idleAt0_9 t hc1) (noFlush0_9 t hc1),
      Dat.leavesExact_idle (dat0 V c) 10 t (idleAt0_10 t hc1) (noFlush0_10 t hc1)]
    rw [PhiS_zero V c _ _ h0, PhiA0_eq, accAt0_first V c t h0]
    iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (sound_kernel0_A c Set.univ (grid0.coords t) _ _ _ _ _ _ _ _ _ _ _ _ _ _ _ _ _ _ _ _ _ _ _ _ _ _ hc0 hc1 (iblk0 V c 0 t) (iblk0 V c 1 t) (iblk0 V c 2 t) (iblk0 V c 3 t) (iblk0 V c 4 t) (iblk0 V c 5 t) (iblk0 V c 6 t) (iblk0 V c 7 t) (iblk0 V c 8 t) _ _ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [HS0]; · iexact HS0
    isplitl [HS1]; · iexact HS1
    iintro ⟨H0, H1, H2, H3, H4, H5, H6, H7, H8, H9, H10, HS0, HS1⟩
    isplitl [HS0 HS1 HR Hg]
    · isplitr [Hg]
      · isplitl [HS0]; · iexact HS0
        isplitl [HS1]; · iexact HS1
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    iexists _; iexact H10
  · have hc0 : ¬cond0_0 (grid0.coords t) := fun h => h0 ((hcond0_0 t).mp h)
    rw [PhiS_pos V c _ _ h0, accAt0_later V c t h0]
    by_cases h1 : t.val = 249
    · have hc1 : cond0_1 (grid0.coords t) := (hcond0_1 t).mpr h1
      rw [show (dat0 V c).leavesExact 9 t = owns (c : Thread nD τ) (st0_9 t) fullShare ((dat0 V c).after 9 t) from by
        unfold Dat.leavesExact; rw [liveAt0_9 t hc1], after0_9, accAt0_later V c t h0]
      rw [show (dat0 V c).leavesExact 10 t = owns (c : Thread nD τ) (st0_10 t) fullShare ((dat0 V c).after 10 t) from by
        unfold Dat.leavesExact; rw [liveAt0_10 t hc1], after0_10, accAt0_later V c t h0]
      iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply (sound_kernel0_C c Set.univ (grid0.coords t) _ _ _ _ _ _ _ _ _ _ _ _ _ _ _ _ _ _ _ _ _ _ _ _ _ _ hc0 hc1 (iblk0 V c 0 t) (iblk0 V c 1 t) (iblk0 V c 2 t) (iblk0 V c 3 t) (iblk0 V c 4 t) (iblk0 V c 5 t) (iblk0 V c 6 t) (iblk0 V c 7 t) (iblk0 V c 8 t) _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      isplitl [H10]; · iexists _; iexact H10
      isplitl [HS0]; · iexact HS0
      isplitl [HS1]; · iexact HS1
      iintro ⟨H0, H1, H2, H3, H4, H5, H6, H7, H8, H9, H10, HS0, HS1⟩
      isplitl [HS0 HS1 HR Hg]
      · isplitr [Hg]
        · isplitl [HS0]; · iexact HS0
          isplitl [HS1]; · iexact HS1
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      iexact H10
    · have hc1 : ¬cond0_1 (grid0.coords t) := fun h => h1 ((hcond0_1 t).mp h)
      rw [Dat.leavesExact_idle (dat0 V c) 9 t (idleAt0_9 t hc1) (noFlush0_9 t hc1),
        Dat.leavesExact_idle (dat0 V c) 10 t (idleAt0_10 t hc1) (noFlush0_10 t hc1)]
      iintro ⟨⟨⟨HS0, HS1, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply (sound_kernel0_B c Set.univ (grid0.coords t) _ _ _ _ _ _ _ _ _ _ _ _ _ _ _ _ _ _ _ _ _ _ _ _ _ _ hc0 hc1 (iblk0 V c 0 t) (iblk0 V c 1 t) (iblk0 V c 2 t) (iblk0 V c 3 t) (iblk0 V c 4 t) (iblk0 V c 5 t) (iblk0 V c 6 t) (iblk0 V c 7 t) (iblk0 V c 8 t) _ _ _ _ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [HS0]; · iexact HS0
      isplitl [HS1]; · iexact HS1
      iintro ⟨H0, H1, H2, H3, H4, H5, H6, H7, H8, H9, H10, HS0, HS1⟩
      isplitl [HS0 HS1 HR Hg]
      · isplitr [Hg]
        · isplitl [HS0]; · iexact HS0
          isplitl [HS1]; · iexact HS1
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      iexists _; iexact H10

/-- The pipeline rule's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After any point but the first the invariant gives the class's back: the accumulators' named
    contents are forgotten. -/
theorem Phi_out0 (c : Dev nD) (t : Fin (cfg0.N + 1)) (ht : t.val ≠ 0) : (dat0 V c).Φ t ⊢ Pipeline.ΦA spec0 c := by
  rw [show (dat0 V c).Φ t = PhiS V c t.val (Nat.le_of_lt_succ t.isLt) from rfl, PhiS_pos V c _ _ ht, PhiA0_eq]
  iintro ⟨⟨HS0, HS1, HR⟩, Hg⟩
  isplitr [Hg]
  · isplitl [HS0]; · iexists _; iexact HS0
    isplitl [HS1]; · iexists _; iexact HS1
    iexact HR
  iexact Hg

/-- The same after the last point. -/
theorem hout0 (c : Dev nD) : (dat0 V c).Φ (Fin.last cfg0.N) ⊢ Pipeline.ΦA spec0 c :=
  Phi_out0 V c _ (by rw [Fin.val_last]; have : cfg0.N = 250 := N_0; omega)

end Cert.KernelIdeal.Hand

end
-- ==== Proof.KI.R1.lean ====
/-
  Region 1, the second kernel, at one grid point.

  The kernel reads thirteen input windows and writes one output window. At every grid point each input window's staging
  buffer holds that point's block of its array; every load and the one store go through a whole buffer at offset zero, so
  the body leaves in the output window's buffer exactly the stored value, as a function of the thirteen input blocks.
  This is the body's triple, and from it the pipeline's body obligation at every point.
-/
import proofs.«146594_j41369124995826_1_alg».proof.Proof.Gen.KernelIdeal.Launch
import proofs.«146594_j41369124995826_1_alg».proof.Proof.Gen.KernelIdeal.Skeleton
import proofs.«146594_j41369124995826_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: every declaration below is stated at this parameter
variable (V : (c : Dev nD) → (b : Ref sig .tc) → Buf (Elt F) ((c : Thread nD τ).loc b))

/-! # Region 1: the second kernel, one output block per grid point from thirteen input blocks -/

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! Each input window's current staging buffer holds its block at every point, fetched there or not (a window
    fetched only at the first point keeps a block index that never moves), for any proof data whose array is the
    entry contents and whose body leaves the block in place. -/

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)

theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)

theorem before1_10_of {c : Dev nD} (dat : Dat τ (Elt F) Unit ℕ (UR sig nD τ) ℕ cfg1 c) (hA : dat.A 10 = V c (Pipeline.arrRef spec1 10))
    (hafter : ∀ t, dat.after 10 t = iblk1 V c 10 t) (t : Fin cfg1.N) (d) : dat.before 10 t d = iblk1 V c 10 t :=
  (dat.before_in_eq_fetched 10 rfl (fun _ => rfl) (fun _ _ _ => rfl) (fun t => by rw [hafter]; unfold Dat.blockOf iblk1; rw [hA]; try rfl) t d).trans
    (by unfold Dat.fetched Dat.blockOf iblk1; rw [hA]; try rfl)

theorem before1_11_of {c : Dev nD} (dat : Dat τ (Elt F) Unit ℕ (UR sig nD τ) ℕ cfg1 c) (hA : dat.A 11 = V c (Pipeline.arrRef spec1 11))
    (hafter : ∀ t, dat.after 11 t = iblk1 V c 11 t) (t : Fin cfg1.N) (d) : dat.before 11 t d = iblk1 V c 11 t :=
  (dat.before_in_eq_fetched 11 rfl (fun _ => rfl) (fun _ _ _ => rfl) (fun t => by rw [hafter]; unfold Dat.blockOf iblk1; rw [hA]; try rfl) t d).trans
    (by unfold Dat.fetched Dat.blockOf iblk1; rw [hA]; try rfl)

theorem before1_12_of {c : Dev nD} (dat : Dat τ (Elt F) Unit ℕ (UR sig nD τ) ℕ cfg1 c) (hA : dat.A 12 = V c (Pipeline.arrRef spec1 12))
    (hafter : ∀ t, dat.after 12 t = iblk1 V c 12 t) (t : Fin cfg1.N) (d) : dat.before 12 t d = iblk1 V c 12 t :=
  (dat.before_in_eq_fetched 12 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the one store go through the whole buffer at offset zero -/

abbrev r1_0 : Rect S2000x80 := Rect.unit (s := S2000x80) ![0, 0] S2000x80.size inb_S2000x80_S2000x80_0_0
abbrev r1_1 : Rect S32x128 := Rect.unit (s := S32x128) ![0, 0] S32x128.size inb_S32x128_S32x128_0_0
abbrev r1_2 : Rect S128 := Rect.unit (s := S128) ![0] S128.size inb_S128_S128_0
abbrev r1_3 : Rect S16x64 := Rect.unit (s := S16x64) ![0, 0] S16x64.size inb_S16x64_S16x64_0_0
abbrev r1_4 : Rect S64 := Rect.unit (s := S64) ![0] S64.size inb_S64_S64_0
abbrev r1_5 : Rect S128x256 := Rect.unit (s := S128x256) ![0, 0] S128x256.size inb_S128x256_S128x256_0_0
abbrev r1_6 : Rect S128x256 := Rect.unit (s := S128x256) ![0, 0] S128x256.size inb_S128x256_S128x256_0_0
abbrev r1_7 : Rect S64x256 := Rect.unit (s := S64x256) ![0, 0] S64x256.size inb_S64x256_S64x256_0_0
abbrev r1_8 : Rect S256 := Rect.unit (s := S256) ![0] S256.size inb_S256_S256_0
abbrev r1_9 : Rect S256 := Rect.unit (s := S256) ![0] S256.size inb_S256_S256_0
abbrev r1_10 : Rect S256 := Rect.unit (s := S256) ![0] S256.size inb_S256_S256_0
abbrev r1_11 : Rect S256x128 := Rect.unit (s := S256x128) ![0, 0] S256x128.size inb_S256x128_S256x128_0_0
abbrev r1_12 : Rect S128 := Rect.unit (s := S128) ![0] S128.size inb_S128_S128_0
abbrev r1_13 : Rect S2000x128 := Rect.unit (s := S2000x128) ![0, 0] S2000x128.size inb_S2000x128_S2000x128_0_0

theorem r1_zero1 : (![0] : Fin 1 → Nat) = fun _ => 0 := funext fun a => by fin_cases a <;> rfl
theorem r1_zero2 : (![0, 0] : Fin 2 → Nat) = fun _ => 0 := funext fun a => by fin_cases a <;> rfl

/-! ## What the body leaves in the output window's buffer -/

/-- Window 13's staging buffer after the body, from the thirteen input blocks: its one store, whose payload is
    the second stage's value over the loads of the inputs. -/
def out1 (x0 : Vec F S2000x80 .f32) (x1 : Vec F S32x128 .bf16) (x2 : Vec F S128 .f32) (x3 : Vec F S16x64 .bf16) (x4 : Vec F S64 .f32) (x5 : Vec F S128x256 .bf16) (x6 : Vec F S128x256 .bf16) (x7 : Vec F S64x256 .bf16) (x8 : Vec F S256 .f32) (x9 : Vec F S256 .f32) (x10 : Vec F S256 .f32) (x11 : Vec F S256x128 .bf16) (x12 : Vec F S128 .f32) : Vec F S2000x128 .f32 :=
  View.canon [⟨r1_13, k1_pay1 (k1_pay3 (View.ld x0 r1_0) (View.ld x1 r1_1) (View.ld x2 r1_2)) (k1_pay4 (View.ld x0 r1_0) (View.ld x1 r1_1) (View.ld x2 r1_2)) (k1_pay5 (View.ld x0 r1_0) (View.ld x3 r1_3) (View.ld x4 r1_4)) (k1_pay6 (View.ld x5 r1_5)) (k1_pay7 (View.ld x6 r1_6)) (k1_pay8 (View.ld x7 r1_7)) (View.ld x8 r1_8) (View.ld x9 r1_9) (View.ld x10 r1_10) (View.ld x11 r1_11) (View.ld x12 r1_12)⟩]

/-- The one store covers the buffer. -/
theorem cover1_13 (p0 : Vec F S2000x128 .f32) (y : S2000x128.Idx) :
    ∃ pc ∈ ([⟨r1_13, p0⟩] : List (View.Piece (Elt F) S2000x128 .f32)), y ∈ pc.1.set :=
  ⟨_, List.mem_singleton_self _, View.mem_set_unit_zero (S := S2000x128) r1_zero2 inb_S2000x128_S2000x128_0_0 y⟩

/-- The store covers the whole block and every load is of a whole buffer, so what the body leaves is the payload
    itself over the input blocks. -/
theorem out1_eq (x0 : Vec F S2000x80 .f32) (x1 : Vec F S32x128 .bf16) (x2 : Vec F S128 .f32) (x3 : Vec F S16x64 .bf16) (x4 : Vec F S64 .f32) (x5 : Vec F S128x256 .bf16) (x6 : Vec F S128x256 .bf16) (x7 : Vec F S64x256 .bf16) (x8 : Vec F S256 .f32) (x9 : Vec F S256 .f32) (x10 : Vec F S256 .f32) (x11 : Vec F S256x128 .bf16) (x12 : Vec F S128 .f32) :
    out1 x0 x1 x2 x3 x4 x5 x6 x7 x8 x9 x10 x11 x12 = k1_pay1 (k1_pay3 x0 x1 x2) (k1_pay4 x0 x1 x2) (k1_pay5 x0 x3 x4) (k1_pay6 x5) (k1_pay7 x6) (k1_pay8 x7) x8 x9 x10 x11 x12 := by
  unfold out1
  rw [View.canon_unit_zero (S := S2000x128) r1_zero2 inb_S2000x128_S2000x128_0_0]
  simp only [View.ld_unit_zero (S := S2000x80) r1_zero2 inb_S2000x80_S2000x80_0_0,
    View.ld_unit_zero (S := S32x128) r1_zero2 inb_S32x128_S32x128_0_0,
    View.ld_unit_zero (S := S128) r1_zero1 inb_S128_S128_0,
    View.ld_unit_zero (S := S16x64) r1_zero2 inb_S16x64_S16x64_0_0,
    View.ld_unit_zero (S := S64) r1_zero1 inb_S64_S64_0,
    View.ld_unit_zero (S := S128x256) r1_zero2 inb_S128x256_S128x256_0_0,
    View.ld_unit_zero (S := S64x256) r1_zero2 inb_S64x256_S64x256_0_0,
    View.ld_unit_zero (S := S256) r1_zero1 inb_S256_S256_0,
    View.ld_unit_zero (S := S256x128) r1_zero2 inb_S256x128_S256x128_0_0]

/-! ## The body's triple -/

set_option maxHeartbeats 4000000 in
/-- The body on whole staging memrefs, the inputs' at read contents `xW` and the output's at anything, runs to the
    continuation holding the inputs' as they were and the output's at `out1` of the inputs'. The output buffer is
    also loaded before it is stored; that value is not used. -/
theorem sound_kernel1 (c : Dev nD) (E : Set ℕ) (i : grid1.Coords) (arg1 : Memref sig .tc .vmem S2000x80 .f32) (harg1 : arg1.IsWhole) (arg2 : Memref sig .tc .vmem S32x128 .bf16) (harg2 : arg2.IsWhole) (arg3 : Memref sig .tc .vmem S128 .f32) (harg3 : arg3.IsWhole) (arg4 : Memref sig .tc .vmem S16x64 .bf16) (harg4 : arg4.IsWhole) (arg5 : Memref sig .tc .vmem S64 .f32) (harg5 : arg5.IsWhole) (arg6 : Memref sig .tc .vmem S128x256 .bf16) (harg6 : arg6.IsWhole) (arg7 : Memref sig .tc .vmem S128x256 .bf16) (harg7 : arg7.IsWhole) (arg8 : Memref sig .tc .vmem S64x256 .bf16) (harg8 : arg8.IsWhole) (arg9 : Memref sig .tc .vmem S256 .f32) (harg9 : arg9.IsWhole) (arg10 : Memref sig .tc .vmem S256 .f32) (harg10 : arg10.IsWhole) (arg11 : Memref sig .tc .vmem S256 .f32) (harg11 : arg11.IsWhole) (arg12 : Memref sig .tc .vmem S256x128 .bf16) (harg12 : arg12.IsWhole) (arg13 : Memref sig .tc .vmem S128 .f32) (harg13 : arg13.IsWhole) (arg14 : Memref sig .tc .vmem S2000x128 .f32) (harg14 : arg14.IsWhole)
    (x0 : Vec F S2000x80 .f32) (x1 : Vec F S32x128 .bf16) (x2 : Vec F S128 .f32) (x3 : Vec F S16x64 .bf16) (x4 : Vec F S64 .f32) (x5 : Vec F S128x256 .bf16) (x6 : Vec F S128x256 .bf16) (x7 : Vec F S64x256 .bf16) (x8 : Vec F S256 .f32) (x9 : Vec F S256 .f32) (x10 : Vec F S256 .f32) (x11 : Vec F S256x128 .bf16) (x12 : Vec F S128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ (∃ d, owns (c : Thread nD τ) arg14 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare (out1 x0 x1 x2 x3 x4 x5 x6 x7 x8 x9 x10 x11 x12)) -∗ K ⟨⟩))
      ⊢ wp frame (wpE (defs₀ (F := F)) Variants.none c none) E (cc1__stage2_kernel i arg1 harg1 arg2 harg2 arg3 harg3 arg4 harg4 arg5 harg5 arg6 harg6 arg7 harg7 arg8 harg8 arg9 harg9 arg10 harg10 arg11 harg11 arg12 harg12 arg13 harg13 arg14 harg14) K := by
  simp only [cc1__stage2_kernel_eq_skeleton]; unfold cc1__stage2_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, Hk⟩
  subst hf0
  subst hf1
  subst hf2
  subst hf3
  subst hf4
  subst hf5
  subst hf6
  subst hf7
  subst hf8
  subst hf9
  subst hf10
  subst hf11
  subst hf12
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  iexists _; isplitr
  swap; · iexact H13
  ipureintro
  exact View.read_writes_eq_canon _ _ _ (cover1_13 _)

/-! ## The pipeline's proof data -/

/-- The proof data of the region on core `c`: the arrays as the region finds them; after the body at point `t` each
    input's buffer at its block and the output's at `out1` of the input blocks; the invariant is the scoped rest and
    the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => iblk1 V c 12 t
    | ⟨13, _⟩ => out1 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t)
  Φ _ := Pipeline.ΦA spec1 c
  q _ := fullShare
  owed _ := 0

theorem A_eq1 (c : Dev nD) (w : Fin cfg1.W) : (dat1 V c).A w = V c (Pipeline.arrRef spec1 w) := by
  dsimp only [dat1]

/-! What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = iblk1 V c 11 t := by dsimp only [dat1]
theorem after1_12 (c : Dev nD) (t : Fin cfg1.N) : (dat1 V c).after 12 t = iblk1 V c 12 t := by dsimp only [dat1]
theorem after1_13 (c : Dev nD) (t : Fin cfg1.N) : (dat1 V c).after 13 t = out1 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) := by
  dsimp only [dat1]

/-! Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d
theorem before1_10 (c : Dev nD) (t : Fin cfg1.N) (d) : (dat1 V c).before 10 t d = iblk1 V c 10 t :=
  before1_10_of V (dat1 V c) (A_eq1 V c 10) (after1_10 V c) t d
theorem before1_11 (c : Dev nD) (t : Fin cfg1.N) (d) : (dat1 V c).before 11 t d = iblk1 V c 11 t :=
  before1_11_of V (dat1 V c) (A_eq1 V c 11) (after1_11 V c) t d
theorem before1_12 (c : Dev nD) (t : Fin cfg1.N) (d) : (dat1 V c).before 12 t d = iblk1 V c 12 t :=
  before1_12_of V (dat1 V c) (A_eq1 V c 12) (after1_12 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d))
    ∗ (∃ d, owns (c : Thread nD τ) (st1_6 t) fullShare ((dat1 V c).before 6 t d))
    ∗ (∃ d, owns (c : Thread nD τ) (st1_7 t) fullShare ((dat1 V c).before 7 t d))
    ∗ (∃ d, owns (c : Thread nD τ) (st1_8 t) fullShare ((dat1 V c).before 8 t d))
    ∗ (∃ d, owns (c : Thread nD τ) (st1_9 t) fullShare ((dat1 V c).before 9 t d))
    ∗ (∃ d, owns (c : Thread nD τ) (st1_10 t) fullShare ((dat1 V c).before 10 t d))
    ∗ (∃ d, owns (c : Thread nD τ) (st1_11 t) fullShare ((dat1 V c).before 11 t d))
    ∗ (∃ d, owns (c : Thread nD τ) (st1_12 t) fullShare ((dat1 V c).before 12 t d))
    ∗ (∃ d, owns (c : Thread nD τ) (st1_13 t) fullShare ((dat1 V c).before 13 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t)
    ∗ owns (c : Thread nD τ) (st1_6 t) fullShare ((dat1 V c).after 6 t)
    ∗ owns (c : Thread nD τ) (st1_7 t) fullShare ((dat1 V c).after 7 t)
    ∗ owns (c : Thread nD τ) (st1_8 t) fullShare ((dat1 V c).after 8 t)
    ∗ owns (c : Thread nD τ) (st1_9 t) fullShare ((dat1 V c).after 9 t)
    ∗ owns (c : Thread nD τ) (st1_10 t) fullShare ((dat1 V c).after 10 t)
    ∗ owns (c : Thread nD τ) (st1_11 t) fullShare ((dat1 V c).after 11 t)
    ∗ owns (c : Thread nD τ) (st1_12 t) fullShare ((dat1 V c).after 12 t)
    ∗ owns (c : Thread nD τ) (st1_13 t) fullShare ((dat1 V c).after 13 t))

set_option maxHeartbeats 4000000 in
/-- The body at any point: the inputs' memrefs hold their blocks, so the body's triple applies; the invariant and
    the core's debts pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10, before1_11, before1_12]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11, after1_12, after1_13]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (sound_kernel1 c Set.univ (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (win1_7.stage (cfg1.slots t 7)) (hstage1_7 ((cfg1.slots t 7).cast nbuf1_7)) (win1_8.stage (cfg1.slots t 8)) (hstage1_8 ((cfg1.slots t 8).cast nbuf1_8)) (win1_9.stage (cfg1.slots t 9)) (hstage1_9 ((cfg1.slots t 9).cast nbuf1_9)) (win1_10.stage (cfg1.slots t 10)) (hstage1_10 ((cfg1.slots t 10).cast nbuf1_10)) (win1_11.stage (cfg1.slots t 11)) (hstage1_11 ((cfg1.slots t 11).cast nbuf1_11)) (win1_12.stage (cfg1.slots t 12)) (hstage1_12 ((cfg1.slots t 12).cast nbuf1_12)) (win1_13.stage (cfg1.slots t 13)) (hstage1_13 ((cfg1.slots t 13).cast nbuf1_13))
    (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexists _; iexact H13
  iintro ⟨H0, H1, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Regs.lean ====
/-
  The two kernel regions joined into one run of the whole program.

  The buffers' contents are named at the four boundaries: before and after each region, a host stretch before each. Each
  region, as a segment over the thread state, takes its entry contents to its exit contents: an input array is left as
  entered, an output array ends with its window's write-backs folded over the grid, every other buffer is untouched. From
  these follow the frame (every weakly fair execution terminates with each argument as launched) and the value run (the
  result's buffer ends at what the program's last valuation holds there: the launch contents folded through every host
  stretch and the two regions' exit contents).
-/
import proofs.«146594_j41369124995826_1_alg».proof.Proof.Gen.KernelIdeal.Launch
import proofs.«146594_j41369124995826_1_alg».proof.Proof.Gen.KernelIdeal.Skeleton
import proofs.«146594_j41369124995826_1_alg».proof.Proof.Gen.KernelIdeal.Points
import proofs.«146594_j41369124995826_1_alg».proof.Proof.Gen.KernelIdeal.Regions
import proofs.«146594_j41369124995826_1_alg».proof.Proof.KI.R0
import proofs.«146594_j41369124995826_1_alg».proof.Proof.KI.R1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: every declaration below is stated at this parameter
variable (V : (c : Dev nD) → (b : Ref sig .tc) → Buf (Elt F) ((c : Thread nD τ).loc b))

variable (m : (ℓ : Loc nD τ sig) → Buf (Elt F) ℓ) (ρ : Dev nD → PrngReg)

/-! ## The buffers' contents at the regions' boundaries -/

/-- Core `c`'s buffers when region 0 is entered: the launch contents after the first host stretch. -/
abbrev W1 (c : Dev nD) : Valuation τ sig (Elt F) := StableHlo.after hostOps0 (Gen.V0 m c)
/-- The same read at the TensorCore's references: what region 0's proof data take. -/
abbrev V1' : (c : Dev nD) → (b : Ref sig .tc) → Buf (Elt F) ((c : Thread nD τ).loc b) := fun c b => W1 m c b
/-- At region 0's exit: its arrays at what the pipeline leaves (an input as entered, an output with its write-backs
    folded), every other buffer as entered. -/
def W2 (c : Dev nD) : Valuation τ sig (Elt F) :=
  Pipeline.withArrays spec0 c (W1 m c) fun w => (dat0 (V1' m) c).arrAt w cfg0.N
/-- The same read at the TensorCore's references. -/
abbrev V2' : (c : Dev nD) → (b : Ref sig .tc) → Buf (Elt F) ((c : Thread nD τ).loc b) := fun c b => W2 m c b
/-- Core `c`'s buffers when region 1 is entered: region 0's exit contents after the second host stretch. -/
abbrev W3 (c : Dev nD) : Valuation τ sig (Elt F) := StableHlo.after hostOps1 (W2 m c)
/-- The same read at the TensorCore's references: what region 1's proof data take. -/
abbrev V3' : (c : Dev nD) → (b : Ref sig .tc) → Buf (Elt F) ((c : Thread nD τ).loc b) := fun c b => W3 m c b
/-- At region 1's exit: its arrays at what the pipeline leaves, every other buffer as entered. -/
def W4 (c : Dev nD) : Valuation τ sig (Elt F) :=
  Pipeline.withArrays spec1 c (W3 m c) fun w => (dat1 (V3' m) c).arrAt w cfg1.N
/-- The same read at the TensorCore's references. -/
abbrev V4' : (c : Dev nD) → (b : Ref sig .tc) → Buf (Elt F) ((c : Thread nD τ).loc b) := fun c b => W4 m c b

/-- Region 0's exit contents at one of its arrays: what the pipeline leaves there. -/
theorem W2_arr (c : Dev nD) (w : Fin cfg0.W) :
    W2 m c (Proc.devRef .tc (Pipeline.arrRef spec0 w)) = (dat0 (V1' m) c).arrAt w cfg0.N := by
  unfold W2; exact Pipeline.withArrays_arr spec0 launch0.win.arr_inj c _ _ w
/-- Region 0's exit contents at a buffer that is none of its arrays: the entry contents. -/
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
/-- An input window's array is never written: region 0 leaves it as entered. -/
theorem W2_in (c : Dev nD) (w : Fin cfg0.W) (hin : (cfg0.win w).isOut = false) :
    W2 m c (Proc.devRef .tc (Pipeline.arrRef spec0 w)) = W1 m c (Proc.devRef .tc (Pipeline.arrRef spec0 w)) :=
  (W2_arr m c w).trans (((dat0 (V1' m) c).arrAt_in w hin _).trans (A_eq0 (V1' m) c w))
theorem hF0 (c : Dev nD) (w : Fin cfg0.W) : (dat0 (V1' m) c).arrAt w cfg0.N = V2' m c (Pipeline.arrRef spec0 w) :=
  (W2_arr m c w).symm
theorem hrest0 (c : Dev nD) : ∀ b, b ∉ Finset.univ.image (Pipeline.arrRef spec0) → V2' m c b = V1' m c b :=
  fun b hb => W2_of_ne m c b fun w e => hb (Finset.mem_image.mpr ⟨w, Finset.mem_univ _, e⟩)

/-- Region 1's exit contents at one of its arrays: what the pipeline leaves there. -/
theorem W4_arr (c : Dev nD) (w : Fin cfg1.W) :
    W4 m c (Proc.devRef .tc (Pipeline.arrRef spec1 w)) = (dat1 (V3' m) c).arrAt w cfg1.N := by
  unfold W4; exact Pipeline.withArrays_arr spec1 launch1.win.arr_inj c _ _ w
/-- Region 1's exit contents at a buffer that is none of its arrays: the entry contents. -/
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
/-- An input window's array is never written: region 1 leaves it as entered. -/
theorem W4_in (c : Dev nD) (w : Fin cfg1.W) (hin : (cfg1.win w).isOut = false) :
    W4 m c (Proc.devRef .tc (Pipeline.arrRef spec1 w)) = W3 m c (Proc.devRef .tc (Pipeline.arrRef spec1 w)) :=
  (W4_arr m c w).trans (((dat1 (V3' m) c).arrAt_in w hin _).trans (A_eq1 (V3' m) c w))
theorem hF1 (c : Dev nD) (w : Fin cfg1.W) : (dat1 (V3' m) c).arrAt w cfg1.N = V4' m c (Pipeline.arrRef spec1 w) :=
  (W4_arr m c w).symm
theorem hrest1 (c : Dev nD) : ∀ b, b ∉ Finset.univ.image (Pipeline.arrRef spec1) → V4' m c b = V3' m c b :=
  fun b hb => W4_of_ne m c b fun w e => hb (Finset.mem_image.mpr ⟨w, Finset.mem_univ _, e⟩)

/-- The contents the two regions leave in the buffers they may change: after region 0 its exit contents, after
    region 1 its exit contents (read only at the regions' output arrays). -/
def outsOf : Gen.Outs (F := F)
  | 2, r, c => W2 m c r
  | 4, r, c => W4 m c r
  | _, r, c => W1 m c r

/-- What the value layer reads: each output array holds its window's write-backs folded over the whole grid. -/
theorem out9 (c : Dev nD) : outsOf m 2 main_v9_0 c = (dat0 (V1' m) c).arrAt 9 cfg0.N := W2_arr m c 9
theorem out10 (c : Dev nD) : outsOf m 2 main_v9_1 c = (dat0 (V1' m) c).arrAt 10 cfg0.N := W2_arr m c 10
theorem out24 (c : Dev nD) : outsOf m 4 main_v24 c = (dat1 (V3' m) c).arrAt 13 cfg1.N := W4_arr m c 13

/-- After region 0 the frame's valuation is the exit contents: at the two output arrays by definition, at an input
    array because the pipeline never writes it, elsewhere because the region leaves every other buffer alone. -/
theorem V2_eq (c : Dev nD) : Gen.V2 m (outsOf m) c = W2 m c := by
  funext b
  by_cases h : ∃ w, Proc.devRef .tc (Pipeline.arrRef spec0 w) = b
  · obtain ⟨w, rfl⟩ := h
    have hin : ∀ (w : Fin cfg0.W), (cfg0.win w).isOut = false →
        Pipeline.arrRef spec0 w ≠ main_v9_0 → Pipeline.arrRef spec0 w ≠ main_v9_1 →
        Gen.V2 m (outsOf m) c (Proc.devRef .tc (Pipeline.arrRef spec0 w)) = W2 m c (Proc.devRef .tc (Pipeline.arrRef spec0 w)) := by
      intro w hw h0 h1
      rw [W2_in m c w hw]
      simp only [Gen.V2, Function.update_of_ne (StableHlo.devRef_ne_of_ne h1), Function.update_of_ne (StableHlo.devRef_ne_of_ne h0)]
    match w with
    | ⟨0, _⟩ => exact hin 0 rfl (by decide) (by decide)
    | ⟨1, _⟩ => exact hin 1 rfl (by decide) (by decide)
    | ⟨2, _⟩ => exact hin 2 rfl (by decide) (by decide)
    | ⟨3, _⟩ => exact hin 3 rfl (by decide) (by decide)
    | ⟨4, _⟩ => exact hin 4 rfl (by decide) (by decide)
    | ⟨5, _⟩ => exact hin 5 rfl (by decide) (by decide)
    | ⟨6, _⟩ => exact hin 6 rfl (by decide) (by decide)
    | ⟨7, _⟩ => exact hin 7 rfl (by decide) (by decide)
    | ⟨8, _⟩ => exact hin 8 rfl (by decide) (by decide)
    | ⟨9, _⟩ =>
      show Function.update (Function.update (Gen.V1 m c) (Proc.devRef .tc main_v9_0) _) (Proc.devRef .tc main_v9_1) _ (Proc.devRef .tc main_v9_0) = W2 m c (Proc.devRef .tc main_v9_0)
      rw [Function.update_of_ne (StableHlo.devRef_ne_of_ne (by decide)), Function.update_self]; rfl
    | ⟨10, _⟩ =>
      show Function.update (Function.update (Gen.V1 m c) (Proc.devRef .tc main_v9_0) _) (Proc.devRef .tc main_v9_1) _ (Proc.devRef .tc main_v9_1) = W2 m c (Proc.devRef .tc main_v9_1)
      rw [Function.update_self]; rfl
  · have h0 : b ≠ Proc.devRef .tc main_v9_0 := fun e => h ⟨9, e.symm⟩
    have h1 : b ≠ Proc.devRef .tc main_v9_1 := fun e => h ⟨10, e.symm⟩
    show Function.update (Function.update (Gen.V1 m c) (Proc.devRef .tc main_v9_0) _) (Proc.devRef .tc main_v9_1) _ b = Pipeline.withArrays spec0 c (W1 m c) _ b
    rw [Function.update_of_ne h1, Function.update_of_ne h0]
    unfold Pipeline.withArrays
    rw [dif_neg h]

/-- Before region 1 the frame's valuation is the entry contents: the same host stretch from the same contents. -/
theorem V3_eq (c : Dev nD) : Gen.V3 m (outsOf m) c = W3 m c := by
  show StableHlo.after hostOps1 (Gen.V2 m (outsOf m) c) = StableHlo.after hostOps1 (W2 m c)
  rw [V2_eq]

/-- After region 1 the frame's valuation is the exit contents. -/
theorem V4_eq (c : Dev nD) : Gen.V4 m (outsOf m) c = W4 m c := by
  funext b
  show Function.update (Gen.V3 m (outsOf m) c) (Proc.devRef .tc main_v24) (outsOf m 4 main_v24 c) b = W4 m c b
  rw [V3_eq]
  by_cases h : ∃ w, Proc.devRef .tc (Pipeline.arrRef spec1 w) = b
  · obtain ⟨w, rfl⟩ := h
    have hin : ∀ (w : Fin cfg1.W), (cfg1.win w).isOut = false → Pipeline.arrRef spec1 w ≠ main_v24 →
        Function.update (W3 m c) (Proc.devRef .tc main_v24) (outsOf m 4 main_v24 c) (Proc.devRef .tc (Pipeline.arrRef spec1 w))
          = W4 m c (Proc.devRef .tc (Pipeline.arrRef spec1 w)) := by
      intro w hw h0
      rw [W4_in m c w hw, Function.update_of_ne (StableHlo.devRef_ne_of_ne h0)]
    match w with
    | ⟨0, _⟩ => exact hin 0 rfl (by decide)
    | ⟨1, _⟩ => exact hin 1 rfl (by decide)
    | ⟨2, _⟩ => exact hin 2 rfl (by decide)
    | ⟨3, _⟩ => exact hin 3 rfl (by decide)
    | ⟨4, _⟩ => exact hin 4 rfl (by decide)
    | ⟨5, _⟩ => exact hin 5 rfl (by decide)
    | ⟨6, _⟩ => exact hin 6 rfl (by decide)
    | ⟨7, _⟩ => exact hin 7 rfl (by decide)
    | ⟨8, _⟩ => exact hin 8 rfl (by decide)
    | ⟨9, _⟩ => exact hin 9 rfl (by decide)
    | ⟨10, _⟩ => exact hin 10 rfl (by decide)
    | ⟨11, _⟩ => exact hin 11 rfl (by decide)
    | ⟨12, _⟩ => exact hin 12 rfl (by decide)
    | ⟨13, _⟩ =>
      show Function.update (W3 m c) (Proc.devRef .tc main_v24) _ (Proc.devRef .tc main_v24) = W4 m c (Proc.devRef .tc main_v24)
      rw [Function.update_self]; rfl
  · have h0 : b ≠ Proc.devRef .tc main_v24 := fun e => h ⟨13, e.symm⟩
    rw [Function.update_of_ne h0]
    show W3 m c b = Pipeline.withArrays spec1 c (W3 m c) _ b
    unfold Pipeline.withArrays
    rw [dif_neg h]

/-! ## The proof data family and the thread state -/

/-- Every pipeline's proof data, each at its region's entry contents. -/
def pdats : (p : Fin 2) → (c : Dev nD) → Dat τ (Elt F) Unit ℕ (UR sig nD τ) ℕ (cfgs p) c
  | ⟨0, _⟩ => fun c => dat0 (V1' m) c
  | ⟨1, _⟩ => fun c => dat1 (V3' m) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, at
    nothing. -/
abbrev R (c : Dev nD) : sProp 𝕄 := iprop((∃ r, prngReg c r) ∗ ∃ W, owes (c : Thread nD τ) (0 : CellTallies nD τ sig Unit) W)
/-- The same rest between any two items. -/
abbrev E : Fin 3 → Dev nD → sProp 𝕄 := fun _ c => R (F := F) c

/-! ## The regions as segments -/

set_option backward.isDefEq.respectTransparency.types false in
/-- REGION 0 over the thread state: entered from every unscoped buffer at `W1`, left at `W2`. Its arrays are
    split out of the unscoped buffers and put back at the exit contents; the generator register and the scoped rest go
    into the region's invariant and come back; nothing owed; no semaphore of the kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1' m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1' m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1' m c) fun w => A_eq0 (V1' m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have hi := hin0 (V1' m) c
    rw [show (pdats m 0 c).Φ 0 = (dat0 (V1' m) c).Φ 0 from rfl]
    iintro ⟨Hp, -, Hr⟩
    iapply hi
    unfold Pipeline.ΦA
    isplitl [Hr]; · iexact Hr
    iexact Hp
  hout c := by
    have ho := hout0 (V1' m) c
    unfold Pipeline.ΦA at ho
    rw [Pipeline.ownSems0_none, show (pdats m 0 c).Φ (Fin.last _) = (dat0 (V1' m) c).Φ (Fin.last cfg0.N) from rfl]
    iintro H
    ihave H' := ho $$ H
    icases H' with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1' m c) (V2' m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- REGION 1 over the thread state: entered from every unscoped buffer at `W3`, left at `W4`. Its arrays are
    split out of the unscoped buffers and put back at the exit contents; the generator register and the scoped rest go
    into the region's invariant and come back; nothing owed; no semaphore of the kernel's own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3' m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3' m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V3' m c) fun w => A_eq1 (V3' m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (V3' m c) (V4' m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The frame and the value run -/

/-- The launch element: the pipeline library's at every pipeline's staging cells; no ghost resource of our own. -/
theorem hu₀ : (ownU (initOf (Pipeline.cells cfgs cellOf_inj) (Pipeline.launchToks cfgs cellOf_inj)) : sProp 𝕄)
    ⊢ |={Set.univ}=> iprop(BI.own (emb₁ (initOf (Pipeline.cells cfgs cellOf_inj) (Pipeline.launchToks cfgs cellOf_inj))) ∗ bigSep Finset.univ (fun _ : Dev nD => (BI.emp : sProp 𝕄))) := by
  iintro Hu; imodintro
  isplitl [Hu]
  · iapply (show (ownU (initOf (Pipeline.cells cfgs cellOf_inj) (Pipeline.launchToks cfgs cellOf_inj)) : sProp 𝕄)
        ⊢ BI.own (emb₁ (initOf (Pipeline.cells cfgs cellOf_inj) (Pipeline.launchToks cfgs cellOf_inj))) from .rfl)
    iexact Hu
  iapply (show (BI.emp : sProp 𝕄) ⊢ bigSep Finset.univ (fun _ : Dev nD => (BI.emp : sProp 𝕄)) from by rw [BI.bigSep_emp_const])
  iempintro

/-- The launch makes the rest on every core at once: each core keeps its generator register and its dues, at nothing. -/
theorem hE0 : iprop((bigSep Finset.univ fun c : Dev nD => iprop(unscopedSems0 c ∗ owes (c : Thread nD τ) ((0 : Dev nD → CellTallies nD τ sig Unit) c) ∅ ∗ Pipeline.launchCred (0 : Dev nD → CellTallies nD τ sig Unit) c ∗ prngReg c (ρ c) ∗ (BI.emp : sProp 𝕄))) ∗ levAts L lv)
    ⊢ (|={Set.univ}=> bigSep Finset.univ (E (F := F) 0) : sProp 𝕄) := by
  refine Pipeline.initEach L lv fun c => ?_
  iintro ⟨⟨-, HO, -, Hp, -⟩, -⟩
  imodintro
  isplitl [Hp]; · iexists _; iexact Hp
  iexists ∅; iexact HO

/-- The regions' thread states meet the frame's valuations: region 0 is left at the frame's valuation after it, region 1
    entered from the one before it and left at the one after it. -/
theorem hpost0 (c : Dev nD) : (reg0 m).post c
    ⊢ iprop(StableHlo.held (c : Thread nD τ) (Pipeline.ucRefs τ sig) (Gen.V2 m (outsOf m) c) ∗ E (F := F) 1 c) := by
  rw [V2_eq]; exact .rfl
theorem hpre1 (c : Dev nD) : iprop(StableHlo.held (c : Thread nD τ) (Pipeline.ucRefs τ sig) (Gen.V3 m (outsOf m) c) ∗ E (F := F) 1 c)
    ⊢ (reg1 m).pre c := by
  rw [V3_eq]; exact .rfl
theorem hpost1 (c : Dev nD) : (reg1 m).post c
    ⊢ iprop(StableHlo.held (c : Thread nD τ) (Pipeline.ucRefs τ sig) (Gen.V4 m (outsOf m) c) ∗ E (F := F) 2 c) := by
  rw [V4_eq]; exact .rfl

set_option backward.isDefEq.respectTransparency.types false in
/-- THE FRAME: from any memory with zero counters every weakly fair execution of @main terminates and every final
    memory holds each argument as launched: the conditional frame at the two regions' records. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  Gen.frame_cond m emb₁ () 𝒱₀ L lv (fun _ _ => rfl) ρ (outsOf m) (pdats m) 0 (fun _ => iprop(emp))
    (initOf (Pipeline.cells cfgs cellOf_inj) (Pipeline.launchToks cfgs cellOf_inj)) hu₀ E (hE0 ρ)
    (fun c => by iintro ⟨-, HO⟩; iexact HO)
    (reg0 m) (fun c => .rfl) (hpost0 m)
    (reg1 m) (hpre1 m) (hpost1 m)

set_option backward.isDefEq.respectTransparency.types false in
/-- THE VALUE RUN: the same run with the result read as well: every final memory holds, at the result's buffer, what the
    last valuation holds there (the launch contents folded through every host stretch and the two regions' exit
    contents), and each argument as launched. -/
theorem run_val : θ_run defs (onTc (τ := τ) (main (F := F))) ⟨m, fun _ => 0, ρ⟩ (fun r => ∀ c : Dev nD,
      r.2.mem ((c.tc : Thread nD τ).loc main_v83) = Gen.V15 m (outsOf m) c main_v83
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) := by
  refine Pipeline.θ_run_regions_kit_dev (pcfgs (F := F)) adm (pdats m) () cellOf_inj emb₁ defs₀ 𝒱₀ L lv m ρ main
    (Gen.segs m (outsOf m) 𝒱₀ L lv E () (pdats m) (reg0 m) (reg1 m))
    (fun c Q => by
      rewrite [main_chain c, Pipeline.Seg.run_eq_chain,
        show (Gen.segs m (outsOf m) 𝒱₀ L lv E () (pdats m) (reg0 m) (reg1 m) c).map Pipeline.Seg.prog = [
          StableHlo.seq hostOps0,
          Prog.lift (.customCall (Pipeline.entry 0) ()),
          StableHlo.seq hostOps1,
          Prog.lift (.customCall (Pipeline.entry 1) ()),
          StableHlo.seq hostOps2,
          StableHlo.seq hostOps2_1,
          StableHlo.seq hostOps2_2,
          StableHlo.seq hostOps2_3,
          StableHlo.seq hostOps2_4,
          StableHlo.seq hostOps2_5,
          StableHlo.seq hostOps2_6,
          StableHlo.seq hostOps2_7,
          StableHlo.seq hostOps2_8,
          StableHlo.seq hostOps2_9,
          StableHlo.seq hostOps2_10 ] from rfl]
      exact .rfl)
    (fun c => by simp only [Gen.segs, Pipeline.Seg.pipes_host, Pipeline.Seg.pipes_region, Pipeline.Seg.pipes_nil]; decide)
    0 (fun _ _ => rfl) (fun _ => iprop(emp))
    (initOf (Pipeline.cells cfgs cellOf_inj) (Pipeline.launchToks cfgs cellOf_inj)) hu₀
    (T₀ := fun c => iprop(StableHlo.held (c : Thread nD τ) (Pipeline.ucRefs τ sig) (Gen.V0 m c) ∗ E 0 c))
    (Tₙ := fun c => StableHlo.held (c : Thread nD τ) (Pipeline.ucRefs τ sig) (Gen.V15 m (outsOf m) c))
    (hch := fun c => ⟨.rfl, .rfl, hpost0 m c, hpre1 m c, hpost1 m c,
      .rfl, .rfl, .rfl, .rfl, .rfl, .rfl, .rfl, .rfl, .rfl, .rfl, sep_mono .rfl (by iintro ⟨-, HO⟩; iexact HO)⟩)
    (hinit := ?_)
    (QY := fun c s => s.mem ((c.tc : Thread nD τ).loc main_v83) = Gen.V15 m (outsOf m) c main_v83
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7)
      ∧ s.mem ((c.tc : Thread nD τ).loc main_arg8) = m ((c.tc : Thread nD τ).loc main_arg8)
      ∧ s.mem ((c.tc : Thread nD τ).loc main_arg9) = m ((c.tc : Thread nD τ).loc main_arg9)
      ∧ s.mem ((c.tc : Thread nD τ).loc main_arg10) = m ((c.tc : Thread nD τ).loc main_arg10)
      ∧ s.mem ((c.tc : Thread nD τ).loc main_arg11) = m ((c.tc : Thread nD τ).loc main_arg11)
      ∧ s.mem ((c.tc : Thread nD τ).loc main_arg12) = m ((c.tc : Thread nD τ).loc main_arg12)
      ∧ s.mem ((c.tc : Thread nD τ).loc main_arg13) = m ((c.tc : Thread nD τ).loc main_arg13)
      ∧ s.mem ((c.tc : Thread nD τ).loc main_arg14) = m ((c.tc : Thread nD τ).loc main_arg14)
      ∧ s.mem ((c.tc : Thread nD τ).loc main_arg15) = m ((c.tc : Thread nD τ).loc main_arg15)
      ∧ s.mem ((c.tc : Thread nD τ).loc main_arg16) = m ((c.tc : Thread nD τ).loc main_arg16)
      ∧ s.mem ((c.tc : Thread nD τ).loc main_arg17) = m ((c.tc : Thread nD τ).loc main_arg17))
    (hfin := fun c s' => ?_) (hQ := fun _ h => h)
  · -- the launch: the unscoped buffers are held at the launch contents; each core keeps its register and its dues
    refine Pipeline.initEach L lv fun c => ?_
    rw [show unscopedBufs c (fun b => m ((c : Thread nD τ).loc b)) = StableHlo.held (c : Thread nD τ) (Pipeline.ucRefs τ sig) (Gen.V0 m c)
      from Pipeline.unscopedBufs_held c (Gen.V0 m c)]
    iintro ⟨⟨Hh, -, HO, -, Hp, -⟩, -⟩
    imodintro
    isplitl [Hh]; · iexact Hh
    isplitl [Hp]; · iexists _; iexact Hp
    iexists ∅; iexact HO
  · -- the end: the result's buffer and each argument's read off the last valuation
    unfold StableHlo.held
    iintro ⟨Hh, HSI⟩
    ihave Hr := (pointsTo_read_all (Pipeline.ucRefs τ sig) (fun b => ((c : Thread nD τ).1, b)) (Gen.V15 m (outsOf m) c) s') $$ [Hh HSI]
    · isplitl [Hh] <;> iassumption
    icases Hr with ⟨%h, HSI⟩
    imodintro
    isplitr
    · ipureintro
      exact ⟨h (Proc.devRef .tc main_v83) (Finset.mem_filter.mpr ⟨StableHlo.devRef_mem_tcRefs main_v83, by decide⟩),
        (h (Proc.devRef .tc main_arg0) (Finset.mem_filter.mpr ⟨StableHlo.devRef_mem_tcRefs main_arg0, by decide⟩)).trans (Gen.V15_main_arg0 m (outsOf m) c),
        (h (Proc.devRef .tc main_arg1) (Finset.mem_filter.mpr ⟨StableHlo.devRef_mem_tcRefs main_arg1, by decide⟩)).trans (Gen.V15_main_arg1 m (outsOf m) c),
        (h (Proc.devRef .tc main_arg2) (Finset.mem_filter.mpr ⟨StableHlo.devRef_mem_tcRefs main_arg2, by decide⟩)).trans (Gen.V15_main_arg2 m (outsOf m) c),
        (h (Proc.devRef .tc main_arg3) (Finset.mem_filter.mpr ⟨StableHlo.devRef_mem_tcRefs main_arg3, by decide⟩)).trans (Gen.V15_main_arg3 m (outsOf m) c),
        (h (Proc.devRef .tc main_arg4) (Finset.mem_filter.mpr ⟨StableHlo.devRef_mem_tcRefs main_arg4, by decide⟩)).trans (Gen.V15_main_arg4 m (outsOf m) c),
        (h (Proc.devRef .tc main_arg5) (Finset.mem_filter.mpr ⟨StableHlo.devRef_mem_tcRefs main_arg5, by decide⟩)).trans (Gen.V15_main_arg5 m (outsOf m) c),
        (h (Proc.devRef .tc main_arg6) (Finset.mem_filter.mpr ⟨StableHlo.devRef_mem_tcRefs main_arg6, by decide⟩)).trans (Gen.V15_main_arg6 m (outsOf m) c),
        (h (Proc.devRef .tc main_arg7) (Finset.mem_filter.mpr ⟨StableHlo.devRef_mem_tcRefs main_arg7, by decide⟩)).trans (Gen.V15_main_arg7 m (outsOf m) c),
        (h (Proc.devRef .tc main_arg8) (Finset.mem_filter.mpr ⟨StableHlo.devRef_mem_tcRefs main_arg8, by decide⟩)).trans (Gen.V15_main_arg8 m (outsOf m) c),
        (h (Proc.devRef .tc main_arg9) (Finset.mem_filter.mpr ⟨StableHlo.devRef_mem_tcRefs main_arg9, by decide⟩)).trans (Gen.V15_main_arg9 m (outsOf m) c),
        (h (Proc.devRef .tc main_arg10) (Finset.mem_filter.mpr ⟨StableHlo.devRef_mem_tcRefs main_arg10, by decide⟩)).trans (Gen.V15_main_arg10 m (outsOf m) c),
        (h (Proc.devRef .tc main_arg11) (Finset.mem_filter.mpr ⟨StableHlo.devRef_mem_tcRefs main_arg11, by decide⟩)).trans (Gen.V15_main_arg11 m (outsOf m) c),
        (h (Proc.devRef .tc main_arg12) (Finset.mem_filter.mpr ⟨StableHlo.devRef_mem_tcRefs main_arg12, by decide⟩)).trans (Gen.V15_main_arg12 m (outsOf m) c),
        (h (Proc.devRef .tc main_arg13) (Finset.mem_filter.mpr ⟨StableHlo.devRef_mem_tcRefs main_arg13, by decide⟩)).trans (Gen.V15_main_arg13 m (outsOf m) c),
        (h (Proc.devRef .tc main_arg14) (Finset.mem_filter.mpr ⟨StableHlo.devRef_mem_tcRefs main_arg14, by decide⟩)).trans (Gen.V15_main_arg14 m (outsOf m) c),
        (h (Proc.devRef .tc main_arg15) (Finset.mem_filter.mpr ⟨StableHlo.devRef_mem_tcRefs main_arg15, by decide⟩)).trans (Gen.V15_main_arg15 m (outsOf m) c),
        (h (Proc.devRef .tc main_arg16) (Finset.mem_filter.mpr ⟨StableHlo.devRef_mem_tcRefs main_arg16, by decide⟩)).trans (Gen.V15_main_arg16 m (outsOf m) c),
        (h (Proc.devRef .tc main_arg17) (Finset.mem_filter.mpr ⟨StableHlo.devRef_mem_tcRefs main_arg17, by decide⟩)).trans (Gen.V15_main_arg17 m (outsOf m) c)⟩
    · iexact HSI

end Cert.KernelIdeal.Hand

end
-- ==== Proof.KI.Tail.lean ====
/-
  The host operations that follow the second kernel, as one pure function of the kernel's output array and of
  the program's arguments.

  From the segment lengths idx (10000 of them) the program builds, with integer operations only, the segment
  number of each of the 500000 rows: the lengths rolled by one place with a zero put first and summed cumulatively
  give each segment's first row; a one scattered at every first row and summed cumulatively, minus one, numbers
  the rows; reading the identity table at those numbers (out-of-range entries marked) gives the scatter indices.
  The rows of the kernel's array are then added into their segments, each segment divided by its length, sent
  through a dense layer, normalised over the 10000 segments column by column (centred form), rectified, and sent
  through a last dense layer into one feature per segment.
-/
import proofs.«146594_j41369124995826_1_alg».proof.Proof.KI.Regs
import Idealize.ShloMosaic.Lib.StableHlo.Run
import Idealize.ShloMosaic.PureOps.Ideal

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.StableHlo

/-! ## The stages -/

/-- The segment lengths rolled by one place: the last length first, then the first 9999. -/
def rollK (idx : IVec S10000 32) : IVec S10000 32 :=
  concatenate S10000 0 [⟨S1, extractStridedSlice S1 ![9999] idx slices_S10000_S1_9999⟩,
    ⟨S9999, extractStridedSlice S9999 ![0] idx slices_S10000_S9999_0⟩] concatenates_S1_S9999_S10000_d0

/-- The rolled lengths with a zero written over entry 0. -/
def headZeroK (rolled : IVec S10000 32) : IVec S10000 32 :=
  Host.scatter scatter_S10000_S1_S__n_0_0_0 (fun _ b => b) rolled
    (broadcastInDim S1 ![] bcast_S_S1 (constantI S_ 32 0#32)) (constantI S_ 32 0#32)

/-- The cumulative sum over 10000 entries: entry s is the sum of entries 0 … s. -/
def cumsum10000K (x : IVec S10000 32) : IVec S10000 32 :=
  Host.reduceWindow IntOp.addi ![10000] ![1] ![9999] ![0] x
    (broadcastInDim S_ ![] bcast_S_S_ (constantI S_ 32 0#32)) reduceWindows_S10000_S10000_w10000s1p9999_0 h_S_

/-- A one added at each segment's first row (a negative first row wrapped around by 500000), zero elsewhere. -/
def marksK (starts : IVec S10000 32) : IVec S500000 32 :=
  Host.scatter scatter_S500000_S10000x1_S10000_n_0_0_1 IntOp.addi
    (broadcastInDim S500000 ![] bcast_S_S500000 (constantI S_ 32 0#32))
    (broadcastInDim S10000x1 ![0] bcast_S10000_S10000x1_0
      (select (cmpi .slt starts (broadcastInDim S10000 ![] bcast_S_S10000 (constantI S_ 32 0#32)))
        (addi starts (broadcastInDim S10000 ![] bcast_S_S10000 (constantI S_ 32 500000#32))) starts))
    (broadcastInDim S10000 ![] bcast_S_S10000 (constantI S_ 32 1#32))

/-- The cumulative sum over 500000 entries. -/
def cumsum500000K (x : IVec S500000 32) : IVec S500000 32 :=
  Host.reduceWindow IntOp.addi ![500000] ![1] ![499999] ![0] x
    (broadcastInDim S_ ![] bcast_S_S_ (constantI S_ 32 0#32)) reduceWindows_S500000_S500000_w500000s1p499999_0 h_S_

/-- The running count of first rows, minus one: each row's segment number. -/
def segOfK (counts : IVec S500000 32) : IVec S500000 32 :=
  subi counts (broadcastInDim S500000 ![] bcast_S_S500000 (constantI S_ 32 1#32))

/-- The table read at each row's segment number (a negative number wrapped around by 10000); where the wrapped
    number is outside 0 … 9999 the entry is the word 2147483648. -/
def takeK (table : IVec S10000 32) (seg : IVec S500000 32) : IVec S500000 32 :=
  select
    (Host.reduce IntOp.andi
      (andi
        (cmpi .sge
          (broadcastInDim S500000x1 ![0] bcast_S500000_S500000x1_0
            (select (cmpi .slt seg (broadcastInDim S500000 ![] bcast_S_S500000 (constantI S_ 32 0#32)))
              (addi seg (broadcastInDim S500000 ![] bcast_S_S500000 (constantI S_ 32 10000#32))) seg))
          (broadcastInDim S500000x1 ![] bcast_S_S500000x1 (constantI S_ 32 0#32)))
        (cmpi .sle
          (broadcastInDim S500000x1 ![0] bcast_S500000_S500000x1_0
            (select (cmpi .slt seg (broadcastInDim S500000 ![] bcast_S_S500000 (constantI S_ 32 0#32)))
              (addi seg (broadcastInDim S500000 ![] bcast_S_S500000 (constantI S_ 32 10000#32))) seg))
          (broadcastInDim S500000x1 ![0, 1] bcast_S1x1_S500000x1_0_1
            (broadcastInDim S1x1 ![1] bcast_S1_S1x1_1 (constantI S1 32 9999#32)))))
      (constantI S_ 1 1#1) reducesTo_S500000x1_S500000_d1 h_S_)
    (Host.gather gather_S10000_S500000x1_S500000_n_0_n_n_0_1_1 table
      (broadcastInDim S500000x1 ![0] bcast_S500000_S500000x1_0
        (select (cmpi .slt seg (broadcastInDim S500000 ![] bcast_S_S500000 (constantI S_ 32 0#32)))
          (addi seg (broadcastInDim S500000 ![] bcast_S_S500000 (constantI S_ 32 10000#32))) seg)))
    (broadcastInDim S500000 ![] bcast_S_S500000 (constantI S_ 32 2147483648#32))

/-- A vector of 128 entries repeated on each of the 10000 rows. -/
def rows128K (v : FVec Ideal S128 .f32) : FVec Ideal S10000x128 .f32 :=
  broadcastInDim S10000x128 ![0, 1] bcast_S1x128_S10000x128_0_1 (broadcastInDim S1x128 ![1] bcast_S128_S1x128_1 v)

/-- The rows added into their segments, each segment divided by its length, through the first dense layer. -/
def fc1K (at_ : IVec S500000 32) (xf : FVec Ideal S500000x128 .f32) (idx : IVec S10000 32)
    (fc1W : FVec Ideal S128x128 .f32) (fc1b : FVec Ideal S128 .f32) : FVec Ideal S10000x128 .f32 :=
  addf
    (Host.dotGeneral dot_S10000x128_S128x128_S10000x128_1_0_0_1_n_n none
      (Host.divf
        (Host.scatterAdd scatter_S10000x128_S500000x1_S500000x128_1_0_0_1
          (broadcastInDim S10000x128 ![] bcast_S_S10000x128 (constant (F := Ideal) S_ .f32 0x00000000#32))
          (broadcastInDim S500000x1 ![0] bcast_S500000_S500000x1_0 at_) xf)
        (broadcastInDim S10000x128 ![0, 1] bcast_S10000x1_S10000x128_0_1
          (sitofp (F := Ideal) .f32 (broadcastInDim S10000x1 ![0] bcast_S10000_S10000x1_0 idx))))
      fc1W)
    (rows128K fc1b)

/-- The column means over the 10000 rows. -/
def meanK (h : FVec Ideal S10000x128 .f32) : FVec Ideal S128 .f32 :=
  Host.divf (Host.reduceAdd h (constant (F := Ideal) S_ .f32 0x00000000#32) reducesTo_S10000x128_S128_d0 h_S_)
    (broadcastInDim S128 ![] bcast_S_S128 (constant (F := Ideal) S_ .f32 0x461C4000#32))

/-- The column variances in the centred form. -/
def varK (h : FVec Ideal S10000x128 .f32) : FVec Ideal S128 .f32 :=
  Host.divf
    (Host.reduceAdd (mulf (subf h (rows128K (meanK h))) (subf h (rows128K (meanK h))))
      (constant (F := Ideal) S_ .f32 0x00000000#32) reducesTo_S10000x128_S128_d0 h_S_)
    (broadcastInDim S128 ![] bcast_S_S128 (constant (F := Ideal) S_ .f32 0x461C4000#32))

/-- The centred array times the reciprocal root of variance plus ε, scaled and shifted. -/
def bnK (h : FVec Ideal S10000x128 .f32) (g1 b1 : FVec Ideal S128 .f32) : FVec Ideal S10000x128 .f32 :=
  addf
    (mulf
      (mulf (subf h (rows128K (meanK h)))
        (rows128K (Host.rsqrt (addf (varK h)
          (broadcastInDim S128 ![] bcast_S_S128 (constant (F := Ideal) S_ .f32 0x3727C5AC#32))))))
      (rows128K g1))
    (rows128K b1)

/-- The positive part. -/
def reluK (x : FVec Ideal S10000x128 .f32) : FVec Ideal S10000x128 .f32 :=
  maximumf x (broadcastInDim S10000x128 ![] bcast_S_S10000x128 (constant (F := Ideal) S_ .f32 0x00000000#32))

/-- The last dense layer: one feature per segment. -/
def headK (x : FVec Ideal S10000x128 .f32) (fc2W : FVec Ideal S128x1 .f32) (fc2b : FVec Ideal S1 .f32) :
    FVec Ideal S10000x1 .f32 :=
  addf (Host.dotGeneral dot_S10000x128_S128x1_S10000x1_1_0_0_1_n_n none x fc2W)
    (broadcastInDim S10000x1 ![0, 1] bcast_S1x1_S10000x1_0_1 (broadcastInDim S1x1 ![1] bcast_S1_S1x1_1 fc2b))

/-- Each row's scatter index, from the segment lengths alone. -/
def rowSegK (idx : IVec S10000 32) : IVec S500000 32 :=
  takeK (iotaInDim S10000 32 0) (segOfK (cumsum500000K (marksK (cumsum10000K (headZeroK (rollK idx))))))

/-- The whole tail: from the kernel's array and the arguments to the program's result. -/
def tailK (xf : FVec Ideal S500000x128 .f32) (idx : IVec S10000 32) (fc1W : FVec Ideal S128x128 .f32)
    (fc1b g1 b1 : FVec Ideal S128 .f32) (fc2W : FVec Ideal S128x1 .f32) (fc2b : FVec Ideal S1 .f32) :
    FVec Ideal S10000x1 .f32 :=
  headK (reluK (bnK (fc1K (rowSegK idx) xf idx fc1W fc1b) g1 b1)) fc2W fc2b

/-! ## Each stretch of operations computes its stage -/

section Stretches

variable (w : Valuation τ sig (Elt Ideal))

theorem after_iota : StableHlo.after (hostOps2 (F := Ideal)) w main_v25 = iotaInDim S10000 32 0 := by
  simp only [hostOps2]; after_results

theorem after_roll : StableHlo.after (hostOps2_1 (F := Ideal)) w main_v26 = rollK (w main_arg1) := by
  simp only [hostOps2_1]; after_results; simp only [TRef.ofBuf, TRef.toBuf, cast_eq]; rfl

theorem after_headZero : StableHlo.after (hostOps2_2 (F := Ideal)) w main_v28 = headZeroK (w main_v26) := by
  simp only [hostOps2_2]; after_results; rfl

theorem after_cumsum10000 : StableHlo.after (hostOps2_3 (F := Ideal)) w main_v29 = cumsum10000K (w main_v28) := by
  simp only [hostOps2_3]; after_results; simp only [TRef.ofBuf, TRef.toBuf, cast_eq]; rfl

theorem after_marks : StableHlo.after (hostOps2_4 (F := Ideal)) w main_v38 = marksK (w main_v29) := by
  simp only [hostOps2_4]; after_results; rfl

theorem after_cumsum500000 : StableHlo.after (hostOps2_5 (F := Ideal)) w main_v39 = cumsum500000K (w main_v38) := by
  simp only [hostOps2_5]; after_results; simp only [TRef.ofBuf, TRef.toBuf, cast_eq]; rfl

theorem after_segOf : StableHlo.after (hostOps2_6 (F := Ideal)) w main_v41 = segOfK (w main_v39) := by
  simp only [hostOps2_6]; after_results; rfl

theorem after_take : StableHlo.after (hostOps2_7 (F := Ideal)) w main_v42 = takeK (w main_v25) (w main_v41) := by
  simp only [hostOps2_7]; after_results_simp; simp only [TRef.ofBuf, TRef.toBuf, cast_eq]; rfl

theorem after_bn : StableHlo.after (hostOps2_8 (F := Ideal)) w main_v78
    = bnK (fc1K (w main_v42) (w main_v24) (w main_arg1) (w main_arg12) (w main_arg13)) (w main_arg14) (w main_arg15) := by
  simp only [hostOps2_8]; after_results_simp; rfl

theorem after_relu : StableHlo.after (hostOps2_9 (F := Ideal)) w main_v79 = reluK (w main_v78) := by
  simp only [hostOps2_9]; after_results; simp only [TRef.ofBuf, TRef.toBuf, cast_eq]; rfl

theorem after_head : StableHlo.after (hostOps2_10 (F := Ideal)) w main_v83
    = headK (w main_v79) (w main_arg16) (w main_arg17) := by
  simp only [hostOps2_10]; after_results; rfl

end Stretches

/-! ## What the stretches leave alone -/

section Pass

variable (m : (ℓ : Loc nD τ sig) → Buf (Elt Ideal) ℓ)

/-- The kernel's output array is not written again before the scatter-add reads it. -/
theorem V12_v24 (c : Dev nD) : Gen.V12 m (outsOf m) c main_v24 = outsOf m 4 main_v24 c :=
  (Gen.V12_of m (outsOf m) c main_v24 (by decide)).trans <| (Gen.V11_of m (outsOf m) c main_v24 (by decide)).trans <| (Gen.V10_of m (outsOf m) c main_v24 (by decide)).trans <| (Gen.V9_of m (outsOf m) c main_v24 (by decide)).trans <| (Gen.V8_of m (outsOf m) c main_v24 (by decide)).trans <| (Gen.V7_of m (outsOf m) c main_v24 (by decide)).trans <| (Gen.V6_of m (outsOf m) c main_v24 (by decide)).trans <| (Gen.V5_of m (outsOf m) c main_v24 (by decide)).trans (Function.update_self ..)

/-- The identity table is not written again before the gather reads it. -/
theorem V11_v25 (c : Dev nD) : Gen.V11 m (outsOf m) c main_v25 = Gen.V5 m (outsOf m) c main_v25 :=
  (Gen.V11_of m (outsOf m) c main_v25 (by decide)).trans <| (Gen.V10_of m (outsOf m) c main_v25 (by decide)).trans <| (Gen.V9_of m (outsOf m) c main_v25 (by decide)).trans <| (Gen.V8_of m (outsOf m) c main_v25 (by decide)).trans <| (Gen.V7_of m (outsOf m) c main_v25 (by decide)).trans <| (Gen.V6_of m (outsOf m) c main_v25 (by decide)).trans rfl

theorem V5_arg1 (c : Dev nD) : Gen.V5 m (outsOf m) c main_arg1 = m ((c : Thread nD τ).loc main_arg1) :=
  (Gen.V5_of m (outsOf m) c main_arg1 (by decide)).trans <| (Gen.V4_of m (outsOf m) c main_arg1 (by decide)).trans <| (Gen.V3_of m (outsOf m) c main_arg1 (by decide)).trans <| (Gen.V2_of m (outsOf m) c main_arg1 (by decide)).trans <| (Gen.V1_of m c main_arg1 (by decide)).trans rfl
theorem V12_arg1 (c : Dev nD) : Gen.V12 m (outsOf m) c main_arg1 = m ((c : Thread nD τ).loc main_arg1) :=
  (Gen.V12_of m (outsOf m) c main_arg1 (by decide)).trans <| (Gen.V11_of m (outsOf m) c main_arg1 (by decide)).trans <| (Gen.V10_of m (outsOf m) c main_arg1 (by decide)).trans <| (Gen.V9_of m (outsOf m) c main_arg1 (by decide)).trans <| (Gen.V8_of m (outsOf m) c main_arg1 (by decide)).trans <| (Gen.V7_of m (outsOf m) c main_arg1 (by decide)).trans <| (Gen.V6_of m (outsOf m) c main_arg1 (by decide)).trans <| (Gen.V5_of m (outsOf m) c main_arg1 (by decide)).trans <| (Gen.V4_of m (outsOf m) c main_arg1 (by decide)).trans <| (Gen.V3_of m (outsOf m) c main_arg1 (by decide)).trans <| (Gen.V2_of m (outsOf m) c main_arg1 (by decide)).trans <| (Gen.V1_of m c main_arg1 (by decide)).trans rfl
theorem V12_arg12 (c : Dev nD) : Gen.V12 m (outsOf m) c main_arg12 = m ((c : Thread nD τ).loc main_arg12) :=
  (Gen.V12_of m (outsOf m) c main_arg12 (by decide)).trans <| (Gen.V11_of m (outsOf m) c main_arg12 (by decide)).trans <| (Gen.V10_of m (outsOf m) c main_arg12 (by decide)).trans <| (Gen.V9_of m (outsOf m) c main_arg12 (by decide)).trans <| (Gen.V8_of m (outsOf m) c main_arg12 (by decide)).trans <| (Gen.V7_of m (outsOf m) c main_arg12 (by decide)).trans <| (Gen.V6_of m (outsOf m) c main_arg12 (by decide)).trans <| (Gen.V5_of m (outsOf m) c main_arg12 (by decide)).trans <| (Gen.V4_of m (outsOf m) c main_arg12 (by decide)).trans <| (Gen.V3_of m (outsOf m) c main_arg12 (by decide)).trans <| (Gen.V2_of m (outsOf m) c main_arg12 (by decide)).trans <| (Gen.V1_of m c main_arg12 (by decide)).trans rfl
theorem V12_arg13 (c : Dev nD) : Gen.V12 m (outsOf m) c main_arg13 = m ((c : Thread nD τ).loc main_arg13) :=
  (Gen.V12_of m (outsOf m) c main_arg13 (by decide)).trans <| (Gen.V11_of m (outsOf m) c main_arg13 (by decide)).trans <| (Gen.V10_of m (outsOf m) c main_arg13 (by decide)).trans <| (Gen.V9_of m (outsOf m) c main_arg13 (by decide)).trans <| (Gen.V8_of m (outsOf m) c main_arg13 (by decide)).trans <| (Gen.V7_of m (outsOf m) c main_arg13 (by decide)).trans <| (Gen.V6_of m (outsOf m) c main_arg13 (by decide)).trans <| (Gen.V5_of m (outsOf m) c main_arg13 (by decide)).trans <| (Gen.V4_of m (outsOf m) c main_arg13 (by decide)).trans <| (Gen.V3_of m (outsOf m) c main_arg13 (by decide)).trans <| (Gen.V2_of m (outsOf m) c main_arg13 (by decide)).trans <| (Gen.V1_of m c main_arg13 (by decide)).trans rfl
theorem V12_arg14 (c : Dev nD) : Gen.V12 m (outsOf m) c main_arg14 = m ((c : Thread nD τ).loc main_arg14) :=
  (Gen.V12_of m (outsOf m) c main_arg14 (by decide)).trans <| (Gen.V11_of m (outsOf m) c main_arg14 (by decide)).trans <| (Gen.V10_of m (outsOf m) c main_arg14 (by decide)).trans <| (Gen.V9_of m (outsOf m) c main_arg14 (by decide)).trans <| (Gen.V8_of m (outsOf m) c main_arg14 (by decide)).trans <| (Gen.V7_of m (outsOf m) c main_arg14 (by decide)).trans <| (Gen.V6_of m (outsOf m) c main_arg14 (by decide)).trans <| (Gen.V5_of m (outsOf m) c main_arg14 (by decide)).trans <| (Gen.V4_of m (outsOf m) c main_arg14 (by decide)).trans <| (Gen.V3_of m (outsOf m) c main_arg14 (by decide)).trans <| (Gen.V2_of m (outsOf m) c main_arg14 (by decide)).trans <| (Gen.V1_of m c main_arg14 (by decide)).trans rfl
theorem V12_arg15 (c : Dev nD) : Gen.V12 m (outsOf m) c main_arg15 = m ((c : Thread nD τ).loc main_arg15) :=
  (Gen.V12_of m (outsOf m) c main_arg15 (by decide)).trans <| (Gen.V11_of m (outsOf m) c main_arg15 (by decide)).trans <| (Gen.V10_of m (outsOf m) c main_arg15 (by decide)).trans <| (Gen.V9_of m (outsOf m) c main_arg15 (by decide)).trans <| (Gen.V8_of m (outsOf m) c main_arg15 (by decide)).trans <| (Gen.V7_of m (outsOf m) c main_arg15 (by decide)).trans <| (Gen.V6_of m (outsOf m) c main_arg15 (by decide)).trans <| (Gen.V5_of m (outsOf m) c main_arg15 (by decide)).trans <| (Gen.V4_of m (outsOf m) c main_arg15 (by decide)).trans <| (Gen.V3_of m (outsOf m) c main_arg15 (by decide)).trans <| (Gen.V2_of m (outsOf m) c main_arg15 (by decide)).trans <| (Gen.V1_of m c main_arg15 (by decide)).trans rfl
theorem V14_arg16 (c : Dev nD) : Gen.V14 m (outsOf m) c main_arg16 = m ((c : Thread nD τ).loc main_arg16) :=
  (Gen.V14_of m (outsOf m) c main_arg16 (by decide)).trans <| (Gen.V13_of m (outsOf m) c main_arg16 (by decide)).trans <| (Gen.V12_of m (outsOf m) c main_arg16 (by decide)).trans <| (Gen.V11_of m (outsOf m) c main_arg16 (by decide)).trans <| (Gen.V10_of m (outsOf m) c main_arg16 (by decide)).trans <| (Gen.V9_of m (outsOf m) c main_arg16 (by decide)).trans <| (Gen.V8_of m (outsOf m) c main_arg16 (by decide)).trans <| (Gen.V7_of m (outsOf m) c main_arg16 (by decide)).trans <| (Gen.V6_of m (outsOf m) c main_arg16 (by decide)).trans <| (Gen.V5_of m (outsOf m) c main_arg16 (by decide)).trans <| (Gen.V4_of m (outsOf m) c main_arg16 (by decide)).trans <| (Gen.V3_of m (outsOf m) c main_arg16 (by decide)).trans <| (Gen.V2_of m (outsOf m) c main_arg16 (by decide)).trans <| (Gen.V1_of m c main_arg16 (by decide)).trans rfl
theorem V14_arg17 (c : Dev nD) : Gen.V14 m (outsOf m) c main_arg17 = m ((c : Thread nD τ).loc main_arg17) :=
  (Gen.V14_of m (outsOf m) c main_arg17 (by decide)).trans <| (Gen.V13_of m (outsOf m) c main_arg17 (by decide)).trans <| (Gen.V12_of m (outsOf m) c main_arg17 (by decide)).trans <| (Gen.V11_of m (outsOf m) c main_arg17 (by decide)).trans <| (Gen.V10_of m (outsOf m) c main_arg17 (by decide)).trans <| (Gen.V9_of m (outsOf m) c main_arg17 (by decide)).trans <| (Gen.V8_of m (outsOf m) c main_arg17 (by decide)).trans <| (Gen.V7_of m (outsOf m) c main_arg17 (by decide)).trans <| (Gen.V6_of m (outsOf m) c main_arg17 (by decide)).trans <| (Gen.V5_of m (outsOf m) c main_arg17 (by decide)).trans <| (Gen.V4_of m (outsOf m) c main_arg17 (by decide)).trans <| (Gen.V3_of m (outsOf m) c main_arg17 (by decide)).trans <| (Gen.V2_of m (outsOf m) c main_arg17 (by decide)).trans <| (Gen.V1_of m c main_arg17 (by decide)).trans rfl

/-! ## The result -/

/-- The program's result buffer holds the tail of the kernel's output array and the launch values of the
    arguments. -/
theorem result_eq (c : Dev nD) :
    Gen.V15 m (outsOf m) c main_v83
      = tailK (outsOf m 4 main_v24 c) (m ((c : Thread nD τ).loc main_arg1)) (m ((c : Thread nD τ).loc main_arg12))
          (m ((c : Thread nD τ).loc main_arg13)) (m ((c : Thread nD τ).loc main_arg14))
          (m ((c : Thread nD τ).loc main_arg15)) (m ((c : Thread nD τ).loc main_arg16))
          (m ((c : Thread nD τ).loc main_arg17)) := by
  have h5 : Gen.V5 m (outsOf m) c main_v25 = iotaInDim S10000 32 0 := after_iota _
  have h6 : Gen.V6 m (outsOf m) c main_v26 = rollK (m ((c : Thread nD τ).loc main_arg1)) :=
    (after_roll _).trans (congrArg rollK (V5_arg1 m c))
  have h7 : Gen.V7 m (outsOf m) c main_v28 = headZeroK (rollK (m ((c : Thread nD τ).loc main_arg1))) :=
    (after_headZero _).trans (congrArg headZeroK h6)
  have h8 : Gen.V8 m (outsOf m) c main_v29 = cumsum10000K (headZeroK (rollK (m ((c : Thread nD τ).loc main_arg1)))) :=
    (after_cumsum10000 _).trans (congrArg cumsum10000K h7)
  have h9 : Gen.V9 m (outsOf m) c main_v38
      = marksK (cumsum10000K (headZeroK (rollK (m ((c : Thread nD τ).loc main_arg1))))) :=
    (after_marks _).trans (congrArg marksK h8)
  have h10 : Gen.V10 m (outsOf m) c main_v39
      = cumsum500000K (marksK (cumsum10000K (headZeroK (rollK (m ((c : Thread nD τ).loc main_arg1)))))) :=
    (after_cumsum500000 _).trans (congrArg cumsum500000K h9)
  have h11 : Gen.V11 m (outsOf m) c main_v41
      = segOfK (cumsum500000K (marksK (cumsum10000K (headZeroK (rollK (m ((c : Thread nD τ).loc main_arg1))))))) :=
    (after_segOf _).trans (congrArg segOfK h10)
  have h12 : Gen.V12 m (outsOf m) c main_v42 = rowSegK (m ((c : Thread nD τ).loc main_arg1)) := by
    refine (after_take _).trans ?_
    rw [V11_v25, h5, h11]; rfl
  have h13 : Gen.V13 m (outsOf m) c main_v78
      = bnK (fc1K (rowSegK (m ((c : Thread nD τ).loc main_arg1))) (outsOf m 4 main_v24 c)
          (m ((c : Thread nD τ).loc main_arg1)) (m ((c : Thread nD τ).loc main_arg12))
          (m ((c : Thread nD τ).loc main_arg13))) (m ((c : Thread nD τ).loc main_arg14))
          (m ((c : Thread nD τ).loc main_arg15)) := by
    refine (after_bn _).trans ?_
    rw [h12, V12_v24, V12_arg1, V12_arg12, V12_arg13, V12_arg14, V12_arg15]
  have h14 : Gen.V14 m (outsOf m) c main_v79 = reluK (Gen.V13 m (outsOf m) c main_v78) := after_relu _
  refine (after_head _).trans ?_
  rw [h14, h13, V14_arg16, V14_arg17]
  rfl

end Pass

end Cert.KernelIdeal.Val

end
-- ==== Proof.Math.Spec.lean ====
/-
  The mathematics both programs compute, as plain functions of extended reals over finite index types.

  A row of the input has 80 features: two atom descriptors of 32 features each and a bond descriptor of 16.
  Each descriptor goes through a dense layer and the positive part ("feat"); the three results, 128 + 128 + 64 = 320
  features, go through a second dense layer into 256 features ("h"). The kernel computes that second layer as three
  partial products added up (hK); the reference concatenates the 320 features first (hR). The 256 features are then
  normalised column by column with the batch statistics of all rows: the kernel from the column's sum and sum of
  squares, with the affine parameters folded into a scale and a shift (normK); the reference from the centred
  squares (normR). The positive part and a third dense layer into 128 features follow on both sides (xK, xR).
-/
import Idealize.ShloMosaic.PureOps.Ideal
import Mathlib.Algebra.BigOperators.Fin

noncomputable section

namespace Cert.Spec

open Idealize.ShloMosaic
open scoped BigOperators

/-- One output feature of a dense layer followed by the positive part: max (Σ p, x p · W p q + bias q) 0. -/
def feat {P Q : ℕ} (x : Fin P → EReal) (W : Fin P → Fin Q → EReal) (bias : Fin Q → EReal) (q : Fin Q) : EReal :=
  max ((∑ p : Fin P, x p * W p q) + bias q) 0

section Row

variable (row : Fin 80 → EReal) (aW : Fin 32 → Fin 128 → EReal) (ab : Fin 128 → EReal)
  (bW : Fin 16 → Fin 64 → EReal) (bb : Fin 64 → EReal) (p1W : Fin 320 → Fin 256 → EReal) (p1b : Fin 256 → EReal)

/-- The first atom descriptor's features: the row's entries 0 … 31 through the atom layer. -/
def atom1 (q : Fin 128) : EReal := feat (fun p : Fin 32 => row ⟨p.val, by omega⟩) aW ab q
/-- The second atom descriptor's features: the row's entries 32 … 63 through the same layer. -/
def atom2 (q : Fin 128) : EReal := feat (fun p : Fin 32 => row ⟨32 + p.val, by omega⟩) aW ab q
/-- The bond descriptor's features: the row's entries 64 … 79 through the bond layer. -/
def bond (q : Fin 64) : EReal := feat (fun p : Fin 16 => row ⟨64 + p.val, by omega⟩) bW bb q

/-- The 256 pre-normalisation features from three separate matrices, one per descriptor: the three partial products
    added in that order, then the bias. -/
def hK3 (Wa Wa2 : Fin 128 → Fin 256 → EReal) (Wb : Fin 64 → Fin 256 → EReal) (k : Fin 256) : EReal :=
  (((∑ q : Fin 128, atom1 row aW ab q * Wa q k)
      + (∑ q : Fin 128, atom2 row aW ab q * Wa2 q k))
      + (∑ q : Fin 64, bond row bW bb q * Wb q k))
    + p1b k

/-- The 256 pre-normalisation features as the kernel computes them: the three matrices are the rows 0 … 127,
    128 … 255 and 256 … 319 of the second layer's matrix. -/
def hK (k : Fin 256) : EReal :=
  hK3 row aW ab bW bb p1b (fun q k => p1W ⟨q.val, by omega⟩ k) (fun q k => p1W ⟨128 + q.val, by omega⟩ k)
    (fun q k => p1W ⟨256 + q.val, by omega⟩ k) k

/-- The 320 concatenated features: the first atom's, the second atom's, the bond's. -/
def cat (q : Fin 320) : EReal :=
  if h1 : q.val < 128 then atom1 row aW ab ⟨q.val, h1⟩
  else if h2 : q.val < 256 then atom2 row aW ab ⟨q.val - 128, by omega⟩
  else bond row bW bb ⟨q.val - 256, by omega⟩

/-- The same 256 features as the reference computes them: one product over the 320 concatenated features. -/
def hR (k : Fin 256) : EReal := (∑ q : Fin 320, cat row aW ab bW bb q * p1W q k) + p1b k

end Row

section Norm

variable {n : ℕ} (a : Fin n → EReal) (Nc eps g b : EReal)

/-- The kernel's normalisation of one column entry: mean and variance from the column's sum and sum of squares,
    the affine parameters folded into a scale and a shift. -/
def normK (r : Fin n) : EReal :=
  let mean := Ideal.div (∑ i : Fin n, a i) Nc
  let var := Ideal.div (∑ i : Fin n, a i * a i) Nc - mean * mean
  let scale := g * Ideal.rsqrt (var + eps)
  let shift := b - mean * scale
  max (a r * scale + shift) 0

/-- The reference's normalisation of one column entry: the centred form, the sums taken from zero. -/
def normR (r : Fin n) : EReal :=
  let mean := Ideal.div (0 + ∑ i : Fin n, a i) Nc
  let var := Ideal.div (0 + ∑ i : Fin n, (a i - mean) * (a i - mean)) Nc
  max ((a r - mean) * Ideal.rsqrt (var + eps) * g + b) 0

end Norm

/-- The last dense layer at one output feature: Σ k, y k · W k j + bias j. -/
def dense {K J : ℕ} (y : Fin K → EReal) (W : Fin K → Fin J → EReal) (bias : Fin J → EReal) (j : Fin J) : EReal :=
  (∑ k : Fin K, y k * W k j) + bias j

end Cert.Spec

end
-- ==== Proof.KI.Pay.lean ====
/-
  The kernel's stored values read one entry at a time, at the exact (extended-real) instance.

  Both kernels start from a block of 2000 rows of 80 features. Each row's three descriptors go through a dense layer
  and the positive part; the three results go through the second dense layer as three partial products added in order,
  then the bias: entry (i, k) of that 2000 × 256 array is Spec.hK3 of row i at feature k. The statistics kernel adds, to
  a running 1 × 256 row, the column sums of that array and of its squares; the second kernel scales and shifts the array
  column by column, takes the positive part, and applies the last dense layer. Every format change is the identity on
  extended reals, every lane sum and every contraction is a plain finite sum.
-/
import proofs.«146594_j41369124995826_1_alg».proof.Proof.Gen.KernelIdeal.Skeleton
import proofs.«146594_j41369124995826_1_alg».proof.Proof.Math.Spec
import Idealize.ShloMosaic.Lib.ValueIdx
import Idealize.ShloMosaic.Lib.Pipeline.Value
import Idealize.ShloMosaic.Lib.ValueLayout
import Idealize.ShloMosaic.Lib.StackMember
import Idealize.ShloMosaic.PureOps.Ideal.Laws

noncomputable section

namespace Cert.KernelIdeal.Val

open Cert.KernelIdeal Cert.KernelIdeal.Gen Idealize.ShloMosaic Idealize.ShloMosaic.ValueIdx
open scoped BigOperators

/-! ## Arrays as plain functions of their coordinates -/

/-- Row `i` of the 2000 × 80 input block: its 80 features. -/
def rowOf (x0 : Vec Ideal S2000x80 .f32) (i : Fin 2000) : Fin 80 → EReal := fun p => x0 (ix2 i p)

/-- A rank-2 array as a function of its two coordinates. -/
def mat {A B : ℕ} (x : (⟨2, ![A, B]⟩ : Shape).Idx → EReal) : Fin A → Fin B → EReal := fun a b => x (ix2 a b)

/-- A rank-1 array as a function of its coordinate. -/
def vec {A : ℕ} (x : (⟨1, ![A]⟩ : Shape).Idx → EReal) : Fin A → EReal := fun a => x (ix1 a)

/-! ## Three readings used throughout -/

/-- A product of an M × K by a K × N array into a zero accumulator, read at (a, b): the sum over the contracted
    coordinate of the products of the entries. -/
theorem matmul_zero_apply {M K N : ℕ} {φ₁ φ₂ : FTy} (D : DotDims ⟨2, ![M, K]⟩ ⟨2, ![K, N]⟩ ⟨2, ![M, N]⟩)
    (hD : D = DotDims.plain M K N) (prec : Option ContractPrecision)
    (A : FVec Ideal ⟨2, ![M, K]⟩ φ₁) (B : FVec Ideal ⟨2, ![K, N]⟩ φ₂) (a : Fin M) (b : Fin N) :
    matmul D prec A B (constant ⟨2, ![M, N]⟩ .f32 0x00000000#32) (ix2 a b) = ∑ c : Fin K, A (ix2 a c) * B (ix2 c b) := by
  subst hD
  refine (Ideal.matmul_constant_zero_apply _ prec A B _).trans ?_
  exact (Ideal.dotGeneral_apply _ prec .single A B _).symm.trans (StackMember.dotGeneral_plain_apply prec A B a b)

/-- A length-Q array repeated down M rows, read at (i, q): the array at q. -/
theorem rowBcast_apply {M Q : ℕ} {α : Type} (v : (⟨1, ![Q]⟩ : Shape).Idx → α)
    (hc : (⟨1, ![Q]⟩ : Shape).ShapeCasts ⟨2, ![1, Q]⟩) (hb : (⟨2, ![1, Q]⟩ : Shape).Broadcasts ⟨2, ![M, Q]⟩)
    (i : Fin M) (q : Fin Q) :
    broadcastTo ⟨2, ![M, Q]⟩ (shapeCast ⟨2, ![1, Q]⟩ v hc) hb (ix2 i q) = v (ix1 q) := by
  refine (broadcastTo_apply _ hb (ix2 i q) (ix2 (0 : Fin 1) q) fun a => ?_).trans ?_
  · match a with
    | ⟨0, _⟩ => rfl
    | ⟨1, _⟩ =>
      show q.val = if Q = 1 then 0 else q.val
      split_ifs with h
      · have := q.isLt; omega
      · rfl
  · refine shapeCast_apply v hc (ix2 (0 : Fin 1) q) (ix1 q) ?_
    rw [Shape.rowMajor_val_one, Shape.rowMajor_val_two]
    show q.val = 0 * Q + q.val
    omega

/-! ## The first dense layer -/

/-- One descriptor's features at (i, q): the P columns of row i starting at column `off`, through the dense layer and
    the positive part. The columns are named by `f`, column p of the descriptor being column `off + p` of the row. -/
theorem layer1_apply {P Q : ℕ} (off : ℕ) (D : DotDims ⟨2, ![2000, P]⟩ ⟨2, ![P, Q]⟩ ⟨2, ![2000, Q]⟩)
    (hD : D = DotDims.plain 2000 P Q)
    (hs : S2000x80.Slices ![0, off] ⟨2, ![2000, P]⟩)
    (hw : (⟨2, ![P, Q]⟩ : Shape).ShapeCasts ⟨2, ![P, Q]⟩)
    (hc : (⟨1, ![Q]⟩ : Shape).ShapeCasts ⟨2, ![1, Q]⟩) (hb : (⟨2, ![1, Q]⟩ : Shape).Broadcasts ⟨2, ![2000, Q]⟩)
    (x0 : Vec Ideal S2000x80 .f32) (W : FVec Ideal ⟨2, ![P, Q]⟩ .bf16) (bias : FVec Ideal ⟨1, ![Q]⟩ .f32)
    (f : Fin P → Fin 80) (hf : ∀ p, (f p).val = off + p.val) (i : Fin 2000) (q : Fin Q) :
    maximumf (F := Ideal)
        (addf (matmul D none (truncf .bf16 (extractStridedSlice ⟨2, ![2000, P]⟩ ![0, off] x0 hs) bitsLt_bf16_f32)
                 (shapeCast ⟨2, ![P, Q]⟩ W hw) (constant ⟨2, ![2000, Q]⟩ .f32 0x00000000#32))
              (broadcastTo ⟨2, ![2000, Q]⟩ (shapeCast ⟨2, ![1, Q]⟩ bias hc) hb))
        (broadcast ⟨2, ![2000, Q]⟩ (Scalar.ofBits .f32 0x00000000#32)) (ix2 i q)
      = Cert.Spec.feat (fun p : Fin P => rowOf x0 i (f p)) (mat W) (vec bias) q := by
  rw [maximumf_apply, addf_apply, broadcast_apply, rowBcast_apply, matmul_zero_apply D hD, shapeCast_self]
  show max ((∑ c : Fin P, _ * _) + _) (Ideal.ofBits .f32 0x00000000#32) = _
  rw [Ideal.ofBits_zero_f32]
  unfold Cert.Spec.feat
  refine congrArg (fun t => max (t + bias (ix1 q)) 0) (Finset.sum_congr rfl fun p _ => ?_)
  refine congrArg (· * W (ix2 p q)) ?_
  rw [truncf_apply]
  refine extractStridedSlice_apply ![0, off] x0 hs (ix2 i p) (ix2 i (f p)) fun a => ?_
  match a with
  | ⟨0, _⟩ => show i.val = 0 + i.val; omega
  | ⟨1, _⟩ => exact hf p

variable (x0 : Vec Ideal S2000x80 .f32) (x1 : Vec Ideal S32x128 .bf16) (x2 : Vec Ideal S128 .f32)
  (x3 : Vec Ideal S16x64 .bf16) (x4 : Vec Ideal S64 .f32) (x5 x6 : Vec Ideal S128x256 .bf16)
  (x7 : Vec Ideal S64x256 .bf16) (x8 : Vec Ideal S256 .f32)

/-- The statistics kernel's first-atom features at (i, q). -/
theorem k0_atom1_apply (i : Fin 2000) (q : Fin 128) :
    k0_pay7 x0 x1 x2 (ix2 i q) = Cert.Spec.atom1 (rowOf x0 i) (mat x1) (vec x2) q :=
  layer1_apply 0 _ rfl _ _ _ _ x0 x1 x2 (fun p => ⟨p.val, by omega⟩) (fun p => (Nat.zero_add _).symm) i q

/-- Its second-atom features at (i, q). -/
theorem k0_atom2_apply (i : Fin 2000) (q : Fin 128) :
    k0_pay8 x0 x1 x2 (ix2 i q) = Cert.Spec.atom2 (rowOf x0 i) (mat x1) (vec x2) q :=
  layer1_apply 32 _ rfl _ _ _ _ x0 x1 x2 (fun p => ⟨32 + p.val, by omega⟩) (fun p => rfl) i q

/-- Its bond features at (i, q). -/
theorem k0_bond_apply (i : Fin 2000) (q : Fin 64) :
    k0_pay9 x0 x3 x4 (ix2 i q) = Cert.Spec.bond (rowOf x0 i) (mat x3) (vec x4) q :=
  layer1_apply 64 _ rfl _ _ _ _ x0 x3 x4 (fun p => ⟨64 + p.val, by omega⟩) (fun p => rfl) i q

/-- The second kernel recomputes the same three feature arrays. -/
theorem k1_atom1_apply (i : Fin 2000) (q : Fin 128) :
    k1_pay3 x0 x1 x2 (ix2 i q) = Cert.Spec.atom1 (rowOf x0 i) (mat x1) (vec x2) q :=
  layer1_apply 0 _ rfl _ _ _ _ x0 x1 x2 (fun p => ⟨p.val, by omega⟩) (fun p => (Nat.zero_add _).symm) i q
theorem k1_atom2_apply (i : Fin 2000) (q : Fin 128) :
    k1_pay4 x0 x1 x2 (ix2 i q) = Cert.Spec.atom2 (rowOf x0 i) (mat x1) (vec x2) q :=
  layer1_apply 32 _ rfl _ _ _ _ x0 x1 x2 (fun p => ⟨32 + p.val, by omega⟩) (fun p => rfl) i q
theorem k1_bond_apply (i : Fin 2000) (q : Fin 64) :
    k1_pay5 x0 x3 x4 (ix2 i q) = Cert.Spec.bond (rowOf x0 i) (mat x3) (vec x4) q :=
  layer1_apply 64 _ rfl _ _ _ _ x0 x3 x4 (fun p => ⟨64 + p.val, by omega⟩) (fun p => rfl) i q

/-! ## The second dense layer -/

/-- The three partial products of three feature arrays with three matrices, added in order, then a bias row: entry
    (i, k). -/
theorem layer2_apply (v21 v27 : FVec Ideal S2000x128 .f32) (v33 : FVec Ideal S2000x64 .f32)
    (v35 v37 : FVec Ideal S128x256 .bf16) (w : FVec Ideal S64x256 .bf16) (v40 : Vec Ideal S256 .f32)
    (i : Fin 2000) (k : Fin 256) :
    addf (F := Ideal)
        (addf
          (addf
            (matmul dot_S2000x128_S128x256_S2000x256_1_0_0_1_n_n none (truncf .bf16 v21 bitsLt_bf16_f32) v35
              (constant S2000x256 .f32 0x00000000#32))
            (matmul dot_S2000x128_S128x256_S2000x256_1_0_0_1_n_n none (truncf .bf16 v27 bitsLt_bf16_f32) v37
              (constant S2000x256 .f32 0x00000000#32)))
          (matmul dot_S2000x64_S64x256_S2000x256_1_0_0_1_n_n none (truncf .bf16 v33 bitsLt_bf16_f32) w
            (constant S2000x256 .f32 0x00000000#32)))
        (broadcastTo S2000x256 (shapeCast S1x256 v40 shapeCasts_S256_S1x256) broadcasts_S1x256_S2000x256) (ix2 i k)
      = (((∑ q : Fin 128, v21 (ix2 i q) * v35 (ix2 q k)) + (∑ q : Fin 128, v27 (ix2 i q) * v37 (ix2 q k)))
          + (∑ q : Fin 64, v33 (ix2 i q) * w (ix2 q k))) + v40 (ix1 k) := by
  rw [addf_apply, addf_apply, addf_apply, rowBcast_apply,
    matmul_zero_apply dot_S2000x128_S128x256_S2000x256_1_0_0_1_n_n rfl none (truncf .bf16 v21 bitsLt_bf16_f32),
    matmul_zero_apply dot_S2000x128_S128x256_S2000x256_1_0_0_1_n_n rfl none (truncf .bf16 v27 bitsLt_bf16_f32),
    matmul_zero_apply dot_S2000x64_S64x256_S2000x256_1_0_0_1_n_n rfl]
  rfl

/-- The statistics kernel's 2000 × 256 array over arbitrary feature arrays. -/
theorem k0_pay1_apply (v21 v27 : FVec Ideal S2000x128 .f32) (v33 : FVec Ideal S2000x64 .f32)
    (v35 v37 : FVec Ideal S128x256 .bf16) (v38 : Vec Ideal S64x256 .bf16) (v40 : Vec Ideal S256 .f32)
    (i : Fin 2000) (k : Fin 256) :
    k0_pay1 v21 v27 v33 v35 v37 v38 v40 (ix2 i k)
      = (((∑ q : Fin 128, v21 (ix2 i q) * v35 (ix2 q k)) + (∑ q : Fin 128, v27 (ix2 i q) * v37 (ix2 q k)))
          + (∑ q : Fin 64, v33 (ix2 i q) * v38 (ix2 q k))) + v40 (ix1 k) := by
  refine (layer2_apply v21 v27 v33 v35 v37 (shapeCast S64x256 v38 shapeCasts_S64x256_S64x256) v40 i k).trans ?_
  rw [shapeCast_self]

/-! ## Column sums -/

/-- Column k's entries of a 2000 × 256 array are indexed by the row: the reduced index k with row i put back. -/
theorem lift_col (i : Fin 2000) (k : Fin 256) : reduces_S2000x256_S256.lift (ix1 k) i = ix2 i k := by
  funext a
  apply Fin.ext
  match a with
  | ⟨0, _⟩ => rfl
  | ⟨1, _⟩ => rfl

/-- The sum over the rows of a 2000 × 256 array, laid out as a 1 × 256 row, read at column k. -/
theorem colSum_apply (v : FVec Ideal S2000x256 .f32) (k : Fin 256) :
    shapeCast S1x256 (multiReduction (F := Ideal) .add [0] S256 v 0x00000000#32 reduces_S2000x256_S256 (.inl rfl) rfl)
        shapeCasts_S256_S1x256 (ix2 (0 : Fin 1) k)
      = ∑ i : Fin 2000, v (ix2 i k) := by
  refine (shapeCast_apply _ shapeCasts_S256_S1x256 (ix2 (0 : Fin 1) k) (ix1 k) ?_).trans ?_
  · rw [Shape.rowMajor_val_one, Shape.rowMajor_val_two]
    show k.val = 0 * 256 + k.val
    omega
  refine (Ideal.multiReduction_add_single v _ reduces_S2000x256_S256 _ _ (ix1 k)).trans ?_
  exact Finset.sum_congr rfl fun i _ => congrArg v (lift_col i k)

/-! ## The statistics kernel -/

/-- Entry (i, k) of the 2000 × 256 pre-normalisation array: the three partial products of row i's three descriptor
    features with the three matrices, added in order, then the bias. -/
theorem h1_apply (i : Fin 2000) (k : Fin 256) :
    k0_pay1 (k0_pay7 x0 x1 x2) (k0_pay8 x0 x1 x2) (k0_pay9 x0 x3 x4) (k0_pay10 x5) (k0_pay11 x6) x7 x8 (ix2 i k)
      = Cert.Spec.hK3 (rowOf x0 i) (mat x1) (vec x2) (mat x3) (vec x4) (vec x8) (mat x5) (mat x6) (mat x7) k := by
  rw [k0_pay1_apply]
  unfold Cert.Spec.hK3 k0_pay10 k0_pay11
  simp only [k0_atom1_apply, k0_atom2_apply, k0_bond_apply, shapeCast_self]
  rfl

/-- The running column sums after this block: the row read before, plus column k's sum over the 2000 rows. -/
theorem sum_apply (s : Vec Ideal S1x256 .f32) (k : Fin 256) :
    k0_pay2 (k0_pay7 x0 x1 x2) (k0_pay8 x0 x1 x2) (k0_pay9 x0 x3 x4) (k0_pay10 x5) (k0_pay11 x6) x7 x8 s (ix2 0 k)
      = (s (ix2 0 k) : EReal) + ∑ i : Fin 2000,
          Cert.Spec.hK3 (rowOf x0 i) (mat x1) (vec x2) (mat x3) (vec x4) (vec x8) (mat x5) (mat x6) (mat x7) k := by
  unfold k0_pay2
  rw [shapeCast_self, addf_apply, colSum_apply]
  refine congrArg ((s (ix2 0 k) : EReal) + ·) (Finset.sum_congr rfl fun i _ => ?_)
  exact h1_apply x0 x1 x2 x3 x4 x5 x6 x7 x8 i k

/-- The running column sums of squares after this block: the row read before, plus column k's sum of squares. -/
theorem sumsq_apply (s : Vec Ideal S1x256 .f32) (k : Fin 256) :
    k0_pay3 (k0_pay7 x0 x1 x2) (k0_pay8 x0 x1 x2) (k0_pay9 x0 x3 x4) (k0_pay10 x5) (k0_pay11 x6) x7 x8 s (ix2 0 k)
      = (s (ix2 0 k) : EReal) + ∑ i : Fin 2000,
          Cert.Spec.hK3 (rowOf x0 i) (mat x1) (vec x2) (mat x3) (vec x4) (vec x8) (mat x5) (mat x6) (mat x7) k
            * Cert.Spec.hK3 (rowOf x0 i) (mat x1) (vec x2) (mat x3) (vec x4) (vec x8) (mat x5) (mat x6) (mat x7) k := by
  unfold k0_pay3
  rw [shapeCast_self, addf_apply, colSum_apply]
  refine congrArg ((s (ix2 0 k) : EReal) + ·) (Finset.sum_congr rfl fun i _ => ?_)
  rw [mulf_apply, h1_apply x0 x1 x2 x3 x4 x5 x6 x7 x8 i k]

/-- The first block's reset of the running sums: zero at every column. -/
theorem zero4_apply (k : Fin 256) : k0_pay4 (F := Ideal) (ix2 0 k) = (0 : EReal) := by
  unfold k0_pay4
  rw [shapeCast_self, broadcast_apply]
  exact Ideal.ofBits_zero_f32

/-- The first block's reset of the running sums of squares: zero at every column. -/
theorem zero5_apply (k : Fin 256) : k0_pay5 (F := Ideal) (ix2 0 k) = (0 : EReal) := by
  unfold k0_pay5
  rw [shapeCast_self, broadcast_apply]
  exact Ideal.ofBits_zero_f32

/-! ## The second kernel -/

/-- Entry (i, j) of the 2000 × 128 output block: row i's 256 features scaled and shifted column by column, the positive
    part, then the last dense layer at output feature j. -/
theorem out_apply (x9 x10 : Vec Ideal S256 .f32) (x11 : Vec Ideal S256x128 .bf16) (x12 : Vec Ideal S128 .f32)
    (i : Fin 2000) (j : Fin 128) :
    k1_pay1 (k1_pay3 x0 x1 x2) (k1_pay4 x0 x1 x2) (k1_pay5 x0 x3 x4) (k1_pay6 x5) (k1_pay7 x6) (k1_pay8 x7) x8 x9 x10 x11 x12
        (ix2 i j)
      = Cert.Spec.dense
          (fun k => max (Cert.Spec.hK3 (rowOf x0 i) (mat x1) (vec x2) (mat x3) (vec x4) (vec x8) (mat x5) (mat x6) (mat x7) k
            * vec x9 k + vec x10 k) 0)
          (mat x11) (vec x12) j := by
  unfold k1_pay1
  simp only [shapeCast_self]
  rw [addf_apply, rowBcast_apply, matmul_zero_apply dot_S2000x256_S256x128_S2000x128_1_0_0_1_n_n rfl]
  unfold Cert.Spec.dense
  refine congrArg (· + x12 (ix1 j)) (Finset.sum_congr rfl fun k _ => ?_)
  refine congrArg (· * x11 (ix2 k j)) ?_
  rw [truncf_apply, maximumf_apply, broadcast_apply, addf_apply, mulf_apply, rowBcast_apply, rowBcast_apply, layer2_apply]
  show max _ (Ideal.ofBits .f32 0x00000000#32) = _
  rw [Ideal.ofBits_zero_f32]
  unfold Cert.Spec.hK3 k1_pay6 k1_pay7 k1_pay8
  simp only [k1_atom1_apply, k1_atom2_apply, k1_bond_apply, shapeCast_self]
  rfl

end Cert.KernelIdeal.Val

end
-- ==== Proof.KI.Mid.lean ====
/-
  The host operations between the two kernels, column by column: from the column sums and sums of squares the first
  kernel leaves, the mean, the variance (mean of squares minus squared mean), the reciprocal square root of the variance
  plus ε, and with the affine parameters the scale and the shift the second kernel is entered with.
-/
import proofs.«146594_j41369124995826_1_alg».proof.Proof.KI.Regs
import proofs.«146594_j41369124995826_1_alg».proof.Proof.KI.Pay
import Idealize.ShloMosaic.Lib.ValueIdx
import Idealize.ShloMosaic.Lib.ValueLayout
import Idealize.ShloMosaic.Lib.IdealHost
import Idealize.ShloMosaic.Lib.Pipeline.Value

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open scoped BigOperators

variable (m : (ℓ : Loc nD τ sig) → Buf (Elt Ideal) ℓ) (c : Dev nD)

/-! # The host stretch between the two regions, read entry by entry

    From the two 1 × 256 rows the first region leaves (column sums and column sums of squares) the host forms, column by
    column, the mean and the mean of squares (a division by the number of rows), the variance as their difference, the
    reciprocal square root of the guarded variance, and folds the affine parameters in: a scale and a shift per column. -/

/-- The number of rows, 500000, as the host divides by it. -/
abbrev Nc : EReal := Ideal.ofBits .f32 0x48F42400#32
/-- The variance's guard, 1e-5 in single precision. -/
abbrev eps : EReal := Ideal.ofBits .f32 0x3727C5AC#32

/-- Column k's sum over all rows, as the first region leaves it. -/
def colSum (k : Fin 256) : EReal := ((dat0 (V1' m) c).arrAt 9 cfg0.N : S1x256.Idx → EReal) (ix2 0 k)
/-- Column k's sum of squares over all rows, as the first region leaves it. -/
def colSumSq (k : Fin 256) : EReal := ((dat0 (V1' m) c).arrAt 10 cfg0.N : S1x256.Idx → EReal) (ix2 0 k)

/-- A buffer the stretch does not write and the first region does not write holds, when the second region is entered,
    what it held when the first was. -/
theorem V3_keep (r : Ref sig .tc) (h1 : r ∉ (Gen.hostOps1_W : List (Ref sig .tc))) (h2 : r ∉ ([main_v9_0, main_v9_1] : List (Ref sig .tc))) :
    V3' m c r = V1' m c r := by
  show StableHlo.after hostOps1 (W2 m c) r = _
  rw [← V2_eq m c]
  exact (Gen.V3_of m (outsOf m) c r h1).trans (Gen.V2_of m (outsOf m) c r h2)

/-- A 1 × 256 array recast as a vector: entry k is entry (0, k). -/
theorem recast_row (x : FVec Ideal S1x256 .f32) (k : Fin 256) :
    (shapeCast S256 x shapeCasts_S1x256_S256 : FVec Ideal S256 .f32) (ix1 k) = x (ix2 0 k) :=
  shapeCast_apply x shapeCasts_S1x256_S256 (ix1 k) (ix2 0 k) (by
    rw [Shape.rowMajor_val_two, Shape.rowMajor_val_one]; simp)

set_option maxHeartbeats 1000000 in
/-- The scale the stretch leaves, from any contents: the scale parameter times the reciprocal square root of the guarded
    variance, the variance being the mean of squares minus the squared mean. -/
theorem mid21 (Wv : Valuation τ sig (Elt Ideal)) (k : Fin 256) :
    (StableHlo.after hostOps1 Wv main_v21 : FVec Ideal S256 .f32) (ix1 k)
      = vec (Wv main_arg8) k * Ideal.rsqrt (Ideal.div ((Wv main_v9_1 : FVec Ideal S1x256 .f32) (ix2 0 k)) Nc
          - Ideal.div ((Wv main_v9_0 : FVec Ideal S1x256 .f32) (ix2 0 k)) Nc * Ideal.div ((Wv main_v9_0 : FVec Ideal S1x256 .f32) (ix2 0 k)) Nc + eps) := by
  after_results
  have hr : ∀ (x : FVec Ideal S256 .f32) (i : S256.Idx), Host.rsqrt x i = Ideal.rsqrt (x i) := fun _ _ => rfl
  simp only [mulf_apply, addf_apply, subf_apply, hostDivf_apply, hr]
  have h1 : shapeCast main_v11.ty.shape (Wv (Proc.devRef .tc main_v9_1)) shapeCasts_S1x256_S256 (ix1 k) = _ := recast_row (Wv main_v9_1) k
  have h0 : shapeCast main_v10.ty.shape (Wv (Proc.devRef .tc main_v9_0)) shapeCasts_S1x256_S256 (ix1 k) = _ := recast_row (Wv main_v9_0) k
  have hb : ∀ b : BitVec 32, broadcastInDim S256 ![] bcast_S_S256 (constant (F := Ideal) S_ .f32 b) (ix1 k) = Ideal.ofBits .f32 b :=
    fun b => broadcastInDim_scalar_apply bcast_S_S256 _ (ix1 k)
  rw [h1, h0, hb, hb]
  rfl

set_option maxHeartbeats 2000000 in
/-- The shift the stretch leaves, from any contents: the shift parameter minus the mean times the scale. -/
theorem mid23 (Wv : Valuation τ sig (Elt Ideal)) (k : Fin 256) :
    (StableHlo.after hostOps1 Wv main_v23 : FVec Ideal S256 .f32) (ix1 k)
      = vec (Wv main_arg9) k - Ideal.div ((Wv main_v9_0 : FVec Ideal S1x256 .f32) (ix2 0 k)) Nc
          * (vec (Wv main_arg8) k * Ideal.rsqrt (Ideal.div ((Wv main_v9_1 : FVec Ideal S1x256 .f32) (ix2 0 k)) Nc
          - Ideal.div ((Wv main_v9_0 : FVec Ideal S1x256 .f32) (ix2 0 k)) Nc * Ideal.div ((Wv main_v9_0 : FVec Ideal S1x256 .f32) (ix2 0 k)) Nc + eps)) := by
  after_results
  have hr : ∀ (x : FVec Ideal S256 .f32) (i : S256.Idx), Host.rsqrt x i = Ideal.rsqrt (x i) := fun _ _ => rfl
  simp only [mulf_apply, addf_apply, subf_apply, hostDivf_apply, hr]
  have h1 : shapeCast main_v11.ty.shape (Wv (Proc.devRef .tc main_v9_1)) shapeCasts_S1x256_S256 (ix1 k) = _ := recast_row (Wv main_v9_1) k
  have h0 : shapeCast main_v10.ty.shape (Wv (Proc.devRef .tc main_v9_0)) shapeCasts_S1x256_S256 (ix1 k) = _ := recast_row (Wv main_v9_0) k
  have hb : ∀ b : BitVec 32, broadcastInDim S256 ![] bcast_S_S256 (constant (F := Ideal) S_ .f32 b) (ix1 k) = Ideal.ofBits .f32 b :=
    fun b => broadcastInDim_scalar_apply bcast_S_S256 _ (ix1 k)
  rw [h1, h0, hb, hb]
  rfl

/-- An argument the program never writes is, when the stretch starts, as launched. -/
theorem W2_arg8 : W2 m c (Proc.devRef .tc main_arg8) = m ((c.tc : Thread nD τ).loc main_arg8) :=
  (congrFun (V2_eq m c) _).symm.trans
    ((Gen.V2_of m (outsOf m) c main_arg8 (by decide)).trans (Gen.V1_of m c main_arg8 (by decide)))
theorem W2_arg9 : W2 m c (Proc.devRef .tc main_arg9) = m ((c.tc : Thread nD τ).loc main_arg9) :=
  (congrFun (V2_eq m c) _).symm.trans
    ((Gen.V2_of m (outsOf m) c main_arg9 (by decide)).trans (Gen.V1_of m c main_arg9 (by decide)))

/-- The scale the second region is entered with. -/
theorem V3_v21 (k : Fin 256) : (V3' m c main_v21 : S256.Idx → EReal) (ix1 k)
    = vec (m ((c.tc : Thread nD τ).loc main_arg8)) k * Ideal.rsqrt (Ideal.div (colSumSq m c k) Nc - Ideal.div (colSum m c k) Nc * Ideal.div (colSum m c k) Nc + eps) := by
  refine (mid21 (W2 m c) k).trans ?_
  rw [W2_arg8 m c, W2_arr m c 9, W2_arr m c 10]
  rfl

/-- The shift the second region is entered with. -/
theorem V3_v23 (k : Fin 256) : (V3' m c main_v23 : S256.Idx → EReal) (ix1 k)
    = vec (m ((c.tc : Thread nD τ).loc main_arg9)) k - Ideal.div (colSum m c k) Nc * (vec (m ((c.tc : Thread nD τ).loc main_arg8)) k * Ideal.rsqrt (Ideal.div (colSumSq m c k) Nc - Ideal.div (colSum m c k) Nc * Ideal.div (colSum m c k) Nc + eps)) := by
  refine (mid23 (W2 m c) k).trans ?_
  rw [W2_arg8 m c, W2_arg9 m c, W2_arr m c 9, W2_arr m c 10]
  rfl

end Cert.KernelIdeal.Val

end
-- ==== Proof.Math.Sums.lean ====
import Idealize.ShloMosaic.PureOps.Ideal
import Mathlib.Data.EReal.Basic
import Mathlib.Data.EReal.Operations
import Mathlib.Data.EReal.Inv
import Mathlib.Algebra.BigOperators.Fin
import Mathlib.Data.Fintype.BigOperators
import Mathlib.Logic.Equiv.Fin.Basic

/-!
  Sums and finiteness on the extended reals.

  The extended reals are an ordered commutative additive monoid (with ⊥ + ⊤ = ⊥), so a finite sum
  may be regrouped and reindexed freely, with no finiteness hypothesis. Multiplication by a real
  distributes over a sum only on finite values, hence the predicate IsReal and its closure laws.
-/

namespace Cert.Math

open Idealize.ShloMosaic
open scoped BigOperators

/-! ### Finite values -/

/-- An extended real that is a real number. -/
def IsReal (x : EReal) : Prop := ∃ r : ℝ, x = (r : EReal)

theorem isReal_coe (r : ℝ) : IsReal (r : EReal) := ⟨r, rfl⟩

theorem isReal_zero : IsReal 0 := ⟨0, EReal.coe_zero.symm⟩

theorem isReal_one : IsReal 1 := ⟨1, EReal.coe_one.symm⟩

theorem IsReal.ne_top {x : EReal} (h : IsReal x) : x ≠ ⊤ := by
  obtain ⟨r, rfl⟩ := h
  exact EReal.coe_ne_top r

theorem IsReal.ne_bot {x : EReal} (h : IsReal x) : x ≠ ⊥ := by
  obtain ⟨r, rfl⟩ := h
  exact EReal.coe_ne_bot r

theorem isReal_iff {x : EReal} : IsReal x ↔ x ≠ ⊥ ∧ x ≠ ⊤ :=
  ⟨fun h => ⟨h.ne_bot, h.ne_top⟩, fun h => ⟨x.toReal, (EReal.coe_toReal h.2 h.1).symm⟩⟩

/-- A finite value is the coercion of its real part. -/
theorem IsReal.coe_toReal {x : EReal} (h : IsReal x) : ((x.toReal : ℝ) : EReal) = x :=
  EReal.coe_toReal h.ne_top h.ne_bot

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.neg {x : EReal} (hx : IsReal x) : IsReal (-x) := by
  obtain ⟨a, rfl⟩ := hx
  exact ⟨-a, (EReal.coe_neg a).symm⟩

theorem IsReal.sub {x y : EReal} (hx : IsReal x) (hy : IsReal y) : IsReal (x - y) := by
  obtain ⟨a, rfl⟩ := hx
  obtain ⟨b, rfl⟩ := hy
  exact ⟨a - b, (EReal.coe_sub a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.max {x y : EReal} (hx : IsReal x) (hy : IsReal y) : IsReal (max x y) := by
  obtain ⟨a, rfl⟩ := hx
  obtain ⟨b, rfl⟩ := hy
  rcases le_total (a : EReal) (b : EReal) with h | h
  · rw [max_eq_right h]; exact ⟨b, rfl⟩
  · rw [max_eq_left h]; exact ⟨a, rfl⟩

theorem IsReal.min {x y : EReal} (hx : IsReal x) (hy : IsReal y) : IsReal (min x y) := by
  obtain ⟨a, rfl⟩ := hx
  obtain ⟨b, rfl⟩ := hy
  rcases le_total (a : EReal) (b : EReal) with h | h
  · rw [min_eq_left h]; exact ⟨a, rfl⟩
  · rw [min_eq_right h]; exact ⟨b, rfl⟩

theorem IsReal.sum {ι : Type*} (s : Finset ι) (f : ι → EReal) (h : ∀ i ∈ s, IsReal (f i)) :
    IsReal (∑ i ∈ s, f i) :=
  Finset.sum_induction f IsReal (fun _ _ => IsReal.add) isReal_zero h

theorem IsReal.sum_univ {ι : Type*} [Fintype ι] (f : ι → EReal) (h : ∀ i, IsReal (f i)) :
    IsReal (∑ i, f i) :=
  IsReal.sum Finset.univ f (fun i _ => h i)

/-- Division by a nonzero real keeps a value finite. -/
theorem IsReal.div_coe {x : EReal} (hx : IsReal x) {y : ℝ} (hy : y ≠ 0) : IsReal (Ideal.div x (y : EReal)) := by
  rw [Ideal.div_coe hy]
  exact hx.mul (isReal_coe _)

/-- Division of a finite value by a finite nonzero value. -/
theorem IsReal.div {x y : EReal} (hx : IsReal x) (hy : IsReal y) (h0 : y ≠ 0) : IsReal (Ideal.div x y) := by
  obtain ⟨b, rfl⟩ := hy
  exact hx.div_coe (fun hb => h0 (by rw [hb, EReal.coe_zero]))

/-- On finite values a product distributes over a finite sum (on the left). -/
theorem mul_sum_of_isReal {ι : Type*} (s : Finset ι) (c : EReal) (f : ι → EReal) (hc : IsReal c)
    (h : ∀ i ∈ s, IsReal (f i)) : c * ∑ i ∈ s, f i = ∑ i ∈ s, c * f i := by
  classical
  induction s using Finset.induction_on with
  | empty => simp
  | insert a s ha ih =>
    have hs : ∀ i ∈ s, IsReal (f i) := fun i hi => h i (Finset.mem_insert_of_mem hi)
    rw [Finset.sum_insert ha, Finset.sum_insert ha, ← ih hs]
    obtain ⟨r, rfl⟩ := hc
    obtain ⟨u, hu⟩ := h a (Finset.mem_insert_self a s)
    obtain ⟨v, hv⟩ := IsReal.sum s f hs
    rw [hu, hv, ← EReal.coe_add, ← EReal.coe_mul, ← EReal.coe_mul, ← EReal.coe_mul, ← EReal.coe_add, mul_add]

/-- On finite values a product distributes over a finite sum (on the right). -/
theorem sum_mul_of_isReal {ι : Type*} (s : Finset ι) (c : EReal) (f : ι → EReal) (hc : IsReal c)
    (h : ∀ i ∈ s, IsReal (f i)) : (∑ i ∈ s, f i) * c = ∑ i ∈ s, f i * c := by
  simp_rw [mul_comm _ c]
  exact mul_sum_of_isReal s c f hc h

/-- The pattern 0x7F800000 denotes +∞. -/
theorem ofBits_inf : Ideal.ofBits .f32 0x7F800000#32 = (⊤ : EReal) := by
  simp [Ideal.ofBits, Ideal.ieee]

/-- |x| < +∞, as the comparison of max x (-x) against the pattern of +∞ answers 1, makes x finite. -/
theorem isReal_of_abs_lt (x : EReal)
    (h : Ideal.cmp .olt (max x (-x)) (Ideal.ofBits .f32 0x7F800000#32) = 1#1) : IsReal x := by
  rw [ofBits_inf] at h
  have h' : max x (-x) < ⊤ := by
    by_contra hn
    have e : Ideal.cmp .olt (max x (-x)) ⊤ = 0#1 := by
      show BitVec.ofBool (decide (max x (-x) < ⊤)) = 0#1
      rw [decide_eq_false hn]
      rfl
    rw [e] at h
    exact absurd h (by decide)
  induction x using EReal.rec with
  | bot => simp at h'
  | coe r => exact ⟨r, rfl⟩
  | top => simp at h'

/-- The same, over the float operations' names at the ideal instance. -/
theorem isReal_of_abs_lt' (x : Ideal .f32)
    (h : FloatOps.cmpf (F := Ideal) (φ := .f32) .olt (FloatOps.hostAbsf x) (FloatOps.ofBits .f32 0x7F800000#32) = 1#1) :
    IsReal x :=
  isReal_of_abs_lt x h

/-! ### A sum over 320 in three pieces: 128, 128, 64 -/

theorem sum_split_320 (f : Fin 320 → EReal) :
    (∑ q : Fin 320, f q)
      = ((∑ q : Fin 128, f ⟨q, by omega⟩) + (∑ q : Fin 128, f ⟨128 + q, by omega⟩))
        + (∑ q : Fin 64, f ⟨256 + q, by omega⟩) := by
  calc (∑ q : Fin 320, f q)
      = (∑ q : Fin 256, f (Fin.castAdd 64 q)) + ∑ q : Fin 64, f (Fin.natAdd 256 q) :=
        Fin.sum_univ_add (a := 256) (b := 64) f
    _ = ((∑ q : Fin 128, f (Fin.castAdd 64 (Fin.castAdd 128 q)))
          + ∑ q : Fin 128, f (Fin.castAdd 64 (Fin.natAdd 128 q)))
        + ∑ q : Fin 64, f (Fin.natAdd 256 q) := by
        rw [Fin.sum_univ_add (a := 128) (b := 128) (fun q => f (Fin.castAdd 64 q))]
    _ = _ := rfl

/-- The same with each sum started from zero, as a contraction onto a zero accumulator reads. -/
theorem sum_split_320_zero (f : Fin 320 → EReal) :
    (0 + ∑ q : Fin 320, f q)
      = ((0 + ∑ q : Fin 128, f ⟨q, by omega⟩) + (0 + ∑ q : Fin 128, f ⟨128 + q, by omega⟩))
        + (0 + ∑ q : Fin 64, f ⟨256 + q, by omega⟩) := by
  simp only [zero_add]
  exact sum_split_320 f

/-! ### 500000 rows as 250 blocks of 2000 -/

/-- Row i of block t is row 2000 t + i. -/
theorem blocks_lt (t : Fin 250) (i : Fin 2000) : 2000 * (t : ℕ) + (i : ℕ) < 500000 := by
  have := t.isLt
  have := i.isLt
  omega

theorem sum_blocks (f : Fin 500000 → EReal) :
    (∑ t : Fin 250, ∑ i : Fin 2000, f ⟨2000 * (t : ℕ) + (i : ℕ), blocks_lt t i⟩) = ∑ r : Fin 500000, f r := by
  calc (∑ t : Fin 250, ∑ i : Fin 2000, f ⟨2000 * (t : ℕ) + (i : ℕ), blocks_lt t i⟩)
      = ∑ p : Fin 250 × Fin 2000, f ⟨2000 * (p.1 : ℕ) + (p.2 : ℕ), blocks_lt p.1 p.2⟩ :=
        (Fintype.sum_prod_type' (fun (t : Fin 250) (i : Fin 2000) => f ⟨2000 * (t : ℕ) + (i : ℕ), blocks_lt t i⟩)).symm
    _ = ∑ r : Fin 500000, f r :=
        Fintype.sum_equiv (finProdFinEquiv (m := 250) (n := 2000)) _ _
          (fun p => congrArg f (Fin.ext (by rw [finProdFinEquiv_apply_val]; exact Nat.add_comm _ _)))

/-! ### A running accumulator is the sum -/

/-- The accumulator that adds each new term on the right: 0 + g 0, then acc + g (n+1). -/
noncomputable def accR (g : ℕ → EReal) : ℕ → EReal
  | 0 => 0 + g 0
  | n + 1 => accR g n + g (n + 1)

/-- The accumulator that adds each new term on the left: g 0 + 0, then g (n+1) + acc. -/
noncomputable def accL (g : ℕ → EReal) : ℕ → EReal
  | 0 => g 0 + 0
  | n + 1 => g (n + 1) + accL g n

theorem accR_eq_sum (g : ℕ → EReal) (n : ℕ) : accR g n = ∑ t ∈ Finset.range (n + 1), g t := by
  induction n with
  | zero => simp [accR]
  | succ k ih => rw [accR, ih, Finset.sum_range_succ _ (k + 1)]

theorem accL_eq_sum (g : ℕ → EReal) (n : ℕ) : accL g n = ∑ t ∈ Finset.range (n + 1), g t := by
  induction n with
  | zero => simp [accL]
  | succ k ih => rw [accL, ih, Finset.sum_range_succ _ (k + 1), add_comm]

theorem accR_eq_sum_fin (g : ℕ → EReal) (n : ℕ) : accR g n = ∑ t : Fin (n + 1), g t := by
  rw [accR_eq_sum, Finset.sum_range]

theorem accL_eq_sum_fin (g : ℕ → EReal) (n : ℕ) : accL g n = ∑ t : Fin (n + 1), g t := by
  rw [accL_eq_sum, Finset.sum_range]

/-- Any sequence that starts at g 0 and adds g (n+1) on the right at each step below N is the partial sum. -/
theorem acc_right_eq_sum (g a : ℕ → EReal) (N : ℕ) (h0 : a 0 = g 0)
    (hs : ∀ n, n < N → a (n + 1) = a n + g (n + 1)) :
    ∀ n, n ≤ N → a n = ∑ t ∈ Finset.range (n + 1), g t := by
  intro n
  induction n with
  | zero => intro _; simp [h0]
  | succ k ih =>
    intro hk
    rw [hs k (by omega), ih (by omega), Finset.sum_range_succ _ (k + 1)]

/-- The same with each new term added on the left. -/
theorem acc_left_eq_sum (g a : ℕ → EReal) (N : ℕ) (h0 : a 0 = g 0)
    (hs : ∀ n, n < N → a (n + 1) = g (n + 1) + a n) :
    ∀ n, n ≤ N → a n = ∑ t ∈ Finset.range (n + 1), g t := by
  intro n
  induction n with
  | zero => intro _; simp [h0]
  | succ k ih =>
    intro hk
    rw [hs k (by omega), ih (by omega), Finset.sum_range_succ _ (k + 1), add_comm]

/-- Over Fin (N+1): a sequence that starts at g 0 and adds the next term on the right ends at the total. -/
theorem acc_fin_right_eq_sum {N : ℕ} (g a : Fin (N + 1) → EReal) (h0 : a 0 = g 0)
    (hs : ∀ n : Fin N, a n.succ = a n.castSucc + g n.succ) : a (Fin.last N) = ∑ t, g t := by
  induction N with
  | zero => simpa using h0
  | succ M ih =>
    have e := ih (fun t => g t.castSucc) (fun t => a t.castSucc) (by simpa using h0)
      (fun n => by
        have := hs n.castSucc
        rwa [Fin.succ_castSucc] at this)
    rw [Fin.sum_univ_castSucc, ← e, ← Fin.succ_last, hs (Fin.last M)]

/-- Over Fin (N+1), the next term added on the left. -/
theorem acc_fin_left_eq_sum {N : ℕ} (g a : Fin (N + 1) → EReal) (h0 : a 0 = g 0)
    (hs : ∀ n : Fin N, a n.succ = g n.succ + a n.castSucc) : a (Fin.last N) = ∑ t, g t := by
  refine acc_fin_right_eq_sum g a h0 (fun n => ?_)
  rw [hs n, add_comm]

end Cert.Math
-- ==== Proof.KI.Arr0.lean ====
/-
  The statistics pass read out: after its 250 points, the two 1 × 256 result rows hold, at column k, the sum over
  all 500000 rows of the pre-normalisation feature k of the row, and the sum of its squares.

  Point t reads rows 2000 t … 2000 t + 1999 of the input and the weight arrays whole, and adds that block's column
  sums (and sums of squares) to two running rows which the first point starts from zero. So the running row after
  point n is the sum over the blocks 0 … n of the block sums; the last point's is written back, alone, and its block is
  the whole result array. A sum over 250 blocks of 2000 rows is the sum over the 500000 rows.
-/
import proofs.«146594_j41369124995826_1_alg».proof.Proof.KI.R0
import proofs.«146594_j41369124995826_1_alg».proof.Proof.KI.Pay
import proofs.«146594_j41369124995826_1_alg».proof.Proof.Math.Spec
import proofs.«146594_j41369124995826_1_alg».proof.Proof.Math.Sums
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open scoped BigOperators

-- the TensorCore's buffer contents when the region is entered
variable (V : (c : Dev nD) → (b : Ref sig .tc) → Buf (Elt Ideal) ((c : Thread nD τ).loc b))

/-! ## Each block read where it lies -/

/-- The block index of every window at every point, decided once over the grid: the row window's block is the
    point's own on the row axis; every weight window, and both result windows, have one block. -/
theorem idx_facts0 : ∀ t : Fin cfg0.N,
    win0_0.index t (0 : Fin 2) = t.val
    ∧ win0_0.index t (1 : Fin 2) = 0
    ∧ win0_1.index t (0 : Fin 2) = 0
    ∧ win0_1.index t (1 : Fin 2) = 0
    ∧ win0_2.index t (0 : Fin 1) = 0
    ∧ win0_3.index t (0 : Fin 2) = 0
    ∧ win0_3.index t (1 : Fin 2) = 0
    ∧ win0_4.index t (0 : Fin 1) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 1) = 0
    ∧ win0_9.index t (0 : Fin 2) = 0
    ∧ win0_9.index t (1 : Fin 2) = 0
    ∧ win0_10.index t (0 : Fin 2) = 0
    ∧ win0_10.index t (1 : Fin 2) = 0 :=
  (by decide +kernel : ∀ t : Fin grid0.N, _)

/-- Row i of point t's block of the input is row 2000 t + i of the input. -/
theorem blk_rows (c : Dev nD) (t : Fin cfg0.N) (i : Fin 2000) (p : Fin 80) (h : 2000 * t.val + i.val < 500000) :
    (iblk0 V c 0 t : Vec Ideal S2000x80 .f32) (ix2 i p)
      = (V c main_arg0 : Vec Ideal S500000x80 .f32) (ix2 ⟨2000 * t.val + i.val, h⟩ p) := by
  obtain ⟨e0, e1, e2, e3, e4, e5, e6, e7, e8, e9, e10, e11, e12, e13, e14, e15, e16, e17, e18⟩ := idx_facts0 t
  unfold iblk0
  rw [View.read_apply]
  show V c main_arg0 _ = V c main_arg0 _
  congr 1
  funext a
  apply Fin.ext
  match a with
  | ⟨0, _⟩ => show win0_0.index t (0 : Fin 2) * 2000 + 1 * i.val = 2000 * t.val + i.val; rw [e0]; omega
  | ⟨1, _⟩ => show win0_0.index t (1 : Fin 2) * 80 + 1 * p.val = p.val; rw [e1]; omega

/-- The one block of window 1 is its whole array. -/
theorem blk_whole1 (c : Dev nD) (t : Fin cfg0.N) (p : Fin 32) (q : Fin 128) :
    (iblk0 V c 1 t : Vec Ideal S32x128 .bf16) (ix2 p q) = (V c main_v0 : Vec Ideal S32x128 .bf16) (ix2 p q) := by
  obtain ⟨e0, e1, e2, e3, e4, e5, e6, e7, e8, e9, e10, e11, e12, e13, e14, e15, e16, e17, e18⟩ := idx_facts0 t
  unfold iblk0
  rw [View.read_apply]
  show V c main_v0 _ = V c main_v0 _
  congr 1
  funext a
  apply Fin.ext
  match a with
  | ⟨0, _⟩ => show win0_1.index t (0 : Fin 2) * 32 + 1 * p.val = p.val; rw [e2]; omega
  | ⟨1, _⟩ => show win0_1.index t (1 : Fin 2) * 128 + 1 * q.val = q.val; rw [e3]; omega

/-- The one block of window 2 is its whole array. -/
theorem blk_whole2 (c : Dev nD) (t : Fin cfg0.N) (q : Fin 128) :
    (iblk0 V c 2 t : Vec Ideal S128 .f32) (ix1 q) = (V c main_arg3 : Vec Ideal S128 .f32) (ix1 q) := by
  obtain ⟨e0, e1, e2, e3, e4, e5, e6, e7, e8, e9, e10, e11, e12, e13, e14, e15, e16, e17, e18⟩ := idx_facts0 t
  unfold iblk0
  rw [View.read_apply]
  show V c main_arg3 _ = V c main_arg3 _
  congr 1
  funext a
  apply Fin.ext
  match a with
  | ⟨0, _⟩ => show win0_2.index t (0 : Fin 1) * 128 + 1 * q.val = q.val; rw [e4]; omega

/-- The one block of window 3 is its whole array. -/
theorem blk_whole3 (c : Dev nD) (t : Fin cfg0.N) (p : Fin 16) (q : Fin 64) :
    (iblk0 V c 3 t : Vec Ideal S16x64 .bf16) (ix2 p q) = (V c main_v1 : Vec Ideal S16x64 .bf16) (ix2 p q) := by
  obtain ⟨e0, e1, e2, e3, e4, e5, e6, e7, e8, e9, e10, e11, e12, e13, e14, e15, e16, e17, e18⟩ := idx_facts0 t
  unfold iblk0
  rw [View.read_apply]
  show V c main_v1 _ = V c main_v1 _
  congr 1
  funext a
  apply Fin.ext
  match a with
  | ⟨0, _⟩ => show win0_3.index t (0 : Fin 2) * 16 + 1 * p.val = p.val; rw [e5]; omega
  | ⟨1, _⟩ => show win0_3.index t (1 : Fin 2) * 64 + 1 * q.val = q.val; rw [e6]; omega

/-- The one block of window 4 is its whole array. -/
theorem blk_whole4 (c : Dev nD) (t : Fin cfg0.N) (q : Fin 64) :
    (iblk0 V c 4 t : Vec Ideal S64 .f32) (ix1 q) = (V c main_arg5 : Vec Ideal S64 .f32) (ix1 q) := by
  obtain ⟨e0, e1, e2, e3, e4, e5, e6, e7, e8, e9, e10, e11, e12, e13, e14, e15, e16, e17, e18⟩ := idx_facts0 t
  unfold iblk0
  rw [View.read_apply]
  show V c main_arg5 _ = V c main_arg5 _
  congr 1
  funext a
  apply Fin.ext
  match a with
  | ⟨0, _⟩ => show win0_4.index t (0 : Fin 1) * 64 + 1 * q.val = q.val; rw [e7]; omega

/-- The one block of window 5 is its whole array. -/
theorem blk_whole5 (c : Dev nD) (t : Fin cfg0.N) (p : Fin 128) (q : Fin 256) :
    (iblk0 V c 5 t : Vec Ideal S128x256 .bf16) (ix2 p q) = (V c main_v3 : Vec Ideal S128x256 .bf16) (ix2 p q) := by
  obtain ⟨e0, e1, e2, e3, e4, e5, e6, e7, e8, e9, e10, e11, e12, e13, e14, e15, e16, e17, e18⟩ := idx_facts0 t
  unfold iblk0
  rw [View.read_apply]
  show V c main_v3 _ = V c main_v3 _
  congr 1
  funext a
  apply Fin.ext
  match a with
  | ⟨0, _⟩ => show win0_5.index t (0 : Fin 2) * 128 + 1 * p.val = p.val; rw [e8]; omega
  | ⟨1, _⟩ => show win0_5.index t (1 : Fin 2) * 256 + 1 * q.val = q.val; rw [e9]; omega

/-- The one block of window 6 is its whole array. -/
theorem blk_whole6 (c : Dev nD) (t : Fin cfg0.N) (p : Fin 128) (q : Fin 256) :
    (iblk0 V c 6 t : Vec Ideal S128x256 .bf16) (ix2 p q) = (V c main_v5 : Vec Ideal S128x256 .bf16) (ix2 p q) := by
  obtain ⟨e0, e1, e2, e3, e4, e5, e6, e7, e8, e9, e10, e11, e12, e13, e14, e15, e16, e17, e18⟩ := idx_facts0 t
  unfold iblk0
  rw [View.read_apply]
  show V c main_v5 _ = V c main_v5 _
  congr 1
  funext a
  apply Fin.ext
  match a with
  | ⟨0, _⟩ => show win0_6.index t (0 : Fin 2) * 128 + 1 * p.val = p.val; rw [e10]; omega
  | ⟨1, _⟩ => show win0_6.index t (1 : Fin 2) * 256 + 1 * q.val = q.val; rw [e11]; omega

/-- The one block of window 7 is its whole array. -/
theorem blk_whole7 (c : Dev nD) (t : Fin cfg0.N) (p : Fin 64) (q : Fin 256) :
    (iblk0 V c 7 t : Vec Ideal S64x256 .bf16) (ix2 p q) = (V c main_v7 : Vec Ideal S64x256 .bf16) (ix2 p q) := by
  obtain ⟨e0, e1, e2, e3, e4, e5, e6, e7, e8, e9, e10, e11, e12, e13, e14, e15, e16, e17, e18⟩ := idx_facts0 t
  unfold iblk0
  rw [View.read_apply]
  show V c main_v7 _ = V c main_v7 _
  congr 1
  funext a
  apply Fin.ext
  match a with
  | ⟨0, _⟩ => show win0_7.index t (0 : Fin 2) * 64 + 1 * p.val = p.val; rw [e12]; omega
  | ⟨1, _⟩ => show win0_7.index t (1 : Fin 2) * 256 + 1 * q.val = q.val; rw [e13]; omega

/-- The one block of window 8 is its whole array. -/
theorem blk_whole8 (c : Dev nD) (t : Fin cfg0.N) (q : Fin 256) :
    (iblk0 V c 8 t : Vec Ideal S256 .f32) (ix1 q) = (V c main_arg7 : Vec Ideal S256 .f32) (ix1 q) := by
  obtain ⟨e0, e1, e2, e3, e4, e5, e6, e7, e8, e9, e10, e11, e12, e13, e14, e15, e16, e17, e18⟩ := idx_facts0 t
  unfold iblk0
  rw [View.read_apply]
  show V c main_arg7 _ = V c main_arg7 _
  congr 1
  funext a
  apply Fin.ext
  match a with
  | ⟨0, _⟩ => show win0_8.index t (0 : Fin 1) * 256 + 1 * q.val = q.val; rw [e14]; omega

/-! ## One point's update of the two running rows, read at a column -/

theorem step0_fst_apply (x0 : Vec Ideal S2000x80 .f32) (x1 : Vec Ideal S32x128 .bf16) (x2 : Vec Ideal S128 .f32)
    (x3 : Vec Ideal S16x64 .bf16) (x4 : Vec Ideal S64 .f32) (x5 x6 : Vec Ideal S128x256 .bf16)
    (x7 : Vec Ideal S64x256 .bf16) (x8 : Vec Ideal S256 .f32)
    (s : Vec Ideal S1x256 .f32 × Vec Ideal S1x256 .f32) (k : Fin 256) :
    (step0 x0 x1 x2 x3 x4 x5 x6 x7 x8 s).1 (ix2 0 k)
      = (s.1 (ix2 0 k) : EReal) + ∑ i : Fin 2000, Cert.Spec.hK3 (rowOf x0 i) (mat x1) (vec x2) (mat x3) (vec x4) (vec x8) (mat x5) (mat x6) (mat x7) k :=
  sum_apply x0 x1 x2 x3 x4 x5 x6 x7 x8 s.1 k

theorem step0_snd_apply (x0 : Vec Ideal S2000x80 .f32) (x1 : Vec Ideal S32x128 .bf16) (x2 : Vec Ideal S128 .f32)
    (x3 : Vec Ideal S16x64 .bf16) (x4 : Vec Ideal S64 .f32) (x5 x6 : Vec Ideal S128x256 .bf16)
    (x7 : Vec Ideal S64x256 .bf16) (x8 : Vec Ideal S256 .f32)
    (s : Vec Ideal S1x256 .f32 × Vec Ideal S1x256 .f32) (k : Fin 256) :
    (step0 x0 x1 x2 x3 x4 x5 x6 x7 x8 s).2 (ix2 0 k)
      = (s.2 (ix2 0 k) : EReal) + ∑ i : Fin 2000, Cert.Spec.hK3 (rowOf x0 i) (mat x1) (vec x2) (mat x3) (vec x4) (vec x8) (mat x5) (mat x6) (mat x7) k
          * Cert.Spec.hK3 (rowOf x0 i) (mat x1) (vec x2) (mat x3) (vec x4) (vec x8) (mat x5) (mat x6) (mat x7) k :=
  sumsq_apply x0 x1 x2 x3 x4 x5 x6 x7 x8 s.2 k

/-! ## The running rows after point n: the sum over the blocks 0 … n -/

/-- Feature k of row r of the whole input. -/
def hrow (c : Dev nD) (k : Fin 256) (r : Fin 500000) : EReal :=
  Cert.Spec.hK3 (fun p => (V c main_arg0 : Vec Ideal S500000x80 .f32) (ix2 r p))
        (fun p q => (V c main_v0 : Vec Ideal S32x128 .bf16) (ix2 p q)) (fun q => (V c main_arg3 : Vec Ideal S128 .f32) (ix1 q))
        (fun p q => (V c main_v1 : Vec Ideal S16x64 .bf16) (ix2 p q)) (fun q => (V c main_arg5 : Vec Ideal S64 .f32) (ix1 q))
        (fun k => (V c main_arg7 : Vec Ideal S256 .f32) (ix1 k))
        (fun q k => (V c main_v3 : Vec Ideal S128x256 .bf16) (ix2 q k)) (fun q k => (V c main_v5 : Vec Ideal S128x256 .bf16) (ix2 q k))
        (fun q k => (V c main_v7 : Vec Ideal S64x256 .bf16) (ix2 q k)) k

/-- Feature k of row i of point t's block is feature k of row 2000 t + i of the input. -/
theorem hrow_blk (c : Dev nD) (t : Fin cfg0.N) (i : Fin 2000) (k : Fin 256) (h : 2000 * t.val + i.val < 500000) :
    Cert.Spec.hK3 (rowOf (iblk0 V c 0 t) i) (mat (A := 32) (B := 128) (iblk0 V c 1 t)) (vec (A := 128) (iblk0 V c 2 t))
        (mat (A := 16) (B := 64) (iblk0 V c 3 t)) (vec (A := 64) (iblk0 V c 4 t)) (vec (A := 256) (iblk0 V c 8 t))
        (mat (A := 128) (B := 256) (iblk0 V c 5 t)) (mat (A := 128) (B := 256) (iblk0 V c 6 t)) (mat (A := 64) (B := 256) (iblk0 V c 7 t)) k
      = hrow V c k ⟨2000 * t.val + i.val, h⟩ := by
  have h0 : rowOf (iblk0 V c 0 t) i = fun p => (V c main_arg0 : Vec Ideal S500000x80 .f32) (ix2 ⟨2000 * t.val + i.val, h⟩ p) :=
    funext fun p => blk_rows V c t i p h
  have h1 : mat (A := 32) (B := 128) (iblk0 V c 1 t) = fun p q => (V c main_v0 : Vec Ideal S32x128 .bf16) (ix2 p q) :=
    funext fun p => funext fun q => blk_whole1 V c t p q
  have h2 : vec (A := 128) (iblk0 V c 2 t) = fun q => (V c main_arg3 : Vec Ideal S128 .f32) (ix1 q) :=
    funext fun q => blk_whole2 V c t q
  have h3 : mat (A := 16) (B := 64) (iblk0 V c 3 t) = fun p q => (V c main_v1 : Vec Ideal S16x64 .bf16) (ix2 p q) :=
    funext fun p => funext fun q => blk_whole3 V c t p q
  have h4 : vec (A := 64) (iblk0 V c 4 t) = fun q => (V c main_arg5 : Vec Ideal S64 .f32) (ix1 q) :=
    funext fun q => blk_whole4 V c t q
  have h5 : mat (A := 128) (B := 256) (iblk0 V c 5 t) = fun p q => (V c main_v3 : Vec Ideal S128x256 .bf16) (ix2 p q) :=
    funext fun p => funext fun q => blk_whole5 V c t p q
  have h6 : mat (A := 128) (B := 256) (iblk0 V c 6 t) = fun p q => (V c main_v5 : Vec Ideal S128x256 .bf16) (ix2 p q) :=
    funext fun p => funext fun q => blk_whole6 V c t p q
  have h7 : mat (A := 64) (B := 256) (iblk0 V c 7 t) = fun p q => (V c main_v7 : Vec Ideal S64x256 .bf16) (ix2 p q) :=
    funext fun p => funext fun q => blk_whole7 V c t p q
  have h8 : vec (A := 256) (iblk0 V c 8 t) = fun q => (V c main_arg7 : Vec Ideal S256 .f32) (ix1 q) :=
    funext fun q => blk_whole8 V c t q
  rw [h0, h1, h2, h3, h4, h5, h6, h7, h8]
  rfl

/-- Column k's sum over block t, and of squares; zero past the grid. -/
def blockSum (c : Dev nD) (k : Fin 256) (t : ℕ) : EReal :=
  if h : t < 250 then ∑ i : Fin 2000, hrow V c k ⟨2000 * t + i.val, by have := i.isLt; omega⟩ else 0

def blockSumSq (c : Dev nD) (k : Fin 256) (t : ℕ) : EReal :=
  if h : t < 250 then ∑ i : Fin 2000, hrow V c k ⟨2000 * t + i.val, by have := i.isLt; omega⟩
    * hrow V c k ⟨2000 * t + i.val, by have := i.isLt; omega⟩ else 0

theorem rows_lt (t : Fin cfg0.N) (i : Fin 2000) : 2000 * t.val + i.val < 500000 := by
  have hN : cfg0.N = 250 := N_0
  have := t.isLt
  have := i.isLt
  omega

/-- The first running row after point n, at column k: the block sums of the points 0 … n. -/
theorem acc_fst (c : Dev nD) (k : Fin 256) : ∀ (n : ℕ) (hn : n < cfg0.N),
    ((accAt0 V c n hn).1 : Vec Ideal S1x256 .f32) (ix2 0 k) = ∑ t ∈ Finset.range (n + 1), blockSum V c k t
  | 0, hn => by
    rw [accAt0_zero]
    refine (step0_fst_apply (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩) (iblk0 V c 7 ⟨0, hn⟩) (iblk0 V c 8 ⟨0, hn⟩) zero0 k).trans ?_
    rw [show ((zero0 (F := Ideal)).1 (ix2 0 k) : EReal) = 0 from zero4_apply k, zero_add, Finset.sum_range_one, blockSum,
      dif_pos (by norm_num)]
    exact Finset.sum_congr rfl fun i _ => hrow_blk V c ⟨0, hn⟩ i k (rows_lt ⟨0, hn⟩ i)
  | n + 1, hn => by
    have hN : cfg0.N = 250 := N_0
    rw [accAt0_succ]
    refine (step0_fst_apply (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (accAt0 V c n (Nat.lt_of_succ_lt hn)) k).trans ?_
    rw [acc_fst c k n (Nat.lt_of_succ_lt hn), Finset.sum_range_succ _ (n + 1)]
    congr 1
    rw [blockSum, dif_pos (by omega)]
    exact Finset.sum_congr rfl fun i _ => hrow_blk V c ⟨n + 1, hn⟩ i k (rows_lt ⟨n + 1, hn⟩ i)

/-- The second running row after point n, at column k: the block sums of squares of the points 0 … n. -/
theorem acc_snd (c : Dev nD) (k : Fin 256) : ∀ (n : ℕ) (hn : n < cfg0.N),
    ((accAt0 V c n hn).2 : Vec Ideal S1x256 .f32) (ix2 0 k) = ∑ t ∈ Finset.range (n + 1), blockSumSq V c k t
  | 0, hn => by
    rw [accAt0_zero]
    refine (step0_snd_apply (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩) (iblk0 V c 6 ⟨0, hn⟩) (iblk0 V c 7 ⟨0, hn⟩) (iblk0 V c 8 ⟨0, hn⟩) zero0 k).trans ?_
    rw [show ((zero0 (F := Ideal)).2 (ix2 0 k) : EReal) = 0 from zero5_apply k, zero_add, Finset.sum_range_one, blockSumSq,
      dif_pos (by norm_num)]
    exact Finset.sum_congr rfl fun i _ => by
      rw [hrow_blk V c ⟨0, hn⟩ i k (rows_lt ⟨0, hn⟩ i)]
  | n + 1, hn => by
    have hN : cfg0.N = 250 := N_0
    rw [accAt0_succ]
    refine (step0_snd_apply (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) (iblk0 V c 6 ⟨n + 1, hn⟩) (iblk0 V c 7 ⟨n + 1, hn⟩) (iblk0 V c 8 ⟨n + 1, hn⟩) (accAt0 V c n (Nat.lt_of_succ_lt hn)) k).trans ?_
    rw [acc_snd c k n (Nat.lt_of_succ_lt hn), Finset.sum_range_succ _ (n + 1)]
    congr 1
    rw [blockSumSq, dif_pos (by omega)]
    exact Finset.sum_congr rfl fun i _ => by
      rw [hrow_blk V c ⟨n + 1, hn⟩ i k (rows_lt ⟨n + 1, hn⟩ i)]

/-- The block sums of all 250 points add up to the sum over all rows. -/
theorem sum_blockSum (c : Dev nD) (k : Fin 256) :
    ∑ t ∈ Finset.range (249 + 1), blockSum V c k t = ∑ r : Fin 500000, hrow V c k r := by
  rw [Finset.sum_range, ← Cert.Math.sum_blocks (hrow V c k)]
  exact Finset.sum_congr rfl fun t _ => by rw [blockSum, dif_pos t.isLt]

theorem sum_blockSumSq (c : Dev nD) (k : Fin 256) :
    ∑ t ∈ Finset.range (249 + 1), blockSumSq V c k t = ∑ r : Fin 500000, hrow V c k r * hrow V c k r := by
  rw [Finset.sum_range, ← Cert.Math.sum_blocks (fun r => hrow V c k r * hrow V c k r)]
  exact Finset.sum_congr rfl fun t _ => by rw [blockSumSq, dif_pos t.isLt]

/-! ## From the last point's running rows to the result arrays -/

/-- The last point of the grid. -/
abbrev tLast : Fin cfg0.N := ⟨249, by decide⟩

/-- The two running rows as the last point leaves them, as contents of the two result arrays. -/
abbrev res9 (c : Dev nD) : Buf (Elt Ideal) ((c : Thread nD τ).loc main_v9_0) := (accAt0 V c 249 tLast.isLt).1
abbrev res10 (c : Dev nD) : Buf (Elt Ideal) ((c : Thread nD τ).loc main_v9_1) := (accAt0 V c 249 tLast.isLt).2

/-- The one write-back of result window 9, at the last point, writes the running row as that point leaves it: the
    window's one block, read through zero offsets, is the whole 1 × 256 array. -/
theorem flushed9_eq (c : Dev nD) (t : Fin cfg0.N) (hf : (cfg0.win 9).flush t = true) :
    (dat0 V c).flushed 9 t = ((cfg0.win 9).blk t).view.read (Elt Ideal) (res9 V c) := by
  have hN : cfg0.N = 250 := N_0
  have h3 : t.val = 249 := by have := (flush0_9 t).mp hf; have := t.isLt; omega
  obtain rfl : t = tLast := Fin.ext h3
  show (cfg0.win 9).cut (grid0.coords tLast) ((dat0 V c).after 9 tLast) = _
  rw [after0_9]
  have hz' : (fun a => win0_9.index tLast a * main_v9_0.ty.shape.size a) = fun _ => 0 := funext fun a => by fin_cases a <;> decide +kernel
  exact (Memref.read_access_unit_zero (Elt Ideal) main_v9_0 hz' (fun a => by rw [congrFun hz' a]; simp) (res9 V c)).symm

/-- So result array 9 ends holding that row: the last point's block covers it. -/
theorem final9 (c : Dev nD) : (dat0 V c).arrAt 9 cfg0.N = res9 V c :=
  (dat0 V c).arrAt_eq_of_cover 9 (res9 V c) (flushed9_eq V c) fun i =>
    ⟨tLast, (flush0_9 tLast).mpr rfl, by
      show i ∈ ((View.whole main_v9_0).slice (win0_9.rect tLast)).set
      rw [View.set_slice_whole, Rect.mem_set_unit]
      intro a
      have h0 : (i 0 : Nat) < 1 := (i 0).isLt
      have h1 : (i 1 : Nat) < 256 := (i 1).isLt
      match a with
      | ⟨0, _⟩ => show win0_9.index tLast 0 * win0_9.size 0 ≤ (i 0 : Nat) ∧ (i 0 : Nat) < win0_9.index tLast 0 * win0_9.size 0 + win0_9.xsize (grid0.coords tLast) 0
                  rw [show win0_9.index tLast 0 * win0_9.size 0 = 0 from by decide +kernel, show win0_9.xsize (grid0.coords tLast) 0 = 1 from by decide +kernel]; omega
      | ⟨1, _⟩ => show win0_9.index tLast 1 * win0_9.size 1 ≤ (i 1 : Nat) ∧ (i 1 : Nat) < win0_9.index tLast 1 * win0_9.size 1 + win0_9.xsize (grid0.coords tLast) 1
                  rw [show win0_9.index tLast 1 * win0_9.size 1 = 0 from by decide +kernel, show win0_9.xsize (grid0.coords tLast) 1 = 256 from by decide +kernel]; omega⟩

/-- The one write-back of result window 10, at the last point, writes the running row as that point leaves it: the
    window's one block, read through zero offsets, is the whole 1 × 256 array. -/
theorem flushed10_eq (c : Dev nD) (t : Fin cfg0.N) (hf : (cfg0.win 10).flush t = true) :
    (dat0 V c).flushed 10 t = ((cfg0.win 10).blk t).view.read (Elt Ideal) (res10 V c) := by
  have hN : cfg0.N = 250 := N_0
  have h3 : t.val = 249 := by have := (flush0_10 t).mp hf; have := t.isLt; omega
  obtain rfl : t = tLast := Fin.ext h3
  show (cfg0.win 10).cut (grid0.coords tLast) ((dat0 V c).after 10 tLast) = _
  rw [after0_10]
  have hz' : (fun a => win0_10.index tLast a * main_v9_1.ty.shape.size a) = fun _ => 0 := funext fun a => by fin_cases a <;> decide +kernel
  exact (Memref.read_access_unit_zero (Elt Ideal) main_v9_1 hz' (fun a => by rw [congrFun hz' a]; simp) (res10 V c)).symm

/-- So result array 10 ends holding that row: the last point's block covers it. -/
theorem final10 (c : Dev nD) : (dat0 V c).arrAt 10 cfg0.N = res10 V c :=
  (dat0 V c).arrAt_eq_of_cover 10 (res10 V c) (flushed10_eq V c) fun i =>
    ⟨tLast, (flush0_10 tLast).mpr rfl, by
      show i ∈ ((View.whole main_v9_1).slice (win0_10.rect tLast)).set
      rw [View.set_slice_whole, Rect.mem_set_unit]
      intro a
      have h0 : (i 0 : Nat) < 1 := (i 0).isLt
      have h1 : (i 1 : Nat) < 256 := (i 1).isLt
      match a with
      | ⟨0, _⟩ => show win0_10.index tLast 0 * win0_10.size 0 ≤ (i 0 : Nat) ∧ (i 0 : Nat) < win0_10.index tLast 0 * win0_10.size 0 + win0_10.xsize (grid0.coords tLast) 0
                  rw [show win0_10.index tLast 0 * win0_10.size 0 = 0 from by decide +kernel, show win0_10.xsize (grid0.coords tLast) 0 = 1 from by decide +kernel]; omega
      | ⟨1, _⟩ => show win0_10.index tLast 1 * win0_10.size 1 ≤ (i 1 : Nat) ∧ (i 1 : Nat) < win0_10.index tLast 1 * win0_10.size 1 + win0_10.xsize (grid0.coords tLast) 1
                  rw [show win0_10.index tLast 1 * win0_10.size 1 = 0 from by decide +kernel, show win0_10.xsize (grid0.coords tLast) 1 = 256 from by decide +kernel]; omega⟩

/-! ## The two result rows -/

/-- Column k of the first result row: the sum over all rows of feature k. -/
theorem arr0_sum (c : Dev nD) (k : Fin 256) :
    ((dat0 V c).arrAt 9 cfg0.N : Vec Ideal S1x256 .f32) (ix2 0 k)
      = ∑ r : Fin 500000, Cert.Spec.hK3 (fun p => (V c main_arg0 : Vec Ideal S500000x80 .f32) (ix2 r p))
        (fun p q => (V c main_v0 : Vec Ideal S32x128 .bf16) (ix2 p q)) (fun q => (V c main_arg3 : Vec Ideal S128 .f32) (ix1 q))
        (fun p q => (V c main_v1 : Vec Ideal S16x64 .bf16) (ix2 p q)) (fun q => (V c main_arg5 : Vec Ideal S64 .f32) (ix1 q))
        (fun k => (V c main_arg7 : Vec Ideal S256 .f32) (ix1 k))
        (fun q k => (V c main_v3 : Vec Ideal S128x256 .bf16) (ix2 q k)) (fun q k => (V c main_v5 : Vec Ideal S128x256 .bf16) (ix2 q k))
        (fun q k => (V c main_v7 : Vec Ideal S64x256 .bf16) (ix2 q k)) k := by
  rw [final9]
  exact (acc_fst V c k 249 tLast.isLt).trans (sum_blockSum V c k)

/-- Column k of the second result row: the sum over all rows of the square of feature k. -/
theorem arr0_sumsq (c : Dev nD) (k : Fin 256) :
    ((dat0 V c).arrAt 10 cfg0.N : Vec Ideal S1x256 .f32) (ix2 0 k)
      = ∑ r : Fin 500000, (Cert.Spec.hK3 (fun p => (V c main_arg0 : Vec Ideal S500000x80 .f32) (ix2 r p))
        (fun p q => (V c main_v0 : Vec Ideal S32x128 .bf16) (ix2 p q)) (fun q => (V c main_arg3 : Vec Ideal S128 .f32) (ix1 q))
        (fun p q => (V c main_v1 : Vec Ideal S16x64 .bf16) (ix2 p q)) (fun q => (V c main_arg5 : Vec Ideal S64 .f32) (ix1 q))
        (fun k => (V c main_arg7 : Vec Ideal S256 .f32) (ix1 k))
        (fun q k => (V c main_v3 : Vec Ideal S128x256 .bf16) (ix2 q k)) (fun q k => (V c main_v5 : Vec Ideal S128x256 .bf16) (ix2 q k))
        (fun q k => (V c main_v7 : Vec Ideal S64x256 .bf16) (ix2 q k)) k)
        * (Cert.Spec.hK3 (fun p => (V c main_arg0 : Vec Ideal S500000x80 .f32) (ix2 r p))
        (fun p q => (V c main_v0 : Vec Ideal S32x128 .bf16) (ix2 p q)) (fun q => (V c main_arg3 : Vec Ideal S128 .f32) (ix1 q))
        (fun p q => (V c main_v1 : Vec Ideal S16x64 .bf16) (ix2 p q)) (fun q => (V c main_arg5 : Vec Ideal S64 .f32) (ix1 q))
        (fun k => (V c main_arg7 : Vec Ideal S256 .f32) (ix1 k))
        (fun q k => (V c main_v3 : Vec Ideal S128x256 .bf16) (ix2 q k)) (fun q k => (V c main_v5 : Vec Ideal S128x256 .bf16) (ix2 q k))
        (fun q k => (V c main_v7 : Vec Ideal S64x256 .bf16) (ix2 q k)) k) := by
  rw [final10]
  exact (acc_snd V c k 249 tLast.isLt).trans (sum_blockSumSq V c k)

end Cert.KernelIdeal.Val

end
-- ==== Proof.KI.Arr1.lean ====
/-
  The second kernel's output array, entry by entry.

  The grid has 250 points. The input rows' window and the output's move one block of 2000 rows per point; every other
  window holds its whole array at every point. So block t of the output is the stored value over rows 2000 t … 2000 t + 1999
  of the input, the 250 blocks cover the output array, and entry (r, j) of the array is row r through the three descriptor
  layers and the second layer, the column-wise scale and shift, the positive part and the last dense layer at feature j.
-/
import proofs.«146594_j41369124995826_1_alg».proof.Proof.KI.R1
import proofs.«146594_j41369124995826_1_alg».proof.Proof.KI.Pay
import proofs.«146594_j41369124995826_1_alg».proof.Proof.Math.Spec
import Idealize.ShloMosaic.Lib.Pipeline.Value
import Idealize.ShloMosaic.Lib.ValueIdx

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.ValueIdx Idealize.SL.Sem
open Idealize.ShloMosaic.Pipeline (Dat)
open scoped BigOperators

-- the TensorCore's buffer contents when the region is entered
variable (V : (c : Dev nD) → (b : Ref sig .tc) → Buf (Elt Ideal) ((c : Thread nD τ).loc b))

/-! # The second kernel's output array, entry by entry, from the arrays the region is entered with -/

/-- The grid has 250 points. -/
theorem N1 : cfg1.N = 250 := N_1

/-- The index maps over the grid: the input rows' window and the output's move one block of 2000 rows per point; every
    other window stays at its one block. -/
theorem idx_facts : ∀ t : Fin cfg1.N, win1_0.index t (0 : Fin 2) = t.val
    ∧ win1_0.index t (1 : Fin 2) = 0
    ∧ win1_13.index t (0 : Fin 2) = t.val
    ∧ win1_13.index t (1 : Fin 2) = 0
    ∧ win1_1.index t (0 : Fin 2) = 0
    ∧ win1_1.index t (1 : Fin 2) = 0
    ∧ win1_2.index t (0 : Fin 1) = 0
    ∧ win1_3.index t (0 : Fin 2) = 0
    ∧ win1_3.index t (1 : Fin 2) = 0
    ∧ win1_4.index t (0 : Fin 1) = 0
    ∧ win1_5.index t (0 : Fin 2) = 0
    ∧ win1_5.index t (1 : Fin 2) = 0
    ∧ win1_6.index t (0 : Fin 2) = 0
    ∧ win1_6.index t (1 : Fin 2) = 0
    ∧ win1_7.index t (0 : Fin 2) = 0
    ∧ win1_7.index t (1 : Fin 2) = 0
    ∧ win1_8.index t (0 : Fin 1) = 0
    ∧ win1_9.index t (0 : Fin 1) = 0
    ∧ win1_10.index t (0 : Fin 1) = 0
    ∧ win1_11.index t (0 : Fin 2) = 0
    ∧ win1_11.index t (1 : Fin 2) = 0
    ∧ win1_12.index t (0 : Fin 1) = 0 :=
  (by decide +kernel : ∀ t : Fin grid1.N, _)

/-- Row `i` of point `t`'s block is row 2000 t + i of the array. -/
def rowAt (t : Fin cfg1.N) (i : Fin 2000) : Fin 500000 :=
  ⟨2000 * t.val + i.val, by have h : t.val < 250 := lt_of_lt_of_eq t.isLt N1; have hi := i.isLt; omega⟩

/-- Point `t`'s block of the input rows: entry (i, p) is entry (2000 t + i, p) of the array. -/
theorem blk1_0_apply (c : Dev nD) (t : Fin cfg1.N) (i : Fin 2000) (p : Fin 80) :
    (iblk1 V c 0 t : Vec Ideal S2000x80 .f32) (ix2 i p) = (V c main_arg0 : Vec Ideal S500000x80 .f32) (ix2 (rowAt t i) p) := by
  obtain ⟨e0, e1, e2, e3, e4, e5, e6, e7, e8, e9, e10, e11, e12, e13, e14, e15, e16, e17, e18, e19, e20, e21⟩ := idx_facts t
  unfold iblk1
  rw [View.read_apply]
  show V c main_arg0 (((cfg1.win 0).blk t).view.emb (ix2 i p)) = V c main_arg0 (ix2 (rowAt t i) p)
  refine congrArg (V c main_arg0) (funext fun a => Fin.ext ?_)
  match a with
    | ⟨0, _⟩ => show win1_0.index t (0 : Fin 2) * 2000 + 1 * i.val = 2000 * t.val + i.val; omega
    | ⟨1, _⟩ => show win1_0.index t (1 : Fin 2) * 80 + 1 * p.val = p.val; omega

/-- Window 1's one block is its whole array. -/
theorem blk1_1 (c : Dev nD) (t : Fin cfg1.N) : (iblk1 V c 1 t : Vec Ideal S32x128 .bf16) = (V c main_v0 : Vec Ideal S32x128 .bf16) := by
  obtain ⟨e0, e1, e2, e3, e4, e5, e6, e7, e8, e9, e10, e11, e12, e13, e14, e15, e16, e17, e18, e19, e20, e21⟩ := idx_facts t
  funext x
  unfold iblk1
  rw [View.read_apply]
  show V c main_v0 (((cfg1.win 1).blk t).view.emb x) = V c main_v0 x
  refine congrArg (V c main_v0) (funext fun a => Fin.ext ?_)
  match a with
    | ⟨0, _⟩ => show win1_1.index t (0 : Fin 2) * 32 + 1 * (x 0).val = (x 0).val; omega
    | ⟨1, _⟩ => show win1_1.index t (1 : Fin 2) * 128 + 1 * (x 1).val = (x 1).val; omega

/-- Window 2's one block is its whole array. -/
theorem blk1_2 (c : Dev nD) (t : Fin cfg1.N) : (iblk1 V c 2 t : Vec Ideal S128 .f32) = (V c main_arg3 : Vec Ideal S128 .f32) := by
  obtain ⟨e0, e1, e2, e3, e4, e5, e6, e7, e8, e9, e10, e11, e12, e13, e14, e15, e16, e17, e18, e19, e20, e21⟩ := idx_facts t
  funext x
  unfold iblk1
  rw [View.read_apply]
  show V c main_arg3 (((cfg1.win 2).blk t).view.emb x) = V c main_arg3 x
  refine congrArg (V c main_arg3) (funext fun a => Fin.ext ?_)
  match a with
    | ⟨0, _⟩ => show win1_2.index t (0 : Fin 1) * 128 + 1 * (x 0).val = (x 0).val; omega

/-- Window 3's one block is its whole array. -/
theorem blk1_3 (c : Dev nD) (t : Fin cfg1.N) : (iblk1 V c 3 t : Vec Ideal S16x64 .bf16) = (V c main_v1 : Vec Ideal S16x64 .bf16) := by
  obtain ⟨e0, e1, e2, e3, e4, e5, e6, e7, e8, e9, e10, e11, e12, e13, e14, e15, e16, e17, e18, e19, e20, e21⟩ := idx_facts t
  funext x
  unfold iblk1
  rw [View.read_apply]
  show V c main_v1 (((cfg1.win 3).blk t).view.emb x) = V c main_v1 x
  refine congrArg (V c main_v1) (funext fun a => Fin.ext ?_)
  match a with
    | ⟨0, _⟩ => show win1_3.index t (0 : Fin 2) * 16 + 1 * (x 0).val = (x 0).val; omega
    | ⟨1, _⟩ => show win1_3.index t (1 : Fin 2) * 64 + 1 * (x 1).val = (x 1).val; omega

/-- Window 4's one block is its whole array. -/
theorem blk1_4 (c : Dev nD) (t : Fin cfg1.N) : (iblk1 V c 4 t : Vec Ideal S64 .f32) = (V c main_arg5 : Vec Ideal S64 .f32) := by
  obtain ⟨e0, e1, e2, e3, e4, e5, e6, e7, e8, e9, e10, e11, e12, e13, e14, e15, e16, e17, e18, e19, e20, e21⟩ := idx_facts t
  funext x
  unfold iblk1
  rw [View.read_apply]
  show V c main_arg5 (((cfg1.win 4).blk t).view.emb x) = V c main_arg5 x
  refine congrArg (V c main_arg5) (funext fun a => Fin.ext ?_)
  match a with
    | ⟨0, _⟩ => show win1_4.index t (0 : Fin 1) * 64 + 1 * (x 0).val = (x 0).val; omega

/-- Window 5's one block is its whole array. -/
theorem blk1_5 (c : Dev nD) (t : Fin cfg1.N) : (iblk1 V c 5 t : Vec Ideal S128x256 .bf16) = (V c main_v3 : Vec Ideal S128x256 .bf16) := by
  obtain ⟨e0, e1, e2, e3, e4, e5, e6, e7, e8, e9, e10, e11, e12, e13, e14, e15, e16, e17, e18, e19, e20, e21⟩ := idx_facts t
  funext x
  unfold iblk1
  rw [View.read_apply]
  show V c main_v3 (((cfg1.win 5).blk t).view.emb x) = V c main_v3 x
  refine congrArg (V c main_v3) (funext fun a => Fin.ext ?_)
  match a with
    | ⟨0, _⟩ => show win1_5.index t (0 : Fin 2) * 128 + 1 * (x 0).val = (x 0).val; omega
    | ⟨1, _⟩ => show win1_5.index t (1 : Fin 2) * 256 + 1 * (x 1).val = (x 1).val; omega

/-- Window 6's one block is its whole array. -/
theorem blk1_6 (c : Dev nD) (t : Fin cfg1.N) : (iblk1 V c 6 t : Vec Ideal S128x256 .bf16) = (V c main_v5 : Vec Ideal S128x256 .bf16) := by
  obtain ⟨e0, e1, e2, e3, e4, e5, e6, e7, e8, e9, e10, e11, e12, e13, e14, e15, e16, e17, e18, e19, e20, e21⟩ := idx_facts t
  funext x
  unfold iblk1
  rw [View.read_apply]
  show V c main_v5 (((cfg1.win 6).blk t).view.emb x) = V c main_v5 x
  refine congrArg (V c main_v5) (funext fun a => Fin.ext ?_)
  match a with
    | ⟨0, _⟩ => show win1_6.index t (0 : Fin 2) * 128 + 1 * (x 0).val = (x 0).val; omega
    | ⟨1, _⟩ => show win1_6.index t (1 : Fin 2) * 256 + 1 * (x 1).val = (x 1).val; omega

/-- Window 7's one block is its whole array. -/
theorem blk1_7 (c : Dev nD) (t : Fin cfg1.N) : (iblk1 V c 7 t : Vec Ideal S64x256 .bf16) = (V c main_v7 : Vec Ideal S64x256 .bf16) := by
  obtain ⟨e0, e1, e2, e3, e4, e5, e6, e7, e8, e9, e10, e11, e12, e13, e14, e15, e16, e17, e18, e19, e20, e21⟩ := idx_facts t
  funext x
  unfold iblk1
  rw [View.read_apply]
  show V c main_v7 (((cfg1.win 7).blk t).view.emb x) = V c main_v7 x
  refine congrArg (V c main_v7) (funext fun a => Fin.ext ?_)
  match a with
    | ⟨0, _⟩ => show win1_7.index t (0 : Fin 2) * 64 + 1 * (x 0).val = (x 0).val; omega
    | ⟨1, _⟩ => show win1_7.index t (1 : Fin 2) * 256 + 1 * (x 1).val = (x 1).val; omega

/-- Window 8's one block is its whole array. -/
theorem blk1_8 (c : Dev nD) (t : Fin cfg1.N) : (iblk1 V c 8 t : Vec Ideal S256 .f32) = (V c main_arg7 : Vec Ideal S256 .f32) := by
  obtain ⟨e0, e1, e2, e3, e4, e5, e6, e7, e8, e9, e10, e11, e12, e13, e14, e15, e16, e17, e18, e19, e20, e21⟩ := idx_facts t
  funext x
  unfold iblk1
  rw [View.read_apply]
  show V c main_arg7 (((cfg1.win 8).blk t).view.emb x) = V c main_arg7 x
  refine congrArg (V c main_arg7) (funext fun a => Fin.ext ?_)
  match a with
    | ⟨0, _⟩ => show win1_8.index t (0 : Fin 1) * 256 + 1 * (x 0).val = (x 0).val; omega

/-- Window 9's one block is its whole array. -/
theorem blk1_9 (c : Dev nD) (t : Fin cfg1.N) : (iblk1 V c 9 t : Vec Ideal S256 .f32) = (V c main_v21 : Vec Ideal S256 .f32) := by
  obtain ⟨e0, e1, e2, e3, e4, e5, e6, e7, e8, e9, e10, e11, e12, e13, e14, e15, e16, e17, e18, e19, e20, e21⟩ := idx_facts t
  funext x
  unfold iblk1
  rw [View.read_apply]
  show V c main_v21 (((cfg1.win 9).blk t).view.emb x) = V c main_v21 x
  refine congrArg (V c main_v21) (funext fun a => Fin.ext ?_)
  match a with
    | ⟨0, _⟩ => show win1_9.index t (0 : Fin 1) * 256 + 1 * (x 0).val = (x 0).val; omega

/-- Window 10's one block is its whole array. -/
theorem blk1_10 (c : Dev nD) (t : Fin cfg1.N) : (iblk1 V c 10 t : Vec Ideal S256 .f32) = (V c main_v23 : Vec Ideal S256 .f32) := by
  obtain ⟨e0, e1, e2, e3, e4, e5, e6, e7, e8, e9, e10, e11, e12, e13, e14, e15, e16, e17, e18, e19, e20, e21⟩ := idx_facts t
  funext x
  unfold iblk1
  rw [View.read_apply]
  show V c main_v23 (((cfg1.win 10).blk t).view.emb x) = V c main_v23 x
  refine congrArg (V c main_v23) (funext fun a => Fin.ext ?_)
  match a with
    | ⟨0, _⟩ => show win1_10.index t (0 : Fin 1) * 256 + 1 * (x 0).val = (x 0).val; omega

/-- Window 11's one block is its whole array. -/
theorem blk1_11 (c : Dev nD) (t : Fin cfg1.N) : (iblk1 V c 11 t : Vec Ideal S256x128 .bf16) = (V c main_v8 : Vec Ideal S256x128 .bf16) := by
  obtain ⟨e0, e1, e2, e3, e4, e5, e6, e7, e8, e9, e10, e11, e12, e13, e14, e15, e16, e17, e18, e19, e20, e21⟩ := idx_facts t
  funext x
  unfold iblk1
  rw [View.read_apply]
  show V c main_v8 (((cfg1.win 11).blk t).view.emb x) = V c main_v8 x
  refine congrArg (V c main_v8) (funext fun a => Fin.ext ?_)
  match a with
    | ⟨0, _⟩ => show win1_11.index t (0 : Fin 2) * 256 + 1 * (x 0).val = (x 0).val; omega
    | ⟨1, _⟩ => show win1_11.index t (1 : Fin 2) * 128 + 1 * (x 1).val = (x 1).val; omega

/-- Window 12's one block is its whole array. -/
theorem blk1_12 (c : Dev nD) (t : Fin cfg1.N) : (iblk1 V c 12 t : Vec Ideal S128 .f32) = (V c main_arg11 : Vec Ideal S128 .f32) := by
  obtain ⟨e0, e1, e2, e3, e4, e5, e6, e7, e8, e9, e10, e11, e12, e13, e14, e15, e16, e17, e18, e19, e20, e21⟩ := idx_facts t
  funext x
  unfold iblk1
  rw [View.read_apply]
  show V c main_arg11 (((cfg1.win 12).blk t).view.emb x) = V c main_arg11 x
  refine congrArg (V c main_arg11) (funext fun a => Fin.ext ?_)
  match a with
    | ⟨0, _⟩ => show win1_12.index t (0 : Fin 1) * 128 + 1 * (x 0).val = (x 0).val; omega

/-- Entry (i, j) of point `t`'s output block sits at entry (2000 t + i, j) of the output array. -/
theorem emb13 (t : Fin cfg1.N) (i : Fin 2000) (j : Fin 128) :
    ((cfg1.win 13).blk t).view.emb (ix2 i j) = (ix2 (rowAt t i) j : S500000x128.Idx) := by
  obtain ⟨e0, e1, e2, e3, e4, e5, e6, e7, e8, e9, e10, e11, e12, e13, e14, e15, e16, e17, e18, e19, e20, e21⟩ := idx_facts t
  refine funext fun a => Fin.ext ?_
  match a with
    | ⟨0, _⟩ => show win1_13.index t (0 : Fin 2) * 2000 + 1 * i.val = 2000 * t.val + i.val; omega
    | ⟨1, _⟩ => show win1_13.index t (1 : Fin 2) * 128 + 1 * j.val = j.val; omega

/-- The output array as one function of the entry arrays: row r's 80 features through the three descriptor layers and
    the second layer, scaled and shifted column by column, the positive part, the last dense layer at feature j. -/
def outAt (c : Dev nD) (r : Fin 500000) (j : Fin 128) : EReal :=
  Cert.Spec.dense
        (fun k => max (Cert.Spec.hK3 (fun p => (V c main_arg0 : Vec Ideal S500000x80 .f32) (ix2 r p))
            (fun p q => (V c main_v0 : Vec Ideal S32x128 .bf16) (ix2 p q)) (fun q => (V c main_arg3 : Vec Ideal S128 .f32) (ix1 q))
            (fun p q => (V c main_v1 : Vec Ideal S16x64 .bf16) (ix2 p q)) (fun q => (V c main_arg5 : Vec Ideal S64 .f32) (ix1 q))
            (fun k => (V c main_arg7 : Vec Ideal S256 .f32) (ix1 k))
            (fun q k => (V c main_v3 : Vec Ideal S128x256 .bf16) (ix2 q k)) (fun q k => (V c main_v5 : Vec Ideal S128x256 .bf16) (ix2 q k))
            (fun q k => (V c main_v7 : Vec Ideal S64x256 .bf16) (ix2 q k)) k
          * (V c main_v21 : Vec Ideal S256 .f32) (ix1 k) + (V c main_v23 : Vec Ideal S256 .f32) (ix1 k)) 0)
        (fun k j => (V c main_v8 : Vec Ideal S256x128 .bf16) (ix2 k j)) (fun j => (V c main_arg11 : Vec Ideal S128 .f32) (ix1 j)) j

/-- The same as a whole array. -/
def G1 (c : Dev nD) : Vec Ideal S500000x128 .f32 := fun i => outAt V c (i 0) (i 1)

/-- What point `t` writes back is block `t` of that array. -/
theorem flushed13_eq (c : Dev nD) (t : Fin cfg1.N) :
    (dat1 V c).flushed 13 t = ((cfg1.win 13).blk t).view.read (Elt Ideal) (G1 V c) := by
  show (cfg1.win 13).cut (grid1.coords t) ((dat1 V c).after 13 t) = _
  rw [after1_13, out1_eq]
  funext y
  obtain ⟨i, j, rfl⟩ : ∃ (i : Fin 2000) (j : Fin 128), y = ix2 i j := ⟨y 0, y 1, eq_ix2 y⟩
  rw [View.read_apply, emb13]
  refine (out_apply (iblk1 V c 0 t) (iblk1 V c 1 t) (iblk1 V c 2 t) (iblk1 V c 3 t) (iblk1 V c 4 t) (iblk1 V c 5 t)
    (iblk1 V c 6 t) (iblk1 V c 7 t) (iblk1 V c 8 t) (iblk1 V c 9 t) (iblk1 V c 10 t) (iblk1 V c 11 t) (iblk1 V c 12 t) i j).trans ?_
  have h0 : rowOf (iblk1 V c 0 t) i = fun p => (V c main_arg0 : Vec Ideal S500000x80 .f32) (ix2 (rowAt t i) p) :=
    funext fun p => blk1_0_apply V c t i p
  rw [h0, blk1_1 V c t, blk1_2 V c t, blk1_3 V c t, blk1_4 V c t, blk1_5 V c t, blk1_6 V c t, blk1_7 V c t, blk1_8 V c t, blk1_9 V c t, blk1_10 V c t, blk1_11 V c t, blk1_12 V c t]
  rfl

/-- An index of the output array is in point `t`'s block iff each coordinate is in the block's range on its axis. -/
theorem mem_blk13 (t : Fin cfg1.N) (i : S500000x128.Idx) :
    i ∈ ((cfg1.win 13).blk t).view.set ↔ ∀ a : Fin 2, win1_13.index t a * S2000x128.size a ≤ (i a).val ∧ (i a).val < win1_13.index t a * S2000x128.size a + S2000x128.size a := by
  show i ∈ ((View.whole main_v24).slice (win1_13.rect t)).set ↔ _
  rw [View.set_slice_whole, Rect.mem_set_unit]
  exact Iff.rfl

/-- Every entry of the output array is in some point's block: row r is in block r / 2000. -/
theorem cover13 (i : S500000x128.Idx) : ∃ t : Fin cfg1.N, (cfg1.win 13).flush t = true ∧ i ∈ ((cfg1.win 13).blk t).view.set := by
  have hi0 : (i 0).val < 500000 := (i 0).isLt
  have hi1 : (i 1).val < 128 := (i 1).isLt
  let t : Fin cfg1.N := ⟨(i 0).val / 2000, by rw [N1]; omega⟩
  have ht : t.val = (i 0).val / 2000 := rfl
  obtain ⟨e0, e1, e2, e3, e4, e5, e6, e7, e8, e9, e10, e11, e12, e13, e14, e15, e16, e17, e18, e19, e20, e21⟩ := idx_facts t
  refine ⟨t, flush1_13 t, ?_⟩
  rw [mem_blk13]
  intro a
  match a with
    | ⟨0, _⟩ => show win1_13.index t (0 : Fin 2) * 2000 ≤ (i 0).val ∧ (i 0).val < win1_13.index t (0 : Fin 2) * 2000 + 2000; omega
    | ⟨1, _⟩ => show win1_13.index t (1 : Fin 2) * 128 ≤ (i 1).val ∧ (i 1).val < win1_13.index t (1 : Fin 2) * 128 + 128; omega

/-- So the output array ends holding that function. -/
theorem final13 (c : Dev nD) : (dat1 V c).arrAt 13 cfg1.N = G1 V c :=
  (dat1 V c).arrAt_eq_of_cover 13 (G1 V c) (fun t _ => flushed13_eq V c t) cover13

/-- Entry (r, j) of the second kernel's output array: row r of the input through both kernels' shared layers, the
    column-wise scale and shift, the positive part and the last dense layer, all read off the arrays the region is
    entered with. -/
theorem arr1_apply (c : Dev nD) (r : Fin 500000) (j : Fin 128) :
    ((dat1 V c).arrAt 13 cfg1.N : Vec Ideal S500000x128 .f32) (ix2 r j)
      = Cert.Spec.dense
        (fun k => max (Cert.Spec.hK3 (fun p => (V c main_arg0 : Vec Ideal S500000x80 .f32) (ix2 r p))
            (fun p q => (V c main_v0 : Vec Ideal S32x128 .bf16) (ix2 p q)) (fun q => (V c main_arg3 : Vec Ideal S128 .f32) (ix1 q))
            (fun p q => (V c main_v1 : Vec Ideal S16x64 .bf16) (ix2 p q)) (fun q => (V c main_arg5 : Vec Ideal S64 .f32) (ix1 q))
            (fun k => (V c main_arg7 : Vec Ideal S256 .f32) (ix1 k))
            (fun q k => (V c main_v3 : Vec Ideal S128x256 .bf16) (ix2 q k)) (fun q k => (V c main_v5 : Vec Ideal S128x256 .bf16) (ix2 q k))
            (fun q k => (V c main_v7 : Vec Ideal S64x256 .bf16) (ix2 q k)) k
          * (V c main_v21 : Vec Ideal S256 .f32) (ix1 k) + (V c main_v23 : Vec Ideal S256 .f32) (ix1 k)) 0)
        (fun k j => (V c main_v8 : Vec Ideal S256x128 .bf16) (ix2 k j)) (fun j => (V c main_arg11 : Vec Ideal S128 .f32) (ix1 j)) j := by
  rw [final13]
  rfl

end Cert.KernelIdeal.Val

end
-- ==== Proof.KI.KVal.lean ====
/-
  The kernel program's value up to the second kernel's output, in the specification's terms: the prepared weight arrays
  are the arguments (a format change is the identity, the second layer's three matrices are row ranges of one argument),
  the first kernel's two rows are the sums over all 500000 rows of the 256 features and of their squares, and entry
  (r, j) of the second kernel's array is the last dense layer of row r's normalised features.
-/
import proofs.«146594_j41369124995826_1_alg».proof.Proof.Gen.KernelIdeal.Launch
import proofs.«146594_j41369124995826_1_alg».proof.Proof.Gen.KernelIdeal.Skeleton
import proofs.«146594_j41369124995826_1_alg».proof.Proof.Gen.KernelIdeal.Points
import proofs.«146594_j41369124995826_1_alg».proof.Proof.Gen.KernelIdeal.Regions
import proofs.«146594_j41369124995826_1_alg».proof.Proof.KI.R0
import proofs.«146594_j41369124995826_1_alg».proof.Proof.KI.R1
import proofs.«146594_j41369124995826_1_alg».proof.Proof.KI.Regs
import proofs.«146594_j41369124995826_1_alg».proof.Proof.KI.Pay
import proofs.«146594_j41369124995826_1_alg».proof.Proof.KI.Mid
import proofs.«146594_j41369124995826_1_alg».proof.Proof.KI.Arr0
import proofs.«146594_j41369124995826_1_alg».proof.Proof.KI.Arr1
import proofs.«146594_j41369124995826_1_alg».proof.Proof.Math.Spec
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.ValueIdx
import Idealize.ShloMosaic.Lib.ValueLayout
import Idealize.ShloMosaic.Lib.IdealHost
import Idealize.ShloMosaic.Lib.Ring
import Idealize.ShloMosaic.Lib.Tactic

set_option maxRecDepth 16384

noncomputable section

namespace Cert.KernelIdeal.Val

open Cert.KernelIdeal Cert.KernelIdeal.Gen Cert.KernelIdeal.Hand
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open scoped BigOperators

variable (m : (ℓ : Loc nD τ sig) → Buf (Elt Ideal) ℓ) (c : Dev nD)

/-! # The kernel program's value up to region 1's output

  The arrays the first host stretch prepares are the arguments themselves: a change of format is the identity on
  extended reals, and the three matrices of the second layer are the row ranges 0 … 127, 128 … 255, 256 … 319 of the
  320 × 256 argument. With them, the two sums region 0 leaves are the sums over all 500000 rows of the specification's
  256 features and of their squares; the scale and shift the second host stretch forms from those sums are the
  specification's normalisation in its folded form; and entry (r, j) of the array region 1 leaves is the
  specification's last dense layer of row r's normalised features. -/

/-! ## The host stretch before region 0 -/

/-- No operation of the first stretch writes a buffer outside its list: an argument is as launched. -/
theorem V1_keep (r : Ref sig .tc) (h : r ∉ (Gen.hostOps0_W : List (Ref sig .tc))) : V1' m c r = m ((c.tc : Thread nD τ).loc r) :=
  (Gen.V1_of m c r h).trans rfl

/-- The atom layer's matrix: a change of format, the identity on extended reals. -/
theorem V1_v0 : @Eq (S32x128.Idx → EReal) (V1' m c main_v0) (m ((c.tc : Thread nD τ).loc main_arg2)) := by
  dsimp only [V1', W1, hostOps0]; after_results; rfl
/-- The bond layer's matrix. -/
theorem V1_v1 : @Eq (S16x64.Idx → EReal) (V1' m c main_v1) (m ((c.tc : Thread nD τ).loc main_arg4)) := by
  dsimp only [V1', W1, hostOps0]; after_results; rfl
/-- The last layer's matrix. -/
theorem V1_v8 : @Eq (S256x128.Idx → EReal) (V1' m c main_v8) (m ((c.tc : Thread nD τ).loc main_arg10)) := by
  dsimp only [V1', W1, hostOps0]; after_results; rfl

/-- Rows 0 … 127 of the second layer's matrix. -/
theorem V1_v3 (q : Fin 128) (k : Fin 256) : (V1' m c main_v3 : S128x256.Idx → EReal) (ix2 q k) = ((m ((c.tc : Thread nD τ).loc main_arg6)) : S320x256.Idx → EReal) (ix2 ⟨q.val, by omega⟩ k) := by
  have e : @Eq (FVec Ideal S128x256 .bf16) (V1' m c main_v3) (truncf .bf16 (extractStridedSlice S128x256 ![0, 0] ((m ((c.tc : Thread nD τ).loc main_arg6)) : FVec Ideal S320x256 .f32) slices_S320x256_S128x256_0_0) bitsLt_bf16_f32) := by
    dsimp only [V1', W1, hostOps0]; after_results
  refine (congrFun e (ix2 q k)).trans ?_
  rw [truncf_apply]
  exact slice2_axis0_apply 0 _ _ q k ⟨q.val, by omega⟩ (by simp)
/-- Rows 128 … 255 of the second layer's matrix. -/
theorem V1_v5 (q : Fin 128) (k : Fin 256) : (V1' m c main_v5 : S128x256.Idx → EReal) (ix2 q k) = ((m ((c.tc : Thread nD τ).loc main_arg6)) : S320x256.Idx → EReal) (ix2 ⟨128 + q.val, by omega⟩ k) := by
  have e : @Eq (FVec Ideal S128x256 .bf16) (V1' m c main_v5) (truncf .bf16 (extractStridedSlice S128x256 ![128, 0] ((m ((c.tc : Thread nD τ).loc main_arg6)) : FVec Ideal S320x256 .f32) slices_S320x256_S128x256_128_0) bitsLt_bf16_f32) := by
    dsimp only [V1', W1, hostOps0]; after_results
  refine (congrFun e (ix2 q k)).trans ?_
  rw [truncf_apply]
  exact slice2_axis0_apply 128 _ _ q k ⟨128 + q.val, by omega⟩ rfl
/-- Rows 256 … 319 of the second layer's matrix. -/
theorem V1_v7 (q : Fin 64) (k : Fin 256) : (V1' m c main_v7 : S64x256.Idx → EReal) (ix2 q k) = ((m ((c.tc : Thread nD τ).loc main_arg6)) : S320x256.Idx → EReal) (ix2 ⟨256 + q.val, by omega⟩ k) := by
  have e : @Eq (FVec Ideal S64x256 .bf16) (V1' m c main_v7) (truncf .bf16 (extractStridedSlice S64x256 ![256, 0] ((m ((c.tc : Thread nD τ).loc main_arg6)) : FVec Ideal S320x256 .f32) slices_S320x256_S64x256_256_0) bitsLt_bf16_f32) := by
    dsimp only [V1', W1, hostOps0]; after_results
  refine (congrFun e (ix2 q k)).trans ?_
  rw [truncf_apply]
  exact slice2_axis0_apply 256 _ _ q k ⟨256 + q.val, by omega⟩ rfl

/-! ## Region 1's output -/

/-- Row `r`'s 256 features computed from the arrays region 0 is entered with are the specification's from the
    arguments: the three matrices are the three row ranges of the second layer's matrix, every other array an
    argument as launched (or its change of format). -/
theorem hK3_V1 (r : Fin 500000) (k : Fin 256) :
    Cert.Spec.hK3 (fun p => (V1' m c main_arg0 : Vec Ideal S500000x80 .f32) (ix2 r p))
        (fun p q => (V1' m c main_v0 : Vec Ideal S32x128 .bf16) (ix2 p q)) (fun q => (V1' m c main_arg3 : Vec Ideal S128 .f32) (ix1 q))
        (fun p q => (V1' m c main_v1 : Vec Ideal S16x64 .bf16) (ix2 p q)) (fun q => (V1' m c main_arg5 : Vec Ideal S64 .f32) (ix1 q))
        (fun k => (V1' m c main_arg7 : Vec Ideal S256 .f32) (ix1 k))
        (fun q k => (V1' m c main_v3 : Vec Ideal S128x256 .bf16) (ix2 q k)) (fun q k => (V1' m c main_v5 : Vec Ideal S128x256 .bf16) (ix2 q k))
        (fun q k => (V1' m c main_v7 : Vec Ideal S64x256 .bf16) (ix2 q k)) k
      = Cert.Spec.hK (fun p => ((m ((c.tc : Thread nD τ).loc main_arg0)) : S500000x80.Idx → EReal) (ix2 r p)) (mat (m ((c.tc : Thread nD τ).loc main_arg2))) (vec (m ((c.tc : Thread nD τ).loc main_arg3))) (mat (m ((c.tc : Thread nD τ).loc main_arg4))) (vec (m ((c.tc : Thread nD τ).loc main_arg5))) (mat (m ((c.tc : Thread nD τ).loc main_arg6))) (vec (m ((c.tc : Thread nD τ).loc main_arg7))) k := by
  unfold Cert.Spec.hK
  have h0 : (fun p => (V1' m c main_arg0 : Vec Ideal S500000x80 .f32) (ix2 r p)) = (fun p => ((m ((c.tc : Thread nD τ).loc main_arg0)) : S500000x80.Idx → EReal) (ix2 r p)) :=
    funext fun p => congrFun (V1_keep m c main_arg0 (by decide)) (ix2 r p)
  have h1 : (fun p q => (V1' m c main_v0 : Vec Ideal S32x128 .bf16) (ix2 p q)) = mat (m ((c.tc : Thread nD τ).loc main_arg2)) :=
    funext fun p => funext fun q => congrFun (V1_v0 m c) (ix2 p q)
  have h2 : (fun q => (V1' m c main_arg3 : Vec Ideal S128 .f32) (ix1 q)) = vec (m ((c.tc : Thread nD τ).loc main_arg3)) :=
    funext fun q => congrFun (V1_keep m c main_arg3 (by decide)) (ix1 q)
  have h3 : (fun p q => (V1' m c main_v1 : Vec Ideal S16x64 .bf16) (ix2 p q)) = mat (m ((c.tc : Thread nD τ).loc main_arg4)) :=
    funext fun p => funext fun q => congrFun (V1_v1 m c) (ix2 p q)
  have h4 : (fun q => (V1' m c main_arg5 : Vec Ideal S64 .f32) (ix1 q)) = vec (m ((c.tc : Thread nD τ).loc main_arg5)) :=
    funext fun q => congrFun (V1_keep m c main_arg5 (by decide)) (ix1 q)
  have h5 : (fun k => (V1' m c main_arg7 : Vec Ideal S256 .f32) (ix1 k)) = vec (m ((c.tc : Thread nD τ).loc main_arg7)) :=
    funext fun q => congrFun (V1_keep m c main_arg7 (by decide)) (ix1 q)
  have h6 : (fun q k => (V1' m c main_v3 : Vec Ideal S128x256 .bf16) (ix2 q k)) = (fun (q : Fin 128) k => mat (m ((c.tc : Thread nD τ).loc main_arg6)) ⟨q.val, by omega⟩ k) :=
    funext fun q => funext fun k => V1_v3 m c q k
  have h7 : (fun q k => (V1' m c main_v5 : Vec Ideal S128x256 .bf16) (ix2 q k)) = (fun (q : Fin 128) k => mat (m ((c.tc : Thread nD τ).loc main_arg6)) ⟨128 + q.val, by omega⟩ k) :=
    funext fun q => funext fun k => V1_v5 m c q k
  have h8 : (fun q k => (V1' m c main_v7 : Vec Ideal S64x256 .bf16) (ix2 q k)) = (fun (q : Fin 64) k => mat (m ((c.tc : Thread nD τ).loc main_arg6)) ⟨256 + q.val, by omega⟩ k) :=
    funext fun q => funext fun k => V1_v7 m c q k
  rw [h0, h1, h2, h3, h4, h5, h6, h7, h8]

/-- Column `k`'s sum as region 0 leaves it is the sum of feature `k` over all rows. -/
theorem colSum_eq (k : Fin 256) : colSum m c k = ∑ r' : Fin 500000, Cert.Spec.hK (fun p => ((m ((c.tc : Thread nD τ).loc main_arg0)) : S500000x80.Idx → EReal) (ix2 r' p)) (mat (m ((c.tc : Thread nD τ).loc main_arg2))) (vec (m ((c.tc : Thread nD τ).loc main_arg3))) (mat (m ((c.tc : Thread nD τ).loc main_arg4))) (vec (m ((c.tc : Thread nD τ).loc main_arg5))) (mat (m ((c.tc : Thread nD τ).loc main_arg6))) (vec (m ((c.tc : Thread nD τ).loc main_arg7))) k := by
  have h' : (∑ r' : Fin 500000, Cert.Spec.hK3 (fun p => (V1' m c main_arg0 : Vec Ideal S500000x80 .f32) (ix2 r' p))
        (fun p q => (V1' m c main_v0 : Vec Ideal S32x128 .bf16) (ix2 p q)) (fun q => (V1' m c main_arg3 : Vec Ideal S128 .f32) (ix1 q))
        (fun p q => (V1' m c main_v1 : Vec Ideal S16x64 .bf16) (ix2 p q)) (fun q => (V1' m c main_arg5 : Vec Ideal S64 .f32) (ix1 q))
        (fun k => (V1' m c main_arg7 : Vec Ideal S256 .f32) (ix1 k))
        (fun q k => (V1' m c main_v3 : Vec Ideal S128x256 .bf16) (ix2 q k)) (fun q k => (V1' m c main_v5 : Vec Ideal S128x256 .bf16) (ix2 q k))
        (fun q k => (V1' m c main_v7 : Vec Ideal S64x256 .bf16) (ix2 q k)) k : EReal)
      = ∑ r' : Fin 500000, Cert.Spec.hK (fun p => ((m ((c.tc : Thread nD τ).loc main_arg0)) : S500000x80.Idx → EReal) (ix2 r' p)) (mat (m ((c.tc : Thread nD τ).loc main_arg2))) (vec (m ((c.tc : Thread nD τ).loc main_arg3))) (mat (m ((c.tc : Thread nD τ).loc main_arg4))) (vec (m ((c.tc : Thread nD τ).loc main_arg5))) (mat (m ((c.tc : Thread nD τ).loc main_arg6))) (vec (m ((c.tc : Thread nD τ).loc main_arg7))) k :=
    Finset.sum_congr rfl fun r' _ => hK3_V1 m c r' k
  unfold colSum
  exact (arr0_sum (V1' m) c k).trans h'

/-- Column `k`'s sum of squares as region 0 leaves it is the sum of the squares of feature `k` over all rows. -/
theorem colSumSq_eq (k : Fin 256) : colSumSq m c k = ∑ r' : Fin 500000, (Cert.Spec.hK (fun p => ((m ((c.tc : Thread nD τ).loc main_arg0)) : S500000x80.Idx → EReal) (ix2 r' p)) (mat (m ((c.tc : Thread nD τ).loc main_arg2))) (vec (m ((c.tc : Thread nD τ).loc main_arg3))) (mat (m ((c.tc : Thread nD τ).loc main_arg4))) (vec (m ((c.tc : Thread nD τ).loc main_arg5))) (mat (m ((c.tc : Thread nD τ).loc main_arg6))) (vec (m ((c.tc : Thread nD τ).loc main_arg7))) k) * (Cert.Spec.hK (fun p => ((m ((c.tc : Thread nD τ).loc main_arg0)) : S500000x80.Idx → EReal) (ix2 r' p)) (mat (m ((c.tc : Thread nD τ).loc main_arg2))) (vec (m ((c.tc : Thread nD τ).loc main_arg3))) (mat (m ((c.tc : Thread nD τ).loc main_arg4))) (vec (m ((c.tc : Thread nD τ).loc main_arg5))) (mat (m ((c.tc : Thread nD τ).loc main_arg6))) (vec (m ((c.tc : Thread nD τ).loc main_arg7))) k) := by
  have h' : (∑ r' : Fin 500000, (Cert.Spec.hK3 (fun p => (V1' m c main_arg0 : Vec Ideal S500000x80 .f32) (ix2 r' p))
        (fun p q => (V1' m c main_v0 : Vec Ideal S32x128 .bf16) (ix2 p q)) (fun q => (V1' m c main_arg3 : Vec Ideal S128 .f32) (ix1 q))
        (fun p q => (V1' m c main_v1 : Vec Ideal S16x64 .bf16) (ix2 p q)) (fun q => (V1' m c main_arg5 : Vec Ideal S64 .f32) (ix1 q))
        (fun k => (V1' m c main_arg7 : Vec Ideal S256 .f32) (ix1 k))
        (fun q k => (V1' m c main_v3 : Vec Ideal S128x256 .bf16) (ix2 q k)) (fun q k => (V1' m c main_v5 : Vec Ideal S128x256 .bf16) (ix2 q k))
        (fun q k => (V1' m c main_v7 : Vec Ideal S64x256 .bf16) (ix2 q k)) k) * (Cert.Spec.hK3 (fun p => (V1' m c main_arg0 : Vec Ideal S500000x80 .f32) (ix2 r' p))
        (fun p q => (V1' m c main_v0 : Vec Ideal S32x128 .bf16) (ix2 p q)) (fun q => (V1' m c main_arg3 : Vec Ideal S128 .f32) (ix1 q))
        (fun p q => (V1' m c main_v1 : Vec Ideal S16x64 .bf16) (ix2 p q)) (fun q => (V1' m c main_arg5 : Vec Ideal S64 .f32) (ix1 q))
        (fun k => (V1' m c main_arg7 : Vec Ideal S256 .f32) (ix1 k))
        (fun q k => (V1' m c main_v3 : Vec Ideal S128x256 .bf16) (ix2 q k)) (fun q k => (V1' m c main_v5 : Vec Ideal S128x256 .bf16) (ix2 q k))
        (fun q k => (V1' m c main_v7 : Vec Ideal S64x256 .bf16) (ix2 q k)) k) : EReal)
      = ∑ r' : Fin 500000, (Cert.Spec.hK (fun p => ((m ((c.tc : Thread nD τ).loc main_arg0)) : S500000x80.Idx → EReal) (ix2 r' p)) (mat (m ((c.tc : Thread nD τ).loc main_arg2))) (vec (m ((c.tc : Thread nD τ).loc main_arg3))) (mat (m ((c.tc : Thread nD τ).loc main_arg4))) (vec (m ((c.tc : Thread nD τ).loc main_arg5))) (mat (m ((c.tc : Thread nD τ).loc main_arg6))) (vec (m ((c.tc : Thread nD τ).loc main_arg7))) k) * (Cert.Spec.hK (fun p => ((m ((c.tc : Thread nD τ).loc main_arg0)) : S500000x80.Idx → EReal) (ix2 r' p)) (mat (m ((c.tc : Thread nD τ).loc main_arg2))) (vec (m ((c.tc : Thread nD τ).loc main_arg3))) (mat (m ((c.tc : Thread nD τ).loc main_arg4))) (vec (m ((c.tc : Thread nD τ).loc main_arg5))) (mat (m ((c.tc : Thread nD τ).loc main_arg6))) (vec (m ((c.tc : Thread nD τ).loc main_arg7))) k) :=
    Finset.sum_congr rfl fun r' _ => by rw [hK3_V1 m c r' k]
  unfold colSumSq
  exact (arr0_sumsq (V1' m) c k).trans h'

/-- Entry (r, j) of the 500000 × 128 array region 1 leaves: row r's 256 features normalised column by column with
    the statistics of all rows (scale and shift from the sums region 0 left), the positive part, then the last dense
    layer at output feature j. -/
theorem xf_apply (r : Fin 500000) (j : Fin 128) :
    (outsOf m 4 main_v24 c : S500000x128.Idx → EReal) (ix2 r j)
      = Cert.Spec.dense (fun k => Cert.Spec.normK
            (fun r' : Fin 500000 => Cert.Spec.hK (fun p => ((m ((c.tc : Thread nD τ).loc main_arg0)) : S500000x80.Idx → EReal) (ix2 r' p)) (mat (m ((c.tc : Thread nD τ).loc main_arg2))) (vec (m ((c.tc : Thread nD τ).loc main_arg3))) (mat (m ((c.tc : Thread nD τ).loc main_arg4))) (vec (m ((c.tc : Thread nD τ).loc main_arg5))) (mat (m ((c.tc : Thread nD τ).loc main_arg6))) (vec (m ((c.tc : Thread nD τ).loc main_arg7))) k)
            Nc eps (vec (m ((c.tc : Thread nD τ).loc main_arg8)) k) (vec (m ((c.tc : Thread nD τ).loc main_arg9)) k) r)
          (mat (m ((c.tc : Thread nD τ).loc main_arg10))) (vec (m ((c.tc : Thread nD τ).loc main_arg11))) j := by
  rw [out24 m c]
  refine (arr1_apply (V3' m) c r j).trans ?_
  rw [V3_keep m c main_arg0 (by decide) (by decide), V3_keep m c main_v0 (by decide) (by decide),
    V3_keep m c main_arg3 (by decide) (by decide), V3_keep m c main_v1 (by decide) (by decide),
    V3_keep m c main_arg5 (by decide) (by decide), V3_keep m c main_arg7 (by decide) (by decide),
    V3_keep m c main_v3 (by decide) (by decide), V3_keep m c main_v5 (by decide) (by decide),
    V3_keep m c main_v7 (by decide) (by decide), V3_keep m c main_v8 (by decide) (by decide),
    V3_keep m c main_arg11 (by decide) (by decide)]
  have hW : (fun k j => (V1' m c main_v8 : Vec Ideal S256x128 .bf16) (ix2 k j)) = mat (m ((c.tc : Thread nD τ).loc main_arg10)) :=
    funext fun p => funext fun q => congrFun (V1_v8 m c) (ix2 p q)
  have hb : (fun j => (V1' m c main_arg11 : Vec Ideal S128 .f32) (ix1 j)) = vec (m ((c.tc : Thread nD τ).loc main_arg11)) :=
    funext fun q => congrFun (V1_keep m c main_arg11 (by decide)) (ix1 q)
  rw [hW, hb]
  congr 1
  funext k
  rw [hK3_V1 m c r k, V3_v21 m c k, V3_v23 m c k, colSum_eq m c k, colSumSq_eq m c k]
  rfl

end Cert.KernelIdeal.Val

end
-- ==== Proof.Ref.Stages.lean ====
/-
  The reference's front stage as pure terms: each definition is the printed operations of a group of lines of the
  reference's main function applied to the previous definitions, generic in the float instance.
-/
import proofs.«146594_j41369124995826_1_alg».proof.Proof.Gen.ReferenceIdeal

noncomputable section

namespace Cert.ReferenceIdeal.Hand

open Cert.ReferenceIdeal Idealize.ShloMosaic
open Cert.ReferenceIdeal.Facts₀

variable {F : FTy → Type} [FloatOps F]

/-- A vector of 128 entries repeated on every row: the two broadcasts [128] → [1, 128] → [500000, 128]. -/
def rows128 (v : FVec F S128 .f32) : FVec F S500000x128 .f32 :=
  broadcastInDim S500000x128 ![0, 1] bcast_S1x128_S500000x128_0_1 (broadcastInDim S1x128 ![1] bcast_S128_S1x128_1 v)
/-- A vector of 64 entries repeated on every row. -/
def rows64 (v : FVec F S64 .f32) : FVec F S500000x64 .f32 :=
  broadcastInDim S500000x64 ![0, 1] bcast_S1x64_S500000x64_0_1 (broadcastInDim S1x64 ![1] bcast_S64_S1x64_1 v)
/-- A vector of 256 entries repeated on every row. -/
def rows256 (v : FVec F S256 .f32) : FVec F S500000x256 .f32 :=
  broadcastInDim S500000x256 ![0, 1] bcast_S1x256_S500000x256_0_1 (broadcastInDim S1x256 ![1] bcast_S256_S1x256_1 v)

/-- The first 32-column block through its linear layer and the rectifier (lines %0 … %5). -/
def aR0 (x : FVec F S500000x80 .f32) (aW : FVec F S32x128 .f32) (ab : FVec F S128 .f32) : FVec F S500000x128 .f32 :=
  maximumf
    (addf (Host.dotGeneral dot_S500000x32_S32x128_S500000x128_1_0_0_1_n_n none
        (extractStridedSlice S500000x32 ![0, 0] x slices_S500000x80_S500000x32_0_0) aW) (rows128 ab))
    (broadcastInDim S500000x128 ![] bcast_S_S500000x128 (constant S_ .f32 0x00000000#32))
/-- The second 32-column block through the same layer (lines %6 … %11). -/
def aR1 (x : FVec F S500000x80 .f32) (aW : FVec F S32x128 .f32) (ab : FVec F S128 .f32) : FVec F S500000x128 .f32 :=
  maximumf
    (addf (Host.dotGeneral dot_S500000x32_S32x128_S500000x128_1_0_0_1_n_n none
        (extractStridedSlice S500000x32 ![0, 32] x slices_S500000x80_S500000x32_0_32) aW) (rows128 ab))
    (broadcastInDim S500000x128 ![] bcast_S_S500000x128 (constant S_ .f32 0x00000000#32))
/-- The last 16 columns through their layer and the rectifier (lines %12 … %17). -/
def bR (x : FVec F S500000x80 .f32) (bW : FVec F S16x64 .f32) (bb : FVec F S64 .f32) : FVec F S500000x64 .f32 :=
  maximumf
    (addf (Host.dotGeneral dot_S500000x16_S16x64_S500000x64_1_0_0_1_n_n none
        (extractStridedSlice S500000x16 ![0, 64] x slices_S500000x80_S500000x16_0_64) bW) (rows64 bb))
    (broadcastInDim S500000x64 ![] bcast_S_S500000x64 (constant S_ .f32 0x00000000#32))
/-- The three blocks side by side (line %18). -/
def catR (x : FVec F S500000x80 .f32) (aW : FVec F S32x128 .f32) (ab : FVec F S128 .f32) (bW : FVec F S16x64 .f32) (bb : FVec F S64 .f32) : FVec F S500000x320 .f32 :=
  concatenate S500000x320 1 [⟨S500000x128, aR0 x aW ab⟩, ⟨S500000x128, aR1 x aW ab⟩, ⟨S500000x64, bR x bW bb⟩]
    concatenates_S500000x128_S500000x128_S500000x64_S500000x320_d1
/-- The array before normalisation (lines %19 … %22). -/
def h1R (x : FVec F S500000x80 .f32) (aW : FVec F S32x128 .f32) (ab : FVec F S128 .f32) (bW : FVec F S16x64 .f32) (bb : FVec F S64 .f32) (p1W : FVec F S320x256 .f32) (p1b : FVec F S256 .f32) : FVec F S500000x256 .f32 :=
  addf (Host.dotGeneral dot_S500000x320_S320x256_S500000x256_1_0_0_1_n_n none (catR x aW ab bW bb) p1W) (rows256 p1b)
/-- Its column means (lines %23 … %25). -/
def meanR (x : FVec F S500000x80 .f32) (aW : FVec F S32x128 .f32) (ab : FVec F S128 .f32) (bW : FVec F S16x64 .f32) (bb : FVec F S64 .f32) (p1W : FVec F S320x256 .f32) (p1b : FVec F S256 .f32) : FVec F S256 .f32 :=
  Host.divf
    (Host.reduceAdd (h1R x aW ab bW bb p1W p1b) (constant S_ .f32 0x00000000#32) reducesTo_S500000x256_S256_d0 h_S_)
    (broadcastInDim S256 ![] bcast_S_S256 (constant S_ .f32 0x48F42400#32))
/-- Its column variances (lines %26 … %32). -/
def varR (x : FVec F S500000x80 .f32) (aW : FVec F S32x128 .f32) (ab : FVec F S128 .f32) (bW : FVec F S16x64 .f32) (bb : FVec F S64 .f32) (p1W : FVec F S320x256 .f32) (p1b : FVec F S256 .f32) : FVec F S256 .f32 :=
  Host.divf
    (Host.reduceAdd
      (mulf (subf (h1R x aW ab bW bb p1W p1b) (rows256 (meanR x aW ab bW bb p1W p1b)))
        (subf (h1R x aW ab bW bb p1W p1b) (rows256 (meanR x aW ab bW bb p1W p1b))))
      (constant S_ .f32 0x00000000#32) reducesTo_S500000x256_S256_d0 h_S_)
    (broadcastInDim S256 ![] bcast_S_S256 (constant S_ .f32 0x48F42400#32))
/-- The reciprocal square root of variance plus epsilon (lines %36 … %38). -/
def rstdR (x : FVec F S500000x80 .f32) (aW : FVec F S32x128 .f32) (ab : FVec F S128 .f32) (bW : FVec F S16x64 .f32) (bb : FVec F S64 .f32) (p1W : FVec F S320x256 .f32) (p1b : FVec F S256 .f32) : FVec F S256 .f32 :=
  Host.rsqrt (addf (varR x aW ab bW bb p1W p1b) (broadcastInDim S256 ![] bcast_S_S256 (constant S_ .f32 0x3727C5AC#32)))
/-- The normalised array scaled and shifted (lines %33 … %35, %39 … %47). -/
def bnR (x : FVec F S500000x80 .f32) (aW : FVec F S32x128 .f32) (ab : FVec F S128 .f32) (bW : FVec F S16x64 .f32) (bb : FVec F S64 .f32) (p1W : FVec F S320x256 .f32) (p1b : FVec F S256 .f32) (g : FVec F S256 .f32) (b : FVec F S256 .f32) : FVec F S500000x256 .f32 :=
  addf
    (mulf
      (mulf (subf (h1R x aW ab bW bb p1W p1b) (rows256 (meanR x aW ab bW bb p1W p1b))) (rows256 (rstdR x aW ab bW bb p1W p1b)))
      (rows256 g))
    (rows256 b)
/-- Its rectifier (line %48). -/
def actR (x : FVec F S500000x80 .f32) (aW : FVec F S32x128 .f32) (ab : FVec F S128 .f32) (bW : FVec F S16x64 .f32) (bb : FVec F S64 .f32) (p1W : FVec F S320x256 .f32) (p1b : FVec F S256 .f32) (g : FVec F S256 .f32) (b : FVec F S256 .f32) : FVec F S500000x256 .f32 :=
  maximumf (bnR x aW ab bW bb p1W p1b g b)
    (broadcastInDim S500000x256 ![] bcast_S_S500000x256 (constant S_ .f32 0x00000000#32))
/-- The last dense layer (lines %49 … %52). -/
def frontR (x : FVec F S500000x80 .f32) (aW : FVec F S32x128 .f32) (ab : FVec F S128 .f32) (bW : FVec F S16x64 .f32) (bb : FVec F S64 .f32) (p1W : FVec F S320x256 .f32) (p1b : FVec F S256 .f32) (g : FVec F S256 .f32) (b : FVec F S256 .f32) (p3W : FVec F S256x128 .f32) (p3b : FVec F S128 .f32) : FVec F S500000x128 .f32 :=
  addf (Host.dotGeneral dot_S500000x256_S256x128_S500000x128_1_0_0_1_n_n none (actR x aW ab bW bb p1W p1b g b) p3W) (rows128 p3b)

end Cert.ReferenceIdeal.Hand

end
-- ==== Proof.Ref.Run.lean ====
import proofs.«146594_j41369124995826_1_alg».proof.Proof.Gen.ReferenceIdeal
import proofs.«146594_j41369124995826_1_alg».proof.Proof.Ref.Stages
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## The second stretch, lines %53 … %111, as pure terms -/

/-- The segment lengths shifted cyclically by one place: the last entry first, then entries 0 … 9998. -/
def rollR (idx : IVec S10000 32) : IVec S10000 32 :=
  concatenate S10000 0 [⟨S1, (extractStridedSlice S1 ![9999] idx slices_S10000_S1_9999)⟩, ⟨S9999, (extractStridedSlice S9999 ![0] idx slices_S10000_S9999_0)⟩] concatenates_S1_S9999_S10000_d0

/-- From the shifted lengths: entry 0 set to zero, then the running sum — each segment's first row. -/
def startsR (rolled : IVec S10000 32) : IVec S10000 32 :=
  Host.reduceWindow IntOp.addi ![10000] ![1] ![9999] ![0] (Host.scatter scatter_S10000_S1_S__n_0_0_0 (fun _ b => b) rolled (broadcastInDim S1 ![] bcast_S_S1 (constantI S_ 32 0#32)) (constantI S_ 32 0#32)) (broadcastInDim S_ ![] bcast_S_S_ (constantI S_ 32 0#32)) reduceWindows_S10000_S10000_w10000s1p9999_0 h_S_

/-- Per row, the number of segment starts at or before it, minus one. -/
def rowCntR (rolled : IVec S10000 32) : IVec S500000 32 :=
  subi (Host.reduceWindow IntOp.addi ![500000] ![1] ![499999] ![0] (Host.scatter scatter_S500000_S10000x1_S10000_n_0_0_1 IntOp.addi (broadcastInDim S500000 ![] bcast_S_S500000 (constantI S_ 32 0#32)) (broadcastInDim S10000x1 ![0] bcast_S10000_S10000x1_0 (select (cmpi .slt (startsR rolled) (broadcastInDim S10000 ![] bcast_S_S10000 (constantI S_ 32 0#32))) (addi (startsR rolled) (broadcastInDim S10000 ![] bcast_S_S10000 (constantI S_ 32 500000#32))) (startsR rolled))) (broadcastInDim S10000 ![] bcast_S_S10000 (constantI S_ 32 1#32))) (broadcastInDim S_ ![] bcast_S_S_ (constantI S_ 32 0#32)) reduceWindows_S500000_S500000_w500000s1p499999_0 h_S_) (broadcastInDim S500000 ![] bcast_S_S500000 (constantI S_ 32 1#32))

/-- `rowCntR` with negative entries wrapped by the segment count, as a one-column index array. -/
def takeIdxR (rolled : IVec S10000 32) : IVec S500000x1 32 :=
  broadcastInDim S500000x1 ![0] bcast_S500000_S500000x1_0 (select (cmpi .slt (rowCntR rolled) (broadcastInDim S500000 ![] bcast_S_S500000 (constantI S_ 32 0#32))) (addi (rowCntR rolled) (broadcastInDim S500000 ![] bcast_S_S500000 (constantI S_ 32 10000#32))) (rowCntR rolled))

/-- The segment means of the rows (segment sums divided by the segment lengths) through the 128→128 linear layer, bias added. -/
def z1R (xf : FVec F S500000x128 .f32) (rolled : IVec S10000 32) (io : IVec S10000 32) (idx : IVec S10000 32) (fc1W : FVec F S128x128 .f32) (fc1b : FVec F S128 .f32) : FVec F S10000x128 .f32 :=
  addf (Host.dotGeneral dot_S10000x128_S128x128_S10000x128_1_0_0_1_n_n none (Host.divf (Host.scatterAdd scatter_S10000x128_S500000x1_S500000x128_1_0_0_1 (broadcastInDim S10000x128 ![] bcast_S_S10000x128 (constant S_ .f32 0x00000000#32)) (broadcastInDim S500000x1 ![0] bcast_S500000_S500000x1_0 (select (Host.reduce IntOp.andi (andi (cmpi .sge (takeIdxR rolled) (broadcastInDim S500000x1 ![] bcast_S_S500000x1 (constantI S_ 32 0#32))) (cmpi .sle (takeIdxR rolled) (broadcastInDim S500000x1 ![0, 1] bcast_S1x1_S500000x1_0_1 (broadcastInDim S1x1 ![1] bcast_S1_S1x1_1 (constantI S1 32 9999#32))))) (constantI S_ 1 1#1) reducesTo_S500000x1_S500000_d1 h_S_) (Host.gather gather_S10000_S500000x1_S500000_n_0_n_n_0_1_1 io (takeIdxR rolled)) (broadcastInDim S500000 ![] bcast_S_S500000 (constantI S_ 32 2147483648#32)))) xf) (broadcastInDim S10000x128 ![0, 1] bcast_S10000x1_S10000x128_0_1 (sitofp .f32 (broadcastInDim S10000x1 ![0] bcast_S10000_S10000x1_0 idx)))) fc1W) (broadcastInDim S10000x128 ![0, 1] bcast_S1x128_S10000x128_0_1 (broadcastInDim S1x128 ![1] bcast_S128_S1x128_1 fc1b))

/-- The column means of `z1R` over the 10000 segments. -/
def mean1R (xf : FVec F S500000x128 .f32) (rolled : IVec S10000 32) (io : IVec S10000 32) (idx : IVec S10000 32) (fc1W : FVec F S128x128 .f32) (fc1b : FVec F S128 .f32) : FVec F S128 .f32 :=
  Host.divf (Host.reduceAdd (z1R xf rolled io idx fc1W fc1b) (constant S_ .f32 0x00000000#32) reducesTo_S10000x128_S128_d0 h_S_) (broadcastInDim S128 ![] bcast_S_S128 (constant S_ .f32 0x461C4000#32))

/-- `z1R` with its column mean subtracted from every row. -/
def cen1R (xf : FVec F S500000x128 .f32) (rolled : IVec S10000 32) (io : IVec S10000 32) (idx : IVec S10000 32) (fc1W : FVec F S128x128 .f32) (fc1b : FVec F S128 .f32) : FVec F S10000x128 .f32 :=
  subf (z1R xf rolled io idx fc1W fc1b) (broadcastInDim S10000x128 ![0, 1] bcast_S1x128_S10000x128_0_1 (broadcastInDim S1x128 ![1] bcast_S128_S1x128_1 (mean1R xf rolled io idx fc1W fc1b)))

/-- The head of the network from the per-row features, the shifted lengths and the index ramp: segment means, linear layer, batch normalisation, rectifier, and the final 128→1 linear layer with its bias. -/
def tailRest (xf : FVec F S500000x128 .f32) (rolled : IVec S10000 32) (io : IVec S10000 32) (idx : IVec S10000 32) (fc1W : FVec F S128x128 .f32) (fc1b : FVec F S128 .f32) (g1 : FVec F S128 .f32) (b1 : FVec F S128 .f32) (fc2W : FVec F S128x1 .f32) (fc2b : FVec F S1 .f32) : FVec F S10000x1 .f32 :=
  addf (Host.dotGeneral dot_S10000x128_S128x1_S10000x1_1_0_0_1_n_n none (maximumf (addf (mulf (mulf (subf (z1R xf rolled io idx fc1W fc1b) (broadcastInDim S10000x128 ![0, 1] bcast_S1x128_S10000x128_0_1 (broadcastInDim S1x128 ![1] bcast_S128_S1x128_1 (mean1R xf rolled io idx fc1W fc1b)))) (broadcastInDim S10000x128 ![0, 1] bcast_S1x128_S10000x128_0_1 (broadcastInDim S1x128 ![1] bcast_S128_S1x128_1 (Host.rsqrt (addf (Host.divf (Host.reduceAdd (mulf (cen1R xf rolled io idx fc1W fc1b) (cen1R xf rolled io idx fc1W fc1b)) (constant S_ .f32 0x00000000#32) reducesTo_S10000x128_S128_d0 h_S_) (broadcastInDim S128 ![] bcast_S_S128 (constant S_ .f32 0x461C4000#32))) (broadcastInDim S128 ![] bcast_S_S128 (constant S_ .f32 0x3727C5AC#32))))))) (broadcastInDim S10000x128 ![0, 1] bcast_S1x128_S10000x128_0_1 (broadcastInDim S1x128 ![1] bcast_S128_S1x128_1 g1))) (broadcastInDim S10000x128 ![0, 1] bcast_S1x128_S10000x128_0_1 (broadcastInDim S1x128 ![1] bcast_S128_S1x128_1 b1))) (broadcastInDim S10000x128 ![] bcast_S_S10000x128 (constant S_ .f32 0x00000000#32))) fc2W) (broadcastInDim S10000x1 ![0, 1] bcast_S1x1_S10000x1_0_1 (broadcastInDim S1x1 ![1] bcast_S1_S1x1_1 fc2b))

/-- The head of the network from the per-row features and the segment lengths: the per-row segment ids from the lengths (cyclic shift, running sums, lookup in the index ramp), segment means, linear layer, batch normalisation, rectifier, and the final 128→1 linear layer with its bias. -/
def tailR (xf : FVec F S500000x128 .f32) (idx : IVec S10000 32) (fc1W : FVec F S128x128 .f32) (fc1b : FVec F S128 .f32) (g1 : FVec F S128 .f32) (b1 : FVec F S128 .f32) (fc2W : FVec F S128x1 .f32) (fc2b : FVec F S1 .f32) : FVec F S10000x1 .f32 :=
  tailRest xf (rollR idx) (iotaInDim S10000 32 0) idx fc1W fc1b g1 b1 fc2W fc2b

/-! ### The same lines one group at a time, each group a function of the values it reads -/

/-- From the segment starts: a one added at each start row, the running sum over the rows, minus one. -/
def rowCntOf (starts : IVec S10000 32) : IVec S500000 32 :=
  subi (Host.reduceWindow IntOp.addi ![500000] ![1] ![499999] ![0] (Host.scatter scatter_S500000_S10000x1_S10000_n_0_0_1 IntOp.addi (broadcastInDim S500000 ![] bcast_S_S500000 (constantI S_ 32 0#32)) (broadcastInDim S10000x1 ![0] bcast_S10000_S10000x1_0 (select (cmpi .slt starts (broadcastInDim S10000 ![] bcast_S_S10000 (constantI S_ 32 0#32))) (addi starts (broadcastInDim S10000 ![] bcast_S_S10000 (constantI S_ 32 500000#32))) starts)) (broadcastInDim S10000 ![] bcast_S_S10000 (constantI S_ 32 1#32))) (broadcastInDim S_ ![] bcast_S_S_ (constantI S_ 32 0#32)) reduceWindows_S500000_S500000_w500000s1p499999_0 h_S_) (broadcastInDim S500000 ![] bcast_S_S500000 (constantI S_ 32 1#32))

/-- A row counter with negative entries wrapped by the segment count, as a one-column index array. -/
def takeIdxOf (cnt : IVec S500000 32) : IVec S500000x1 32 :=
  broadcastInDim S500000x1 ![0] bcast_S500000_S500000x1_0 (select (cmpi .slt cnt (broadcastInDim S500000 ![] bcast_S_S500000 (constantI S_ 32 0#32))) (addi cnt (broadcastInDim S500000 ![] bcast_S_S500000 (constantI S_ 32 10000#32))) cnt)

/-- The index ramp read at each row's index; where the index is outside 0 … 9999 the entry is the smallest 32-bit integer. -/
def segOf (tk : IVec S500000x1 32) (io : IVec S10000 32) : IVec S500000 32 :=
  select (Host.reduce IntOp.andi (andi (cmpi .sge tk (broadcastInDim S500000x1 ![] bcast_S_S500000x1 (constantI S_ 32 0#32))) (cmpi .sle tk (broadcastInDim S500000x1 ![0, 1] bcast_S1x1_S500000x1_0_1 (broadcastInDim S1x1 ![1] bcast_S1_S1x1_1 (constantI S1 32 9999#32))))) (constantI S_ 1 1#1) reducesTo_S500000x1_S500000_d1 h_S_) (Host.gather gather_S10000_S500000x1_S500000_n_0_n_n_0_1_1 io tk) (broadcastInDim S500000 ![] bcast_S_S500000 (constantI S_ 32 2147483648#32))

/-- The rows summed into their segments, divided by the segment lengths, through the 128→128 linear layer, bias added. -/
def z1Of (xf : FVec F S500000x128 .f32) (seg : IVec S500000 32) (idx : IVec S10000 32) (fc1W : FVec F S128x128 .f32) (fc1b : FVec F S128 .f32) : FVec F S10000x128 .f32 :=
  addf (Host.dotGeneral dot_S10000x128_S128x128_S10000x128_1_0_0_1_n_n none (Host.divf (Host.scatterAdd scatter_S10000x128_S500000x1_S500000x128_1_0_0_1 (broadcastInDim S10000x128 ![] bcast_S_S10000x128 (constant S_ .f32 0x00000000#32)) (broadcastInDim S500000x1 ![0] bcast_S500000_S500000x1_0 seg) xf) (broadcastInDim S10000x128 ![0, 1] bcast_S10000x1_S10000x128_0_1 (sitofp .f32 (broadcastInDim S10000x1 ![0] bcast_S10000_S10000x1_0 idx)))) fc1W) (broadcastInDim S10000x128 ![0, 1] bcast_S1x128_S10000x128_0_1 (broadcastInDim S1x128 ![1] bcast_S128_S1x128_1 fc1b))

/-- Batch normalisation over the 10000 segments (column mean and variance, scale `g1`, shift `b1`), negative entries set to zero, then the 128→1 linear layer with its bias. -/
def headOf (z1 : FVec F S10000x128 .f32) (g1 : FVec F S128 .f32) (b1 : FVec F S128 .f32) (fc2W : FVec F S128x1 .f32) (fc2b : FVec F S1 .f32) : FVec F S10000x1 .f32 :=
  addf (Host.dotGeneral dot_S10000x128_S128x1_S10000x1_1_0_0_1_n_n none (maximumf (addf (mulf (mulf (subf z1 (broadcastInDim S10000x128 ![0, 1] bcast_S1x128_S10000x128_0_1 (broadcastInDim S1x128 ![1] bcast_S128_S1x128_1 (Host.divf (Host.reduceAdd z1 (constant S_ .f32 0x00000000#32) reducesTo_S10000x128_S128_d0 h_S_) (broadcastInDim S128 ![] bcast_S_S128 (constant S_ .f32 0x461C4000#32)))))) (broadcastInDim S10000x128 ![0, 1] bcast_S1x128_S10000x128_0_1 (broadcastInDim S1x128 ![1] bcast_S128_S1x128_1 (Host.rsqrt (addf (Host.divf (Host.reduceAdd (mulf (subf z1 (broadcastInDim S10000x128 ![0, 1] bcast_S1x128_S10000x128_0_1 (broadcastInDim S1x128 ![1] bcast_S128_S1x128_1 (Host.divf (Host.reduceAdd z1 (constant S_ .f32 0x00000000#32) reducesTo_S10000x128_S128_d0 h_S_) (broadcastInDim S128 ![] bcast_S_S128 (constant S_ .f32 0x461C4000#32)))))) (subf z1 (broadcastInDim S10000x128 ![0, 1] bcast_S1x128_S10000x128_0_1 (broadcastInDim S1x128 ![1] bcast_S128_S1x128_1 (Host.divf (Host.reduceAdd z1 (constant S_ .f32 0x00000000#32) reducesTo_S10000x128_S128_d0 h_S_) (broadcastInDim S128 ![] bcast_S_S128 (constant S_ .f32 0x461C4000#32))))))) (constant S_ .f32 0x00000000#32) reducesTo_S10000x128_S128_d0 h_S_) (broadcastInDim S128 ![] bcast_S_S128 (constant S_ .f32 0x461C4000#32))) (broadcastInDim S128 ![] bcast_S_S128 (constant S_ .f32 0x3727C5AC#32))))))) (broadcastInDim S10000x128 ![0, 1] bcast_S1x128_S10000x128_0_1 (broadcastInDim S1x128 ![1] bcast_S128_S1x128_1 g1))) (broadcastInDim S10000x128 ![0, 1] bcast_S1x128_S10000x128_0_1 (broadcastInDim S1x128 ![1] bcast_S128_S1x128_1 b1))) (broadcastInDim S10000x128 ![] bcast_S_S10000x128 (constant S_ .f32 0x00000000#32))) fc2W) (broadcastInDim S10000x1 ![0, 1] bcast_S1x1_S10000x1_0_1 (broadcastInDim S1x1 ![1] bcast_S1_S1x1_1 fc2b))

/-- `tailRest` is the groups composed. -/
theorem tailRest_eq (xf : FVec F S500000x128 .f32) (rolled : IVec S10000 32) (io : IVec S10000 32) (idx : IVec S10000 32) (fc1W : FVec F S128x128 .f32) (fc1b : FVec F S128 .f32) (g1 : FVec F S128 .f32) (b1 : FVec F S128 .f32) (fc2W : FVec F S128x1 .f32) (fc2b : FVec F S1 .f32) :
    tailRest xf rolled io idx fc1W fc1b g1 b1 fc2W fc2b
      = headOf (z1Of xf (segOf (takeIdxOf (rowCntOf (startsR rolled))) io) idx fc1W fc1b) g1 b1 fc2W fc2b := rfl

/-! ## @main as a list of operations -/

/-- Lines %0 … %52 with the four rectifier calls unfolded at their call sites. -/
abbrev opsFront : List (HloOp τ sig (Elt F)) :=
  [ StableHlo.unary main_arg0 main_v0 ((extractStridedSlice S500000x32 ![0, 0] · slices_S500000x80_S500000x32_0_0) : (⟨S500000x80, .f32⟩ : BufTy).Contents (Elt F) → (⟨S500000x32, .f32⟩ : BufTy).Contents (Elt F)),
    StableHlo.binary main_v0 main_arg2 main_v1 ((fun l r => Host.dotGeneral dot_S500000x32_S32x128_S500000x128_1_0_0_1_n_n none l r) : (⟨S500000x32, .f32⟩ : BufTy).Contents (Elt F) → (⟨S32x128, .f32⟩ : BufTy).Contents (Elt F) → (⟨S500000x128, .f32⟩ : BufTy).Contents (Elt F)),
    StableHlo.unary main_arg3 main_v2 (broadcastInDim S1x128 ![1] bcast_S128_S1x128_1 : (⟨S128, .f32⟩ : BufTy).Contents (Elt F) → (⟨S1x128, .f32⟩ : BufTy).Contents (Elt F)),
    StableHlo.unary main_v2 main_v3 (broadcastInDim S500000x128 ![0, 1] bcast_S1x128_S500000x128_0_1 : (⟨S1x128, .f32⟩ : BufTy).Contents (Elt F) → (⟨S500000x128, .f32⟩ : BufTy).Contents (Elt F)),
    StableHlo.binary main_v1 main_v3 main_v4 (addf : (⟨S500000x128, .f32⟩ : BufTy).Contents (Elt F) → (⟨S500000x128, .f32⟩ : BufTy).Contents (Elt F) → (⟨S500000x128, .f32⟩ : BufTy).Contents (Elt F)),
    StableHlo.TRef.nullary main_call0.cst (constant S_ .f32 0x00000000#32),
    StableHlo.TRef.unary main_call0.cst main_call0.v0 (broadcastInDim S500000x128 ![] bcast_S_S500000x128),
    StableHlo.TRef.binary (.of main_v4 : StableHlo.TRef sig ⟨S500000x128, .f32⟩) main_call0.v0 main_call0.v1 maximumf,
    StableHlo.unary main_arg0 main_v6 ((extractStridedSlice S500000x32 ![0, 32] · slices_S500000x80_S500000x32_0_32) : (⟨S500000x80, .f32⟩ : BufTy).Contents (Elt F) → (⟨S500000x32, .f32⟩ : BufTy).Contents (Elt F)),
    StableHlo.binary main_v6 main_arg2 main_v7 ((fun l r => Host.dotGeneral dot_S500000x32_S32x128_S500000x128_1_0_0_1_n_n none l r) : (⟨S500000x32, .f32⟩ : BufTy).Contents (Elt F) → (⟨S32x128, .f32⟩ : BufTy).Contents (Elt F) → (⟨S500000x128, .f32⟩ : BufTy).Contents (Elt F)),
    StableHlo.unary main_arg3 main_v8 (broadcastInDim S1x128 ![1] bcast_S128_S1x128_1 : (⟨S128, .f32⟩ : BufTy).Contents (Elt F) → (⟨S1x128, .f32⟩ : BufTy).Contents (Elt F)),
    StableHlo.unary main_v8 main_v9 (broadcastInDim S500000x128 ![0, 1] bcast_S1x128_S500000x128_0_1 : (⟨S1x128, .f32⟩ : BufTy).Contents (Elt F) → (⟨S500000x128, .f32⟩ : BufTy).Contents (Elt F)),
    StableHlo.binary main_v7 main_v9 main_v10 (addf : (⟨S500000x128, .f32⟩ : BufTy).Contents (Elt F) → (⟨S500000x128, .f32⟩ : BufTy).Contents (Elt F) → (⟨S500000x128, .f32⟩ : BufTy).Contents (Elt F)),
    StableHlo.TRef.nullary main_call1.cst (constant S_ .f32 0x00000000#32),
    StableHlo.TRef.unary main_call1.cst main_call1.v0 (broadcastInDim S500000x128 ![] bcast_S_S500000x128),
    StableHlo.TRef.binary (.of main_v10 : StableHlo.TRef sig ⟨S500000x128, .f32⟩) main_call1.v0 main_call1.v1 maximumf,
    StableHlo.unary main_arg0 main_v12 ((extractStridedSlice S500000x16 ![0, 64] · slices_S500000x80_S500000x16_0_64) : (⟨S500000x80, .f32⟩ : BufTy).Contents (Elt F) → (⟨S500000x16, .f32⟩ : BufTy).Contents (Elt F)),
    StableHlo.binary main_v12 main_arg4 main_v13 ((fun l r => Host.dotGeneral dot_S500000x16_S16x64_S500000x64_1_0_0_1_n_n none l r) : (⟨S500000x16, .f32⟩ : BufTy).Contents (Elt F) → (⟨S16x64, .f32⟩ : BufTy).Contents (Elt F) → (⟨S500000x64, .f32⟩ : BufTy).Contents (Elt F)),
    StableHlo.unary main_arg5 main_v14 (broadcastInDim S1x64 ![1] bcast_S64_S1x64_1 : (⟨S64, .f32⟩ : BufTy).Contents (Elt F) → (⟨S1x64, .f32⟩ : BufTy).Contents (Elt F)),
    StableHlo.unary main_v14 main_v15 (broadcastInDim S500000x64 ![0, 1] bcast_S1x64_S500000x64_0_1 : (⟨S1x64, .f32⟩ : BufTy).Contents (Elt F) → (⟨S500000x64, .f32⟩ : BufTy).Contents (Elt F)),
    StableHlo.binary main_v13 main_v15 main_v16 (addf : (⟨S500000x64, .f32⟩ : BufTy).Contents (Elt F) → (⟨S500000x64, .f32⟩ : BufTy).Contents (Elt F) → (⟨S500000x64, .f32⟩ : BufTy).Contents (Elt F)),
    StableHlo.TRef.nullary main_call2.cst (constant S_ .f32 0x00000000#32),
    StableHlo.TRef.unary main_call2.cst main_call2.v0 (broadcastInDim S500000x64 ![] bcast_S_S500000x64),
    StableHlo.TRef.binary (.of main_v16 : StableHlo.TRef sig ⟨S500000x64, .f32⟩) main_call2.v0 main_call2.v1 maximumf,
    StableHlo.nary ![main_v5, main_v11, main_v17] main_v18 (fun u => concatenate S500000x320 1 [⟨S500000x128, u 0⟩, ⟨S500000x128, u 1⟩, ⟨S500000x64, u 2⟩] concatenates_S500000x128_S500000x128_S500000x64_S500000x320_d1),
    StableHlo.binary main_v18 main_arg6 main_v19 ((fun l r => Host.dotGeneral dot_S500000x320_S320x256_S500000x256_1_0_0_1_n_n none l r) : (⟨S500000x320, .f32⟩ : BufTy).Contents (Elt F) → (⟨S320x256, .f32⟩ : BufTy).Contents (Elt F) → (⟨S500000x256, .f32⟩ : BufTy).Contents (Elt F)),
    StableHlo.unary main_arg7 main_v20 (broadcastInDim S1x256 ![1] bcast_S256_S1x256_1 : (⟨S256, .f32⟩ : BufTy).Contents (Elt F) → (⟨S1x256, .f32⟩ : BufTy).Contents (Elt F)),
    StableHlo.unary main_v20 main_v21 (broadcastInDim S500000x256 ![0, 1] bcast_S1x256_S500000x256_0_1 : (⟨S1x256, .f32⟩ : BufTy).Contents (Elt F) → (⟨S500000x256, .f32⟩ : BufTy).Contents (Elt F)),
    StableHlo.binary main_v19 main_v21 main_v22 (addf : (⟨S500000x256, .f32⟩ : BufTy).Contents (Elt F) → (⟨S500000x256, .f32⟩ : BufTy).Contents (Elt F) → (⟨S500000x256, .f32⟩ : BufTy).Contents (Elt F)),
    StableHlo.nullary main_cst (constant S_ .f32 0x00000000#32),
    StableHlo.binary main_v22 main_cst main_v23 ((fun x v => Host.reduceAdd x v reducesTo_S500000x256_S256_d0 h_S_) : (⟨S500000x256, .f32⟩ : BufTy).Contents (Elt F) → (⟨S_, .f32⟩ : BufTy).Contents (Elt F) → (⟨S256, .f32⟩ : BufTy).Contents (Elt F)),
    StableHlo.nullary main_cst_0 (constant S_ .f32 0x48F42400#32),
    StableHlo.unary main_cst_0 main_v24 (broadcastInDim S256 ![] bcast_S_S256 : (⟨S_, .f32⟩ : BufTy).Contents (Elt F) → (⟨S256, .f32⟩ : BufTy).Contents (Elt F)),
    StableHlo.binary main_v23 main_v24 main_v25 (Host.divf : (⟨S256, .f32⟩ : BufTy).Contents (Elt F) → (⟨S256, .f32⟩ : BufTy).Contents (Elt F) → (⟨S256, .f32⟩ : BufTy).Contents (Elt F)),
    StableHlo.unary main_v25 main_v26 (broadcastInDim S1x256 ![1] bcast_S256_S1x256_1 : (⟨S256, .f32⟩ : BufTy).Contents (Elt F) → (⟨S1x256, .f32⟩ : BufTy).Contents (Elt F)),
    StableHlo.unary main_v26 main_v27 (broadcastInDim S500000x256 ![0, 1] bcast_S1x256_S500000x256_0_1 : (⟨S1x256, .f32⟩ : BufTy).Contents (Elt F) → (⟨S500000x256, .f32⟩ : BufTy).Contents (Elt F)),
    StableHlo.binary main_v22 main_v27 main_v28 (subf : (⟨S500000x256, .f32⟩ : BufTy).Contents (Elt F) → (⟨S500000x256, .f32⟩ : BufTy).Contents (Elt F) → (⟨S500000x256, .f32⟩ : BufTy).Contents (Elt F)),
    StableHlo.binary main_v28 main_v28 main_v29 (mulf : (⟨S500000x256, .f32⟩ : BufTy).Contents (Elt F) → (⟨S500000x256, .f32⟩ : BufTy).Contents (Elt F) → (⟨S500000x256, .f32⟩ : BufTy).Contents (Elt F)),
    StableHlo.nullary main_cst_1 (constant S_ .f32 0x00000000#32),
    StableHlo.binary main_v29 main_cst_1 main_v30 ((fun x v => Host.reduceAdd x v reducesTo_S500000x256_S256_d0 h_S_) : (⟨S500000x256, .f32⟩ : BufTy).Contents (Elt F) → (⟨S_, .f32⟩ : BufTy).Contents (Elt F) → (⟨S256, .f32⟩ : BufTy).Contents (Elt F)),
    StableHlo.nullary main_cst_2 (constant S_ .f32 0x48F42400#32),
    StableHlo.unary main_cst_2 main_v31 (broadcastInDim S256 ![] bcast_S_S256 : (⟨S_, .f32⟩ : BufTy).Contents (Elt F) → (⟨S256, .f32⟩ : BufTy).Contents (Elt F)),
    StableHlo.binary main_v30 main_v31 main_v32 (Host.divf : (⟨S256, .f32⟩ : BufTy).Contents (Elt F) → (⟨S256, .f32⟩ : BufTy).Contents (Elt F) → (⟨S256, .f32⟩ : BufTy).Contents (Elt F)),
    StableHlo.unary main_v25 main_v33 (broadcastInDim S1x256 ![1] bcast_S256_S1x256_1 : (⟨S256, .f32⟩ : BufTy).Contents (Elt F) → (⟨S1x256, .f32⟩ : BufTy).Contents (Elt F)),
    StableHlo.unary main_v33 main_v34 (broadcastInDim S500000x256 ![0, 1] bcast_S1x256_S500000x256_0_1 : (⟨S1x256, .f32⟩ : BufTy).Contents (Elt F) → (⟨S500000x256, .f32⟩ : BufTy).Contents (Elt F)),
    StableHlo.binary main_v22 main_v34 main_v35 (subf : (⟨S500000x256, .f32⟩ : BufTy).Contents (Elt F) → (⟨S500000x256, .f32⟩ : BufTy).Contents (Elt F) → (⟨S500000x256, .f32⟩ : BufTy).Contents (Elt F)),
    StableHlo.nullary main_cst_3 (constant S_ .f32 0x3727C5AC#32),
    StableHlo.unary main_cst_3 main_v36 (broadcastInDim S256 ![] bcast_S_S256 : (⟨S_, .f32⟩ : BufTy).Contents (Elt F) → (⟨S256, .f32⟩ : BufTy).Contents (Elt F)),
    StableHlo.binary main_v32 main_v36 main_v37 (addf : (⟨S256, .f32⟩ : BufTy).Contents (Elt F) → (⟨S256, .f32⟩ : BufTy).Contents (Elt F) → (⟨S256, .f32⟩ : BufTy).Contents (Elt F)),
    StableHlo.unary main_v37 main_v38 (Host.rsqrt : (⟨S256, .f32⟩ : BufTy).Contents (Elt F) → (⟨S256, .f32⟩ : BufTy).Contents (Elt F)),
    StableHlo.unary main_v38 main_v39 (broadcastInDim S1x256 ![1] bcast_S256_S1x256_1 : (⟨S256, .f32⟩ : BufTy).Contents (Elt F) → (⟨S1x256, .f32⟩ : BufTy).Contents (Elt F)),
    StableHlo.unary main_v39 main_v40 (broadcastInDim S500000x256 ![0, 1] bcast_S1x256_S500000x256_0_1 : (⟨S1x256, .f32⟩ : BufTy).Contents (Elt F) → (⟨S500000x256, .f32⟩ : BufTy).Contents (Elt F)),
    StableHlo.binary main_v35 main_v40 main_v41 (mulf : (⟨S500000x256, .f32⟩ : BufTy).Contents (Elt F) → (⟨S500000x256, .f32⟩ : BufTy).Contents (Elt F) → (⟨S500000x256, .f32⟩ : BufTy).Contents (Elt F)),
    StableHlo.unary main_arg8 main_v42 (broadcastInDim S1x256 ![1] bcast_S256_S1x256_1 : (⟨S256, .f32⟩ : BufTy).Contents (Elt F) → (⟨S1x256, .f32⟩ : BufTy).Contents (Elt F)),
    StableHlo.unary main_v42 main_v43 (broadcastInDim S500000x256 ![0, 1] bcast_S1x256_S500000x256_0_1 : (⟨S1x256, .f32⟩ : BufTy).Contents (Elt F) → (⟨S500000x256, .f32⟩ : BufTy).Contents (Elt F)),
    StableHlo.binary main_v41 main_v43 main_v44 (mulf : (⟨S500000x256, .f32⟩ : BufTy).Contents (Elt F) → (⟨S500000x256, .f32⟩ : BufTy).Contents (Elt F) → (⟨S500000x256, .f32⟩ : BufTy).Contents (Elt F)),
    StableHlo.unary main_arg9 main_v45 (broadcastInDim S1x256 ![1] bcast_S256_S1x256_1 : (⟨S256, .f32⟩ : BufTy).Contents (Elt F) → (⟨S1x256, .f32⟩ : BufTy).Contents (Elt F)),
    StableHlo.unary main_v45 main_v46 (broadcastInDim S500000x256 ![0, 1] bcast_S1x256_S500000x256_0_1 : (⟨S1x256, .f32⟩ : BufTy).Contents (Elt F) → (⟨S500000x256, .f32⟩ : BufTy).Contents (Elt F)),
    StableHlo.binary main_v44 main_v46 main_v47 (addf : (⟨S500000x256, .f32⟩ : BufTy).Contents (Elt F) → (⟨S500000x256, .f32⟩ : BufTy).Contents (Elt F) → (⟨S500000x256, .f32⟩ : BufTy).Contents (Elt F)),
    StableHlo.TRef.nullary main_call3.cst (constant S_ .f32 0x00000000#32),
    StableHlo.TRef.unary main_call3.cst main_call3.v0 (broadcastInDim S500000x256 ![] bcast_S_S500000x256),
    StableHlo.TRef.binary (.of main_v47 : StableHlo.TRef sig ⟨S500000x256, .f32⟩) main_call3.v0 main_call3.v1 maximumf,
    StableHlo.binary main_v48 main_arg10 main_v49 ((fun l r => Host.dotGeneral dot_S500000x256_S256x128_S500000x128_1_0_0_1_n_n none l r) : (⟨S500000x256, .f32⟩ : BufTy).Contents (Elt F) → (⟨S256x128, .f32⟩ : BufTy).Contents (Elt F) → (⟨S500000x128, .f32⟩ : BufTy).Contents (Elt F)),
    StableHlo.unary main_arg11 main_v50 (broadcastInDim S1x128 ![1] bcast_S128_S1x128_1 : (⟨S128, .f32⟩ : BufTy).Contents (Elt F) → (⟨S1x128, .f32⟩ : BufTy).Contents (Elt F)),
    StableHlo.unary main_v50 main_v51 (broadcastInDim S500000x128 ![0, 1] bcast_S1x128_S500000x128_0_1 : (⟨S1x128, .f32⟩ : BufTy).Contents (Elt F) → (⟨S500000x128, .f32⟩ : BufTy).Contents (Elt F)),
    StableHlo.binary main_v49 main_v51 main_v52 (addf : (⟨S500000x128, .f32⟩ : BufTy).Contents (Elt F) → (⟨S500000x128, .f32⟩ : BufTy).Contents (Elt F) → (⟨S500000x128, .f32⟩ : BufTy).Contents (Elt F)) ]

/-- Lines %53 and %54: the index ramp and the cyclic shift of the segment lengths, the call unfolded at its site. -/
abbrev opsRoll : List (HloOp τ sig (Elt F)) :=
  [ StableHlo.nullary main_v53 (iotaInDim S10000 32 0),
    StableHlo.TRef.unary (.of main_arg1 : StableHlo.TRef sig ⟨S10000, .i32⟩) main_call4.v0 (extractStridedSlice S1 ![9999] · slices_S10000_S1_9999),
    StableHlo.TRef.unary (.of main_arg1 : StableHlo.TRef sig ⟨S10000, .i32⟩) main_call4.v1 (extractStridedSlice S9999 ![0] · slices_S10000_S9999_0),
    StableHlo.TRef.binary main_call4.v0 main_call4.v1 main_call4.v2 (fun a b => concatenate S10000 0 [⟨S1, a⟩, ⟨S9999, b⟩] concatenates_S1_S9999_S10000_d0) ]

/-- Lines %55 … %57: entry 0 of the shifted lengths set to zero, then the running sum (the call unfolded). -/
abbrev opsS1 : List (HloOp τ sig (Elt F)) :=
  [ StableHlo.nullary main_c (constantI S_ 32 0#32),
    StableHlo.unary main_c main_v55 (broadcastInDim S1 ![] bcast_S_S1 : (⟨S_, .i32⟩ : BufTy).Contents (Elt F) → (⟨S1, .i32⟩ : BufTy).Contents (Elt F)),
    StableHlo.nullary main_c_4 (constantI S_ 32 0#32),
    StableHlo.ternary main_v54 main_v55 main_c_4 main_v56 ((fun x i u => Host.scatter scatter_S10000_S1_S__n_0_0_0 (fun _ b => b) x i u) : (⟨S10000, .i32⟩ : BufTy).Contents (Elt F) → (⟨S1, .i32⟩ : BufTy).Contents (Elt F) → (⟨S_, .i32⟩ : BufTy).Contents (Elt F) → (⟨S10000, .i32⟩ : BufTy).Contents (Elt F)),
    StableHlo.TRef.nullary main_call5.call0.c (constantI S_ 32 0#32),
    StableHlo.TRef.unary main_call5.call0.c main_call5.call0.v0 (broadcastInDim S_ ![] bcast_S_S_),
    StableHlo.TRef.binary (.of main_v56 : StableHlo.TRef sig ⟨S10000, .i32⟩) main_call5.call0.v0 main_call5.call0.v1 (fun x v => Host.reduceWindow IntOp.addi ![10000] ![1] ![9999] ![0] x v reduceWindows_S10000_S10000_w10000s1p9999_0 h_S_) ]

/-- Lines %58 … %69: a one added at each segment start, the running sum over the rows (the call unfolded), minus one. -/
abbrev opsS2 : List (HloOp τ sig (Elt F)) :=
  [ StableHlo.nullary main_c_5 (constantI S_ 32 0#32),
    StableHlo.unary main_c_5 main_v58 (broadcastInDim S500000 ![] bcast_S_S500000 : (⟨S_, .i32⟩ : BufTy).Contents (Elt F) → (⟨S500000, .i32⟩ : BufTy).Contents (Elt F)),
    StableHlo.nullary main_c_6 (constantI S_ 32 0#32),
    StableHlo.unary main_c_6 main_v59 (broadcastInDim S10000 ![] bcast_S_S10000 : (⟨S_, .i32⟩ : BufTy).Contents (Elt F) → (⟨S10000, .i32⟩ : BufTy).Contents (Elt F)),
    StableHlo.binary main_v57 main_v59 main_v60 (cmpi .slt : (⟨S10000, .i32⟩ : BufTy).Contents (Elt F) → (⟨S10000, .i32⟩ : BufTy).Contents (Elt F) → (⟨S10000, .i1⟩ : BufTy).Contents (Elt F)),
    StableHlo.nullary main_c_7 (constantI S_ 32 500000#32),
    StableHlo.unary main_c_7 main_v61 (broadcastInDim S10000 ![] bcast_S_S10000 : (⟨S_, .i32⟩ : BufTy).Contents (Elt F) → (⟨S10000, .i32⟩ : BufTy).Contents (Elt F)),
    StableHlo.binary main_v57 main_v61 main_v62 (addi : (⟨S10000, .i32⟩ : BufTy).Contents (Elt F) → (⟨S10000, .i32⟩ : BufTy).Contents (Elt F) → (⟨S10000, .i32⟩ : BufTy).Contents (Elt F)),
    StableHlo.ternary main_v60 main_v62 main_v57 main_v63 (select : (⟨S10000, .i1⟩ : BufTy).Contents (Elt F) → (⟨S10000, .i32⟩ : BufTy).Contents (Elt F) → (⟨S10000, .i32⟩ : BufTy).Contents (Elt F) → (⟨S10000, .i32⟩ : BufTy).Contents (Elt F)),
    StableHlo.unary main_v63 main_v64 (broadcastInDim S10000x1 ![0] bcast_S10000_S10000x1_0 : (⟨S10000, .i32⟩ : BufTy).Contents (Elt F) → (⟨S10000x1, .i32⟩ : BufTy).Contents (Elt F)),
    StableHlo.nullary main_c_8 (constantI S_ 32 1#32),
    StableHlo.unary main_c_8 main_v65 (broadcastInDim S10000 ![] bcast_S_S10000 : (⟨S_, .i32⟩ : BufTy).Contents (Elt F) → (⟨S10000, .i32⟩ : BufTy).Contents (Elt F)),
    StableHlo.ternary main_v58 main_v64 main_v65 main_v66 ((fun x i u => Host.scatter scatter_S500000_S10000x1_S10000_n_0_0_1 IntOp.addi x i u) : (⟨S500000, .i32⟩ : BufTy).Contents (Elt F) → (⟨S10000x1, .i32⟩ : BufTy).Contents (Elt F) → (⟨S10000, .i32⟩ : BufTy).Contents (Elt F) → (⟨S500000, .i32⟩ : BufTy).Contents (Elt F)),
    StableHlo.TRef.nullary main_call6.call0.c (constantI S_ 32 0#32),
    StableHlo.TRef.unary main_call6.call0.c main_call6.call0.v0 (broadcastInDim S_ ![] bcast_S_S_),
    StableHlo.TRef.binary (.of main_v66 : StableHlo.TRef sig ⟨S500000, .i32⟩) main_call6.call0.v0 main_call6.call0.v1 (fun x v => Host.reduceWindow IntOp.addi ![500000] ![1] ![499999] ![0] x v reduceWindows_S500000_S500000_w500000s1p499999_0 h_S_),
    StableHlo.nullary main_c_9 (constantI S_ 32 1#32),
    StableHlo.unary main_c_9 main_v68 (broadcastInDim S500000 ![] bcast_S_S500000 : (⟨S_, .i32⟩ : BufTy).Contents (Elt F) → (⟨S500000, .i32⟩ : BufTy).Contents (Elt F)),
    StableHlo.binary main_v67 main_v68 main_v69 (subi : (⟨S500000, .i32⟩ : BufTy).Contents (Elt F) → (⟨S500000, .i32⟩ : BufTy).Contents (Elt F) → (⟨S500000, .i32⟩ : BufTy).Contents (Elt F)) ]

/-- The index lookup's first lines: negative counters wrapped by the segment count, as a one-column index array. -/
abbrev opsS3 : List (HloOp τ sig (Elt F)) :=
  [ StableHlo.TRef.nullary main_call7.c (constantI S_ 32 0#32),
    StableHlo.TRef.unary main_call7.c main_call7.v0 (broadcastInDim S500000 ![] bcast_S_S500000),
    StableHlo.TRef.binary (.of main_v69 : StableHlo.TRef sig ⟨S500000, .i32⟩) main_call7.v0 main_call7.v1 (cmpi .slt),
    StableHlo.TRef.nullary main_call7.c_0 (constantI S_ 32 10000#32),
    StableHlo.TRef.unary main_call7.c_0 main_call7.v2 (broadcastInDim S500000 ![] bcast_S_S500000),
    StableHlo.TRef.binary (.of main_v69 : StableHlo.TRef sig ⟨S500000, .i32⟩) main_call7.v2 main_call7.v3 addi,
    StableHlo.TRef.ternary main_call7.v1 main_call7.v3 (.of main_v69 : StableHlo.TRef sig ⟨S500000, .i32⟩) main_call7.call0.v0 select,
    StableHlo.TRef.unary main_call7.call0.v0 main_call7.v5 (broadcastInDim S500000x1 ![0] bcast_S500000_S500000x1_0) ]

/-- The rest of the index lookup through line %70: the range test, the gather from the index ramp, the select. -/
abbrev opsS4 : List (HloOp τ sig (Elt F)) :=
  [ StableHlo.TRef.nullary main_call7.c_1 (constantI S1 32 9999#32),
    StableHlo.TRef.nullary main_call7.c_2 (constantI S_ 32 0#32),
    StableHlo.TRef.unary main_call7.c_2 main_call7.v6 (broadcastInDim S500000x1 ![] bcast_S_S500000x1),
    StableHlo.TRef.binary main_call7.v5 main_call7.v6 main_call7.v7 (cmpi .sge),
    StableHlo.TRef.unary main_call7.c_1 main_call7.v8 (broadcastInDim S1x1 ![1] bcast_S1_S1x1_1),
    StableHlo.TRef.unary main_call7.v8 main_call7.v9 (broadcastInDim S500000x1 ![0, 1] bcast_S1x1_S500000x1_0_1),
    StableHlo.TRef.binary main_call7.v5 main_call7.v9 main_call7.v10 (cmpi .sle),
    StableHlo.TRef.binary main_call7.v7 main_call7.v10 main_call7.v11 andi,
    StableHlo.TRef.nullary main_call7.c_3 (constantI S_ 1 1#1),
    StableHlo.TRef.binary main_call7.v11 main_call7.c_3 main_call7.v12 (fun x v => Host.reduce IntOp.andi x v reducesTo_S500000x1_S500000_d1 h_S_),
    StableHlo.TRef.binary (.of main_v53 : StableHlo.TRef sig ⟨S10000, .i32⟩) main_call7.v5 main_call7.v13 (fun x i => Host.gather gather_S10000_S500000x1_S500000_n_0_n_n_0_1_1 x i),
    StableHlo.TRef.nullary main_call7.c_4 (constantI S_ 32 2147483648#32),
    StableHlo.TRef.unary main_call7.c_4 main_call7.v14 (broadcastInDim S500000 ![] bcast_S_S500000),
    StableHlo.TRef.ternary main_call7.v12 main_call7.v13 main_call7.v14 main_call7.v15 select ]

/-- Lines %71 … %81: the segment sums, divided by the segment lengths, through the 128→128 linear layer. -/
abbrev opsS5 : List (HloOp τ sig (Elt F)) :=
  [ StableHlo.nullary main_cst_10 (constant S_ .f32 0x00000000#32),
    StableHlo.unary main_cst_10 main_v71 (broadcastInDim S10000x128 ![] bcast_S_S10000x128 : (⟨S_, .f32⟩ : BufTy).Contents (Elt F) → (⟨S10000x128, .f32⟩ : BufTy).Contents (Elt F)),
    StableHlo.unary main_v70 main_v72 (broadcastInDim S500000x1 ![0] bcast_S500000_S500000x1_0 : (⟨S500000, .i32⟩ : BufTy).Contents (Elt F) → (⟨S500000x1, .i32⟩ : BufTy).Contents (Elt F)),
    StableHlo.ternary main_v71 main_v72 main_v52 main_v73 ((fun x i u => Host.scatterAdd scatter_S10000x128_S500000x1_S500000x128_1_0_0_1 x i u) : (⟨S10000x128, .f32⟩ : BufTy).Contents (Elt F) → (⟨S500000x1, .i32⟩ : BufTy).Contents (Elt F) → (⟨S500000x128, .f32⟩ : BufTy).Contents (Elt F) → (⟨S10000x128, .f32⟩ : BufTy).Contents (Elt F)),
    StableHlo.unary main_arg1 main_v74 (broadcastInDim S10000x1 ![0] bcast_S10000_S10000x1_0 : (⟨S10000, .i32⟩ : BufTy).Contents (Elt F) → (⟨S10000x1, .i32⟩ : BufTy).Contents (Elt F)),
    StableHlo.unary main_v74 main_v75 (sitofp .f32 : (⟨S10000x1, .i32⟩ : BufTy).Contents (Elt F) → (⟨S10000x1, .f32⟩ : BufTy).Contents (Elt F)),
    StableHlo.unary main_v75 main_v76 (broadcastInDim S10000x128 ![0, 1] bcast_S10000x1_S10000x128_0_1 : (⟨S10000x1, .f32⟩ : BufTy).Contents (Elt F) → (⟨S10000x128, .f32⟩ : BufTy).Contents (Elt F)),
    StableHlo.binary main_v73 main_v76 main_v77 (Host.divf : (⟨S10000x128, .f32⟩ : BufTy).Contents (Elt F) → (⟨S10000x128, .f32⟩ : BufTy).Contents (Elt F) → (⟨S10000x128, .f32⟩ : BufTy).Contents (Elt F)),
    StableHlo.binary main_v77 main_arg12 main_v78 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    StableHlo.unary main_arg13 main_v79 (broadcastInDim S1x128 ![1] bcast_S128_S1x128_1 : (⟨S128, .f32⟩ : BufTy).Contents (Elt F) → (⟨S1x128, .f32⟩ : BufTy).Contents (Elt F)),
    StableHlo.unary main_v79 main_v80 (broadcastInDim S10000x128 ![0, 1] bcast_S1x128_S10000x128_0_1 : (⟨S1x128, .f32⟩ : BufTy).Contents (Elt F) → (⟨S10000x128, .f32⟩ : BufTy).Contents (Elt F)),
    StableHlo.binary main_v78 main_v80 main_v81 (addf : (⟨S10000x128, .f32⟩ : BufTy).Contents (Elt F) → (⟨S10000x128, .f32⟩ : BufTy).Contents (Elt F) → (⟨S10000x128, .f32⟩ : BufTy).Contents (Elt F)) ]

/-- Lines %82 … %111: batch normalisation, the rectifier (the call unfolded), the 128→1 linear layer. -/
abbrev opsS6 : List (HloOp τ sig (Elt F)) :=
  [ StableHlo.nullary main_cst_11 (constant S_ .f32 0x00000000#32),
    StableHlo.binary main_v81 main_cst_11 main_v82 ((fun x v => Host.reduceAdd x v reducesTo_S10000x128_S128_d0 h_S_) : (⟨S10000x128, .f32⟩ : BufTy).Contents (Elt F) → (⟨S_, .f32⟩ : BufTy).Contents (Elt F) → (⟨S128, .f32⟩ : BufTy).Contents (Elt F)),
    StableHlo.nullary main_cst_12 (constant S_ .f32 0x461C4000#32),
    StableHlo.unary main_cst_12 main_v83 (broadcastInDim S128 ![] bcast_S_S128 : (⟨S_, .f32⟩ : BufTy).Contents (Elt F) → (⟨S128, .f32⟩ : BufTy).Contents (Elt F)),
    StableHlo.binary main_v82 main_v83 main_v84 (Host.divf : (⟨S128, .f32⟩ : BufTy).Contents (Elt F) → (⟨S128, .f32⟩ : BufTy).Contents (Elt F) → (⟨S128, .f32⟩ : BufTy).Contents (Elt F)),
    StableHlo.unary main_v84 main_v85 (broadcastInDim S1x128 ![1] bcast_S128_S1x128_1 : (⟨S128, .f32⟩ : BufTy).Contents (Elt F) → (⟨S1x128, .f32⟩ : BufTy).Contents (Elt F)),
    StableHlo.unary main_v85 main_v86 (broadcastInDim S10000x128 ![0, 1] bcast_S1x128_S10000x128_0_1 : (⟨S1x128, .f32⟩ : BufTy).Contents (Elt F) → (⟨S10000x128, .f32⟩ : BufTy).Contents (Elt F)),
    StableHlo.binary main_v81 main_v86 main_v87 (subf : (⟨S10000x128, .f32⟩ : BufTy).Contents (Elt F) → (⟨S10000x128, .f32⟩ : BufTy).Contents (Elt F) → (⟨S10000x128, .f32⟩ : BufTy).Contents (Elt F)),
    StableHlo.binary main_v87 main_v87 main_v88 (mulf : (⟨S10000x128, .f32⟩ : BufTy).Contents (Elt F) → (⟨S10000x128, .f32⟩ : BufTy).Contents (Elt F) → (⟨S10000x128, .f32⟩ : BufTy).Contents (Elt F)),
    StableHlo.nullary main_cst_13 (constant S_ .f32 0x00000000#32),
    StableHlo.binary main_v88 main_cst_13 main_v89 ((fun x v => Host.reduceAdd x v reducesTo_S10000x128_S128_d0 h_S_) : (⟨S10000x128, .f32⟩ : BufTy).Contents (Elt F) → (⟨S_, .f32⟩ : BufTy).Contents (Elt F) → (⟨S128, .f32⟩ : BufTy).Contents (Elt F)),
    StableHlo.nullary main_cst_14 (constant S_ .f32 0x461C4000#32),
    StableHlo.unary main_cst_14 main_v90 (broadcastInDim S128 ![] bcast_S_S128 : (⟨S_, .f32⟩ : BufTy).Contents (Elt F) → (⟨S128, .f32⟩ : BufTy).Contents (Elt F)),
    StableHlo.binary main_v89 main_v90 main_v91 (Host.divf : (⟨S128, .f32⟩ : BufTy).Contents (Elt F) → (⟨S128, .f32⟩ : BufTy).Contents (Elt F) → (⟨S128, .f32⟩ : BufTy).Contents (Elt F)),
    StableHlo.unary main_v84 main_v92 (broadcastInDim S1x128 ![1] bcast_S128_S1x128_1 : (⟨S128, .f32⟩ : BufTy).Contents (Elt F) → (⟨S1x128, .f32⟩ : BufTy).Contents (Elt F)),
    StableHlo.unary main_v92 main_v93 (broadcastInDim S10000x128 ![0, 1] bcast_S1x128_S10000x128_0_1 : (⟨S1x128, .f32⟩ : BufTy).Contents (Elt F) → (⟨S10000x128, .f32⟩ : BufTy).Contents (Elt F)),
    StableHlo.binary main_v81 main_v93 main_v94 (subf : (⟨S10000x128, .f32⟩ : BufTy).Contents (Elt F) → (⟨S10000x128, .f32⟩ : BufTy).Contents (Elt F) → (⟨S10000x128, .f32⟩ : BufTy).Contents (Elt F)),
    StableHlo.nullary main_cst_15 (constant S_ .f32 0x3727C5AC#32),
    StableHlo.unary main_cst_15 main_v95 (broadcastInDim S128 ![] bcast_S_S128 : (⟨S_, .f32⟩ : BufTy).Contents (Elt F) → (⟨S128, .f32⟩ : BufTy).Contents (Elt F)),
    StableHlo.binary main_v91 main_v95 main_v96 (addf : (⟨S128, .f32⟩ : BufTy).Contents (Elt F) → (⟨S128, .f32⟩ : BufTy).Contents (Elt F) → (⟨S128, .f32⟩ : BufTy).Contents (Elt F)),
    StableHlo.unary main_v96 main_v97 (Host.rsqrt : (⟨S128, .f32⟩ : BufTy).Contents (Elt F) → (⟨S128, .f32⟩ : BufTy).Contents (Elt F)),
    StableHlo.unary main_v97 main_v98 (broadcastInDim S1x128 ![1] bcast_S128_S1x128_1 : (⟨S128, .f32⟩ : BufTy).Contents (Elt F) → (⟨S1x128, .f32⟩ : BufTy).Contents (Elt F)),
    StableHlo.unary main_v98 main_v99 (broadcastInDim S10000x128 ![0, 1] bcast_S1x128_S10000x128_0_1 : (⟨S1x128, .f32⟩ : BufTy).Contents (Elt F) → (⟨S10000x128, .f32⟩ : BufTy).Contents (Elt F)),
    StableHlo.binary main_v94 main_v99 main_v100 (mulf : (⟨S10000x128, .f32⟩ : BufTy).Contents (Elt F) → (⟨S10000x128, .f32⟩ : BufTy).Contents (Elt F) → (⟨S10000x128, .f32⟩ : BufTy).Contents (Elt F)),
    StableHlo.unary main_arg14 main_v101 (broadcastInDim S1x128 ![1] bcast_S128_S1x128_1 : (⟨S128, .f32⟩ : BufTy).Contents (Elt F) → (⟨S1x128, .f32⟩ : BufTy).Contents (Elt F)),
    StableHlo.unary main_v101 main_v102 (broadcastInDim S10000x128 ![0, 1] bcast_S1x128_S10000x128_0_1 : (⟨S1x128, .f32⟩ : BufTy).Contents (Elt F) → (⟨S10000x128, .f32⟩ : BufTy).Contents (Elt F)),
    StableHlo.binary main_v100 main_v102 main_v103 (mulf : (⟨S10000x128, .f32⟩ : BufTy).Contents (Elt F) → (⟨S10000x128, .f32⟩ : BufTy).Contents (Elt F) → (⟨S10000x128, .f32⟩ : BufTy).Contents (Elt F)),
    StableHlo.unary main_arg15 main_v104 (broadcastInDim S1x128 ![1] bcast_S128_S1x128_1 : (⟨S128, .f32⟩ : BufTy).Contents (Elt F) → (⟨S1x128, .f32⟩ : BufTy).Contents (Elt F)),
    StableHlo.unary main_v104 main_v105 (broadcastInDim S10000x128 ![0, 1] bcast_S1x128_S10000x128_0_1 : (⟨S1x128, .f32⟩ : BufTy).Contents (Elt F) → (⟨S10000x128, .f32⟩ : BufTy).Contents (Elt F)),
    StableHlo.binary main_v103 main_v105 main_v106 (addf : (⟨S10000x128, .f32⟩ : BufTy).Contents (Elt F) → (⟨S10000x128, .f32⟩ : BufTy).Contents (Elt F) → (⟨S10000x128, .f32⟩ : BufTy).Contents (Elt F)),
    StableHlo.TRef.nullary main_call8.cst (constant S_ .f32 0x00000000#32),
    StableHlo.TRef.unary main_call8.cst main_call8.v0 (broadcastInDim S10000x128 ![] bcast_S_S10000x128),
    StableHlo.TRef.binary (.of main_v106 : StableHlo.TRef sig ⟨S10000x128, .f32⟩) main_call8.v0 main_call8.v1 maximumf,
    StableHlo.binary main_v107 main_arg16 main_v108 ((fun l r => Host.dotGeneral dot_S10000x128_S128x1_S10000x1_1_0_0_1_n_n none l r) : (⟨S10000x128, .f32⟩ : BufTy).Contents (Elt F) → (⟨S128x1, .f32⟩ : BufTy).Contents (Elt F) → (⟨S10000x1, .f32⟩ : BufTy).Contents (Elt F)),
    StableHlo.unary main_arg17 main_v109 (broadcastInDim S1x1 ![1] bcast_S1_S1x1_1 : (⟨S1, .f32⟩ : BufTy).Contents (Elt F) → (⟨S1x1, .f32⟩ : BufTy).Contents (Elt F)),
    StableHlo.unary main_v109 main_v110 (broadcastInDim S10000x1 ![0, 1] bcast_S1x1_S10000x1_0_1 : (⟨S1x1, .f32⟩ : BufTy).Contents (Elt F) → (⟨S10000x1, .f32⟩ : BufTy).Contents (Elt F)),
    StableHlo.binary main_v108 main_v110 main_v111 (addf : (⟨S10000x1, .f32⟩ : BufTy).Contents (Elt F) → (⟨S10000x1, .f32⟩ : BufTy).Contents (Elt F) → (⟨S10000x1, .f32⟩ : BufTy).Contents (Elt F)) ]

/-- @main's 167 operations, in order. -/
abbrev ops : List (HloOp τ sig (Elt F)) := opsFront ++ (opsRoll ++ (opsS1 ++ (opsS2 ++ (opsS3 ++ (opsS4 ++ (opsS5 ++ (opsS6)))))))

/-- The fold over a concatenation is the composition of the folds. -/
theorem after_app (l₁ l₂ : List (HloOp τ sig (Elt F))) (V : Valuation τ sig (Elt F)) :
    after (l₁ ++ l₂) V = after l₂ (after l₁ V) := by
  induction l₁ generalizing V with
  | nil => rfl
  | cons op l ih => simp only [List.cons_append, after_cons, ih]

/-- A concatenate of three operands reads each operand at its own reference. -/
theorem nary3_result {x a b y : Ref sig .tc}
    (f : ((k : Fin 3) → ((![x, a, b] : Fin 3 → Ref sig .tc) k).ty.Contents (Elt F)) → y.ty.Contents (Elt F)) (hxs hy)
    (G : Valuation τ sig (Elt F)) :
    (nary (τ := τ) ![x, a, b] y f hxs hy).result G (Proc.devRef .tc y)
      = f (Fin.cons (G (Proc.devRef .tc x)) (Fin.cons (G (Proc.devRef .tc a)) (Fin.cons (G (Proc.devRef .tc b)) (fun i => i.elim0)))) := by
  rw [nary_result]; congr 1; funext k; fin_cases k <;> rfl

/-- The same equation, for the result reference in any spelling. -/
theorem nary3_result' {x a b y : Ref sig .tc}
    (f : ((k : Fin 3) → ((![x, a, b] : Fin 3 → Ref sig .tc) k).ty.Contents (Elt F)) → y.ty.Contents (Elt F)) (hxs hy)
    (G : Valuation τ sig (Elt F)) :
    (nary (τ := τ) ![x, a, b] y f hxs hy).result G (no_index (Proc.devRef .tc y))
      = f (Fin.cons (G (Proc.devRef .tc x)) (Fin.cons (G (Proc.devRef .tc a)) (Fin.cons (G (Proc.devRef .tc b)) (fun i => i.elim0)))) :=
  nary3_result f hxs hy G

set_option maxRecDepth 8192 in
set_option maxHeartbeats 4000000 in
/-- @main is that straight line: the windows and the functions' bodies unfolded at their calls, both sides are one chain of
    steps once sequencing is reassociated. -/
theorem main_eq (c : Dev nD) : main (F := F) c = seq ops := by
  simp only [seq_append]
  simp only [main, main_part0, main_part1, main_part2, fn_relu.body, fn_relu_0.body, fn_relu_1.body, fn_roll_static.body, fn_cumsum_2.body, fn_cumsum.body,
    fn_cumsum_4.body, fn_cumsum_3.body, fn_where.body, fn_take.body, fn_relu_5.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem opsFront_sub : (opsFront : List (HloOp τ sig (Elt F))).Forall fun op => op.bufs ⊆ tcRefs τ sig :=
  ⟨unary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., nullary_bufs_sub .., unary_bufs_sub .., binary_bufs_sub .., unary_bufs_sub .., binary_bufs_sub .., unary_bufs_sub .., unary_bufs_sub .., binary_bufs_sub .., nullary_bufs_sub .., unary_bufs_sub .., binary_bufs_sub .., nary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩
theorem opsRoll_sub : (opsRoll : List (HloOp τ sig (Elt F))).Forall fun op => op.bufs ⊆ tcRefs τ sig :=
  ⟨nullary_bufs_sub .., unary_bufs_sub .., unary_bufs_sub .., binary_bufs_sub ..⟩
theorem opsS1_sub : (opsS1 : List (HloOp τ sig (Elt F))).Forall fun op => op.bufs ⊆ tcRefs τ sig :=
  ⟨nullary_bufs_sub .., unary_bufs_sub .., nullary_bufs_sub .., ternary_bufs_sub .., nullary_bufs_sub .., unary_bufs_sub .., binary_bufs_sub ..⟩
theorem opsS2_sub : (opsS2 : List (HloOp τ sig (Elt F))).Forall fun op => op.bufs ⊆ tcRefs τ sig :=
  ⟨nullary_bufs_sub .., unary_bufs_sub .., nullary_bufs_sub .., unary_bufs_sub .., binary_bufs_sub .., nullary_bufs_sub .., unary_bufs_sub .., binary_bufs_sub .., ternary_bufs_sub .., unary_bufs_sub .., nullary_bufs_sub .., unary_bufs_sub .., ternary_bufs_sub .., nullary_bufs_sub .., unary_bufs_sub .., binary_bufs_sub .., nullary_bufs_sub .., unary_bufs_sub .., binary_bufs_sub ..⟩
theorem opsS3_sub : (opsS3 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub ..⟩
theorem opsS4_sub : (opsS4 : List (HloOp τ sig (Elt F))).Forall fun op => op.bufs ⊆ tcRefs τ sig :=
  ⟨nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub ..⟩
theorem opsS5_sub : (opsS5 : List (HloOp τ sig (Elt F))).Forall fun op => op.bufs ⊆ tcRefs τ sig :=
  ⟨nullary_bufs_sub .., unary_bufs_sub .., unary_bufs_sub .., ternary_bufs_sub .., unary_bufs_sub .., unary_bufs_sub .., unary_bufs_sub .., binary_bufs_sub .., binary_bufs_sub .., unary_bufs_sub .., unary_bufs_sub .., binary_bufs_sub ..⟩
theorem opsS6_sub : (opsS6 : List (HloOp τ sig (Elt F))).Forall fun op => op.bufs ⊆ tcRefs τ sig :=
  ⟨nullary_bufs_sub .., binary_bufs_sub .., nullary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩
theorem ops_sub : (ops : List (HloOp τ sig (Elt F))).Forall fun op => op.bufs ⊆ tcRefs τ sig :=
  List.forall_iff_forall_mem.mpr fun op => fun h => (List.mem_append.mp h).elim (List.forall_iff_forall_mem.mp opsFront_sub op) (fun h => (List.mem_append.mp h).elim (List.forall_iff_forall_mem.mp opsRoll_sub op) (fun h => (List.mem_append.mp h).elim (List.forall_iff_forall_mem.mp opsS1_sub op) (fun h => (List.mem_append.mp h).elim (List.forall_iff_forall_mem.mp opsS2_sub op) (fun h => (List.mem_append.mp h).elim (List.forall_iff_forall_mem.mp opsS3_sub op) (fun h => (List.mem_append.mp h).elim (List.forall_iff_forall_mem.mp opsS4_sub op) (fun h => (List.mem_append.mp h).elim (List.forall_iff_forall_mem.mp opsS5_sub op) ((List.forall_iff_forall_mem.mp opsS6_sub op))))))))

theorem opsFront_fresh : (opsFront : List (HloOp τ sig (Elt F))).Forall fun op => op.fresh = ∅ := by
  simp only [List.Forall]; repeat' constructor
theorem opsRoll_fresh : (opsRoll : List (HloOp τ sig (Elt F))).Forall fun op => op.fresh = ∅ := by
  simp only [List.Forall]; repeat' constructor
theorem opsS1_fresh : (opsS1 : List (HloOp τ sig (Elt F))).Forall fun op => op.fresh = ∅ := by
  simp only [List.Forall]; repeat' constructor
theorem opsS2_fresh : (opsS2 : List (HloOp τ sig (Elt F))).Forall fun op => op.fresh = ∅ := by
  simp only [List.Forall]; repeat' constructor
theorem opsS3_fresh : (opsS3 : List (HloOp τ sig (Elt F))).Forall fun op => op.fresh = ∅ := by
  simp only [List.Forall]; repeat' constructor
theorem opsS4_fresh : (opsS4 : List (HloOp τ sig (Elt F))).Forall fun op => op.fresh = ∅ := by
  simp only [List.Forall]; repeat' constructor
theorem opsS5_fresh : (opsS5 : List (HloOp τ sig (Elt F))).Forall fun op => op.fresh = ∅ := by
  simp only [List.Forall]; repeat' constructor
theorem opsS6_fresh : (opsS6 : List (HloOp τ sig (Elt F))).Forall fun op => op.fresh = ∅ := by
  simp only [List.Forall]; repeat' constructor
theorem ops_fresh : ∀ op ∈ (ops : List (HloOp τ sig (Elt F))), op.fresh = ∅ :=
  fun op => fun h => (List.mem_append.mp h).elim (List.forall_iff_forall_mem.mp opsFront_fresh op) (fun h => (List.mem_append.mp h).elim (List.forall_iff_forall_mem.mp opsRoll_fresh op) (fun h => (List.mem_append.mp h).elim (List.forall_iff_forall_mem.mp opsS1_fresh op) (fun h => (List.mem_append.mp h).elim (List.forall_iff_forall_mem.mp opsS2_fresh op) (fun h => (List.mem_append.mp h).elim (List.forall_iff_forall_mem.mp opsS3_fresh op) (fun h => (List.mem_append.mp h).elim (List.forall_iff_forall_mem.mp opsS4_fresh op) (fun h => (List.mem_append.mp h).elim (List.forall_iff_forall_mem.mp opsS5_fresh op) ((List.forall_iff_forall_mem.mp opsS6_fresh op))))))))

/-- The references `opsFront` writes. -/
abbrev opsFront_W : List (Ref sig .tc) := [main_v0, main_v1, main_v2, main_v3, main_v4, main_call0_cst, main_call0_v0, main_v5, main_v6, main_v7, main_v8, main_v9, main_v10, main_call1_cst, main_call1_v0, main_v11, main_v12, main_v13, main_v14, main_v15, main_v16, main_call2_cst, main_call2_v0, main_v17, main_v18, main_v19, main_v20, main_v21, main_v22, main_cst, main_v23, main_cst_0, main_v24, main_v25, main_v26, main_v27, main_v28, main_v29, main_cst_1, main_v30, main_cst_2, main_v31, main_v32, main_v33, main_v34, main_v35, main_cst_3, main_v36, main_v37, main_v38, main_v39, main_v40, main_v41, main_v42, main_v43, main_v44, main_v45, main_v46, main_v47, main_call3_cst, main_call3_v0, main_v48, main_v49, main_v50, main_v51, main_v52]
/-- The references `opsRoll` writes. -/
abbrev opsRoll_W : List (Ref sig .tc) := [main_v53, main_call4_v0, main_call4_v1, main_v54]
/-- The references `opsS1` writes. -/
abbrev opsS1_W : List (Ref sig .tc) := [main_c, main_v55, main_c_4, main_v56, main_call5_call0_c, main_call5_call0_v0, main_v57]
/-- The references `opsS2` writes. -/
abbrev opsS2_W : List (Ref sig .tc) := [main_c_5, main_v58, main_c_6, main_v59, main_v60, main_c_7, main_v61, main_v62, main_v63, main_v64, main_c_8, main_v65, main_v66, main_call6_call0_c, main_call6_call0_v0, main_v67, main_c_9, main_v68, main_v69]
/-- The references `opsS3` writes. -/
abbrev opsS3_W : List (Ref sig .tc) := [main_call7_c, main_call7_v0, main_call7_v1, main_call7_c_0, main_call7_v2, main_call7_v3, main_call7_v4, main_call7_v5]
/-- The references `opsS4` writes. -/
abbrev opsS4_W : List (Ref sig .tc) := [main_call7_c_1, main_call7_c_2, main_call7_v6, main_call7_v7, main_call7_v8, main_call7_v9, main_call7_v10, main_call7_v11, main_call7_c_3, main_call7_v12, main_call7_v13, main_call7_c_4, main_call7_v14, main_v70]
/-- The references `opsS5` writes. -/
abbrev opsS5_W : List (Ref sig .tc) := [main_cst_10, main_v71, main_v72, main_v73, main_v74, main_v75, main_v76, main_v77, main_v78, main_v79, main_v80, main_v81]
/-- The references `opsS6` writes. -/
abbrev opsS6_W : List (Ref sig .tc) := [main_cst_11, main_v82, main_cst_12, main_v83, main_v84, main_v85, main_v86, main_v87, main_v88, main_cst_13, main_v89, main_cst_14, main_v90, main_v91, main_v92, main_v93, main_v94, main_cst_15, main_v95, main_v96, main_v97, main_v98, main_v99, main_v100, main_v101, main_v102, main_v103, main_v104, main_v105, main_v106, main_call8_cst, main_call8_v0, main_v107, main_v108, main_v109, main_v110, main_v111]

local macro "writes_in" : tactic =>
  `(tactic| (simp only [nullary_writes, unary_writes, binary_writes, ternary_writes, nary_writes, Finset.singleton_subset_iff, List.mem_toFinset]
             exact List.mem_map_of_mem (by decide)))

theorem opsFront_writes : (opsFront : List (HloOp τ sig (Elt F))).Forall fun op => op.writes ⊆ (opsFront_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> writes_in
theorem opsRoll_writes : (opsRoll : List (HloOp τ sig (Elt F))).Forall fun op => op.writes ⊆ (opsRoll_W.map (Proc.devRef (τ := τ) .tc)).toFinset := by
  simp only [List.Forall]
  refine ⟨?_, ?_, ?_, ?_⟩ <;> writes_in
theorem opsS1_writes : (opsS1 : List (HloOp τ sig (Elt F))).Forall fun op => op.writes ⊆ (opsS1_W.map (Proc.devRef (τ := τ) .tc)).toFinset := by
  simp only [List.Forall]
  refine ⟨?_, ?_, ?_, ?_, ?_, ?_, ?_⟩ <;> writes_in
theorem opsS2_writes : (opsS2 : List (HloOp τ sig (Elt F))).Forall fun op => op.writes ⊆ (opsS2_W.map (Proc.devRef (τ := τ) .tc)).toFinset := by
  simp only [List.Forall]
  refine ⟨?_, ?_, ?_, ?_, ?_, ?_, ?_, ?_, ?_, ?_, ?_, ?_, ?_, ?_, ?_, ?_, ?_, ?_, ?_⟩ <;> writes_in
theorem opsS3_writes : (opsS3 : List (HloOp τ sig (Elt F))).Forall fun op => op.writes ⊆ (opsS3_W.map (Proc.devRef (τ := τ) .tc)).toFinset := by
  simp only [List.Forall]
  refine ⟨?_, ?_, ?_, ?_, ?_, ?_, ?_, ?_⟩ <;> writes_in
theorem opsS4_writes : (opsS4 : List (HloOp τ sig (Elt F))).Forall fun op => op.writes ⊆ (opsS4_W.map (Proc.devRef (τ := τ) .tc)).toFinset := by
  simp only [List.Forall]
  refine ⟨?_, ?_, ?_, ?_, ?_, ?_, ?_, ?_, ?_, ?_, ?_, ?_, ?_, ?_⟩ <;> writes_in
theorem opsS5_writes : (opsS5 : List (HloOp τ sig (Elt F))).Forall fun op => op.writes ⊆ (opsS5_W.map (Proc.devRef (τ := τ) .tc)).toFinset := by
  simp only [List.Forall]
  refine ⟨?_, ?_, ?_, ?_, ?_, ?_, ?_, ?_, ?_, ?_, ?_, ?_⟩ <;> writes_in
theorem opsS6_writes : (opsS6 : List (HloOp τ sig (Elt F))).Forall fun op => op.writes ⊆ (opsS6_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> writes_in

/-! ## What a group leaves alone: every reference it does not write -/

theorem keep_opsFront (V : Valuation τ sig (Elt F)) (r : Ref sig .tc) (h : r ∉ opsFront_W) :
    after opsFront V (no_index (Proc.devRef .tc r)) = V (Proc.devRef .tc r) :=
  after_of_writes_sub opsFront V opsFront_writes h
theorem keep_opsRoll (V : Valuation τ sig (Elt F)) (r : Ref sig .tc) (h : r ∉ opsRoll_W) :
    after opsRoll V (no_index (Proc.devRef .tc r)) = V (Proc.devRef .tc r) :=
  after_of_writes_sub opsRoll V opsRoll_writes h
theorem keep_opsS1 (V : Valuation τ sig (Elt F)) (r : Ref sig .tc) (h : r ∉ opsS1_W) :
    after opsS1 V (no_index (Proc.devRef .tc r)) = V (Proc.devRef .tc r) :=
  after_of_writes_sub opsS1 V opsS1_writes h
theorem keep_opsS2 (V : Valuation τ sig (Elt F)) (r : Ref sig .tc) (h : r ∉ opsS2_W) :
    after opsS2 V (no_index (Proc.devRef .tc r)) = V (Proc.devRef .tc r) :=
  after_of_writes_sub opsS2 V opsS2_writes h
theorem keep_opsS3 (V : Valuation τ sig (Elt F)) (r : Ref sig .tc) (h : r ∉ opsS3_W) :
    after opsS3 V (no_index (Proc.devRef .tc r)) = V (Proc.devRef .tc r) :=
  after_of_writes_sub opsS3 V opsS3_writes h
theorem keep_opsS4 (V : Valuation τ sig (Elt F)) (r : Ref sig .tc) (h : r ∉ opsS4_W) :
    after opsS4 V (no_index (Proc.devRef .tc r)) = V (Proc.devRef .tc r) :=
  after_of_writes_sub opsS4 V opsS4_writes h
theorem keep_opsS5 (V : Valuation τ sig (Elt F)) (r : Ref sig .tc) (h : r ∉ opsS5_W) :
    after opsS5 V (no_index (Proc.devRef .tc r)) = V (Proc.devRef .tc r) :=
  after_of_writes_sub opsS5 V opsS5_writes h
theorem keep_opsS6 (V : Valuation τ sig (Elt F)) (r : Ref sig .tc) (h : r ∉ opsS6_W) :
    after opsS6 V (no_index (Proc.devRef .tc r)) = V (Proc.devRef .tc r) :=
  after_of_writes_sub opsS6 V opsS6_writes h

/-! ## What each group leaves at its result -/

set_option maxRecDepth 16384 in
set_option maxHeartbeats 4000000 in
/-- The first stretch leaves %52 at `frontR` of the arguments. -/
theorem front_eq (V : Valuation τ sig (Elt F)) :
    after opsFront V (main_v52 : DevRef τ sig) = frontR (V (main_arg0 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) := by
  simp (disch := decide) only [after_cons, after_nil, nullary_result', unary_result', binary_result', ternary_result', nary3_result', nullary_result_ne', unary_result_ne', binary_result_ne', ternary_result_ne', nary_result_ne']
  rfl

set_option maxRecDepth 16384 in
set_option maxHeartbeats 4000000 in
/-- Lines %53 and %54 leave the cyclic shift of the segment lengths at %54 … -/
theorem roll_eq (V : Valuation τ sig (Elt F)) :
    after opsRoll V (main_v54 : DevRef τ sig) = rollR (V (main_arg1 : DevRef τ sig)) := by
  after_results
  rfl

set_option maxRecDepth 16384 in
set_option maxHeartbeats 4000000 in
/-- … and the index ramp at %53. -/
theorem iota_eq (V : Valuation τ sig (Elt F)) :
    after opsRoll V (main_v53 : DevRef τ sig) = iotaInDim S10000 32 0 := by
  after_results

set_option maxRecDepth 16384 in
set_option maxHeartbeats 4000000 in
/-- The segment starts from the shifted lengths. -/
theorem s1_eq (V : Valuation τ sig (Elt F)) :
    after opsS1 V (main_v57 : DevRef τ sig) = startsR (V (main_v54 : DevRef τ sig)) := by
  simp (disch := decide) only [after_cons, after_nil, nullary_result', unary_result', binary_result', ternary_result', nullary_result_ne', unary_result_ne', binary_result_ne', ternary_result_ne', nary_result_ne']
  simp only [TRef.toBuf, TRef.ofBuf, cast_eq]
  rfl

set_option maxRecDepth 16384 in
set_option maxHeartbeats 4000000 in
/-- The row counters from the segment starts. -/
theorem s2_eq (V : Valuation τ sig (Elt F)) :
    after opsS2 V (main_v69 : DevRef τ sig) = rowCntOf (V (main_v57 : DevRef τ sig)) := by
  simp (disch := decide) only [after_cons, after_nil, nullary_result', unary_result', binary_result', ternary_result', nullary_result_ne', unary_result_ne', binary_result_ne', ternary_result_ne', nary_result_ne']
  simp only [TRef.toBuf, TRef.ofBuf, cast_eq]
  rfl

set_option maxRecDepth 16384 in
set_option maxHeartbeats 4000000 in
/-- The lookup's index column from the row counters. -/
theorem s3_eq (V : Valuation τ sig (Elt F)) :
    after opsS3 V (main_call7_v5 : DevRef τ sig) = takeIdxOf (V (main_v69 : DevRef τ sig)) := by
  simp (disch := decide) only [after_cons, after_nil, nullary_result', unary_result', binary_result', ternary_result', nullary_result_ne', unary_result_ne', binary_result_ne', ternary_result_ne', nary_result_ne']
  simp only [TRef.toBuf, TRef.ofBuf, cast_eq]
  rfl

set_option maxRecDepth 16384 in
set_option maxHeartbeats 4000000 in
/-- The rows' segment ids from the index column and the ramp. -/
theorem s4_eq (V : Valuation τ sig (Elt F)) :
    after opsS4 V (main_v70 : DevRef τ sig) = segOf (V (main_call7_v5 : DevRef τ sig)) (V (main_v53 : DevRef τ sig)) := by
  simp (disch := decide) only [after_cons, after_nil, nullary_result', unary_result', binary_result', ternary_result', nullary_result_ne', unary_result_ne', binary_result_ne', ternary_result_ne', nary_result_ne']
  simp only [TRef.toBuf, TRef.ofBuf, cast_eq]
  rfl

set_option maxRecDepth 16384 in
set_option maxHeartbeats 4000000 in
/-- The segment means through the first linear layer. -/
theorem s5_eq (V : Valuation τ sig (Elt F)) :
    after opsS5 V (main_v81 : DevRef τ sig) = z1Of (V (main_v52 : DevRef τ sig)) (V (main_v70 : DevRef τ sig)) (V (main_arg1 : DevRef τ sig)) (V (main_arg12 : DevRef τ sig)) (V (main_arg13 : DevRef τ sig)) := by
  simp (disch := decide) only [after_cons, after_nil, nullary_result', unary_result', binary_result', ternary_result', nullary_result_ne', unary_result_ne', binary_result_ne', ternary_result_ne', nary_result_ne']
  rfl

set_option maxRecDepth 16384 in
set_option maxHeartbeats 4000000 in
/-- The normalisation, the rectifier and the last linear layer. -/
theorem s6_eq (V : Valuation τ sig (Elt F)) :
    after opsS6 V (main_v111 : DevRef τ sig) = headOf (V (main_v81 : DevRef τ sig)) (V (main_arg14 : DevRef τ sig)) (V (main_arg15 : DevRef τ sig)) (V (main_arg16 : DevRef τ sig)) (V (main_arg17 : DevRef τ sig)) := by
  simp (disch := decide) only [after_cons, after_nil, nullary_result', unary_result', binary_result', ternary_result', nullary_result_ne', unary_result_ne', binary_result_ne', ternary_result_ne', nary_result_ne']
  simp only [TRef.toBuf, TRef.ofBuf, cast_eq]
  rfl

/-! ## The whole line -/

/-- No group writes an argument. -/
theorem arg_eq (V : Valuation τ sig (Elt F)) (r : Ref sig .tc) (h0 : r ∉ opsFront_W) (h1 : r ∉ opsRoll_W) (h2 : r ∉ opsS1_W) (h3 : r ∉ opsS2_W) (h4 : r ∉ opsS3_W) (h5 : r ∉ opsS4_W) (h6 : r ∉ opsS5_W) (h7 : r ∉ opsS6_W) :
    after ops V (Proc.devRef .tc r) = V (Proc.devRef .tc r) := by
  simp only [ops, after_app]
  rw [after_of_writes_sub opsS6 _ opsS6_writes h7, after_of_writes_sub opsS5 _ opsS5_writes h6, after_of_writes_sub opsS4 _ opsS4_writes h5, after_of_writes_sub opsS3 _ opsS3_writes h4, after_of_writes_sub opsS2 _ opsS2_writes h3, after_of_writes_sub opsS1 _ opsS1_writes h2, after_of_writes_sub opsRoll _ opsRoll_writes h1, after_of_writes_sub opsFront _ opsFront_writes h0]

/-- All of @main leaves %111 at `tailR (frontR …) …` of the arguments: the groups' results composed, every value a later group
    reads carried unchanged through the groups between. -/
theorem out_eq (V : Valuation τ sig (Elt F)) :
    after ops V (main_v111 : DevRef τ sig) = tailR (frontR (V (main_arg0 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig))) (V (main_arg1 : DevRef τ sig)) (V (main_arg12 : DevRef τ sig)) (V (main_arg13 : DevRef τ sig)) (V (main_arg14 : DevRef τ sig)) (V (main_arg15 : DevRef τ sig)) (V (main_arg16 : DevRef τ sig)) (V (main_arg17 : DevRef τ sig)) := by
  simp only [ops, after_app]
  rw [s6_eq]
  simp (disch := decide) only [keep_opsS5]
  rw [s5_eq]
  simp (disch := decide) only [keep_opsS4]
  rw [s4_eq]
  simp (disch := decide) only [keep_opsS3]
  rw [s3_eq]
  simp (disch := decide) only [keep_opsS2]
  rw [s2_eq]
  simp (disch := decide) only [keep_opsS1]
  rw [s1_eq, roll_eq, iota_eq]
  simp (disch := decide) only [keep_opsRoll]
  rw [front_eq]
  simp (disch := decide) only [keep_opsFront]
  exact (tailRest_eq _ _ _ _ _ _ _ _ _ _).symm

/-- On every device, for any float values, from any memory with zero counters: every weakly fair execution of
    @main terminates with the result at `tailR (frontR …) …` of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v111)
        = tailR (frontR (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)))
            (m ((c.tc : Thread nD τ).loc main_arg1)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17) :=
  (θ_run defs _ _).mono (fun _ h c => ⟨(h c main_v111).trans (out_eq _),
      (h c main_arg0).trans (arg_eq _ main_arg0 (by decide) (by decide) (by decide) (by decide) (by decide) (by decide) (by decide) (by decide)),
      (h c main_arg1).trans (arg_eq _ main_arg1 (by decide) (by decide) (by decide) (by decide) (by decide) (by decide) (by decide) (by decide)),
      (h c main_arg2).trans (arg_eq _ main_arg2 (by decide) (by decide) (by decide) (by decide) (by decide) (by decide) (by decide) (by decide)),
      (h c main_arg3).trans (arg_eq _ main_arg3 (by decide) (by decide) (by decide) (by decide) (by decide) (by decide) (by decide) (by decide)),
      (h c main_arg4).trans (arg_eq _ main_arg4 (by decide) (by decide) (by decide) (by decide) (by decide) (by decide) (by decide) (by decide)),
      (h c main_arg5).trans (arg_eq _ main_arg5 (by decide) (by decide) (by decide) (by decide) (by decide) (by decide) (by decide) (by decide)),
      (h c main_arg6).trans (arg_eq _ main_arg6 (by decide) (by decide) (by decide) (by decide) (by decide) (by decide) (by decide) (by decide)),
      (h c main_arg7).trans (arg_eq _ main_arg7 (by decide) (by decide) (by decide) (by decide) (by decide) (by decide) (by decide) (by decide)),
      (h c main_arg8).trans (arg_eq _ main_arg8 (by decide) (by decide) (by decide) (by decide) (by decide) (by decide) (by decide) (by decide)),
      (h c main_arg9).trans (arg_eq _ main_arg9 (by decide) (by decide) (by decide) (by decide) (by decide) (by decide) (by decide) (by decide)),
      (h c main_arg10).trans (arg_eq _ main_arg10 (by decide) (by decide) (by decide) (by decide) (by decide) (by decide) (by decide) (by decide)),
      (h c main_arg11).trans (arg_eq _ main_arg11 (by decide) (by decide) (by decide) (by decide) (by decide) (by decide) (by decide) (by decide)),
      (h c main_arg12).trans (arg_eq _ main_arg12 (by decide) (by decide) (by decide) (by decide) (by decide) (by decide) (by decide) (by decide)),
      (h c main_arg13).trans (arg_eq _ main_arg13 (by decide) (by decide) (by decide) (by decide) (by decide) (by decide) (by decide) (by decide)),
      (h c main_arg14).trans (arg_eq _ main_arg14 (by decide) (by decide) (by decide) (by decide) (by decide) (by decide) (by decide) (by decide)),
      (h c main_arg15).trans (arg_eq _ main_arg15 (by decide) (by decide) (by decide) (by decide) (by decide) (by decide) (by decide) (by decide)),
      (h c main_arg16).trans (arg_eq _ main_arg16 (by decide) (by decide) (by decide) (by decide) (by decide) (by decide) (by decide) (by decide)),
      (h c main_arg17).trans (arg_eq _ main_arg17 (by decide) (by decide) (by decide) (by decide) (by decide) (by decide) (by decide) (by decide))⟩)
    (run_seq scopedRefs_eq scopedSems_eq defs main (fun _ => ops) main_eq (fun _ => ops_sub) m ρ (fun _ => ops_fresh))

end Cert.ReferenceIdeal.Hand

end
-- ==== Proof.TailEq.lean ====
/-
  The host operations after the second kernel are the same composition of the same pure operations in the two
  programs: the shape facts and the dimension records the two texts name live in two namespaces but hold the same
  data, so the two tails are one function of the kernel's output array and of the arguments.
-/
import proofs.«146594_j41369124995826_1_alg».proof.Proof.KI.Tail
import proofs.«146594_j41369124995826_1_alg».proof.Proof.Ref.Run

set_option maxRecDepth 16384

noncomputable section

namespace Cert.TailEq

open Idealize.ShloMosaic

/-- The kernel program's tail and the reference's tail agree on every input. -/
theorem tail_eq (xf : FVec Ideal Cert.KernelIdeal.S500000x128 .f32) (idx : IVec Cert.KernelIdeal.S10000 32)
    (fc1W : FVec Ideal Cert.KernelIdeal.S128x128 .f32) (fc1b g1 b1 : FVec Ideal Cert.KernelIdeal.S128 .f32)
    (fc2W : FVec Ideal Cert.KernelIdeal.S128x1 .f32) (fc2b : FVec Ideal Cert.KernelIdeal.S1 .f32) :
    Cert.KernelIdeal.Val.tailK xf idx fc1W fc1b g1 b1 fc2W fc2b
      = Cert.ReferenceIdeal.Hand.tailR (F := Ideal) xf idx fc1W fc1b g1 b1 fc2W fc2b :=
  rfl

end Cert.TailEq

end
-- ==== Proof.Ref.Read.lean ====
/-
  The reference's front stage read at an index: each stage of the reference, at a row and a column, is the
  corresponding function of the specification applied to the entries of the arguments.
-/
import proofs.«146594_j41369124995826_1_alg».proof.Proof.Ref.Stages
import proofs.«146594_j41369124995826_1_alg».proof.Proof.Math.Spec
import Idealize.ShloMosaic.Lib.ValueIdx
import Idealize.ShloMosaic.Lib.Pipeline.Value
import Idealize.ShloMosaic.Lib.ValueLayout
import Idealize.ShloMosaic.Lib.StackMember
import Idealize.ShloMosaic.PureOps.Ideal.Laws

noncomputable section

namespace Cert.ReferenceIdeal.Val

open Cert.ReferenceIdeal Cert.ReferenceIdeal.Hand Idealize.ShloMosaic Idealize.ShloMosaic.ValueIdx
open scoped BigOperators

/-- The number of rows as the reference's constant 5.0e5. -/
abbrev Nc : EReal := Ideal.ofBits .f32 0x48F42400#32
/-- The reference's constant 9.99999974e-6 added to the variance. -/
abbrev eps : EReal := Ideal.ofBits .f32 0x3727C5AC#32

variable (x : FVec Ideal S500000x80 .f32) (aW : FVec Ideal S32x128 .f32) (ab : FVec Ideal S128 .f32)
  (bW : FVec Ideal S16x64 .f32) (bb : FVec Ideal S64 .f32) (p1W : FVec Ideal S320x256 .f32) (p1b : FVec Ideal S256 .f32)
  (g b : FVec Ideal S256 .f32) (p3W : FVec Ideal S256x128 .f32) (p3b : FVec Ideal S128 .f32)

/-! ## The layout operations of the front stage at an index -/

/-- A vector of 128 entries repeated on every row reads, at a row and a column, the vector's entry at the column. -/
theorem rows128_apply (v : FVec Ideal S128 .f32) (r : Fin 500000) (q : Fin 128) : rows128 v (ix2 r q) = v (ix1 q) := by
  unfold rows128
  refine (broadcastInDim_apply _ _ _ (ix2 r q) (ix2 (0 : Fin 1) q) ?_).trans ?_
  · intro a; match a with
    | ⟨0, _⟩ => rfl
    | ⟨1, _⟩ => rfl
  · refine broadcastInDim_apply _ _ _ _ (ix1 q) ?_
    intro a; match a with
    | ⟨0, _⟩ => rfl

/-- The same for 64 entries. -/
theorem rows64_apply (v : FVec Ideal S64 .f32) (r : Fin 500000) (q : Fin 64) : rows64 v (ix2 r q) = v (ix1 q) := by
  unfold rows64
  refine (broadcastInDim_apply _ _ _ (ix2 r q) (ix2 (0 : Fin 1) q) ?_).trans ?_
  · intro a; match a with
    | ⟨0, _⟩ => rfl
    | ⟨1, _⟩ => rfl
  · refine broadcastInDim_apply _ _ _ _ (ix1 q) ?_
    intro a; match a with
    | ⟨0, _⟩ => rfl

/-- The same for 256 entries. -/
theorem rows256_apply (v : FVec Ideal S256 .f32) (r : Fin 500000) (q : Fin 256) : rows256 v (ix2 r q) = v (ix1 q) := by
  unfold rows256
  refine (broadcastInDim_apply _ _ _ (ix2 r q) (ix2 (0 : Fin 1) q) ?_).trans ?_
  · intro a; match a with
    | ⟨0, _⟩ => rfl
    | ⟨1, _⟩ => rfl
  · refine broadcastInDim_apply _ _ _ _ (ix1 q) ?_
    intro a; match a with
    | ⟨0, _⟩ => rfl

/-- A scalar constant broadcast to any shape reads the constant's value everywhere. -/
theorem splat_apply {t : Shape} (h : S_.BroadcastsInDim t (![] : Fin 0 → Fin t.rank)) (c : BitVec 32) (j : t.Idx) :
    broadcastInDim t ![] h (constant (F := Ideal) S_ .f32 c) j = Ideal.ofBits .f32 c :=
  (broadcastInDim_apply _ _ _ j ix0 (fun a => a.elim0)).trans rfl

/-- The zero constant broadcast to any shape reads 0 everywhere. -/
theorem splat_zero_apply {t : Shape} (h : S_.BroadcastsInDim t (![] : Fin 0 → Fin t.rank)) (j : t.Idx) :
    broadcastInDim t ![] h (constant (F := Ideal) S_ .f32 0x00000000#32) j = 0 :=
  (splat_apply h _ j).trans Ideal.ofBits_zero_f32

/-! ## The four products at an index: a sum over the contracted coordinate -/

theorem dot32_apply (A : FVec Ideal S500000x32 .f32) (B : FVec Ideal S32x128 .f32) (r : Fin 500000) (q : Fin 128) :
    Host.dotGeneral dot_S500000x32_S32x128_S500000x128_1_0_0_1_n_n none A B (ix2 r q)
      = ∑ c : Fin 32, A (ix2 r c) * B (ix2 c q) :=
  StackMember.dotGeneral_plain_apply (m := 500000) (n := 128) (k := 32) none A B r q

theorem dot16_apply (A : FVec Ideal S500000x16 .f32) (B : FVec Ideal S16x64 .f32) (r : Fin 500000) (q : Fin 64) :
    Host.dotGeneral dot_S500000x16_S16x64_S500000x64_1_0_0_1_n_n none A B (ix2 r q)
      = ∑ c : Fin 16, A (ix2 r c) * B (ix2 c q) :=
  StackMember.dotGeneral_plain_apply (m := 500000) (n := 64) (k := 16) none A B r q

theorem dot320_apply (A : FVec Ideal S500000x320 .f32) (B : FVec Ideal S320x256 .f32) (r : Fin 500000) (q : Fin 256) :
    Host.dotGeneral dot_S500000x320_S320x256_S500000x256_1_0_0_1_n_n none A B (ix2 r q)
      = ∑ c : Fin 320, A (ix2 r c) * B (ix2 c q) :=
  StackMember.dotGeneral_plain_apply (m := 500000) (n := 256) (k := 320) none A B r q

theorem dot256_apply (A : FVec Ideal S500000x256 .f32) (B : FVec Ideal S256x128 .f32) (r : Fin 500000) (q : Fin 128) :
    Host.dotGeneral dot_S500000x256_S256x128_S500000x128_1_0_0_1_n_n none A B (ix2 r q)
      = ∑ c : Fin 256, A (ix2 r c) * B (ix2 c q) :=
  StackMember.dotGeneral_plain_apply (m := 500000) (n := 128) (k := 256) none A B r q

/-! ## The three descriptor blocks, the concatenation and the second layer -/

/-- The first block at a row and a feature: the specification's first atom descriptor of that row. -/
theorem aR0_apply (r : Fin 500000) (q : Fin 128) :
    aR0 x aW ab (ix2 r q)
      = Cert.Spec.atom1 (fun p => x (ix2 r p)) (fun p q => aW (ix2 p q)) (fun q => ab (ix1 q)) q := by
  unfold aR0
  rw [maximumf_apply, addf_apply, dot32_apply, rows128_apply, splat_zero_apply]
  unfold Cert.Spec.atom1 Cert.Spec.feat
  refine congrArg (fun s => max (s + ab (ix1 q)) 0) (Finset.sum_congr rfl fun c _ => ?_)
  rw [slice2_axis1_apply 0 x _ r c ⟨c.val, by omega⟩ (Nat.zero_add _).symm]

/-- The second block at a row and a feature: the specification's second atom descriptor of that row. -/
theorem aR1_apply (r : Fin 500000) (q : Fin 128) :
    aR1 x aW ab (ix2 r q)
      = Cert.Spec.atom2 (fun p => x (ix2 r p)) (fun p q => aW (ix2 p q)) (fun q => ab (ix1 q)) q := by
  unfold aR1
  rw [maximumf_apply, addf_apply, dot32_apply, rows128_apply, splat_zero_apply]
  unfold Cert.Spec.atom2 Cert.Spec.feat
  refine congrArg (fun s => max (s + ab (ix1 q)) 0) (Finset.sum_congr rfl fun c _ => ?_)
  rw [slice2_axis1_apply 32 x _ r c ⟨32 + c.val, by omega⟩ rfl]

/-- The third block at a row and a feature: the specification's bond descriptor of that row. -/
theorem bR_apply (r : Fin 500000) (q : Fin 64) :
    bR x bW bb (ix2 r q)
      = Cert.Spec.bond (fun p => x (ix2 r p)) (fun p q => bW (ix2 p q)) (fun q => bb (ix1 q)) q := by
  unfold bR
  rw [maximumf_apply, addf_apply, dot16_apply, rows64_apply, splat_zero_apply]
  unfold Cert.Spec.bond Cert.Spec.feat
  refine congrArg (fun s => max (s + bb (ix1 q)) 0) (Finset.sum_congr rfl fun c _ => ?_)
  rw [slice2_axis1_apply 64 x _ r c ⟨64 + c.val, by omega⟩ rfl]

/-- The three blocks side by side at a row and a column: the specification's 320 concatenated features, by the
    block the column falls in. -/
theorem catR_apply (r : Fin 500000) (q : Fin 320) :
    catR x aW ab bW bb (ix2 r q)
      = Cert.Spec.cat (fun p => x (ix2 r p)) (fun p q => aW (ix2 p q)) (fun q => ab (ix1 q)) (fun p q => bW (ix2 p q))
          (fun q => bb (ix1 q)) q := by
  unfold catR Cert.Spec.cat
  by_cases h1 : q.val < 128
  · rw [dif_pos h1, ← aR0_apply]
    refine concatenate_apply_piece (α := Ideal .f32) (t := S500000x320) 1 [⟨S500000x128, aR0 x aW ab⟩, ⟨S500000x128, aR1 x aW ab⟩, ⟨S500000x64, bR x bW bb⟩] _ (ix2 r q) 0 (by omega : 0 < 3) S500000x128 (aR0 x aW ab) rfl rfl 0 rfl
      (ix2 r ⟨q.val, h1⟩) ?_ (Nat.zero_add _)
    intro b; match b with
    | ⟨0, _⟩ => exact fun _ => rfl
    | ⟨1, _⟩ => exact fun h => absurd rfl h
  · by_cases h2 : q.val < 256
    · rw [dif_neg h1, dif_pos h2, ← aR1_apply]
      refine concatenate_apply_piece (α := Ideal .f32) (t := S500000x320) 1 [⟨S500000x128, aR0 x aW ab⟩, ⟨S500000x128, aR1 x aW ab⟩, ⟨S500000x64, bR x bW bb⟩] _ (ix2 r q) 1 (by omega : 1 < 3) S500000x128 (aR1 x aW ab) rfl rfl 128 rfl
        (ix2 r ⟨q.val - 128, by omega⟩) ?_ (by show 128 + (q.val - 128) = q.val; omega)
      intro b; match b with
      | ⟨0, _⟩ => exact fun _ => rfl
      | ⟨1, _⟩ => exact fun h => absurd rfl h
    · rw [dif_neg h1, dif_neg h2, ← bR_apply]
      refine concatenate_apply_piece (α := Ideal .f32) (t := S500000x320) 1 [⟨S500000x128, aR0 x aW ab⟩, ⟨S500000x128, aR1 x aW ab⟩, ⟨S500000x64, bR x bW bb⟩] _ (ix2 r q) 2 (by omega : 2 < 3) S500000x64 (bR x bW bb) rfl rfl 256 rfl
        (ix2 r ⟨q.val - 256, by have := q.isLt; omega⟩) ?_ (by show 256 + (q.val - 256) = q.val; omega)
      intro b; match b with
      | ⟨0, _⟩ => exact fun _ => rfl
      | ⟨1, _⟩ => exact fun h => absurd rfl h

/-- The pre-normalisation array at a row and a column is the specification's 256 features of that row. -/
theorem h1R_apply (r : Fin 500000) (k : Fin 256) :
    h1R x aW ab bW bb p1W p1b (ix2 r k)
      = Cert.Spec.hR (fun p => x (ix2 r p)) (fun p q => aW (ix2 p q)) (fun q => ab (ix1 q)) (fun p q => bW (ix2 p q))
          (fun q => bb (ix1 q)) (fun q k => p1W (ix2 q k)) (fun k => p1b (ix1 k)) k := by
  unfold h1R
  rw [addf_apply, dot320_apply, rows256_apply]
  unfold Cert.Spec.hR
  refine congrArg (· + p1b (ix1 k)) (Finset.sum_congr rfl fun c _ => ?_)
  rw [catR_apply]

/-! ## The batch normalisation and the last layer -/

/-- The reference's division at an index is the division of the entries. -/
theorem hostDivf_apply {s : Shape} (u v : FVec Ideal s .f32) (i : s.Idx) : Host.divf u v i = Ideal.div (u i) (v i) := rfl
/-- The reference's reciprocal square root at an index is that of the entry. -/
theorem hostRsqrt_apply {s : Shape} (u : FVec Ideal s .f32) (i : s.Idx) : Host.rsqrt u i = Ideal.rsqrt (u i) := rfl

/-- The sum over the rows from zero, at a column: 0 plus the sum of the column's entries. -/
theorem colsum_apply (X : FVec Ideal S500000x256 .f32) (h' : S500000x256.ReducesTo [0] S256) (hu : 0 < S_.numel)
    (k : Fin 256) :
    Host.reduceAdd X (constant (F := Ideal) S_ .f32 0x00000000#32) h' hu (ix1 k) = 0 + ∑ i : Fin 500000, X (ix2 i k) := by
  have h : S500000x256.Reduces [0] S256 := by decide
  show Ideal.hostReduceAdd h' X (Ideal.ofBits .f32 0x00000000#32) (ix1 k) = _
  rw [Ideal.hostReduceAdd_single h' h, Ideal.ofBits_zero_f32]
  show (0 : EReal) + ∑ i : Fin 500000, X (h.lift (ix1 k) i) = _
  refine congrArg (0 + ·) (Finset.sum_congr rfl fun i _ => congrArg X ?_)
  funext a; apply Fin.ext
  match a with
  | ⟨0, _⟩ => rfl
  | ⟨1, _⟩ => rfl

/-- The column mean: the column's sum from zero divided by the number of rows. -/
theorem meanR_apply (k : Fin 256) :
    meanR x aW ab bW bb p1W p1b (ix1 k)
      = Ideal.div (0 + ∑ i : Fin 500000, h1R x aW ab bW bb p1W p1b (ix2 i k)) Nc := by
  unfold meanR
  rw [hostDivf_apply, colsum_apply, splat_apply]

/-- The column variance: the sum from zero of the centred squares divided by the number of rows. -/
theorem varR_apply (k : Fin 256) :
    varR x aW ab bW bb p1W p1b (ix1 k)
      = Ideal.div (0 + ∑ i : Fin 500000,
          (h1R x aW ab bW bb p1W p1b (ix2 i k) - meanR x aW ab bW bb p1W p1b (ix1 k))
            * (h1R x aW ab bW bb p1W p1b (ix2 i k) - meanR x aW ab bW bb p1W p1b (ix1 k))) Nc := by
  unfold varR
  rw [hostDivf_apply, colsum_apply, splat_apply]
  refine congrArg (fun s => Ideal.div (0 + s) Nc) (Finset.sum_congr rfl fun i _ => ?_)
  rw [mulf_apply, subf_apply, rows256_apply]

/-- The reciprocal square root of the column variance plus epsilon. -/
theorem rstdR_apply (k : Fin 256) :
    rstdR x aW ab bW bb p1W p1b (ix1 k) = Ideal.rsqrt (varR x aW ab bW bb p1W p1b (ix1 k) + eps) := by
  unfold rstdR
  rw [hostRsqrt_apply, addf_apply, splat_apply]

/-- The normalised array at a row and a column: centred, scaled by the reciprocal square root, then by gamma, plus beta. -/
theorem bnR_apply (r : Fin 500000) (k : Fin 256) :
    bnR x aW ab bW bb p1W p1b g b (ix2 r k)
      = (h1R x aW ab bW bb p1W p1b (ix2 r k) - meanR x aW ab bW bb p1W p1b (ix1 k))
          * rstdR x aW ab bW bb p1W p1b (ix1 k) * g (ix1 k) + b (ix1 k) := by
  unfold bnR
  rw [addf_apply, mulf_apply, mulf_apply, subf_apply, rows256_apply, rows256_apply, rows256_apply, rows256_apply]

/-- The rectified normalised array at a row and a column is the specification's centred normalisation of the column. -/
theorem actR_apply (r : Fin 500000) (k : Fin 256) :
    actR x aW ab bW bb p1W p1b g b (ix2 r k)
      = Cert.Spec.normR (fun r' => Cert.Spec.hR (fun p => x (ix2 r' p)) (fun p q => aW (ix2 p q)) (fun q => ab (ix1 q))
          (fun p q => bW (ix2 p q)) (fun q => bb (ix1 q)) (fun q k => p1W (ix2 q k)) (fun k => p1b (ix1 k)) k)
          Nc eps (g (ix1 k)) (b (ix1 k)) r := by
  unfold actR
  rw [maximumf_apply, splat_zero_apply, bnR_apply, rstdR_apply, varR_apply, meanR_apply]
  simp only [h1R_apply]
  rfl

/-- The reference's front stage at a row and an output feature is the specification's last dense layer over the
    normalised features of that row. -/
theorem frontR_apply (r : Fin 500000) (j : Fin 128) :
    frontR x aW ab bW bb p1W p1b g b p3W p3b (ix2 r j)
      = Cert.Spec.dense (fun k => Cert.Spec.normR (fun r' => Cert.Spec.hR (fun p => x (ix2 r' p)) (fun p q => aW (ix2 p q))
          (fun q => ab (ix1 q)) (fun p q => bW (ix2 p q)) (fun q => bb (ix1 q)) (fun q k => p1W (ix2 q k))
          (fun k => p1b (ix1 k)) k) Nc eps (g (ix1 k)) (b (ix1 k)) r) (fun k j => p3W (ix2 k j)) (fun j => p3b (ix1 j)) j := by
  unfold frontR
  rw [addf_apply, dot256_apply, rows128_apply]
  unfold Cert.Spec.dense
  refine congrArg (· + p3b (ix1 j)) (Finset.sum_congr rfl fun k _ => ?_)
  rw [actR_apply]

end Cert.ReferenceIdeal.Val

end
-- ==== Proof.Math.BatchNorm.lean ====
/-
  Batch normalisation of one column, as pure mathematics on the reals and on the extended reals.

  For a finite nonempty index ι with n = |ι| rows, a column a, μ = (Σ a)/n:

    (Σ a²)/n − μ²  =  (Σ (a − μ)²)/n            (the variance, in its two forms; it is ≥ 0)

  and with s the reciprocal square root of (variance + ε), for every row r

    (a r − μ)·s·g + b  =  a r·(g·s) + (b − μ·(g·s)).

  On the extended reals the same holds as soon as every entry, g and b are real, n is the real |ι| and
  ε is a positive real: each operation on coerced reals is the coerced real operation, the division by
  the nonzero real n is the product with 1/n, and the reciprocal square root of a positive real is the
  real (√·)⁻¹.
-/
import Idealize.ShloMosaic.PureOps.Ideal
import Idealize.ShloMosaic.PureOps.Ideal.Laws
import Mathlib.Data.EReal.Basic
import Mathlib.Data.EReal.Operations
import Mathlib.Data.EReal.Inv
import Mathlib.Analysis.SpecialFunctions.Pow.Real
import Mathlib.Algebra.BigOperators.Group.Finset.Basic
import Mathlib.Algebra.BigOperators.Field
import Mathlib.Tactic.Ring
import Mathlib.Tactic.FieldSimp
import Mathlib.Tactic.NormNum

noncomputable section

namespace Cert.Math

open Idealize.ShloMosaic

/-! ## The identity over the reals -/

section Real

variable {ι : Type*} [Fintype ι]

/-- The variance in the sum-of-squares form is the variance in the centred form. -/
theorem bn_real_var (hcard : 0 < Fintype.card ι) (a : ι → ℝ) :
    (∑ i, a i * a i) / (Fintype.card ι : ℝ)
        - (∑ i, a i) / (Fintype.card ι : ℝ) * ((∑ i, a i) / (Fintype.card ι : ℝ))
      = (∑ i, (a i - (∑ j, a j) / (Fintype.card ι : ℝ)) * (a i - (∑ j, a j) / (Fintype.card ι : ℝ)))
          / (Fintype.card ι : ℝ) := by
  have hn : (Fintype.card ι : ℝ) ≠ 0 := by exact_mod_cast hcard.ne'
  generalize hS : (∑ j, a j) = S
  generalize hnn : (Fintype.card ι : ℝ) = n at hn ⊢
  -- expand each centred square and sum the three parts
  have hexp : ∑ i, (a i - S / n) * (a i - S / n)
      = (∑ i, a i * a i) - 2 * (S / n) * S + n * (S / n * (S / n)) := by
    have h1 : ∀ i, (a i - S / n) * (a i - S / n)
        = a i * a i - 2 * (S / n) * a i + S / n * (S / n) := fun i => by ring
    simp only [h1, Finset.sum_add_distrib, Finset.sum_sub_distrib, ← Finset.mul_sum, hS,
      Finset.sum_const, Finset.card_univ, nsmul_eq_mul, hnn]
    ring
  rw [hexp]
  field_simp
  ring

/-- The centred form is a mean of squares: it is nonnegative (about any centre μ). -/
theorem bn_real_var_nonneg (a : ι → ℝ) (μ : ℝ) :
    0 ≤ (∑ i, (a i - μ) * (a i - μ)) / (Fintype.card ι : ℝ) :=
  div_nonneg (Finset.sum_nonneg fun i _ => mul_self_nonneg _) (Nat.cast_nonneg _)

/-- Normalise-then-affine is scale-and-shift, for any reciprocal root s. -/
theorem bn_real_affine (x μ s g b : ℝ) :
    (x - μ) * s * g + b = x * (g * s) + (b - μ * (g * s)) := by
  ring

/-- The three facts together, with s = (√(v + ε))⁻¹ at the common variance v. -/
theorem bn_real (hcard : 0 < Fintype.card ι) (a : ι → ℝ) (ε g b : ℝ) :
    (∑ i, a i * a i) / (Fintype.card ι : ℝ)
        - (∑ i, a i) / (Fintype.card ι : ℝ) * ((∑ i, a i) / (Fintype.card ι : ℝ))
      = (∑ i, (a i - (∑ j, a j) / (Fintype.card ι : ℝ)) * (a i - (∑ j, a j) / (Fintype.card ι : ℝ)))
          / (Fintype.card ι : ℝ)
    ∧ 0 ≤ (∑ i, (a i - (∑ j, a j) / (Fintype.card ι : ℝ)) * (a i - (∑ j, a j) / (Fintype.card ι : ℝ)))
          / (Fintype.card ι : ℝ)
    ∧ ∀ r : ι,
        (a r - (∑ j, a j) / (Fintype.card ι : ℝ))
            * (Real.sqrt ((∑ i, (a i - (∑ j, a j) / (Fintype.card ι : ℝ))
                * (a i - (∑ j, a j) / (Fintype.card ι : ℝ))) / (Fintype.card ι : ℝ) + ε))⁻¹ * g + b
          = a r * (g * (Real.sqrt ((∑ i, a i * a i) / (Fintype.card ι : ℝ)
                - (∑ i, a i) / (Fintype.card ι : ℝ) * ((∑ i, a i) / (Fintype.card ι : ℝ)) + ε))⁻¹)
            + (b - (∑ i, a i) / (Fintype.card ι : ℝ)
                * (g * (Real.sqrt ((∑ i, a i * a i) / (Fintype.card ι : ℝ)
                - (∑ i, a i) / (Fintype.card ι : ℝ) * ((∑ i, a i) / (Fintype.card ι : ℝ)) + ε))⁻¹)) := by
  refine ⟨bn_real_var hcard a, bn_real_var_nonneg a _, fun r => ?_⟩
  rw [bn_real_var hcard a]
  exact bn_real_affine _ _ _ _ _

end Real

/-! ## Coercions -/

/-- The coercion of the reals into the extended reals passes through a finite sum. -/
theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert j s hj ih => rw [Finset.sum_insert hj, Finset.sum_insert hj, ih, EReal.coe_add]

/-- The reciprocal square root of a positive real is the real (√t)⁻¹. -/
theorem rsqrt_coe_pos {t : ℝ} (ht : 0 < t) :
    Ideal.rsqrt ((t : ℝ) : EReal) = (((Real.sqrt t)⁻¹ : ℝ) : EReal) := by
  rw [Ideal.rsqrt_coe, if_neg (not_lt.mpr ht.le), if_neg ht.ne']

/-! ## The identity over the extended reals -/

section EReal

variable {ι : Type*} [Fintype ι]

/-- Scale-and-shift with sum-of-squares statistics (left) is normalise-then-affine with centred
    statistics (right), row by row, for given column sums S1 = Σ a and S2 = Σ a·a. -/
theorem bn_ereal_of_sums (hcard : 0 < Fintype.card ι) (a : ι → EReal) (S1 S2 g b N ε : EReal) (e : ℝ)
    (ha : ∀ r, ∃ x : ℝ, a r = (x : EReal)) (hg : ∃ x : ℝ, g = (x : EReal)) (hb : ∃ x : ℝ, b = (x : EReal))
    (hN : N = ((Fintype.card ι : ℝ) : EReal)) (he : 0 < e) (hε : ε = ((e : ℝ) : EReal))
    (hS1 : S1 = ∑ i, a i) (hS2 : S2 = ∑ i, a i * a i) (r : ι) :
    a r * (g * Ideal.rsqrt (Ideal.div S2 N - Ideal.div S1 N * Ideal.div S1 N + ε))
        + (b - Ideal.div S1 N * (g * Ideal.rsqrt (Ideal.div S2 N - Ideal.div S1 N * Ideal.div S1 N + ε)))
      = (a r - Ideal.div (0 + ∑ i, a i) N)
          * Ideal.rsqrt (Ideal.div (0 + ∑ i, (a i - Ideal.div (0 + ∑ j, a j) N)
              * (a i - Ideal.div (0 + ∑ j, a j) N)) N + ε) * g + b := by
  classical
  choose x hx using ha
  obtain ⟨γ, rfl⟩ := hg
  obtain ⟨β, rfl⟩ := hb
  subst hN hε hS1 hS2
  have hn : (Fintype.card ι : ℝ) ≠ 0 := by exact_mod_cast hcard.ne'
  -- the two forms of the variance agree on the reals, and the common value is nonnegative
  have hv := bn_real_var hcard x
  have hv0 := bn_real_var_nonneg x ((∑ j, x j) / (Fintype.card ι : ℝ))
  generalize (Fintype.card ι : ℝ) = n at hv hv0 hn ⊢
  simp only [hx]
  -- the mean, from the plain sum and from the sum onto a zero
  have hmean : Ideal.div (∑ i, ((x i : ℝ) : EReal)) (n : EReal) = (((∑ i, x i) / n : ℝ) : EReal) := by
    rw [coe_sum, Ideal.div_coe hn, ← EReal.coe_mul, ← div_eq_mul_one_div]
  have hmean0 : Ideal.div (0 + ∑ i, ((x i : ℝ) : EReal)) (n : EReal) = (((∑ i, x i) / n : ℝ) : EReal) := by
    rw [zero_add, hmean]
  -- the mean of the squares
  have hsq : Ideal.div (∑ i, ((x i : ℝ) : EReal) * ((x i : ℝ) : EReal)) (n : EReal)
      = (((∑ i, x i * x i) / n : ℝ) : EReal) := by
    simp only [← EReal.coe_mul]
    rw [coe_sum, Ideal.div_coe hn, ← EReal.coe_mul, ← div_eq_mul_one_div]
  -- the mean of the centred squares
  have hcen : Ideal.div (0 + ∑ i, (((x i : ℝ) : EReal) - (((∑ j, x j) / n : ℝ) : EReal))
        * (((x i : ℝ) : EReal) - (((∑ j, x j) / n : ℝ) : EReal))) (n : EReal)
      = (((∑ i, (x i - (∑ j, x j) / n) * (x i - (∑ j, x j) / n)) / n : ℝ) : EReal) := by
    simp only [← EReal.coe_sub, ← EReal.coe_mul]
    rw [zero_add, coe_sum, Ideal.div_coe hn, ← EReal.coe_mul, ← div_eq_mul_one_div]
  rw [hmean0, hcen, hmean, hsq]
  -- both variances plus ε are one positive real
  rw [← EReal.coe_mul, ← EReal.coe_sub, ← EReal.coe_add, ← EReal.coe_add, hv,
    rsqrt_coe_pos (add_pos_of_nonneg_of_pos hv0 he)]
  simp only [← EReal.coe_mul, ← EReal.coe_sub, ← EReal.coe_add]
  rw [EReal.coe_eq_coe_iff]
  ring

/-- The same with the sums written out. -/
theorem bn_ereal_pre (hcard : 0 < Fintype.card ι) (a : ι → EReal) (g b N ε : EReal) (e : ℝ)
    (ha : ∀ r, ∃ x : ℝ, a r = (x : EReal)) (hg : ∃ x : ℝ, g = (x : EReal)) (hb : ∃ x : ℝ, b = (x : EReal))
    (hN : N = ((Fintype.card ι : ℝ) : EReal)) (he : 0 < e) (hε : ε = ((e : ℝ) : EReal)) (r : ι) :
    a r * (g * Ideal.rsqrt (Ideal.div (∑ i, a i * a i) N
            - Ideal.div (∑ i, a i) N * Ideal.div (∑ i, a i) N + ε))
        + (b - Ideal.div (∑ i, a i) N * (g * Ideal.rsqrt (Ideal.div (∑ i, a i * a i) N
            - Ideal.div (∑ i, a i) N * Ideal.div (∑ i, a i) N + ε)))
      = (a r - Ideal.div (0 + ∑ i, a i) N)
          * Ideal.rsqrt (Ideal.div (0 + ∑ i, (a i - Ideal.div (0 + ∑ j, a j) N)
              * (a i - Ideal.div (0 + ∑ j, a j) N)) N + ε) * g + b :=
  bn_ereal_of_sums hcard a _ _ g b N ε e ha hg hb hN he hε rfl rfl r

/-- The two normalised rows after the rectifier. -/
theorem bn_ereal (hcard : 0 < Fintype.card ι) (a : ι → EReal) (g b N ε : EReal) (e : ℝ)
    (ha : ∀ r, ∃ x : ℝ, a r = (x : EReal)) (hg : ∃ x : ℝ, g = (x : EReal)) (hb : ∃ x : ℝ, b = (x : EReal))
    (hN : N = ((Fintype.card ι : ℝ) : EReal)) (he : 0 < e) (hε : ε = ((e : ℝ) : EReal)) (r : ι) :
    max (a r * (g * Ideal.rsqrt (Ideal.div (∑ i, a i * a i) N
            - Ideal.div (∑ i, a i) N * Ideal.div (∑ i, a i) N + ε))
        + (b - Ideal.div (∑ i, a i) N * (g * Ideal.rsqrt (Ideal.div (∑ i, a i * a i) N
            - Ideal.div (∑ i, a i) N * Ideal.div (∑ i, a i) N + ε)))) 0
      = max ((a r - Ideal.div (0 + ∑ i, a i) N)
          * Ideal.rsqrt (Ideal.div (0 + ∑ i, (a i - Ideal.div (0 + ∑ j, a j) N)
              * (a i - Ideal.div (0 + ∑ j, a j) N)) N + ε) * g + b) 0 :=
  congrArg (fun t => max t 0) (bn_ereal_pre hcard a g b N ε e ha hg hb hN he hε r)

end EReal

/-! ## The constants -/

/-- The pattern of 1e-5 at f32 denotes a positive real: sign 0, exponent field 110, fraction field
    2606508, that is (2²³ + 2606508) · 2^(110 − 127 − 23) = 10995116 · 2⁻⁴⁰. -/
theorem eps_pos : ∃ e : ℝ, 0 < e ∧ Ideal.ofBits .f32 0x3727C5AC#32 = ((e : ℝ) : EReal) := by
  refine ⟨(10995116 : ℝ) * (2 : ℝ) ^ (-40 : ℤ), by positivity, ?_⟩
  simp [Ideal.ofBits, Ideal.ieee, -EReal.coe_mul]

/-- The pattern of 500000.0 at f32 denotes the real 500000. -/
theorem n_val : Ideal.ofBits .f32 0x48F42400#32 = ((500000 : ℝ) : EReal) := by
  simp [Ideal.ofBits, Ideal.ieee, -EReal.coe_mul]; norm_num

/-- The pattern of 10000.0 at f32 denotes the real 10000. -/
theorem n_val_10000 : Ideal.ofBits .f32 0x461C4000#32 = ((10000 : ℝ) : EReal) := by
  simp [Ideal.ofBits, Ideal.ieee, -EReal.coe_mul]; norm_num

end Cert.Math

end
-- ==== Proof.Math.Bridge.lean ====
/-
  The two computations of the network's middle section agree on finite inputs.

  Per row, the 256 features before the normalisation are one sum over the 320 concatenated features
  on one side and three partial sums (over 128, 128 and 64 of them) on the other: a sum over 320 in
  three pieces, with no finiteness needed. Per column, the normalisation in its sum-of-squares form with
  folded scale and shift is the centred form, as soon as the column, the affine parameters and the
  count are real and ε is a positive real; a column of these features is real when the inputs and the
  weights are. The last dense layer is the same sum on both sides of equal terms.
-/
import proofs.«146594_j41369124995826_1_alg».proof.Proof.Math.Spec
import proofs.«146594_j41369124995826_1_alg».proof.Proof.Math.Sums
import proofs.«146594_j41369124995826_1_alg».proof.Proof.Math.BatchNorm

noncomputable section

namespace Cert.Bridge

open Idealize.ShloMosaic Cert.Math Cert.Spec
open scoped BigOperators

/-! ## Finite values stay finite -/

/-- A dense layer's feature after the positive part is real when its inputs, weights and bias are. -/
theorem isReal_feat {P Q : ℕ} (x : Fin P → EReal) (W : Fin P → Fin Q → EReal) (bias : Fin Q → EReal)
    (hx : ∀ p, IsReal (x p)) (hW : ∀ p q, IsReal (W p q)) (hbias : ∀ q, IsReal (bias q)) (q : Fin Q) :
    IsReal (feat x W bias q) :=
  IsReal.max (IsReal.add (IsReal.sum_univ _ fun p => (hx p).mul (hW p q)) (hbias q)) isReal_zero

section Row

variable (row : Fin 80 → EReal) (aW : Fin 32 → Fin 128 → EReal) (ab : Fin 128 → EReal)
  (bW : Fin 16 → Fin 64 → EReal) (bb : Fin 64 → EReal) (p1W : Fin 320 → Fin 256 → EReal) (p1b : Fin 256 → EReal)

theorem isReal_atom1 (hrow : ∀ p, IsReal (row p)) (haW : ∀ p q, IsReal (aW p q)) (hab : ∀ q, IsReal (ab q))
    (q : Fin 128) : IsReal (atom1 row aW ab q) :=
  isReal_feat _ aW ab (fun _ => hrow _) haW hab q

theorem isReal_atom2 (hrow : ∀ p, IsReal (row p)) (haW : ∀ p q, IsReal (aW p q)) (hab : ∀ q, IsReal (ab q))
    (q : Fin 128) : IsReal (atom2 row aW ab q) :=
  isReal_feat _ aW ab (fun _ => hrow _) haW hab q

theorem isReal_bond (hrow : ∀ p, IsReal (row p)) (hbW : ∀ p q, IsReal (bW p q)) (hbb : ∀ q, IsReal (bb q))
    (q : Fin 64) : IsReal (bond row bW bb q) :=
  isReal_feat _ bW bb (fun _ => hrow _) hbW hbb q

/-- The features before the normalisation, in the three-piece form, are real on real data. -/
theorem isReal_hK (hrow : ∀ p, IsReal (row p)) (haW : ∀ p q, IsReal (aW p q)) (hab : ∀ q, IsReal (ab q))
    (hbW : ∀ p q, IsReal (bW p q)) (hbb : ∀ q, IsReal (bb q)) (hp1W : ∀ q k, IsReal (p1W q k))
    (hp1b : ∀ k, IsReal (p1b k)) (k : Fin 256) : IsReal (hK row aW ab bW bb p1W p1b k) := by
  unfold hK hK3
  exact IsReal.add (IsReal.add (IsReal.add
    (IsReal.sum_univ _ fun q => (isReal_atom1 row aW ab hrow haW hab q).mul (hp1W _ k))
    (IsReal.sum_univ _ fun q => (isReal_atom2 row aW ab hrow haW hab q).mul (hp1W _ k)))
    (IsReal.sum_univ _ fun q => (isReal_bond row bW bb hrow hbW hbb q).mul (hp1W _ k))) (hp1b k)

/-! ## One sum over 320 is three partial sums -/

/-- The concatenation at an index below 128 is the first atom's feature. -/
theorem cat_lo (q : Fin 128) : cat row aW ab bW bb ⟨q, by omega⟩ = atom1 row aW ab q := by
  unfold cat
  rw [dif_pos (show ((⟨q, by omega⟩ : Fin 320) : ℕ) < 128 from q.isLt)]

/-- The concatenation at 128 + q is the second atom's feature q. -/
theorem cat_mid (q : Fin 128) : cat row aW ab bW bb ⟨128 + q, by omega⟩ = atom2 row aW ab q := by
  have hq := q.isLt
  unfold cat
  rw [dif_neg (show ¬ ((⟨128 + q, by omega⟩ : Fin 320) : ℕ) < 128 from by
      show ¬ (128 + (q : ℕ) < 128); omega),
    dif_pos (show ((⟨128 + q, by omega⟩ : Fin 320) : ℕ) < 256 from by
      show 128 + (q : ℕ) < 256; omega)]
  exact congrArg (atom2 row aW ab) (Fin.ext (by show 128 + (q : ℕ) - 128 = (q : ℕ); omega))

/-- The concatenation at 256 + q is the bond's feature q. -/
theorem cat_hi (q : Fin 64) : cat row aW ab bW bb ⟨256 + q, by omega⟩ = bond row bW bb q := by
  have hq := q.isLt
  unfold cat
  rw [dif_neg (show ¬ ((⟨256 + q, by omega⟩ : Fin 320) : ℕ) < 128 from by
      show ¬ (256 + (q : ℕ) < 128); omega),
    dif_neg (show ¬ ((⟨256 + q, by omega⟩ : Fin 320) : ℕ) < 256 from by
      show ¬ (256 + (q : ℕ) < 256); omega)]
  exact congrArg (bond row bW bb) (Fin.ext (by show 256 + (q : ℕ) - 256 = (q : ℕ); omega))

/-- The three partial products added up are the one product over the concatenation. -/
theorem hK_eq_hR (k : Fin 256) : hK row aW ab bW bb p1W p1b k = hR row aW ab bW bb p1W p1b k := by
  unfold hK hK3 hR
  rw [sum_split_320]
  simp only [cat_lo, cat_mid, cat_hi]

/-- The features before the normalisation, in the concatenated form, are real on real data. -/
theorem isReal_hR (hrow : ∀ p, IsReal (row p)) (haW : ∀ p q, IsReal (aW p q)) (hab : ∀ q, IsReal (ab q))
    (hbW : ∀ p q, IsReal (bW p q)) (hbb : ∀ q, IsReal (bb q)) (hp1W : ∀ q k, IsReal (p1W q k))
    (hp1b : ∀ k, IsReal (p1b k)) (k : Fin 256) : IsReal (hR row aW ab bW bb p1W p1b k) := by
  rw [← hK_eq_hR]
  exact isReal_hK row aW ab bW bb p1W p1b hrow haW hab hbW hbb hp1W hp1b k

end Row

/-! ## The two normalisations of a real column -/

/-- Sum-of-squares statistics with folded scale and shift against centred statistics, on a real column of n > 0
    entries with real affine parameters, the count n and a positive real ε. -/
theorem normK_eq_normR {n : ℕ} (hn : 0 < n) (a : Fin n → EReal) (Nc eps g b : EReal)
    (hN : Nc = ((n : ℝ) : EReal)) (heps : ∃ e : ℝ, 0 < e ∧ eps = ((e : ℝ) : EReal))
    (ha : ∀ r, IsReal (a r)) (hg : IsReal g) (hb : IsReal b) (r : Fin n) :
    normK a Nc eps g b r = normR a Nc eps g b r := by
  obtain ⟨e, he, heps'⟩ := heps
  have hN' : Nc = ((Fintype.card (Fin n) : ℝ) : EReal) := by rw [Fintype.card_fin]; exact hN
  exact bn_ereal (ι := Fin n) (by rw [Fintype.card_fin]; exact hn) a g b Nc eps e ha hg hb hN' he heps' r

/-! ## The bridge -/

/-- After the last dense layer the two computations agree, row by row and feature by feature. -/
theorem x_eq {n : ℕ} (hn : 0 < n) (rows : Fin n → Fin 80 → EReal) (aW : Fin 32 → Fin 128 → EReal)
    (ab : Fin 128 → EReal) (bW : Fin 16 → Fin 64 → EReal) (bb : Fin 64 → EReal)
    (p1W : Fin 320 → Fin 256 → EReal) (p1b g b : Fin 256 → EReal) (p3W : Fin 256 → Fin 128 → EReal)
    (p3b : Fin 128 → EReal) (Nc eps : EReal) (hN : Nc = ((n : ℝ) : EReal))
    (heps : ∃ e : ℝ, 0 < e ∧ eps = ((e : ℝ) : EReal))
    (hrows : ∀ r p, IsReal (rows r p)) (haW : ∀ p q, IsReal (aW p q)) (hab : ∀ q, IsReal (ab q))
    (hbW : ∀ p q, IsReal (bW p q)) (hbb : ∀ q, IsReal (bb q)) (hp1W : ∀ q k, IsReal (p1W q k))
    (hp1b : ∀ k, IsReal (p1b k)) (hg : ∀ k, IsReal (g k)) (hb : ∀ k, IsReal (b k))
    (r : Fin n) (j : Fin 128) :
    dense (fun k => normK (fun r' => hK (rows r') aW ab bW bb p1W p1b k) Nc eps (g k) (b k) r) p3W p3b j
      = dense (fun k => normR (fun r' => hR (rows r') aW ab bW bb p1W p1b k) Nc eps (g k) (b k) r) p3W p3b j := by
  -- column k of the features is the same function of the row on both sides, and it is real
  have hcol : ∀ k, (fun r' => hK (rows r') aW ab bW bb p1W p1b k)
      = (fun r' => hR (rows r') aW ab bW bb p1W p1b k) :=
    fun k => funext fun r' => hK_eq_hR (rows r') aW ab bW bb p1W p1b k
  have hk : ∀ k, normK (fun r' => hK (rows r') aW ab bW bb p1W p1b k) Nc eps (g k) (b k) r
      = normR (fun r' => hR (rows r') aW ab bW bb p1W p1b k) Nc eps (g k) (b k) r := by
    intro k
    rw [hcol k]
    exact normK_eq_normR hn _ Nc eps (g k) (b k) hN heps
      (fun r' => isReal_hR (rows r') aW ab bW bb p1W p1b (hrows r') haW hab hbW hbb hp1W hp1b k) (hg k) (hb k) r
  unfold dense
  simp only [hk]

/-- The bridge at 500000 rows, with the count and ε as the patterns that denote them. -/
theorem x_eq_500000 (rows : Fin 500000 → Fin 80 → EReal) (aW : Fin 32 → Fin 128 → EReal)
    (ab : Fin 128 → EReal) (bW : Fin 16 → Fin 64 → EReal) (bb : Fin 64 → EReal)
    (p1W : Fin 320 → Fin 256 → EReal) (p1b g b : Fin 256 → EReal) (p3W : Fin 256 → Fin 128 → EReal)
    (p3b : Fin 128 → EReal)
    (hrows : ∀ r p, IsReal (rows r p)) (haW : ∀ p q, IsReal (aW p q)) (hab : ∀ q, IsReal (ab q))
    (hbW : ∀ p q, IsReal (bW p q)) (hbb : ∀ q, IsReal (bb q)) (hp1W : ∀ q k, IsReal (p1W q k))
    (hp1b : ∀ k, IsReal (p1b k)) (hg : ∀ k, IsReal (g k)) (hb : ∀ k, IsReal (b k))
    (r : Fin 500000) (j : Fin 128) :
    dense (fun k => normK (fun r' => hK (rows r') aW ab bW bb p1W p1b k)
        (Ideal.ofBits .f32 0x48F42400#32) (Ideal.ofBits .f32 0x3727C5AC#32) (g k) (b k) r) p3W p3b j
      = dense (fun k => normR (fun r' => hR (rows r') aW ab bW bb p1W p1b k)
        (Ideal.ofBits .f32 0x48F42400#32) (Ideal.ofBits .f32 0x3727C5AC#32) (g k) (b k) r) p3W p3b j := by
  obtain ⟨e, he, heq⟩ := eps_pos
  exact x_eq (n := 500000) (by norm_num) rows aW ab bW bb p1W p1b g b p3W p3b _ _
    (by rw [n_val, Nat.cast_ofNat]) ⟨e, he, heq⟩ hrows haW hab hbW hbb hp1W hp1b hg hb r j

end Cert.Bridge

end
-- ==== Proof.Finite.lean ====
import proofs.«146594_j41369124995826_1_alg».proof.Pre_finite_inputs
import proofs.«146594_j41369124995826_1_alg».proof.Proof.Math.Sums
import Idealize.ShloMosaic.Lib.ReduceAll
import Idealize.ShloMosaic.Lib.ValueIdx
import Idealize.ShloMosaic.Lib.Affine

/-!
  The precondition read out: every float input is finite.

  The predicate is a left-nested conjunction, over the seventeen float arguments, of "every entry x has
  |x| < +∞", each conjunct a reduction by ∧ of the entrywise comparisons down to the one index of the
  rank-0 shape. A conjunction that is 1 has both sides 1; a reduction by ∧ that is 1 met only 1s; and
  |x| < +∞ on the extended reals says x is a real number. No entry of any array is ever evaluated.
-/

noncomputable section

namespace Cert.Finite

open Idealize.ShloMosaic Cert.Math Cert.Pre_finite_inputs

/-- The rank-0 shape has one index. -/
instance : Subsingleton S_.Idx := ⟨fun a b => funext fun d => d.elim0⟩

/-- A conjunction of two rank-0 truth values that is 1 at the one index has both sides 1 there. -/
theorem andi_ix0 (p q : IVec S_ 1) (e : andi p q ValueIdx.ix0 = 1#1) :
    p ValueIdx.ix0 = 1#1 ∧ q ValueIdx.ix0 = 1#1 :=
  IntOp.andi_eq_one.1 e

/-- One conjunct: if the reduction by ∧ of the comparisons |x i| < +∞ is 1, every entry of x is a real number. -/
theorem all_isReal {s : Shape} {axes : List (Fin s.rank)} (x : FVec Ideal s .f32)
    (hb : S_.BroadcastsInDim s (![] : Fin 0 → Fin s.rank)) (hr : s.ReducesTo axes S_) (hu : 0 < S_.numel)
    (e : Host.reduce IntOp.andi (cmpf .olt (Host.absf x) (broadcastInDim s ![] hb (constant S_ .f32 0x7F800000#32)))
      (constantI S_ 1 1#1) hr hu ValueIdx.ix0 = 1#1) (i : s.Idx) : IsReal (x i) :=
  isReal_of_abs_lt' (x i) (Host.reduce_andi_all _ _ hr hu ValueIdx.ix0 e i)

variable [Cert.Pre_finite_inputs.Facts]

/-- Under the precondition every entry of every float argument is a real number. -/
theorem finite_of_pre (a0 : FVec Ideal S500000x80 .f32) (a1 : IVec S10000 32) (a2 : FVec Ideal S32x128 .f32)
    (a3 : FVec Ideal S128 .f32) (a4 : FVec Ideal S16x64 .f32) (a5 : FVec Ideal S64 .f32) (a6 : FVec Ideal S320x256 .f32)
    (a7 a8 a9 : FVec Ideal S256 .f32) (a10 : FVec Ideal S256x128 .f32) (a11 : FVec Ideal S128 .f32)
    (a12 : FVec Ideal S128x128 .f32) (a13 a14 a15 : FVec Ideal S128 .f32) (a16 : FVec Ideal S128x1 .f32)
    (a17 : FVec Ideal S1 .f32)
    (h : Cert.Pre_finite_inputs.fn (F := Ideal) a0 a1 a2 a3 a4 a5 a6 a7 a8 a9 a10 a11 a12 a13 a14 a15 a16 a17 = fun _ => 1#1) :
    (∀ i, IsReal (a0 i)) ∧ (∀ i, IsReal (a2 i)) ∧ (∀ i, IsReal (a3 i)) ∧ (∀ i, IsReal (a4 i)) ∧ (∀ i, IsReal (a5 i)) ∧ (∀ i, IsReal (a6 i)) ∧ (∀ i, IsReal (a7 i)) ∧ (∀ i, IsReal (a8 i)) ∧ (∀ i, IsReal (a9 i)) ∧ (∀ i, IsReal (a10 i)) ∧ (∀ i, IsReal (a11 i)) ∧ (∀ i, IsReal (a12 i)) ∧ (∀ i, IsReal (a13 i)) ∧ (∀ i, IsReal (a14 i)) ∧ (∀ i, IsReal (a15 i)) ∧ (∀ i, IsReal (a16 i)) ∧ (∀ i, IsReal (a17 i)) := by
  have h0 := congrFun h ValueIdx.ix0
  dsimp only [Cert.Pre_finite_inputs.fn, Cert.Pre_finite_inputs.fn_part1, Cert.Pre_finite_inputs.fn_part2,
    Cert.Pre_finite_inputs.fn_part3, Cert.Pre_finite_inputs.fn_part4] at h0
  obtain ⟨h0, e17⟩ := andi_ix0 _ _ h0
  obtain ⟨h0, e16⟩ := andi_ix0 _ _ h0
  obtain ⟨h0, e15⟩ := andi_ix0 _ _ h0
  obtain ⟨h0, e14⟩ := andi_ix0 _ _ h0
  obtain ⟨h0, e13⟩ := andi_ix0 _ _ h0
  obtain ⟨h0, e12⟩ := andi_ix0 _ _ h0
  obtain ⟨h0, e11⟩ := andi_ix0 _ _ h0
  obtain ⟨h0, e10⟩ := andi_ix0 _ _ h0
  obtain ⟨h0, e9⟩ := andi_ix0 _ _ h0
  obtain ⟨h0, e8⟩ := andi_ix0 _ _ h0
  obtain ⟨h0, e7⟩ := andi_ix0 _ _ h0
  obtain ⟨h0, e6⟩ := andi_ix0 _ _ h0
  obtain ⟨h0, e5⟩ := andi_ix0 _ _ h0
  obtain ⟨h0, e4⟩ := andi_ix0 _ _ h0
  obtain ⟨h0, e3⟩ := andi_ix0 _ _ h0
  obtain ⟨e0, e2⟩ := andi_ix0 _ _ h0
  exact ⟨all_isReal a0 _ _ _ e0,
    all_isReal a2 _ _ _ e2,
    all_isReal a3 _ _ _ e3,
    all_isReal a4 _ _ _ e4,
    all_isReal a5 _ _ _ e5,
    all_isReal a6 _ _ _ e6,
    all_isReal a7 _ _ _ e7,
    all_isReal a8 _ _ _ e8,
    all_isReal a9 _ _ _ e9,
    all_isReal a10 _ _ _ e10,
    all_isReal a11 _ _ _ e11,
    all_isReal a12 _ _ _ e12,
    all_isReal a13 _ _ _ e13,
    all_isReal a14 _ _ _ e14,
    all_isReal a15 _ _ _ e15,
    all_isReal a16 _ _ _ e16,
    all_isReal a17 _ _ _ e17⟩

section Each

variable {a0 : FVec Ideal S500000x80 .f32} {a1 : IVec S10000 32} {a2 : FVec Ideal S32x128 .f32}
    {a3 : FVec Ideal S128 .f32} {a4 : FVec Ideal S16x64 .f32} {a5 : FVec Ideal S64 .f32} {a6 : FVec Ideal S320x256 .f32}
    {a7 a8 a9 : FVec Ideal S256 .f32} {a10 : FVec Ideal S256x128 .f32} {a11 : FVec Ideal S128 .f32}
    {a12 : FVec Ideal S128x128 .f32} {a13 a14 a15 : FVec Ideal S128 .f32} {a16 : FVec Ideal S128x1 .f32}
    {a17 : FVec Ideal S1 .f32}
  (h : Cert.Pre_finite_inputs.fn (F := Ideal) a0 a1 a2 a3 a4 a5 a6 a7 a8 a9 a10 a11 a12 a13 a14 a15 a16 a17 = fun _ => 1#1)
include h

theorem finite_a0 : ∀ i, IsReal (a0 i) :=
  (finite_of_pre a0 a1 a2 a3 a4 a5 a6 a7 a8 a9 a10 a11 a12 a13 a14 a15 a16 a17 h).1

theorem finite_a2 : ∀ i, IsReal (a2 i) :=
  (finite_of_pre a0 a1 a2 a3 a4 a5 a6 a7 a8 a9 a10 a11 a12 a13 a14 a15 a16 a17 h).2.1

theorem finite_a3 : ∀ i, IsReal (a3 i) :=
  (finite_of_pre a0 a1 a2 a3 a4 a5 a6 a7 a8 a9 a10 a11 a12 a13 a14 a15 a16 a17 h).2.2.1

theorem finite_a4 : ∀ i, IsReal (a4 i) :=
  (finite_of_pre a0 a1 a2 a3 a4 a5 a6 a7 a8 a9 a10 a11 a12 a13 a14 a15 a16 a17 h).2.2.2.1

theorem finite_a5 : ∀ i, IsReal (a5 i) :=
  (finite_of_pre a0 a1 a2 a3 a4 a5 a6 a7 a8 a9 a10 a11 a12 a13 a14 a15 a16 a17 h).2.2.2.2.1

theorem finite_a6 : ∀ i, IsReal (a6 i) :=
  (finite_of_pre a0 a1 a2 a3 a4 a5 a6 a7 a8 a9 a10 a11 a12 a13 a14 a15 a16 a17 h).2.2.2.2.2.1

theorem finite_a7 : ∀ i, IsReal (a7 i) :=
  (finite_of_pre a0 a1 a2 a3 a4 a5 a6 a7 a8 a9 a10 a11 a12 a13 a14 a15 a16 a17 h).2.2.2.2.2.2.1

theorem finite_a8 : ∀ i, IsReal (a8 i) :=
  (finite_of_pre a0 a1 a2 a3 a4 a5 a6 a7 a8 a9 a10 a11 a12 a13 a14 a15 a16 a17 h).2.2.2.2.2.2.2.1

theorem finite_a9 : ∀ i, IsReal (a9 i) :=
  (finite_of_pre a0 a1 a2 a3 a4 a5 a6 a7 a8 a9 a10 a11 a12 a13 a14 a15 a16 a17 h).2.2.2.2.2.2.2.2.1

theorem finite_a10 : ∀ i, IsReal (a10 i) :=
  (finite_of_pre a0 a1 a2 a3 a4 a5 a6 a7 a8 a9 a10 a11 a12 a13 a14 a15 a16 a17 h).2.2.2.2.2.2.2.2.2.1

theorem finite_a11 : ∀ i, IsReal (a11 i) :=
  (finite_of_pre a0 a1 a2 a3 a4 a5 a6 a7 a8 a9 a10 a11 a12 a13 a14 a15 a16 a17 h).2.2.2.2.2.2.2.2.2.2.1

end Each

end Cert.Finite

end
-- ==== Proof.lean ====
/- Both programs take 500000 rows and compute x = dense(relu(batchnorm(h))), h being each row's 256 hidden features, then
   the same segment mean and the same head network on top of x. The kernel makes x in two passes over the rows: the
   first sums h and h² down each column, the second normalises with the variance as E[h²] − E[h]², folded with the
   learned scale and shift into one multiply and one add. The reference centres h before it squares. On finite inputs
   every sum is a sum of real numbers, the two normalisations are one function, and the two results are equal. -/
import proofs.«146594_j41369124995826_1_alg».proof.Defs
import proofs.«146594_j41369124995826_1_alg».proof.Proof.Gen.Kernel
import proofs.«146594_j41369124995826_1_alg».proof.Proof.Gen.KernelIdeal
import proofs.«146594_j41369124995826_1_alg».proof.Proof.Gen.ReferenceIdeal
import proofs.«146594_j41369124995826_1_alg».proof.Proof.Gen.Pre_finite_inputs
import proofs.«146594_j41369124995826_1_alg».proof.Proof.KW.Regs
import proofs.«146594_j41369124995826_1_alg».proof.Proof.KI.Regs
import proofs.«146594_j41369124995826_1_alg».proof.Proof.KI.Tail
import proofs.«146594_j41369124995826_1_alg».proof.Proof.KI.KVal
import proofs.«146594_j41369124995826_1_alg».proof.Proof.TailEq
import proofs.«146594_j41369124995826_1_alg».proof.Proof.Ref.Run
import proofs.«146594_j41369124995826_1_alg».proof.Proof.Ref.Read
import proofs.«146594_j41369124995826_1_alg».proof.Proof.Math.Bridge
import proofs.«146594_j41369124995826_1_alg».proof.Proof.Finite
import Idealize.ShloMosaic.Lib.ValueIdx

noncomputable section

namespace Cert.Proof

open Idealize.ShloMosaic Idealize.ShloMosaic.ValueIdx Idealize.SL.Sem

/-- The word-level program runs and leaves its arguments as launched. -/
theorem frame_k : Cert.frame_Kernel := fun m ρ _ => Cert.Kernel.Hand.frame (F := Bits) m ρ

/-- The program read at the extended reals runs and leaves its arguments as launched. -/
theorem frame_ki : Cert.frame_KernelIdeal := fun m ρ _ => Cert.KernelIdeal.Hand.frame (F := Ideal) m ρ

/-- The reference runs and leaves its arguments as launched: its value run with the result forgotten. -/
theorem frame_ri : Cert.frame_ReferenceIdeal := fun m ρ _ =>
  (θ_run Cert.ReferenceIdeal.defs _ _).mono (fun _ h c => (h c).2) (Cert.ReferenceIdeal.Hand.run (F := Ideal) m ρ)

/-- On finite inputs the two programs compute one array. Both end at the same segment-mean and head network applied to
    x = dense(relu(batchnorm(h))); the kernel's x (two passes, the variance as E[h²] − E[h]², scale and shift) and the
    reference's (the centred form) agree entry by entry, every sum being over real numbers. -/
theorem algebraic : Cert.algebraic_KernelIdeal_ReferenceIdeal := by
  intro m ρ m' ρ' hpre hagree
  refine ⟨fun c => Cert.KernelIdeal.Val.tailK (Cert.KernelIdeal.Hand.outsOf m 4 Cert.KernelIdeal.main_v24 c) (m ((c.tc : Thread Cert.KernelIdeal.nD Cert.KernelIdeal.τ).loc Cert.KernelIdeal.main_arg1)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)), ?_, ?_⟩
  · exact (θ_run Cert.KernelIdeal.defs _ _).mono (fun _ h c => ⟨(h c).1.trans (Cert.KernelIdeal.Val.result_eq m c), (h c).2⟩)
      (Cert.KernelIdeal.Hand.run_val (F := Ideal) m ρ)
  · refine (θ_run Cert.ReferenceIdeal.defs _ _).mono (fun _ h c => ⟨(h c).1.trans ?_, (h c).2⟩)
      (Cert.ReferenceIdeal.Hand.run (F := Ideal) m' ρ')
    obtain ⟨h0, h2, h3, h4, h5, h6, h7, h8, h9, -, -, -, -, -, -, -, -⟩ :=
      Cert.Finite.finite_of_pre _ _ _ _ _ _ _ _ _ _ _ _ _ _ _ _ _ _ (hpre c)
    obtain ⟨e0, e1, e2, e3, e4, e5, e6, e7, e8, e9, e10, e11, e12, e13, e14, e15, e16, e17⟩ := hagree c
    rw [e0, e1, e2, e3, e4, e5, e6, e7, e8, e9, e10, e11, e12, e13, e14, e15, e16, e17]
    refine (Cert.TailEq.tail_eq _ _ _ _ _ _ _ _).symm.trans ?_
    refine congrArg (fun xf => Cert.KernelIdeal.Val.tailK xf (m ((c.tc : Thread Cert.KernelIdeal.nD Cert.KernelIdeal.τ).loc Cert.KernelIdeal.main_arg1)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) ?_
    funext i
    obtain ⟨r, j, rfl⟩ : ∃ (r : Fin 500000) (j : Fin 128), i = ix2 r j := ⟨i 0, i 1, eq_ix2 i⟩
    rw [Cert.ReferenceIdeal.Val.frontR_apply]
    refine Eq.trans ?_ (Cert.KernelIdeal.Val.xf_apply m c r j).symm
    exact (Cert.Bridge.x_eq_500000 _ _ _ _ _ _ _ _ _ _ _
      (fun r p => h0 (ix2 r p)) (fun p q => h2 (ix2 p q)) (fun q => h3 (ix1 q)) (fun p q => h4 (ix2 p q)) (fun q => h5 (ix1 q))
      (fun q k => h6 (ix2 q k)) (fun k => h7 (ix1 k)) (fun k => h8 (ix1 k)) (fun k => h9 (ix1 k)) r j).symm

/-- The claim: the four programs' stated facts, the three frames, the idealization (which rewrote nothing) and the equality. -/
theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
